-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128 : Shape := ⟨2, ![8, 128]⟩
abbrev S32000x300 : Shape := ⟨2, ![32000, 300]⟩
abbrev S512x300 : Shape := ⟨2, ![512, 300]⟩
abbrev S512 : Shape := ⟨1, ![512]⟩
abbrev S_ : Shape := ⟨0, ![]⟩

class Facts : Prop where
  bcast_S_S32000x300 : S_.BroadcastsInDim S32000x300 (![] : Fin 0 → Fin S32000x300.rank)
  reducesTo_S32000x300_S_d0_1 : S32000x300.ReducesTo [0, 1] S_
  h_S_ : 0 < S_.numel
  bcast_S_S512x300 : S_.BroadcastsInDim S512x300 (![] : Fin 0 → Fin S512x300.rank)
  reducesTo_S512x300_S_d0_1 : S512x300.ReducesTo [0, 1] S_
  bcast_S_S512 : S_.BroadcastsInDim S512 (![] : Fin 0 → Fin S512.rank)
  reducesTo_S512_S_d0 : S512.ReducesTo [0] S_
  bcast_S_S8x128 : S_.BroadcastsInDim S8x128 (![] : Fin 0 → Fin S8x128.rank)
  reducesTo_S8x128_S_d0_1 : S8x128.ReducesTo [0, 1] S_

variable [Facts]

def fn_part1 {F : FTy → Type} [FloatOps F] (main_arg0 : IVec S8x128 32) (main_v13 : IVec S_ 1) (main_v15 : IVec S8x128 1) (main_c_5 : IVec S_ 32) : IVec S_ 1 :=
  let main_v16 : IVec S8x128 32 := broadcastInDim S8x128 ![] bcast_S_S8x128 main_c_5
  let main_v17 : IVec S8x128 1 := cmpi .slt main_arg0 main_v16
  let main_v18 : IVec S8x128 1 := andi main_v15 main_v17
  let main_c_6 : IVec S_ 1 := constantI S_ 1 1#1
  let main_v19 : IVec S_ 1 := (fun x v => Host.reduce IntOp.andi x v reducesTo_S8x128_S_d0_1 h_S_) main_v18 main_c_6
  let main_v20 : IVec S_ 1 := andi main_v13 main_v19
  main_v20

def fn {F : FTy → Type} [FloatOps F] (main_arg0 : IVec S8x128 32) (main_arg1 : FVec F S32000x300 .f32) (main_arg2 : FVec F S512x300 .f32) (main_arg3 : FVec F S512 .f32) : IVec S_ 1 :=
  let main_v0 : FVec F S32000x300 .f32 := Host.absf main_arg1
  let main_cst : FVec F S_ .f32 := constant S_ .f32 0x7F800000#32
  let main_v1 : FVec F S32000x300 .f32 := broadcastInDim S32000x300 ![] bcast_S_S32000x300 main_cst
  let main_v2 : IVec S32000x300 1 := cmpf .olt main_v0 main_v1
  let main_c : IVec S_ 1 := constantI S_ 1 1#1
  let main_v3 : IVec S_ 1 := (fun x v => Host.reduce IntOp.andi x v reducesTo_S32000x300_S_d0_1 h_S_) main_v2 main_c
  let main_v4 : FVec F S512x300 .f32 := Host.absf main_arg2
  let main_cst_0 : FVec F S_ .f32 := constant S_ .f32 0x7F800000#32
  let main_v5 : FVec F S512x300 .f32 := broadcastInDim S512x300 ![] bcast_S_S512x300 main_cst_0
  let main_v6 : IVec S512x300 1 := cmpf .olt main_v4 main_v5
  let main_c_1 : IVec S_ 1 := constantI S_ 1 1#1
  let main_v7 : IVec S_ 1 := (fun x v => Host.reduce IntOp.andi x v reducesTo_S512x300_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_c_4 : IVec S_ 32 := constantI S_ 32 0#32
  let main_v14 : IVec S8x128 32 := broadcastInDim S8x128 ![] bcast_S_S8x128 main_c_4
  let main_v15 : IVec S8x128 1 := cmpi .sge main_arg0 main_v14
  let main_c_5 : IVec S_ 32 := constantI S_ 32 32000#32
  fn_part1 (F := F) main_arg0 main_v13 main_v15 main_c_5
-- ==== Kernel.lean ====
abbrev S8x128 : Shape := ⟨2, ![8, 128]⟩
abbrev S32000x300 : Shape := ⟨2, ![32000, 300]⟩
abbrev S512x300 : Shape := ⟨2, ![512, 300]⟩
abbrev S512 : Shape := ⟨1, ![512]⟩
abbrev S1024 : Shape := ⟨1, ![1024]⟩
abbrev S300x512 : Shape := ⟨2, ![300, 512]⟩
abbrev S1x512 : Shape := ⟨2, ![1, 512]⟩
abbrev S1024x512 : Shape := ⟨2, ![1024, 512]⟩
abbrev S128x512 : Shape := ⟨2, ![128, 512]⟩
abbrev S128x300 : Shape := ⟨2, ![128, 300]⟩
abbrev S128 : Shape := ⟨1, ![128]⟩
abbrev S1 : Shape := ⟨1, ![1]⟩
abbrev S_ : Shape := ⟨0, ![]⟩
abbrev S1x300 : Shape := ⟨2, ![1, 300]⟩
abbrev S300 : Shape := ⟨1, ![300]⟩
abbrev S8x128x512 : Shape := ⟨3, ![8, 128, 512]⟩

abbrev nBuf : Space → Nat
  | .hbm => 9
  | .vmem => 5
  | .smem => 1
  | _ => 0

abbrev bufTy : (tb : Table) → Fin (tcTables nBuf tb) → BufTy
  | .hbm, ⟨0, _⟩ => ⟨S8x128, .i32⟩
  | .hbm, ⟨1, _⟩ => ⟨S32000x300, .f32⟩
  | .hbm, ⟨2, _⟩ => ⟨S512x300, .f32⟩
  | .hbm, ⟨3, _⟩ => ⟨S512, .f32⟩
  | .hbm, ⟨4, _⟩ => ⟨S512x300, .bf16⟩
  | .hbm, ⟨5, _⟩ => ⟨S300x512, .bf16⟩
  | .hbm, ⟨6, _⟩ => ⟨S1x512, .f32⟩
  | .hbm, ⟨7, _⟩ => ⟨S1024x512, .f32⟩
  | .hbm, ⟨8, _⟩ => ⟨S8x128x512, .f32⟩
  | .local _ .vmem, ⟨0, _⟩ => ⟨S300x512, .bf16⟩
  | .local _ .vmem, ⟨1, _⟩ => ⟨S1x512, .f32⟩
  | .local _ .vmem, ⟨2, _⟩ => ⟨S128x512, .f32⟩
  | .local _ .vmem, ⟨3, _⟩ => ⟨S128x512, .f32⟩
  | .local _ .vmem, ⟨4, _⟩ => ⟨S128x300, .f32⟩
  | .local _ .smem, ⟨0, _⟩ => ⟨S1024, .i32⟩
  | _, _ => ⟨S8x128, .i32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 132 → Bool
  | ⟨i, _⟩ => dmaSemScopedAt i

abbrev sig : RefSig :=
  ofTc nBuf bufTy 0 132 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 1 → Nat :=
  let arg0 : BitVec 32 := BitVec.ofNat 32 (i 0).val
  let c128_i32 : BitVec 32 := 128#32
  let v0 : BitVec 32 := Scalar.muli arg0 c128_i32
  let v1 : BitVec 32 := Scalar.addi v0 c0_i32
  let v2 : Index := Scalar.indexCast v1
  ![v2.toNat]
def k0_off2 (v3 : BitVec 32) : Fin 2 → Nat :=
  let c0_i32_3 : BitVec 32 := 0#32
  ![v3.toNat, 0]

def k0_off3 (v6 : BitVec 32) : Fin 2 → Nat :=
  let c0_i32_7 : BitVec 32 := 0#32
  ![v6.toNat, 0]

def k0_off4 (v9 : BitVec 32) : Fin 2 → Nat :=
  let c0_i32_11 : BitVec 32 := 0#32
  ![v9.toNat, 0]

def k0_off5 (v12 : BitVec 32) : Fin 2 → Nat :=
  let c0_i32_15 : BitVec 32 := 0#32
  ![v12.toNat, 0]

def k0_off6 (v15 : BitVec 32) : Fin 2 → Nat :=
  let c0_i32_19 : BitVec 32 := 0#32
  ![v15.toNat, 0]

def k0_off7 (v18 : BitVec 32) : Fin 2 → Nat :=
  let c0_i32_23 : BitVec 32 := 0#32
  ![v18.toNat, 0]

def k0_off8 (v21 : BitVec 32) : Fin 2 → Nat :=
  let c0_i32_27 : BitVec 32 := 0#32
  ![v21.toNat, 0]

def k0_off9 (v24 : BitVec 32) : Fin 2 → Nat :=
  let c0_i32_31 : BitVec 32 := 0#32
  ![v24.toNat, 0]

def k0_off10 (v27 : BitVec 32) : Fin 2 → Nat :=
  let c0_i32_35 : BitVec 32 := 0#32
  ![v27.toNat, 0]

def k0_off11 (v30 : BitVec 32) : Fin 2 → Nat :=
  let c0_i32_39 : BitVec 32 := 0#32
  ![v30.toNat, 0]

def k0_off12 (v33 : BitVec 32) : Fin 2 → Nat :=
  let c0_i32_43 : BitVec 32 := 0#32
  ![v33.toNat, 0]

def k0_off13 (v36 : BitVec 32) : Fin 2 → Nat :=
  let c0_i32_47 : BitVec 32 := 0#32
  ![v36.toNat, 0]

def k0_off14 (v39 : BitVec 32) : Fin 2 → Nat :=
  let c0_i32_51 : BitVec 32 := 0#32
  ![v39.toNat, 0]

def k0_off15 (v42 : BitVec 32) : Fin 2 → Nat :=
  let c0_i32_55 : BitVec 32 := 0#32
  ![v42.toNat, 0]

def k0_off16 (v45 : BitVec 32) : Fin 2 → Nat :=
  let c0_i32_59 : BitVec 32 := 0#32
  ![v45.toNat, 0]

def k0_off17 (v48 : BitVec 32) : Fin 2 → Nat :=
  let c0_i32_63 : BitVec 32 := 0#32
  ![v48.toNat, 0]

def k0_off18 (v51 : BitVec 32) : Fin 2 → Nat :=
  let c0_i32_67 : BitVec 32 := 0#32
  ![v51.toNat, 0]

def k0_off19 (v54 : BitVec 32) : Fin 2 → Nat :=
  let c0_i32_71 : BitVec 32 := 0#32
  ![v54.toNat, 0]

def k0_off20 (v57 : BitVec 32) : Fin 2 → Nat :=
  let c0_i32_75 : BitVec 32 := 0#32
  ![v57.toNat, 0]

def k0_off21 (v60 : BitVec 32) : Fin 2 → Nat :=
  let c0_i32_79 : BitVec 32 := 0#32
  ![v60.toNat, 0]

def k0_off22 (v63 : BitVec 32) : Fin 2 → Nat :=
  let c0_i32_83 : BitVec 32 := 0#32
  ![v63.toNat, 0]

def k0_off23 (v66 : BitVec 32) : Fin 2 → Nat :=
  let c0_i32_87 : BitVec 32 := 0#32
  ![v66.toNat, 0]

def k0_off24 (v69 : BitVec 32) : Fin 2 → Nat :=
  let c0_i32_91 : BitVec 32 := 0#32
  ![v69.toNat, 0]

def k0_off25 (v72 : BitVec 32) : Fin 2 → Nat :=
  let c0_i32_95 : BitVec 32 := 0#32
  ![v72.toNat, 0]

def k0_off26 (v75 : BitVec 32) : Fin 2 → Nat :=
  let c0_i32_99 : BitVec 32 := 0#32
  ![v75.toNat, 0]

def k0_off27 (v78 : BitVec 32) : Fin 2 → Nat :=
  let c0_i32_103 : BitVec 32 := 0#32
  ![v78.toNat, 0]

def k0_off28 (v81 : BitVec 32) : Fin 2 → Nat :=
  let c0_i32_107 : BitVec 32 := 0#32
  ![v81.toNat, 0]

def k0_off29 (v84 : BitVec 32) : Fin 2 → Nat :=
  let c0_i32_111 : BitVec 32 := 0#32
  ![v84.toNat, 0]

def k0_off30 (v87 : BitVec 32) : Fin 2 → Nat :=
  let c0_i32_115 : BitVec 32 := 0#32
  ![v87.toNat, 0]

def k0_off31 (v90 : BitVec 32) : Fin 2 → Nat :=
  let c0_i32_119 : BitVec 32 := 0#32
  ![v90.toNat, 0]

def k0_off32 (v93 : BitVec 32) : Fin 2 → Nat :=
  let c0_i32_123 : BitVec 32 := 0#32
  ![v93.toNat, 0]

def k0_off33 (v96 : BitVec 32) : Fin 2 → Nat :=
  let c0_i32_127 : BitVec 32 := 0#32
  ![v96.toNat, 0]

def k0_off34 (v99 : BitVec 32) : Fin 2 → Nat :=
  let c0_i32_131 : BitVec 32 := 0#32
  ![v99.toNat, 0]

def k0_off35 (v102 : BitVec 32) : Fin 2 → Nat :=
  let c0_i32_135 : BitVec 32 := 0#32
  ![v102.toNat, 0]

def k0_off36 (v105 : BitVec 32) : Fin 2 → Nat :=
  let c0_i32_139 : BitVec 32 := 0#32
  ![v105.toNat, 0]

def k0_off37 (v108 : BitVec 32) : Fin 2 → Nat :=
  let c0_i32_143 : BitVec 32 := 0#32
  ![v108.toNat, 0]

def k0_off38 (v111 : BitVec 32) : Fin 2 → Nat :=
  let c0_i32_147 : BitVec 32 := 0#32
  ![v111.toNat, 0]

def k0_off39 (v114 : BitVec 32) : Fin 2 → Nat :=
  let c0_i32_151 : BitVec 32 := 0#32
  ![v114.toNat, 0]

def k0_off40 (v117 : BitVec 32) : Fin 2 → Nat :=
  let c0_i32_155 : BitVec 32 := 0#32
  ![v117.toNat, 0]

def k0_off41 (v120 : BitVec 32) : Fin 2 → Nat :=
  let c0_i32_159 : BitVec 32 := 0#32
  ![v120.toNat, 0]

def k0_off42 (v123 : BitVec 32) : Fin 2 → Nat :=
  let c0_i32_163 : BitVec 32 := 0#32
  ![v123.toNat, 0]

def k0_off43 (v126 : BitVec 32) : Fin 2 → Nat :=
  let c0_i32_167 : BitVec 32 := 0#32
  ![v126.toNat, 0]

def k0_off44 (v129 : BitVec 32) : Fin 2 → Nat :=
  let c0_i32_171 : BitVec 32 := 0#32
  ![v129.toNat, 0]

def k0_off45 (v132 : BitVec 32) : Fin 2 → Nat :=
  let c0_i32_175 : BitVec 32 := 0#32
  ![v132.toNat, 0]

def k0_off46 (v135 : BitVec 32) : Fin 2 → Nat :=
  let c0_i32_179 : BitVec 32 := 0#32
  ![v135.toNat, 0]

def k0_off47 (v138 : BitVec 32) : Fin 2 → Nat :=
  let c0_i32_183 : BitVec 32 := 0#32
  ![v138.toNat, 0]

def k0_off48 (v141 : BitVec 32) : Fin 2 → Nat :=
  let c0_i32_187 : BitVec 32 := 0#32
  ![v141.toNat, 0]

def k0_off49 (v144 : BitVec 32) : Fin 2 → Nat :=
  let c0_i32_191 : BitVec 32 := 0#32
  ![v144.toNat, 0]

def k0_off50 (v147 : BitVec 32) : Fin 2 → Nat :=
  let c0_i32_195 : BitVec 32 := 0#32
  ![v147.toNat, 0]

def k0_off51 (v150 : BitVec 32) : Fin 2 → Nat :=
  let c0_i32_199 : BitVec 32 := 0#32
  ![v150.toNat, 0]

def k0_off52 (v153 : BitVec 32) : Fin 2 → Nat :=
  let c0_i32_203 : BitVec 32 := 0#32
  ![v153.toNat, 0]

def k0_off53 (v156 : BitVec 32) : Fin 2 → Nat :=
  let c0_i32_207 : BitVec 32 := 0#32
  ![v156.toNat, 0]

def k0_off54 (v159 : BitVec 32) : Fin 2 → Nat :=
  let c0_i32_211 : BitVec 32 := 0#32
  ![v159.toNat, 0]

def k0_off55 (v162 : BitVec 32) : Fin 2 → Nat :=
  let c0_i32_215 : BitVec 32 := 0#32
  ![v162.toNat, 0]

def k0_off56 (v165 : BitVec 32) : Fin 2 → Nat :=
  let c0_i32_219 : BitVec 32 := 0#32
  ![v165.toNat, 0]

def k0_off57 (v168 : BitVec 32) : Fin 2 → Nat :=
  let c0_i32_223 : BitVec 32 := 0#32
  ![v168.toNat, 0]

def k0_off58 (v171 : BitVec 32) : Fin 2 → Nat :=
  let c0_i32_227 : BitVec 32 := 0#32
  ![v171.toNat, 0]

def k0_off59 (v174 : BitVec 32) : Fin 2 → Nat :=
  let c0_i32_231 : BitVec 32 := 0#32
  ![v174.toNat, 0]

def k0_off60 (v177 : BitVec 32) : Fin 2 → Nat :=
  let c0_i32_235 : BitVec 32 := 0#32
  ![v177.toNat, 0]

def k0_off61 (v180 : BitVec 32) : Fin 2 → Nat :=
  let c0_i32_239 : BitVec 32 := 0#32
  ![v180.toNat, 0]

def k0_off62 (v183 : BitVec 32) : Fin 2 → Nat :=
  let c0_i32_243 : BitVec 32 := 0#32
  ![v183.toNat, 0]

def k0_off63 (v186 : BitVec 32) : Fin 2 → Nat :=
  let c0_i32_247 : BitVec 32 := 0#32
  ![v186.toNat, 0]

def k0_off64 (v189 : BitVec 32) : Fin 2 → Nat :=
  let c0_i32_251 : BitVec 32 := 0#32
  ![v189.toNat, 0]

def k0_off65 (v192 : BitVec 32) : Fin 2 → Nat :=
  let c0_i32_255 : BitVec 32 := 0#32
  ![v192.toNat, 0]

def k0_off66 (v195 : BitVec 32) : Fin 2 → Nat :=
  let c0_i32_259 : BitVec 32 := 0#32
  ![v195.toNat, 0]

def k0_off67 (v198 : BitVec 32) : Fin 2 → Nat :=
  let c0_i32_263 : BitVec 32 := 0#32
  ![v198.toNat, 0]

def k0_off68 (v201 : BitVec 32) : Fin 2 → Nat :=
  let c0_i32_267 : BitVec 32 := 0#32
  ![v201.toNat, 0]

def k0_off69 (v204 : BitVec 32) : Fin 2 → Nat :=
  let c0_i32_271 : BitVec 32 := 0#32
  ![v204.toNat, 0]

def k0_off70 (v207 : BitVec 32) : Fin 2 → Nat :=
  let c0_i32_275 : BitVec 32 := 0#32
  ![v207.toNat, 0]

def k0_off71 (v210 : BitVec 32) : Fin 2 → Nat :=
  let c0_i32_279 : BitVec 32 := 0#32
  ![v210.toNat, 0]

def k0_off72 (v213 : BitVec 32) : Fin 2 → Nat :=
  let c0_i32_283 : BitVec 32 := 0#32
  ![v213.toNat, 0]

def k0_off73 (v216 : BitVec 32) : Fin 2 → Nat :=
  let c0_i32_287 : BitVec 32 := 0#32
  ![v216.toNat, 0]

def k0_off74 (v219 : BitVec 32) : Fin 2 → Nat :=
  let c0_i32_291 : BitVec 32 := 0#32
  ![v219.toNat, 0]

def k0_off75 (v222 : BitVec 32) : Fin 2 → Nat :=
  let c0_i32_295 : BitVec 32 := 0#32
  ![v222.toNat, 0]

def k0_off76 (v225 : BitVec 32) : Fin 2 → Nat :=
  let c0_i32_299 : BitVec 32 := 0#32
  ![v225.toNat, 0]

def k0_off77 (v228 : BitVec 32) : Fin 2 → Nat :=
  let c0_i32_303 : BitVec 32 := 0#32
  ![v228.toNat, 0]

def k0_off78 (v231 : BitVec 32) : Fin 2 → Nat :=
  let c0_i32_307 : BitVec 32 := 0#32
  ![v231.toNat, 0]

def k0_off79 (v234 : BitVec 32) : Fin 2 → Nat :=
  let c0_i32_311 : BitVec 32 := 0#32
  ![v234.toNat, 0]

def k0_off80 (v237 : BitVec 32) : Fin 2 → Nat :=
  let c0_i32_315 : BitVec 32 := 0#32
  ![v237.toNat, 0]

def k0_off81 (v240 : BitVec 32) : Fin 2 → Nat :=
  let c0_i32_319 : BitVec 32 := 0#32
  ![v240.toNat, 0]

def k0_off82 (v243 : BitVec 32) : Fin 2 → Nat :=
  let c0_i32_323 : BitVec 32 := 0#32
  ![v243.toNat, 0]

def k0_off83 (v246 : BitVec 32) : Fin 2 → Nat :=
  let c0_i32_327 : BitVec 32 := 0#32
  ![v246.toNat, 0]

def k0_off84 (v249 : BitVec 32) : Fin 2 → Nat :=
  let c0_i32_331 : BitVec 32 := 0#32
  ![v249.toNat, 0]

def k0_off85 (v252 : BitVec 32) : Fin 2 → Nat :=
  let c0_i32_335 : BitVec 32 := 0#32
  ![v252.toNat, 0]

def k0_off86 (v255 : BitVec 32) : Fin 2 → Nat :=
  let c0_i32_339 : BitVec 32 := 0#32
  ![v255.toNat, 0]

def k0_off87 (v258 : BitVec 32) : Fin 2 → Nat :=
  let c0_i32_343 : BitVec 32 := 0#32
  ![v258.toNat, 0]

def k0_off88 (v261 : BitVec 32) : Fin 2 → Nat :=
  let c0_i32_347 : BitVec 32 := 0#32
  ![v261.toNat, 0]

def k0_off89 (v264 : BitVec 32) : Fin 2 → Nat :=
  let c0_i32_351 : BitVec 32 := 0#32
  ![v264.toNat, 0]

def k0_off90 (v267 : BitVec 32) : Fin 2 → Nat :=
  let c0_i32_355 : BitVec 32 := 0#32
  ![v267.toNat, 0]

def k0_off91 (v270 : BitVec 32) : Fin 2 → Nat :=
  let c0_i32_359 : BitVec 32 := 0#32
  ![v270.toNat, 0]

def k0_off92 (v273 : BitVec 32) : Fin 2 → Nat :=
  let c0_i32_363 : BitVec 32 := 0#32
  ![v273.toNat, 0]

def k0_off93 (v276 : BitVec 32) : Fin 2 → Nat :=
  let c0_i32_367 : BitVec 32 := 0#32
  ![v276.toNat, 0]

def k0_off94 (v279 : BitVec 32) : Fin 2 → Nat :=
  let c0_i32_371 : BitVec 32 := 0#32
  ![v279.toNat, 0]

def k0_off95 (v282 : BitVec 32) : Fin 2 → Nat :=
  let c0_i32_375 : BitVec 32 := 0#32
  ![v282.toNat, 0]

def k0_off96 (v285 : BitVec 32) : Fin 2 → Nat :=
  let c0_i32_379 : BitVec 32 := 0#32
  ![v285.toNat, 0]

def k0_off97 (v288 : BitVec 32) : Fin 2 → Nat :=
  let c0_i32_383 : BitVec 32 := 0#32
  ![v288.toNat, 0]

def k0_off98 (v291 : BitVec 32) : Fin 2 → Nat :=
  let c0_i32_387 : BitVec 32 := 0#32
  ![v291.toNat, 0]

def k0_off99 (v294 : BitVec 32) : Fin 2 → Nat :=
  let c0_i32_391 : BitVec 32 := 0#32
  ![v294.toNat, 0]

def k0_off100 (v297 : BitVec 32) : Fin 2 → Nat :=
  let c0_i32_395 : BitVec 32 := 0#32
  ![v297.toNat, 0]

def k0_off101 (v300 : BitVec 32) : Fin 2 → Nat :=
  let c0_i32_399 : BitVec 32 := 0#32
  ![v300.toNat, 0]

def k0_off102 (v303 : BitVec 32) : Fin 2 → Nat :=
  let c0_i32_403 : BitVec 32 := 0#32
  ![v303.toNat, 0]

def k0_off103 (v306 : BitVec 32) : Fin 2 → Nat :=
  let c0_i32_407 : BitVec 32 := 0#32
  ![v306.toNat, 0]

def k0_off104 (v309 : BitVec 32) : Fin 2 → Nat :=
  let c0_i32_411 : BitVec 32 := 0#32
  ![v309.toNat, 0]

def k0_off105 (v312 : BitVec 32) : Fin 2 → Nat :=
  let c0_i32_415 : BitVec 32 := 0#32
  ![v312.toNat, 0]

def k0_off106 (v315 : BitVec 32) : Fin 2 → Nat :=
  let c0_i32_419 : BitVec 32 := 0#32
  ![v315.toNat, 0]

def k0_off107 (v318 : BitVec 32) : Fin 2 → Nat :=
  let c0_i32_423 : BitVec 32 := 0#32
  ![v318.toNat, 0]

def k0_off108 (v321 : BitVec 32) : Fin 2 → Nat :=
  let c0_i32_427 : BitVec 32 := 0#32
  ![v321.toNat, 0]

def k0_off109 (v324 : BitVec 32) : Fin 2 → Nat :=
  let c0_i32_431 : BitVec 32 := 0#32
  ![v324.toNat, 0]

def k0_off110 (v327 : BitVec 32) : Fin 2 → Nat :=
  let c0_i32_435 : BitVec 32 := 0#32
  ![v327.toNat, 0]

def k0_off111 (v330 : BitVec 32) : Fin 2 → Nat :=
  let c0_i32_439 : BitVec 32 := 0#32
  ![v330.toNat, 0]

def k0_off112 (v333 : BitVec 32) : Fin 2 → Nat :=
  let c0_i32_443 : BitVec 32 := 0#32
  ![v333.toNat, 0]

def k0_off113 (v336 : BitVec 32) : Fin 2 → Nat :=
  let c0_i32_447 : BitVec 32 := 0#32
  ![v336.toNat, 0]

def k0_off114 (v339 : BitVec 32) : Fin 2 → Nat :=
  let c0_i32_451 : BitVec 32 := 0#32
  ![v339.toNat, 0]

def k0_off115 (v342 : BitVec 32) : Fin 2 → Nat :=
  let c0_i32_455 : BitVec 32 := 0#32
  ![v342.toNat, 0]

def k0_off116 (v345 : BitVec 32) : Fin 2 → Nat :=
  let c0_i32_459 : BitVec 32 := 0#32
  ![v345.toNat, 0]

def k0_off117 (v348 : BitVec 32) : Fin 2 → Nat :=
  let c0_i32_463 : BitVec 32 := 0#32
  ![v348.toNat, 0]

def k0_off118 (v351 : BitVec 32) : Fin 2 → Nat :=
  let c0_i32_467 : BitVec 32 := 0#32
  ![v351.toNat, 0]

def k0_off119 (v354 : BitVec 32) : Fin 2 → Nat :=
  let c0_i32_471 : BitVec 32 := 0#32
  ![v354.toNat, 0]

def k0_off120 (v357 : BitVec 32) : Fin 2 → Nat :=
  let c0_i32_475 : BitVec 32 := 0#32
  ![v357.toNat, 0]

def k0_off121 (v360 : BitVec 32) : Fin 2 → Nat :=
  let c0_i32_479 : BitVec 32 := 0#32
  ![v360.toNat, 0]

def k0_off122 (v363 : BitVec 32) : Fin 2 → Nat :=
  let c0_i32_483 : BitVec 32 := 0#32
  ![v363.toNat, 0]

def k0_off123 (v366 : BitVec 32) : Fin 2 → Nat :=
  let c0_i32_487 : BitVec 32 := 0#32
  ![v366.toNat, 0]

def k0_off124 (v369 : BitVec 32) : Fin 2 → Nat :=
  let c0_i32_491 : BitVec 32 := 0#32
  ![v369.toNat, 0]

def k0_off125 (v372 : BitVec 32) : Fin 2 → Nat :=
  let c0_i32_495 : BitVec 32 := 0#32
  ![v372.toNat, 0]

def k0_off126 (v375 : BitVec 32) : Fin 2 → Nat :=
  let c0_i32_499 : BitVec 32 := 0#32
  ![v375.toNat, 0]

def k0_off127 (v378 : BitVec 32) : Fin 2 → Nat :=
  let c0_i32_503 : BitVec 32 := 0#32
  ![v378.toNat, 0]

def k0_off128 (v381 : BitVec 32) : Fin 2 → Nat :=
  let c0_i32_507 : BitVec 32 := 0#32
  ![v381.toNat, 0]

def k0_off129 (v384 : BitVec 32) : Fin 2 → Nat :=
  let c0_i32_511 : BitVec 32 := 0#32
  ![v384.toNat, 0]

def k0_chk128 (v384 : BitVec 32) : Prop :=
  (∀ a, (k0_off129 v384) a + S1x300.size a ≤ S32000x300.size a)
instance k0_chk128.dec : ∀ (v384 : BitVec 32), Decidable (k0_chk128 v384) := fun v384 => decidable_of_iff' _ (Iff.of_eq (k0_chk128.eq_1 v384))
theorem k0_off129_inb : ∀ (v384 : BitVec 32) (k0_hw128 : k0_chk128 v384), ∀ a, (k0_off129 v384) a + S1x300.size a ≤ S32000x300.size a := fun v384 k0_hw128 => k0_hw128

def k0_off130 (v3 : BitVec 32) : Fin 2 → Nat :=
  let c0_i32_515 : BitVec 32 := 0#32
  ![v3.toNat, 0]

def k0_chk1 (v3 : BitVec 32) : Prop :=
  (∀ a, (k0_off2 v3) a + S1x300.size a ≤ S32000x300.size a) ∧
  (∀ a, (k0_off130 v3) a + S1x300.size a ≤ S32000x300.size a)
instance k0_chk1.dec : ∀ (v3 : BitVec 32), Decidable (k0_chk1 v3) := fun v3 => decidable_of_iff' _ (Iff.of_eq (k0_chk1.eq_1 v3))
theorem k0_off2_inb : ∀ (v3 : BitVec 32) (k0_hw1 : k0_chk1 v3), ∀ a, (k0_off2 v3) a + S1x300.size a ≤ S32000x300.size a := fun v3 k0_hw1 => k0_hw1.1
theorem k0_off130_inb : ∀ (v3 : BitVec 32) (k0_hw1 : k0_chk1 v3), ∀ a, (k0_off130 v3) a + S1x300.size a ≤ S32000x300.size a := fun v3 k0_hw1 => k0_hw1.2

def k0_off131 (v6 : BitVec 32) : Fin 2 → Nat :=
  let c0_i32_519 : BitVec 32 := 0#32
  ![v6.toNat, 0]

def k0_chk2 (v6 : BitVec 32) : Prop :=
  (∀ a, (k0_off3 v6) a + S1x300.size a ≤ S32000x300.size a) ∧
  (∀ a, (k0_off131 v6) a + S1x300.size a ≤ S32000x300.size a)
instance k0_chk2.dec : ∀ (v6 : BitVec 32), Decidable (k0_chk2 v6) := fun v6 => decidable_of_iff' _ (Iff.of_eq (k0_chk2.eq_1 v6))
theorem k0_off3_inb : ∀ (v6 : BitVec 32) (k0_hw2 : k0_chk2 v6), ∀ a, (k0_off3 v6) a + S1x300.size a ≤ S32000x300.size a := fun v6 k0_hw2 => k0_hw2.1
theorem k0_off131_inb : ∀ (v6 : BitVec 32) (k0_hw2 : k0_chk2 v6), ∀ a, (k0_off131 v6) a + S1x300.size a ≤ S32000x300.size a := fun v6 k0_hw2 => k0_hw2.2

def k0_off132 (v9 : BitVec 32) : Fin 2 → Nat :=
  let c0_i32_523 : BitVec 32 := 0#32
  ![v9.toNat, 0]

def k0_chk3 (v9 : BitVec 32) : Prop :=
  (∀ a, (k0_off4 v9) a + S1x300.size a ≤ S32000x300.size a) ∧
  (∀ a, (k0_off132 v9) a + S1x300.size a ≤ S32000x300.size a)
instance k0_chk3.dec : ∀ (v9 : BitVec 32), Decidable (k0_chk3 v9) := fun v9 => decidable_of_iff' _ (Iff.of_eq (k0_chk3.eq_1 v9))
theorem k0_off4_inb : ∀ (v9 : BitVec 32) (k0_hw3 : k0_chk3 v9), ∀ a, (k0_off4 v9) a + S1x300.size a ≤ S32000x300.size a := fun v9 k0_hw3 => k0_hw3.1
theorem k0_off132_inb : ∀ (v9 : BitVec 32) (k0_hw3 : k0_chk3 v9), ∀ a, (k0_off132 v9) a + S1x300.size a ≤ S32000x300.size a := fun v9 k0_hw3 => k0_hw3.2

def k0_off133 (v12 : BitVec 32) : Fin 2 → Nat :=
  let c0_i32_527 : BitVec 32 := 0#32
  ![v12.toNat, 0]

def k0_chk4 (v12 : BitVec 32) : Prop :=
  (∀ a, (k0_off5 v12) a + S1x300.size a ≤ S32000x300.size a) ∧
  (∀ a, (k0_off133 v12) a + S1x300.size a ≤ S32000x300.size a)
instance k0_chk4.dec : ∀ (v12 : BitVec 32), Decidable (k0_chk4 v12) := fun v12 => decidable_of_iff' _ (Iff.of_eq (k0_chk4.eq_1 v12))
theorem k0_off5_inb : ∀ (v12 : BitVec 32) (k0_hw4 : k0_chk4 v12), ∀ a, (k0_off5 v12) a + S1x300.size a ≤ S32000x300.size a := fun v12 k0_hw4 => k0_hw4.1
theorem k0_off133_inb : ∀ (v12 : BitVec 32) (k0_hw4 : k0_chk4 v12), ∀ a, (k0_off133 v12) a + S1x300.size a ≤ S32000x300.size a := fun v12 k0_hw4 => k0_hw4.2

def k0_off134 (v15 : BitVec 32) : Fin 2 → Nat :=
  let c0_i32_531 : BitVec 32 := 0#32
  ![v15.toNat, 0]

def k0_chk5 (v15 : BitVec 32) : Prop :=
  (∀ a, (k0_off6 v15) a + S1x300.size a ≤ S32000x300.size a) ∧
  (∀ a, (k0_off134 v15) a + S1x300.size a ≤ S32000x300.size a)
instance k0_chk5.dec : ∀ (v15 : BitVec 32), Decidable (k0_chk5 v15) := fun v15 => decidable_of_iff' _ (Iff.of_eq (k0_chk5.eq_1 v15))
theorem k0_off6_inb : ∀ (v15 : BitVec 32) (k0_hw5 : k0_chk5 v15), ∀ a, (k0_off6 v15) a + S1x300.size a ≤ S32000x300.size a := fun v15 k0_hw5 => k0_hw5.1
theorem k0_off134_inb : ∀ (v15 : BitVec 32) (k0_hw5 : k0_chk5 v15), ∀ a, (k0_off134 v15) a + S1x300.size a ≤ S32000x300.size a := fun v15 k0_hw5 => k0_hw5.2

def k0_off135 (v18 : BitVec 32) : Fin 2 → Nat :=
  let c0_i32_535 : BitVec 32 := 0#32
  ![v18.toNat, 0]

def k0_chk6 (v18 : BitVec 32) : Prop :=
  (∀ a, (k0_off7 v18) a + S1x300.size a ≤ S32000x300.size a) ∧
  (∀ a, (k0_off135 v18) a + S1x300.size a ≤ S32000x300.size a)
instance k0_chk6.dec : ∀ (v18 : BitVec 32), Decidable (k0_chk6 v18) := fun v18 => decidable_of_iff' _ (Iff.of_eq (k0_chk6.eq_1 v18))
theorem k0_off7_inb : ∀ (v18 : BitVec 32) (k0_hw6 : k0_chk6 v18), ∀ a, (k0_off7 v18) a + S1x300.size a ≤ S32000x300.size a := fun v18 k0_hw6 => k0_hw6.1
theorem k0_off135_inb : ∀ (v18 : BitVec 32) (k0_hw6 : k0_chk6 v18), ∀ a, (k0_off135 v18) a + S1x300.size a ≤ S32000x300.size a := fun v18 k0_hw6 => k0_hw6.2

def k0_off136 (v21 : BitVec 32) : Fin 2 → Nat :=
  let c0_i32_539 : BitVec 32 := 0#32
  ![v21.toNat, 0]

def k0_chk7 (v21 : BitVec 32) : Prop :=
  (∀ a, (k0_off8 v21) a + S1x300.size a ≤ S32000x300.size a) ∧
  (∀ a, (k0_off136 v21) a + S1x300.size a ≤ S32000x300.size a)
instance k0_chk7.dec : ∀ (v21 : BitVec 32), Decidable (k0_chk7 v21) := fun v21 => decidable_of_iff' _ (Iff.of_eq (k0_chk7.eq_1 v21))
theorem k0_off8_inb : ∀ (v21 : BitVec 32) (k0_hw7 : k0_chk7 v21), ∀ a, (k0_off8 v21) a + S1x300.size a ≤ S32000x300.size a := fun v21 k0_hw7 => k0_hw7.1
theorem k0_off136_inb : ∀ (v21 : BitVec 32) (k0_hw7 : k0_chk7 v21), ∀ a, (k0_off136 v21) a + S1x300.size a ≤ S32000x300.size a := fun v21 k0_hw7 => k0_hw7.2

def k0_off137 (v24 : BitVec 32) : Fin 2 → Nat :=
  let c0_i32_543 : BitVec 32 := 0#32
  ![v24.toNat, 0]

def k0_chk8 (v24 : BitVec 32) : Prop :=
  (∀ a, (k0_off9 v24) a + S1x300.size a ≤ S32000x300.size a) ∧
  (∀ a, (k0_off137 v24) a + S1x300.size a ≤ S32000x300.size a)
instance k0_chk8.dec : ∀ (v24 : BitVec 32), Decidable (k0_chk8 v24) := fun v24 => decidable_of_iff' _ (Iff.of_eq (k0_chk8.eq_1 v24))
theorem k0_off9_inb : ∀ (v24 : BitVec 32) (k0_hw8 : k0_chk8 v24), ∀ a, (k0_off9 v24) a + S1x300.size a ≤ S32000x300.size a := fun v24 k0_hw8 => k0_hw8.1
theorem k0_off137_inb : ∀ (v24 : BitVec 32) (k0_hw8 : k0_chk8 v24), ∀ a, (k0_off137 v24) a + S1x300.size a ≤ S32000x300.size a := fun v24 k0_hw8 => k0_hw8.2

def k0_off138 (v27 : BitVec 32) : Fin 2 → Nat :=
  let c0_i32_547 : BitVec 32 := 0#32
  ![v27.toNat, 0]

def k0_chk9 (v27 : BitVec 32) : Prop :=
  (∀ a, (k0_off10 v27) a + S1x300.size a ≤ S32000x300.size a) ∧
  (∀ a, (k0_off138 v27) a + S1x300.size a ≤ S32000x300.size a)
instance k0_chk9.dec : ∀ (v27 : BitVec 32), Decidable (k0_chk9 v27) := fun v27 => decidable_of_iff' _ (Iff.of_eq (k0_chk9.eq_1 v27))
theorem k0_off10_inb : ∀ (v27 : BitVec 32) (k0_hw9 : k0_chk9 v27), ∀ a, (k0_off10 v27) a + S1x300.size a ≤ S32000x300.size a := fun v27 k0_hw9 => k0_hw9.1
theorem k0_off138_inb : ∀ (v27 : BitVec 32) (k0_hw9 : k0_chk9 v27), ∀ a, (k0_off138 v27) a + S1x300.size a ≤ S32000x300.size a := fun v27 k0_hw9 => k0_hw9.2

def k0_off139 (v30 : BitVec 32) : Fin 2 → Nat :=
  let c0_i32_551 : BitVec 32 := 0#32
  ![v30.toNat, 0]

def k0_chk10 (v30 : BitVec 32) : Prop :=
  (∀ a, (k0_off11 v30) a + S1x300.size a ≤ S32000x300.size a) ∧
  (∀ a, (k0_off139 v30) a + S1x300.size a ≤ S32000x300.size a)
instance k0_chk10.dec : ∀ (v30 : BitVec 32), Decidable (k0_chk10 v30) := fun v30 => decidable_of_iff' _ (Iff.of_eq (k0_chk10.eq_1 v30))
theorem k0_off11_inb : ∀ (v30 : BitVec 32) (k0_hw10 : k0_chk10 v30), ∀ a, (k0_off11 v30) a + S1x300.size a ≤ S32000x300.size a := fun v30 k0_hw10 => k0_hw10.1
theorem k0_off139_inb : ∀ (v30 : BitVec 32) (k0_hw10 : k0_chk10 v30), ∀ a, (k0_off139 v30) a + S1x300.size a ≤ S32000x300.size a := fun v30 k0_hw10 => k0_hw10.2

def k0_off140 (v33 : BitVec 32) : Fin 2 → Nat :=
  let c0_i32_555 : BitVec 32 := 0#32
  ![v33.toNat, 0]

def k0_chk11 (v33 : BitVec 32) : Prop :=
  (∀ a, (k0_off12 v33) a + S1x300.size a ≤ S32000x300.size a) ∧
  (∀ a, (k0_off140 v33) a + S1x300.size a ≤ S32000x300.size a)
instance k0_chk11.dec : ∀ (v33 : BitVec 32), Decidable (k0_chk11 v33) := fun v33 => decidable_of_iff' _ (Iff.of_eq (k0_chk11.eq_1 v33))
theorem k0_off12_inb : ∀ (v33 : BitVec 32) (k0_hw11 : k0_chk11 v33), ∀ a, (k0_off12 v33) a + S1x300.size a ≤ S32000x300.size a := fun v33 k0_hw11 => k0_hw11.1
theorem k0_off140_inb : ∀ (v33 : BitVec 32) (k0_hw11 : k0_chk11 v33), ∀ a, (k0_off140 v33) a + S1x300.size a ≤ S32000x300.size a := fun v33 k0_hw11 => k0_hw11.2

def k0_off141 (v36 : BitVec 32) : Fin 2 → Nat :=
  let c0_i32_559 : BitVec 32 := 0#32
  ![v36.toNat, 0]

def k0_chk12 (v36 : BitVec 32) : Prop :=
  (∀ a, (k0_off13 v36) a + S1x300.size a ≤ S32000x300.size a) ∧
  (∀ a, (k0_off141 v36) a + S1x300.size a ≤ S32000x300.size a)
instance k0_chk12.dec : ∀ (v36 : BitVec 32), Decidable (k0_chk12 v36) := fun v36 => decidable_of_iff' _ (Iff.of_eq (k0_chk12.eq_1 v36))
theorem k0_off13_inb : ∀ (v36 : BitVec 32) (k0_hw12 : k0_chk12 v36), ∀ a, (k0_off13 v36) a + S1x300.size a ≤ S32000x300.size a := fun v36 k0_hw12 => k0_hw12.1
theorem k0_off141_inb : ∀ (v36 : BitVec 32) (k0_hw12 : k0_chk12 v36), ∀ a, (k0_off141 v36) a + S1x300.size a ≤ S32000x300.size a := fun v36 k0_hw12 => k0_hw12.2

def k0_off142 (v39 : BitVec 32) : Fin 2 → Nat :=
  let c0_i32_563 : BitVec 32 := 0#32
  ![v39.toNat, 0]

def k0_chk13 (v39 : BitVec 32) : Prop :=
  (∀ a, (k0_off14 v39) a + S1x300.size a ≤ S32000x300.size a) ∧
  (∀ a, (k0_off142 v39) a + S1x300.size a ≤ S32000x300.size a)
instance k0_chk13.dec : ∀ (v39 : BitVec 32), Decidable (k0_chk13 v39) := fun v39 => decidable_of_iff' _ (Iff.of_eq (k0_chk13.eq_1 v39))
theorem k0_off14_inb : ∀ (v39 : BitVec 32) (k0_hw13 : k0_chk13 v39), ∀ a, (k0_off14 v39) a + S1x300.size a ≤ S32000x300.size a := fun v39 k0_hw13 => k0_hw13.1
theorem k0_off142_inb : ∀ (v39 : BitVec 32) (k0_hw13 : k0_chk13 v39), ∀ a, (k0_off142 v39) a + S1x300.size a ≤ S32000x300.size a := fun v39 k0_hw13 => k0_hw13.2

def k0_off143 (v42 : BitVec 32) : Fin 2 → Nat :=
  let c0_i32_567 : BitVec 32 := 0#32
  ![v42.toNat, 0]

def k0_chk14 (v42 : BitVec 32) : Prop :=
  (∀ a, (k0_off15 v42) a + S1x300.size a ≤ S32000x300.size a) ∧
  (∀ a, (k0_off143 v42) a + S1x300.size a ≤ S32000x300.size a)
instance k0_chk14.dec : ∀ (v42 : BitVec 32), Decidable (k0_chk14 v42) := fun v42 => decidable_of_iff' _ (Iff.of_eq (k0_chk14.eq_1 v42))
theorem k0_off15_inb : ∀ (v42 : BitVec 32) (k0_hw14 : k0_chk14 v42), ∀ a, (k0_off15 v42) a + S1x300.size a ≤ S32000x300.size a := fun v42 k0_hw14 => k0_hw14.1
theorem k0_off143_inb : ∀ (v42 : BitVec 32) (k0_hw14 : k0_chk14 v42), ∀ a, (k0_off143 v42) a + S1x300.size a ≤ S32000x300.size a := fun v42 k0_hw14 => k0_hw14.2

def k0_off144 (v45 : BitVec 32) : Fin 2 → Nat :=
  let c0_i32_571 : BitVec 32 := 0#32
  ![v45.toNat, 0]

def k0_chk15 (v45 : BitVec 32) : Prop :=
  (∀ a, (k0_off16 v45) a + S1x300.size a ≤ S32000x300.size a) ∧
  (∀ a, (k0_off144 v45) a + S1x300.size a ≤ S32000x300.size a)
instance k0_chk15.dec : ∀ (v45 : BitVec 32), Decidable (k0_chk15 v45) := fun v45 => decidable_of_iff' _ (Iff.of_eq (k0_chk15.eq_1 v45))
theorem k0_off16_inb : ∀ (v45 : BitVec 32) (k0_hw15 : k0_chk15 v45), ∀ a, (k0_off16 v45) a + S1x300.size a ≤ S32000x300.size a := fun v45 k0_hw15 => k0_hw15.1
theorem k0_off144_inb : ∀ (v45 : BitVec 32) (k0_hw15 : k0_chk15 v45), ∀ a, (k0_off144 v45) a + S1x300.size a ≤ S32000x300.size a := fun v45 k0_hw15 => k0_hw15.2

def k0_off145 (v48 : BitVec 32) : Fin 2 → Nat :=
  let c0_i32_575 : BitVec 32 := 0#32
  ![v48.toNat, 0]

def k0_chk16 (v48 : BitVec 32) : Prop :=
  (∀ a, (k0_off17 v48) a + S1x300.size a ≤ S32000x300.size a) ∧
  (∀ a, (k0_off145 v48) a + S1x300.size a ≤ S32000x300.size a)
instance k0_chk16.dec : ∀ (v48 : BitVec 32), Decidable (k0_chk16 v48) := fun v48 => decidable_of_iff' _ (Iff.of_eq (k0_chk16.eq_1 v48))
theorem k0_off17_inb : ∀ (v48 : BitVec 32) (k0_hw16 : k0_chk16 v48), ∀ a, (k0_off17 v48) a + S1x300.size a ≤ S32000x300.size a := fun v48 k0_hw16 => k0_hw16.1
theorem k0_off145_inb : ∀ (v48 : BitVec 32) (k0_hw16 : k0_chk16 v48), ∀ a, (k0_off145 v48) a + S1x300.size a ≤ S32000x300.size a := fun v48 k0_hw16 => k0_hw16.2

def k0_off146 (v51 : BitVec 32) : Fin 2 → Nat :=
  let c0_i32_579 : BitVec 32 := 0#32
  ![v51.toNat, 0]

def k0_chk17 (v51 : BitVec 32) : Prop :=
  (∀ a, (k0_off18 v51) a + S1x300.size a ≤ S32000x300.size a) ∧
  (∀ a, (k0_off146 v51) a + S1x300.size a ≤ S32000x300.size a)
instance k0_chk17.dec : ∀ (v51 : BitVec 32), Decidable (k0_chk17 v51) := fun v51 => decidable_of_iff' _ (Iff.of_eq (k0_chk17.eq_1 v51))
theorem k0_off18_inb : ∀ (v51 : BitVec 32) (k0_hw17 : k0_chk17 v51), ∀ a, (k0_off18 v51) a + S1x300.size a ≤ S32000x300.size a := fun v51 k0_hw17 => k0_hw17.1
theorem k0_off146_inb : ∀ (v51 : BitVec 32) (k0_hw17 : k0_chk17 v51), ∀ a, (k0_off146 v51) a + S1x300.size a ≤ S32000x300.size a := fun v51 k0_hw17 => k0_hw17.2

def k0_off147 (v54 : BitVec 32) : Fin 2 → Nat :=
  let c0_i32_583 : BitVec 32 := 0#32
  ![v54.toNat, 0]

def k0_chk18 (v54 : BitVec 32) : Prop :=
  (∀ a, (k0_off19 v54) a + S1x300.size a ≤ S32000x300.size a) ∧
  (∀ a, (k0_off147 v54) a + S1x300.size a ≤ S32000x300.size a)
instance k0_chk18.dec : ∀ (v54 : BitVec 32), Decidable (k0_chk18 v54) := fun v54 => decidable_of_iff' _ (Iff.of_eq (k0_chk18.eq_1 v54))
theorem k0_off19_inb : ∀ (v54 : BitVec 32) (k0_hw18 : k0_chk18 v54), ∀ a, (k0_off19 v54) a + S1x300.size a ≤ S32000x300.size a := fun v54 k0_hw18 => k0_hw18.1
theorem k0_off147_inb : ∀ (v54 : BitVec 32) (k0_hw18 : k0_chk18 v54), ∀ a, (k0_off147 v54) a + S1x300.size a ≤ S32000x300.size a := fun v54 k0_hw18 => k0_hw18.2

def k0_off148 (v57 : BitVec 32) : Fin 2 → Nat :=
  let c0_i32_587 : BitVec 32 := 0#32
  ![v57.toNat, 0]

def k0_chk19 (v57 : BitVec 32) : Prop :=
  (∀ a, (k0_off20 v57) a + S1x300.size a ≤ S32000x300.size a) ∧
  (∀ a, (k0_off148 v57) a + S1x300.size a ≤ S32000x300.size a)
instance k0_chk19.dec : ∀ (v57 : BitVec 32), Decidable (k0_chk19 v57) := fun v57 => decidable_of_iff' _ (Iff.of_eq (k0_chk19.eq_1 v57))
theorem k0_off20_inb : ∀ (v57 : BitVec 32) (k0_hw19 : k0_chk19 v57), ∀ a, (k0_off20 v57) a + S1x300.size a ≤ S32000x300.size a := fun v57 k0_hw19 => k0_hw19.1
theorem k0_off148_inb : ∀ (v57 : BitVec 32) (k0_hw19 : k0_chk19 v57), ∀ a, (k0_off148 v57) a + S1x300.size a ≤ S32000x300.size a := fun v57 k0_hw19 => k0_hw19.2

def k0_off149 (v60 : BitVec 32) : Fin 2 → Nat :=
  let c0_i32_591 : BitVec 32 := 0#32
  ![v60.toNat, 0]

def k0_chk20 (v60 : BitVec 32) : Prop :=
  (∀ a, (k0_off21 v60) a + S1x300.size a ≤ S32000x300.size a) ∧
  (∀ a, (k0_off149 v60) a + S1x300.size a ≤ S32000x300.size a)
instance k0_chk20.dec : ∀ (v60 : BitVec 32), Decidable (k0_chk20 v60) := fun v60 => decidable_of_iff' _ (Iff.of_eq (k0_chk20.eq_1 v60))
theorem k0_off21_inb : ∀ (v60 : BitVec 32) (k0_hw20 : k0_chk20 v60), ∀ a, (k0_off21 v60) a + S1x300.size a ≤ S32000x300.size a := fun v60 k0_hw20 => k0_hw20.1
theorem k0_off149_inb : ∀ (v60 : BitVec 32) (k0_hw20 : k0_chk20 v60), ∀ a, (k0_off149 v60) a + S1x300.size a ≤ S32000x300.size a := fun v60 k0_hw20 => k0_hw20.2

def k0_off150 (v63 : BitVec 32) : Fin 2 → Nat :=
  let c0_i32_595 : BitVec 32 := 0#32
  ![v63.toNat, 0]

def k0_chk21 (v63 : BitVec 32) : Prop :=
  (∀ a, (k0_off22 v63) a + S1x300.size a ≤ S32000x300.size a) ∧
  (∀ a, (k0_off150 v63) a + S1x300.size a ≤ S32000x300.size a)
instance k0_chk21.dec : ∀ (v63 : BitVec 32), Decidable (k0_chk21 v63) := fun v63 => decidable_of_iff' _ (Iff.of_eq (k0_chk21.eq_1 v63))
theorem k0_off22_inb : ∀ (v63 : BitVec 32) (k0_hw21 : k0_chk21 v63), ∀ a, (k0_off22 v63) a + S1x300.size a ≤ S32000x300.size a := fun v63 k0_hw21 => k0_hw21.1
theorem k0_off150_inb : ∀ (v63 : BitVec 32) (k0_hw21 : k0_chk21 v63), ∀ a, (k0_off150 v63) a + S1x300.size a ≤ S32000x300.size a := fun v63 k0_hw21 => k0_hw21.2

def k0_off151 (v66 : BitVec 32) : Fin 2 → Nat :=
  let c0_i32_599 : BitVec 32 := 0#32
  ![v66.toNat, 0]

def k0_chk22 (v66 : BitVec 32) : Prop :=
  (∀ a, (k0_off23 v66) a + S1x300.size a ≤ S32000x300.size a) ∧
  (∀ a, (k0_off151 v66) a + S1x300.size a ≤ S32000x300.size a)
instance k0_chk22.dec : ∀ (v66 : BitVec 32), Decidable (k0_chk22 v66) := fun v66 => decidable_of_iff' _ (Iff.of_eq (k0_chk22.eq_1 v66))
theorem k0_off23_inb : ∀ (v66 : BitVec 32) (k0_hw22 : k0_chk22 v66), ∀ a, (k0_off23 v66) a + S1x300.size a ≤ S32000x300.size a := fun v66 k0_hw22 => k0_hw22.1
theorem k0_off151_inb : ∀ (v66 : BitVec 32) (k0_hw22 : k0_chk22 v66), ∀ a, (k0_off151 v66) a + S1x300.size a ≤ S32000x300.size a := fun v66 k0_hw22 => k0_hw22.2

def k0_off152 (v69 : BitVec 32) : Fin 2 → Nat :=
  let c0_i32_603 : BitVec 32 := 0#32
  ![v69.toNat, 0]

def k0_chk23 (v69 : BitVec 32) : Prop :=
  (∀ a, (k0_off24 v69) a + S1x300.size a ≤ S32000x300.size a) ∧
  (∀ a, (k0_off152 v69) a + S1x300.size a ≤ S32000x300.size a)
instance k0_chk23.dec : ∀ (v69 : BitVec 32), Decidable (k0_chk23 v69) := fun v69 => decidable_of_iff' _ (Iff.of_eq (k0_chk23.eq_1 v69))
theorem k0_off24_inb : ∀ (v69 : BitVec 32) (k0_hw23 : k0_chk23 v69), ∀ a, (k0_off24 v69) a + S1x300.size a ≤ S32000x300.size a := fun v69 k0_hw23 => k0_hw23.1
theorem k0_off152_inb : ∀ (v69 : BitVec 32) (k0_hw23 : k0_chk23 v69), ∀ a, (k0_off152 v69) a + S1x300.size a ≤ S32000x300.size a := fun v69 k0_hw23 => k0_hw23.2

def k0_off153 (v72 : BitVec 32) : Fin 2 → Nat :=
  let c0_i32_607 : BitVec 32 := 0#32
  ![v72.toNat, 0]

def k0_chk24 (v72 : BitVec 32) : Prop :=
  (∀ a, (k0_off25 v72) a + S1x300.size a ≤ S32000x300.size a) ∧
  (∀ a, (k0_off153 v72) a + S1x300.size a ≤ S32000x300.size a)
instance k0_chk24.dec : ∀ (v72 : BitVec 32), Decidable (k0_chk24 v72) := fun v72 => decidable_of_iff' _ (Iff.of_eq (k0_chk24.eq_1 v72))
theorem k0_off25_inb : ∀ (v72 : BitVec 32) (k0_hw24 : k0_chk24 v72), ∀ a, (k0_off25 v72) a + S1x300.size a ≤ S32000x300.size a := fun v72 k0_hw24 => k0_hw24.1
theorem k0_off153_inb : ∀ (v72 : BitVec 32) (k0_hw24 : k0_chk24 v72), ∀ a, (k0_off153 v72) a + S1x300.size a ≤ S32000x300.size a := fun v72 k0_hw24 => k0_hw24.2

def k0_off154 (v75 : BitVec 32) : Fin 2 → Nat :=
  let c0_i32_611 : BitVec 32 := 0#32
  ![v75.toNat, 0]

def k0_chk25 (v75 : BitVec 32) : Prop :=
  (∀ a, (k0_off26 v75) a + S1x300.size a ≤ S32000x300.size a) ∧
  (∀ a, (k0_off154 v75) a + S1x300.size a ≤ S32000x300.size a)
instance k0_chk25.dec : ∀ (v75 : BitVec 32), Decidable (k0_chk25 v75) := fun v75 => decidable_of_iff' _ (Iff.of_eq (k0_chk25.eq_1 v75))
theorem k0_off26_inb : ∀ (v75 : BitVec 32) (k0_hw25 : k0_chk25 v75), ∀ a, (k0_off26 v75) a + S1x300.size a ≤ S32000x300.size a := fun v75 k0_hw25 => k0_hw25.1
theorem k0_off154_inb : ∀ (v75 : BitVec 32) (k0_hw25 : k0_chk25 v75), ∀ a, (k0_off154 v75) a + S1x300.size a ≤ S32000x300.size a := fun v75 k0_hw25 => k0_hw25.2

def k0_off155 (v78 : BitVec 32) : Fin 2 → Nat :=
  let c0_i32_615 : BitVec 32 := 0#32
  ![v78.toNat, 0]

def k0_chk26 (v78 : BitVec 32) : Prop :=
  (∀ a, (k0_off27 v78) a + S1x300.size a ≤ S32000x300.size a) ∧
  (∀ a, (k0_off155 v78) a + S1x300.size a ≤ S32000x300.size a)
instance k0_chk26.dec : ∀ (v78 : BitVec 32), Decidable (k0_chk26 v78) := fun v78 => decidable_of_iff' _ (Iff.of_eq (k0_chk26.eq_1 v78))
theorem k0_off27_inb : ∀ (v78 : BitVec 32) (k0_hw26 : k0_chk26 v78), ∀ a, (k0_off27 v78) a + S1x300.size a ≤ S32000x300.size a := fun v78 k0_hw26 => k0_hw26.1
theorem k0_off155_inb : ∀ (v78 : BitVec 32) (k0_hw26 : k0_chk26 v78), ∀ a, (k0_off155 v78) a + S1x300.size a ≤ S32000x300.size a := fun v78 k0_hw26 => k0_hw26.2

def k0_off156 (v81 : BitVec 32) : Fin 2 → Nat :=
  let c0_i32_619 : BitVec 32 := 0#32
  ![v81.toNat, 0]

def k0_chk27 (v81 : BitVec 32) : Prop :=
  (∀ a, (k0_off28 v81) a + S1x300.size a ≤ S32000x300.size a) ∧
  (∀ a, (k0_off156 v81) a + S1x300.size a ≤ S32000x300.size a)
instance k0_chk27.dec : ∀ (v81 : BitVec 32), Decidable (k0_chk27 v81) := fun v81 => decidable_of_iff' _ (Iff.of_eq (k0_chk27.eq_1 v81))
theorem k0_off28_inb : ∀ (v81 : BitVec 32) (k0_hw27 : k0_chk27 v81), ∀ a, (k0_off28 v81) a + S1x300.size a ≤ S32000x300.size a := fun v81 k0_hw27 => k0_hw27.1
theorem k0_off156_inb : ∀ (v81 : BitVec 32) (k0_hw27 : k0_chk27 v81), ∀ a, (k0_off156 v81) a + S1x300.size a ≤ S32000x300.size a := fun v81 k0_hw27 => k0_hw27.2

def k0_off157 (v84 : BitVec 32) : Fin 2 → Nat :=
  let c0_i32_623 : BitVec 32 := 0#32
  ![v84.toNat, 0]

def k0_chk28 (v84 : BitVec 32) : Prop :=
  (∀ a, (k0_off29 v84) a + S1x300.size a ≤ S32000x300.size a) ∧
  (∀ a, (k0_off157 v84) a + S1x300.size a ≤ S32000x300.size a)
instance k0_chk28.dec : ∀ (v84 : BitVec 32), Decidable (k0_chk28 v84) := fun v84 => decidable_of_iff' _ (Iff.of_eq (k0_chk28.eq_1 v84))
theorem k0_off29_inb : ∀ (v84 : BitVec 32) (k0_hw28 : k0_chk28 v84), ∀ a, (k0_off29 v84) a + S1x300.size a ≤ S32000x300.size a := fun v84 k0_hw28 => k0_hw28.1
theorem k0_off157_inb : ∀ (v84 : BitVec 32) (k0_hw28 : k0_chk28 v84), ∀ a, (k0_off157 v84) a + S1x300.size a ≤ S32000x300.size a := fun v84 k0_hw28 => k0_hw28.2

def k0_off158 (v87 : BitVec 32) : Fin 2 → Nat :=
  let c0_i32_627 : BitVec 32 := 0#32
  ![v87.toNat, 0]

def k0_chk29 (v87 : BitVec 32) : Prop :=
  (∀ a, (k0_off30 v87) a + S1x300.size a ≤ S32000x300.size a) ∧
  (∀ a, (k0_off158 v87) a + S1x300.size a ≤ S32000x300.size a)
instance k0_chk29.dec : ∀ (v87 : BitVec 32), Decidable (k0_chk29 v87) := fun v87 => decidable_of_iff' _ (Iff.of_eq (k0_chk29.eq_1 v87))
theorem k0_off30_inb : ∀ (v87 : BitVec 32) (k0_hw29 : k0_chk29 v87), ∀ a, (k0_off30 v87) a + S1x300.size a ≤ S32000x300.size a := fun v87 k0_hw29 => k0_hw29.1
theorem k0_off158_inb : ∀ (v87 : BitVec 32) (k0_hw29 : k0_chk29 v87), ∀ a, (k0_off158 v87) a + S1x300.size a ≤ S32000x300.size a := fun v87 k0_hw29 => k0_hw29.2

def k0_off159 (v90 : BitVec 32) : Fin 2 → Nat :=
  let c0_i32_631 : BitVec 32 := 0#32
  ![v90.toNat, 0]

def k0_chk30 (v90 : BitVec 32) : Prop :=
  (∀ a, (k0_off31 v90) a + S1x300.size a ≤ S32000x300.size a) ∧
  (∀ a, (k0_off159 v90) a + S1x300.size a ≤ S32000x300.size a)
instance k0_chk30.dec : ∀ (v90 : BitVec 32), Decidable (k0_chk30 v90) := fun v90 => decidable_of_iff' _ (Iff.of_eq (k0_chk30.eq_1 v90))
theorem k0_off31_inb : ∀ (v90 : BitVec 32) (k0_hw30 : k0_chk30 v90), ∀ a, (k0_off31 v90) a + S1x300.size a ≤ S32000x300.size a := fun v90 k0_hw30 => k0_hw30.1
theorem k0_off159_inb : ∀ (v90 : BitVec 32) (k0_hw30 : k0_chk30 v90), ∀ a, (k0_off159 v90) a + S1x300.size a ≤ S32000x300.size a := fun v90 k0_hw30 => k0_hw30.2

def k0_off160 (v93 : BitVec 32) : Fin 2 → Nat :=
  let c0_i32_635 : BitVec 32 := 0#32
  ![v93.toNat, 0]

def k0_chk31 (v93 : BitVec 32) : Prop :=
  (∀ a, (k0_off32 v93) a + S1x300.size a ≤ S32000x300.size a) ∧
  (∀ a, (k0_off160 v93) a + S1x300.size a ≤ S32000x300.size a)
instance k0_chk31.dec : ∀ (v93 : BitVec 32), Decidable (k0_chk31 v93) := fun v93 => decidable_of_iff' _ (Iff.of_eq (k0_chk31.eq_1 v93))
theorem k0_off32_inb : ∀ (v93 : BitVec 32) (k0_hw31 : k0_chk31 v93), ∀ a, (k0_off32 v93) a + S1x300.size a ≤ S32000x300.size a := fun v93 k0_hw31 => k0_hw31.1
theorem k0_off160_inb : ∀ (v93 : BitVec 32) (k0_hw31 : k0_chk31 v93), ∀ a, (k0_off160 v93) a + S1x300.size a ≤ S32000x300.size a := fun v93 k0_hw31 => k0_hw31.2

def k0_off161 (v96 : BitVec 32) : Fin 2 → Nat :=
  let c0_i32_639 : BitVec 32 := 0#32
  ![v96.toNat, 0]

def k0_chk32 (v96 : BitVec 32) : Prop :=
  (∀ a, (k0_off33 v96) a + S1x300.size a ≤ S32000x300.size a) ∧
  (∀ a, (k0_off161 v96) a + S1x300.size a ≤ S32000x300.size a)
instance k0_chk32.dec : ∀ (v96 : BitVec 32), Decidable (k0_chk32 v96) := fun v96 => decidable_of_iff' _ (Iff.of_eq (k0_chk32.eq_1 v96))
theorem k0_off33_inb : ∀ (v96 : BitVec 32) (k0_hw32 : k0_chk32 v96), ∀ a, (k0_off33 v96) a + S1x300.size a ≤ S32000x300.size a := fun v96 k0_hw32 => k0_hw32.1
theorem k0_off161_inb : ∀ (v96 : BitVec 32) (k0_hw32 : k0_chk32 v96), ∀ a, (k0_off161 v96) a + S1x300.size a ≤ S32000x300.size a := fun v96 k0_hw32 => k0_hw32.2

def k0_off162 (v99 : BitVec 32) : Fin 2 → Nat :=
  let c0_i32_643 : BitVec 32 := 0#32
  ![v99.toNat, 0]

def k0_chk33 (v99 : BitVec 32) : Prop :=
  (∀ a, (k0_off34 v99) a + S1x300.size a ≤ S32000x300.size a) ∧
  (∀ a, (k0_off162 v99) a + S1x300.size a ≤ S32000x300.size a)
instance k0_chk33.dec : ∀ (v99 : BitVec 32), Decidable (k0_chk33 v99) := fun v99 => decidable_of_iff' _ (Iff.of_eq (k0_chk33.eq_1 v99))
theorem k0_off34_inb : ∀ (v99 : BitVec 32) (k0_hw33 : k0_chk33 v99), ∀ a, (k0_off34 v99) a + S1x300.size a ≤ S32000x300.size a := fun v99 k0_hw33 => k0_hw33.1
theorem k0_off162_inb : ∀ (v99 : BitVec 32) (k0_hw33 : k0_chk33 v99), ∀ a, (k0_off162 v99) a + S1x300.size a ≤ S32000x300.size a := fun v99 k0_hw33 => k0_hw33.2

def k0_off163 (v102 : BitVec 32) : Fin 2 → Nat :=
  let c0_i32_647 : BitVec 32 := 0#32
  ![v102.toNat, 0]

def k0_chk34 (v102 : BitVec 32) : Prop :=
  (∀ a, (k0_off35 v102) a + S1x300.size a ≤ S32000x300.size a) ∧
  (∀ a, (k0_off163 v102) a + S1x300.size a ≤ S32000x300.size a)
instance k0_chk34.dec : ∀ (v102 : BitVec 32), Decidable (k0_chk34 v102) := fun v102 => decidable_of_iff' _ (Iff.of_eq (k0_chk34.eq_1 v102))
theorem k0_off35_inb : ∀ (v102 : BitVec 32) (k0_hw34 : k0_chk34 v102), ∀ a, (k0_off35 v102) a + S1x300.size a ≤ S32000x300.size a := fun v102 k0_hw34 => k0_hw34.1
theorem k0_off163_inb : ∀ (v102 : BitVec 32) (k0_hw34 : k0_chk34 v102), ∀ a, (k0_off163 v102) a + S1x300.size a ≤ S32000x300.size a := fun v102 k0_hw34 => k0_hw34.2

def k0_off164 (v105 : BitVec 32) : Fin 2 → Nat :=
  let c0_i32_651 : BitVec 32 := 0#32
  ![v105.toNat, 0]

def k0_chk35 (v105 : BitVec 32) : Prop :=
  (∀ a, (k0_off36 v105) a + S1x300.size a ≤ S32000x300.size a) ∧
  (∀ a, (k0_off164 v105) a + S1x300.size a ≤ S32000x300.size a)
instance k0_chk35.dec : ∀ (v105 : BitVec 32), Decidable (k0_chk35 v105) := fun v105 => decidable_of_iff' _ (Iff.of_eq (k0_chk35.eq_1 v105))
theorem k0_off36_inb : ∀ (v105 : BitVec 32) (k0_hw35 : k0_chk35 v105), ∀ a, (k0_off36 v105) a + S1x300.size a ≤ S32000x300.size a := fun v105 k0_hw35 => k0_hw35.1
theorem k0_off164_inb : ∀ (v105 : BitVec 32) (k0_hw35 : k0_chk35 v105), ∀ a, (k0_off164 v105) a + S1x300.size a ≤ S32000x300.size a := fun v105 k0_hw35 => k0_hw35.2

def k0_off165 (v108 : BitVec 32) : Fin 2 → Nat :=
  let c0_i32_655 : BitVec 32 := 0#32
  ![v108.toNat, 0]

def k0_chk36 (v108 : BitVec 32) : Prop :=
  (∀ a, (k0_off37 v108) a + S1x300.size a ≤ S32000x300.size a) ∧
  (∀ a, (k0_off165 v108) a + S1x300.size a ≤ S32000x300.size a)
instance k0_chk36.dec : ∀ (v108 : BitVec 32), Decidable (k0_chk36 v108) := fun v108 => decidable_of_iff' _ (Iff.of_eq (k0_chk36.eq_1 v108))
theorem k0_off37_inb : ∀ (v108 : BitVec 32) (k0_hw36 : k0_chk36 v108), ∀ a, (k0_off37 v108) a + S1x300.size a ≤ S32000x300.size a := fun v108 k0_hw36 => k0_hw36.1
theorem k0_off165_inb : ∀ (v108 : BitVec 32) (k0_hw36 : k0_chk36 v108), ∀ a, (k0_off165 v108) a + S1x300.size a ≤ S32000x300.size a := fun v108 k0_hw36 => k0_hw36.2

def k0_off166 (v111 : BitVec 32) : Fin 2 → Nat :=
  let c0_i32_659 : BitVec 32 := 0#32
  ![v111.toNat, 0]

def k0_chk37 (v111 : BitVec 32) : Prop :=
  (∀ a, (k0_off38 v111) a + S1x300.size a ≤ S32000x300.size a) ∧
  (∀ a, (k0_off166 v111) a + S1x300.size a ≤ S32000x300.size a)
instance k0_chk37.dec : ∀ (v111 : BitVec 32), Decidable (k0_chk37 v111) := fun v111 => decidable_of_iff' _ (Iff.of_eq (k0_chk37.eq_1 v111))
theorem k0_off38_inb : ∀ (v111 : BitVec 32) (k0_hw37 : k0_chk37 v111), ∀ a, (k0_off38 v111) a + S1x300.size a ≤ S32000x300.size a := fun v111 k0_hw37 => k0_hw37.1
theorem k0_off166_inb : ∀ (v111 : BitVec 32) (k0_hw37 : k0_chk37 v111), ∀ a, (k0_off166 v111) a + S1x300.size a ≤ S32000x300.size a := fun v111 k0_hw37 => k0_hw37.2

def k0_off167 (v114 : BitVec 32) : Fin 2 → Nat :=
  let c0_i32_663 : BitVec 32 := 0#32
  ![v114.toNat, 0]

def k0_chk38 (v114 : BitVec 32) : Prop :=
  (∀ a, (k0_off39 v114) a + S1x300.size a ≤ S32000x300.size a) ∧
  (∀ a, (k0_off167 v114) a + S1x300.size a ≤ S32000x300.size a)
instance k0_chk38.dec : ∀ (v114 : BitVec 32), Decidable (k0_chk38 v114) := fun v114 => decidable_of_iff' _ (Iff.of_eq (k0_chk38.eq_1 v114))
theorem k0_off39_inb : ∀ (v114 : BitVec 32) (k0_hw38 : k0_chk38 v114), ∀ a, (k0_off39 v114) a + S1x300.size a ≤ S32000x300.size a := fun v114 k0_hw38 => k0_hw38.1
theorem k0_off167_inb : ∀ (v114 : BitVec 32) (k0_hw38 : k0_chk38 v114), ∀ a, (k0_off167 v114) a + S1x300.size a ≤ S32000x300.size a := fun v114 k0_hw38 => k0_hw38.2

def k0_off168 (v117 : BitVec 32) : Fin 2 → Nat :=
  let c0_i32_667 : BitVec 32 := 0#32
  ![v117.toNat, 0]

def k0_chk39 (v117 : BitVec 32) : Prop :=
  (∀ a, (k0_off40 v117) a + S1x300.size a ≤ S32000x300.size a) ∧
  (∀ a, (k0_off168 v117) a + S1x300.size a ≤ S32000x300.size a)
instance k0_chk39.dec : ∀ (v117 : BitVec 32), Decidable (k0_chk39 v117) := fun v117 => decidable_of_iff' _ (Iff.of_eq (k0_chk39.eq_1 v117))
theorem k0_off40_inb : ∀ (v117 : BitVec 32) (k0_hw39 : k0_chk39 v117), ∀ a, (k0_off40 v117) a + S1x300.size a ≤ S32000x300.size a := fun v117 k0_hw39 => k0_hw39.1
theorem k0_off168_inb : ∀ (v117 : BitVec 32) (k0_hw39 : k0_chk39 v117), ∀ a, (k0_off168 v117) a + S1x300.size a ≤ S32000x300.size a := fun v117 k0_hw39 => k0_hw39.2

def k0_off169 (v120 : BitVec 32) : Fin 2 → Nat :=
  let c0_i32_671 : BitVec 32 := 0#32
  ![v120.toNat, 0]

def k0_chk40 (v120 : BitVec 32) : Prop :=
  (∀ a, (k0_off41 v120) a + S1x300.size a ≤ S32000x300.size a) ∧
  (∀ a, (k0_off169 v120) a + S1x300.size a ≤ S32000x300.size a)
instance k0_chk40.dec : ∀ (v120 : BitVec 32), Decidable (k0_chk40 v120) := fun v120 => decidable_of_iff' _ (Iff.of_eq (k0_chk40.eq_1 v120))
theorem k0_off41_inb : ∀ (v120 : BitVec 32) (k0_hw40 : k0_chk40 v120), ∀ a, (k0_off41 v120) a + S1x300.size a ≤ S32000x300.size a := fun v120 k0_hw40 => k0_hw40.1
theorem k0_off169_inb : ∀ (v120 : BitVec 32) (k0_hw40 : k0_chk40 v120), ∀ a, (k0_off169 v120) a + S1x300.size a ≤ S32000x300.size a := fun v120 k0_hw40 => k0_hw40.2

def k0_off170 (v123 : BitVec 32) : Fin 2 → Nat :=
  let c0_i32_675 : BitVec 32 := 0#32
  ![v123.toNat, 0]

def k0_chk41 (v123 : BitVec 32) : Prop :=
  (∀ a, (k0_off42 v123) a + S1x300.size a ≤ S32000x300.size a) ∧
  (∀ a, (k0_off170 v123) a + S1x300.size a ≤ S32000x300.size a)
instance k0_chk41.dec : ∀ (v123 : BitVec 32), Decidable (k0_chk41 v123) := fun v123 => decidable_of_iff' _ (Iff.of_eq (k0_chk41.eq_1 v123))
theorem k0_off42_inb : ∀ (v123 : BitVec 32) (k0_hw41 : k0_chk41 v123), ∀ a, (k0_off42 v123) a + S1x300.size a ≤ S32000x300.size a := fun v123 k0_hw41 => k0_hw41.1
theorem k0_off170_inb : ∀ (v123 : BitVec 32) (k0_hw41 : k0_chk41 v123), ∀ a, (k0_off170 v123) a + S1x300.size a ≤ S32000x300.size a := fun v123 k0_hw41 => k0_hw41.2

def k0_off171 (v126 : BitVec 32) : Fin 2 → Nat :=
  let c0_i32_679 : BitVec 32 := 0#32
  ![v126.toNat, 0]

def k0_chk42 (v126 : BitVec 32) : Prop :=
  (∀ a, (k0_off43 v126) a + S1x300.size a ≤ S32000x300.size a) ∧
  (∀ a, (k0_off171 v126) a + S1x300.size a ≤ S32000x300.size a)
instance k0_chk42.dec : ∀ (v126 : BitVec 32), Decidable (k0_chk42 v126) := fun v126 => decidable_of_iff' _ (Iff.of_eq (k0_chk42.eq_1 v126))
theorem k0_off43_inb : ∀ (v126 : BitVec 32) (k0_hw42 : k0_chk42 v126), ∀ a, (k0_off43 v126) a + S1x300.size a ≤ S32000x300.size a := fun v126 k0_hw42 => k0_hw42.1
theorem k0_off171_inb : ∀ (v126 : BitVec 32) (k0_hw42 : k0_chk42 v126), ∀ a, (k0_off171 v126) a + S1x300.size a ≤ S32000x300.size a := fun v126 k0_hw42 => k0_hw42.2

def k0_off172 (v129 : BitVec 32) : Fin 2 → Nat :=
  let c0_i32_683 : BitVec 32 := 0#32
  ![v129.toNat, 0]

def k0_chk43 (v129 : BitVec 32) : Prop :=
  (∀ a, (k0_off44 v129) a + S1x300.size a ≤ S32000x300.size a) ∧
  (∀ a, (k0_off172 v129) a + S1x300.size a ≤ S32000x300.size a)
instance k0_chk43.dec : ∀ (v129 : BitVec 32), Decidable (k0_chk43 v129) := fun v129 => decidable_of_iff' _ (Iff.of_eq (k0_chk43.eq_1 v129))
theorem k0_off44_inb : ∀ (v129 : BitVec 32) (k0_hw43 : k0_chk43 v129), ∀ a, (k0_off44 v129) a + S1x300.size a ≤ S32000x300.size a := fun v129 k0_hw43 => k0_hw43.1
theorem k0_off172_inb : ∀ (v129 : BitVec 32) (k0_hw43 : k0_chk43 v129), ∀ a, (k0_off172 v129) a + S1x300.size a ≤ S32000x300.size a := fun v129 k0_hw43 => k0_hw43.2

def k0_off173 (v132 : BitVec 32) : Fin 2 → Nat :=
  let c0_i32_687 : BitVec 32 := 0#32
  ![v132.toNat, 0]

def k0_chk44 (v132 : BitVec 32) : Prop :=
  (∀ a, (k0_off45 v132) a + S1x300.size a ≤ S32000x300.size a) ∧
  (∀ a, (k0_off173 v132) a + S1x300.size a ≤ S32000x300.size a)
instance k0_chk44.dec : ∀ (v132 : BitVec 32), Decidable (k0_chk44 v132) := fun v132 => decidable_of_iff' _ (Iff.of_eq (k0_chk44.eq_1 v132))
theorem k0_off45_inb : ∀ (v132 : BitVec 32) (k0_hw44 : k0_chk44 v132), ∀ a, (k0_off45 v132) a + S1x300.size a ≤ S32000x300.size a := fun v132 k0_hw44 => k0_hw44.1
theorem k0_off173_inb : ∀ (v132 : BitVec 32) (k0_hw44 : k0_chk44 v132), ∀ a, (k0_off173 v132) a + S1x300.size a ≤ S32000x300.size a := fun v132 k0_hw44 => k0_hw44.2

def k0_off174 (v135 : BitVec 32) : Fin 2 → Nat :=
  let c0_i32_691 : BitVec 32 := 0#32
  ![v135.toNat, 0]

def k0_chk45 (v135 : BitVec 32) : Prop :=
  (∀ a, (k0_off46 v135) a + S1x300.size a ≤ S32000x300.size a) ∧
  (∀ a, (k0_off174 v135) a + S1x300.size a ≤ S32000x300.size a)
instance k0_chk45.dec : ∀ (v135 : BitVec 32), Decidable (k0_chk45 v135) := fun v135 => decidable_of_iff' _ (Iff.of_eq (k0_chk45.eq_1 v135))
theorem k0_off46_inb : ∀ (v135 : BitVec 32) (k0_hw45 : k0_chk45 v135), ∀ a, (k0_off46 v135) a + S1x300.size a ≤ S32000x300.size a := fun v135 k0_hw45 => k0_hw45.1
theorem k0_off174_inb : ∀ (v135 : BitVec 32) (k0_hw45 : k0_chk45 v135), ∀ a, (k0_off174 v135) a + S1x300.size a ≤ S32000x300.size a := fun v135 k0_hw45 => k0_hw45.2

def k0_off175 (v138 : BitVec 32) : Fin 2 → Nat :=
  let c0_i32_695 : BitVec 32 := 0#32
  ![v138.toNat, 0]

def k0_chk46 (v138 : BitVec 32) : Prop :=
  (∀ a, (k0_off47 v138) a + S1x300.size a ≤ S32000x300.size a) ∧
  (∀ a, (k0_off175 v138) a + S1x300.size a ≤ S32000x300.size a)
instance k0_chk46.dec : ∀ (v138 : BitVec 32), Decidable (k0_chk46 v138) := fun v138 => decidable_of_iff' _ (Iff.of_eq (k0_chk46.eq_1 v138))
theorem k0_off47_inb : ∀ (v138 : BitVec 32) (k0_hw46 : k0_chk46 v138), ∀ a, (k0_off47 v138) a + S1x300.size a ≤ S32000x300.size a := fun v138 k0_hw46 => k0_hw46.1
theorem k0_off175_inb : ∀ (v138 : BitVec 32) (k0_hw46 : k0_chk46 v138), ∀ a, (k0_off175 v138) a + S1x300.size a ≤ S32000x300.size a := fun v138 k0_hw46 => k0_hw46.2

def k0_off176 (v141 : BitVec 32) : Fin 2 → Nat :=
  let c0_i32_699 : BitVec 32 := 0#32
  ![v141.toNat, 0]

def k0_chk47 (v141 : BitVec 32) : Prop :=
  (∀ a, (k0_off48 v141) a + S1x300.size a ≤ S32000x300.size a) ∧
  (∀ a, (k0_off176 v141) a + S1x300.size a ≤ S32000x300.size a)
instance k0_chk47.dec : ∀ (v141 : BitVec 32), Decidable (k0_chk47 v141) := fun v141 => decidable_of_iff' _ (Iff.of_eq (k0_chk47.eq_1 v141))
theorem k0_off48_inb : ∀ (v141 : BitVec 32) (k0_hw47 : k0_chk47 v141), ∀ a, (k0_off48 v141) a + S1x300.size a ≤ S32000x300.size a := fun v141 k0_hw47 => k0_hw47.1
theorem k0_off176_inb : ∀ (v141 : BitVec 32) (k0_hw47 : k0_chk47 v141), ∀ a, (k0_off176 v141) a + S1x300.size a ≤ S32000x300.size a := fun v141 k0_hw47 => k0_hw47.2

def k0_off177 (v144 : BitVec 32) : Fin 2 → Nat :=
  let c0_i32_703 : BitVec 32 := 0#32
  ![v144.toNat, 0]

def k0_chk48 (v144 : BitVec 32) : Prop :=
  (∀ a, (k0_off49 v144) a + S1x300.size a ≤ S32000x300.size a) ∧
  (∀ a, (k0_off177 v144) a + S1x300.size a ≤ S32000x300.size a)
instance k0_chk48.dec : ∀ (v144 : BitVec 32), Decidable (k0_chk48 v144) := fun v144 => decidable_of_iff' _ (Iff.of_eq (k0_chk48.eq_1 v144))
theorem k0_off49_inb : ∀ (v144 : BitVec 32) (k0_hw48 : k0_chk48 v144), ∀ a, (k0_off49 v144) a + S1x300.size a ≤ S32000x300.size a := fun v144 k0_hw48 => k0_hw48.1
theorem k0_off177_inb : ∀ (v144 : BitVec 32) (k0_hw48 : k0_chk48 v144), ∀ a, (k0_off177 v144) a + S1x300.size a ≤ S32000x300.size a := fun v144 k0_hw48 => k0_hw48.2

def k0_off178 (v147 : BitVec 32) : Fin 2 → Nat :=
  let c0_i32_707 : BitVec 32 := 0#32
  ![v147.toNat, 0]

def k0_chk49 (v147 : BitVec 32) : Prop :=
  (∀ a, (k0_off50 v147) a + S1x300.size a ≤ S32000x300.size a) ∧
  (∀ a, (k0_off178 v147) a + S1x300.size a ≤ S32000x300.size a)
instance k0_chk49.dec : ∀ (v147 : BitVec 32), Decidable (k0_chk49 v147) := fun v147 => decidable_of_iff' _ (Iff.of_eq (k0_chk49.eq_1 v147))
theorem k0_off50_inb : ∀ (v147 : BitVec 32) (k0_hw49 : k0_chk49 v147), ∀ a, (k0_off50 v147) a + S1x300.size a ≤ S32000x300.size a := fun v147 k0_hw49 => k0_hw49.1
theorem k0_off178_inb : ∀ (v147 : BitVec 32) (k0_hw49 : k0_chk49 v147), ∀ a, (k0_off178 v147) a + S1x300.size a ≤ S32000x300.size a := fun v147 k0_hw49 => k0_hw49.2

def k0_off179 (v150 : BitVec 32) : Fin 2 → Nat :=
  let c0_i32_711 : BitVec 32 := 0#32
  ![v150.toNat, 0]

def k0_chk50 (v150 : BitVec 32) : Prop :=
  (∀ a, (k0_off51 v150) a + S1x300.size a ≤ S32000x300.size a) ∧
  (∀ a, (k0_off179 v150) a + S1x300.size a ≤ S32000x300.size a)
instance k0_chk50.dec : ∀ (v150 : BitVec 32), Decidable (k0_chk50 v150) := fun v150 => decidable_of_iff' _ (Iff.of_eq (k0_chk50.eq_1 v150))
theorem k0_off51_inb : ∀ (v150 : BitVec 32) (k0_hw50 : k0_chk50 v150), ∀ a, (k0_off51 v150) a + S1x300.size a ≤ S32000x300.size a := fun v150 k0_hw50 => k0_hw50.1
theorem k0_off179_inb : ∀ (v150 : BitVec 32) (k0_hw50 : k0_chk50 v150), ∀ a, (k0_off179 v150) a + S1x300.size a ≤ S32000x300.size a := fun v150 k0_hw50 => k0_hw50.2

def k0_off180 (v153 : BitVec 32) : Fin 2 → Nat :=
  let c0_i32_715 : BitVec 32 := 0#32
  ![v153.toNat, 0]

def k0_chk51 (v153 : BitVec 32) : Prop :=
  (∀ a, (k0_off52 v153) a + S1x300.size a ≤ S32000x300.size a) ∧
  (∀ a, (k0_off180 v153) a + S1x300.size a ≤ S32000x300.size a)
instance k0_chk51.dec : ∀ (v153 : BitVec 32), Decidable (k0_chk51 v153) := fun v153 => decidable_of_iff' _ (Iff.of_eq (k0_chk51.eq_1 v153))
theorem k0_off52_inb : ∀ (v153 : BitVec 32) (k0_hw51 : k0_chk51 v153), ∀ a, (k0_off52 v153) a + S1x300.size a ≤ S32000x300.size a := fun v153 k0_hw51 => k0_hw51.1
theorem k0_off180_inb : ∀ (v153 : BitVec 32) (k0_hw51 : k0_chk51 v153), ∀ a, (k0_off180 v153) a + S1x300.size a ≤ S32000x300.size a := fun v153 k0_hw51 => k0_hw51.2

def k0_off181 (v156 : BitVec 32) : Fin 2 → Nat :=
  let c0_i32_719 : BitVec 32 := 0#32
  ![v156.toNat, 0]

def k0_chk52 (v156 : BitVec 32) : Prop :=
  (∀ a, (k0_off53 v156) a + S1x300.size a ≤ S32000x300.size a) ∧
  (∀ a, (k0_off181 v156) a + S1x300.size a ≤ S32000x300.size a)
instance k0_chk52.dec : ∀ (v156 : BitVec 32), Decidable (k0_chk52 v156) := fun v156 => decidable_of_iff' _ (Iff.of_eq (k0_chk52.eq_1 v156))
theorem k0_off53_inb : ∀ (v156 : BitVec 32) (k0_hw52 : k0_chk52 v156), ∀ a, (k0_off53 v156) a + S1x300.size a ≤ S32000x300.size a := fun v156 k0_hw52 => k0_hw52.1
theorem k0_off181_inb : ∀ (v156 : BitVec 32) (k0_hw52 : k0_chk52 v156), ∀ a, (k0_off181 v156) a + S1x300.size a ≤ S32000x300.size a := fun v156 k0_hw52 => k0_hw52.2

def k0_off182 (v159 : BitVec 32) : Fin 2 → Nat :=
  let c0_i32_723 : BitVec 32 := 0#32
  ![v159.toNat, 0]

def k0_chk53 (v159 : BitVec 32) : Prop :=
  (∀ a, (k0_off54 v159) a + S1x300.size a ≤ S32000x300.size a) ∧
  (∀ a, (k0_off182 v159) a + S1x300.size a ≤ S32000x300.size a)
instance k0_chk53.dec : ∀ (v159 : BitVec 32), Decidable (k0_chk53 v159) := fun v159 => decidable_of_iff' _ (Iff.of_eq (k0_chk53.eq_1 v159))
theorem k0_off54_inb : ∀ (v159 : BitVec 32) (k0_hw53 : k0_chk53 v159), ∀ a, (k0_off54 v159) a + S1x300.size a ≤ S32000x300.size a := fun v159 k0_hw53 => k0_hw53.1
theorem k0_off182_inb : ∀ (v159 : BitVec 32) (k0_hw53 : k0_chk53 v159), ∀ a, (k0_off182 v159) a + S1x300.size a ≤ S32000x300.size a := fun v159 k0_hw53 => k0_hw53.2

def k0_off183 (v162 : BitVec 32) : Fin 2 → Nat :=
  let c0_i32_727 : BitVec 32 := 0#32
  ![v162.toNat, 0]

def k0_chk54 (v162 : BitVec 32) : Prop :=
  (∀ a, (k0_off55 v162) a + S1x300.size a ≤ S32000x300.size a) ∧
  (∀ a, (k0_off183 v162) a + S1x300.size a ≤ S32000x300.size a)
instance k0_chk54.dec : ∀ (v162 : BitVec 32), Decidable (k0_chk54 v162) := fun v162 => decidable_of_iff' _ (Iff.of_eq (k0_chk54.eq_1 v162))
theorem k0_off55_inb : ∀ (v162 : BitVec 32) (k0_hw54 : k0_chk54 v162), ∀ a, (k0_off55 v162) a + S1x300.size a ≤ S32000x300.size a := fun v162 k0_hw54 => k0_hw54.1
theorem k0_off183_inb : ∀ (v162 : BitVec 32) (k0_hw54 : k0_chk54 v162), ∀ a, (k0_off183 v162) a + S1x300.size a ≤ S32000x300.size a := fun v162 k0_hw54 => k0_hw54.2

def k0_off184 (v165 : BitVec 32) : Fin 2 → Nat :=
  let c0_i32_731 : BitVec 32 := 0#32
  ![v165.toNat, 0]

def k0_chk55 (v165 : BitVec 32) : Prop :=
  (∀ a, (k0_off56 v165) a + S1x300.size a ≤ S32000x300.size a) ∧
  (∀ a, (k0_off184 v165) a + S1x300.size a ≤ S32000x300.size a)
instance k0_chk55.dec : ∀ (v165 : BitVec 32), Decidable (k0_chk55 v165) := fun v165 => decidable_of_iff' _ (Iff.of_eq (k0_chk55.eq_1 v165))
theorem k0_off56_inb : ∀ (v165 : BitVec 32) (k0_hw55 : k0_chk55 v165), ∀ a, (k0_off56 v165) a + S1x300.size a ≤ S32000x300.size a := fun v165 k0_hw55 => k0_hw55.1
theorem k0_off184_inb : ∀ (v165 : BitVec 32) (k0_hw55 : k0_chk55 v165), ∀ a, (k0_off184 v165) a + S1x300.size a ≤ S32000x300.size a := fun v165 k0_hw55 => k0_hw55.2

def k0_off185 (v168 : BitVec 32) : Fin 2 → Nat :=
  let c0_i32_735 : BitVec 32 := 0#32
  ![v168.toNat, 0]

def k0_chk56 (v168 : BitVec 32) : Prop :=
  (∀ a, (k0_off57 v168) a + S1x300.size a ≤ S32000x300.size a) ∧
  (∀ a, (k0_off185 v168) a + S1x300.size a ≤ S32000x300.size a)
instance k0_chk56.dec : ∀ (v168 : BitVec 32), Decidable (k0_chk56 v168) := fun v168 => decidable_of_iff' _ (Iff.of_eq (k0_chk56.eq_1 v168))
theorem k0_off57_inb : ∀ (v168 : BitVec 32) (k0_hw56 : k0_chk56 v168), ∀ a, (k0_off57 v168) a + S1x300.size a ≤ S32000x300.size a := fun v168 k0_hw56 => k0_hw56.1
theorem k0_off185_inb : ∀ (v168 : BitVec 32) (k0_hw56 : k0_chk56 v168), ∀ a, (k0_off185 v168) a + S1x300.size a ≤ S32000x300.size a := fun v168 k0_hw56 => k0_hw56.2

def k0_off186 (v171 : BitVec 32) : Fin 2 → Nat :=
  let c0_i32_739 : BitVec 32 := 0#32
  ![v171.toNat, 0]

def k0_chk57 (v171 : BitVec 32) : Prop :=
  (∀ a, (k0_off58 v171) a + S1x300.size a ≤ S32000x300.size a) ∧
  (∀ a, (k0_off186 v171) a + S1x300.size a ≤ S32000x300.size a)
instance k0_chk57.dec : ∀ (v171 : BitVec 32), Decidable (k0_chk57 v171) := fun v171 => decidable_of_iff' _ (Iff.of_eq (k0_chk57.eq_1 v171))
theorem k0_off58_inb : ∀ (v171 : BitVec 32) (k0_hw57 : k0_chk57 v171), ∀ a, (k0_off58 v171) a + S1x300.size a ≤ S32000x300.size a := fun v171 k0_hw57 => k0_hw57.1
theorem k0_off186_inb : ∀ (v171 : BitVec 32) (k0_hw57 : k0_chk57 v171), ∀ a, (k0_off186 v171) a + S1x300.size a ≤ S32000x300.size a := fun v171 k0_hw57 => k0_hw57.2

def k0_off187 (v174 : BitVec 32) : Fin 2 → Nat :=
  let c0_i32_743 : BitVec 32 := 0#32
  ![v174.toNat, 0]

def k0_chk58 (v174 : BitVec 32) : Prop :=
  (∀ a, (k0_off59 v174) a + S1x300.size a ≤ S32000x300.size a) ∧
  (∀ a, (k0_off187 v174) a + S1x300.size a ≤ S32000x300.size a)
instance k0_chk58.dec : ∀ (v174 : BitVec 32), Decidable (k0_chk58 v174) := fun v174 => decidable_of_iff' _ (Iff.of_eq (k0_chk58.eq_1 v174))
theorem k0_off59_inb : ∀ (v174 : BitVec 32) (k0_hw58 : k0_chk58 v174), ∀ a, (k0_off59 v174) a + S1x300.size a ≤ S32000x300.size a := fun v174 k0_hw58 => k0_hw58.1
theorem k0_off187_inb : ∀ (v174 : BitVec 32) (k0_hw58 : k0_chk58 v174), ∀ a, (k0_off187 v174) a + S1x300.size a ≤ S32000x300.size a := fun v174 k0_hw58 => k0_hw58.2

def k0_off188 (v177 : BitVec 32) : Fin 2 → Nat :=
  let c0_i32_747 : BitVec 32 := 0#32
  ![v177.toNat, 0]

def k0_chk59 (v177 : BitVec 32) : Prop :=
  (∀ a, (k0_off60 v177) a + S1x300.size a ≤ S32000x300.size a) ∧
  (∀ a, (k0_off188 v177) a + S1x300.size a ≤ S32000x300.size a)
instance k0_chk59.dec : ∀ (v177 : BitVec 32), Decidable (k0_chk59 v177) := fun v177 => decidable_of_iff' _ (Iff.of_eq (k0_chk59.eq_1 v177))
theorem k0_off60_inb : ∀ (v177 : BitVec 32) (k0_hw59 : k0_chk59 v177), ∀ a, (k0_off60 v177) a + S1x300.size a ≤ S32000x300.size a := fun v177 k0_hw59 => k0_hw59.1
theorem k0_off188_inb : ∀ (v177 : BitVec 32) (k0_hw59 : k0_chk59 v177), ∀ a, (k0_off188 v177) a + S1x300.size a ≤ S32000x300.size a := fun v177 k0_hw59 => k0_hw59.2

def k0_off189 (v180 : BitVec 32) : Fin 2 → Nat :=
  let c0_i32_751 : BitVec 32 := 0#32
  ![v180.toNat, 0]

def k0_chk60 (v180 : BitVec 32) : Prop :=
  (∀ a, (k0_off61 v180) a + S1x300.size a ≤ S32000x300.size a) ∧
  (∀ a, (k0_off189 v180) a + S1x300.size a ≤ S32000x300.size a)
instance k0_chk60.dec : ∀ (v180 : BitVec 32), Decidable (k0_chk60 v180) := fun v180 => decidable_of_iff' _ (Iff.of_eq (k0_chk60.eq_1 v180))
theorem k0_off61_inb : ∀ (v180 : BitVec 32) (k0_hw60 : k0_chk60 v180), ∀ a, (k0_off61 v180) a + S1x300.size a ≤ S32000x300.size a := fun v180 k0_hw60 => k0_hw60.1
theorem k0_off189_inb : ∀ (v180 : BitVec 32) (k0_hw60 : k0_chk60 v180), ∀ a, (k0_off189 v180) a + S1x300.size a ≤ S32000x300.size a := fun v180 k0_hw60 => k0_hw60.2

def k0_off190 (v183 : BitVec 32) : Fin 2 → Nat :=
  let c0_i32_755 : BitVec 32 := 0#32
  ![v183.toNat, 0]

def k0_chk61 (v183 : BitVec 32) : Prop :=
  (∀ a, (k0_off62 v183) a + S1x300.size a ≤ S32000x300.size a) ∧
  (∀ a, (k0_off190 v183) a + S1x300.size a ≤ S32000x300.size a)
instance k0_chk61.dec : ∀ (v183 : BitVec 32), Decidable (k0_chk61 v183) := fun v183 => decidable_of_iff' _ (Iff.of_eq (k0_chk61.eq_1 v183))
theorem k0_off62_inb : ∀ (v183 : BitVec 32) (k0_hw61 : k0_chk61 v183), ∀ a, (k0_off62 v183) a + S1x300.size a ≤ S32000x300.size a := fun v183 k0_hw61 => k0_hw61.1
theorem k0_off190_inb : ∀ (v183 : BitVec 32) (k0_hw61 : k0_chk61 v183), ∀ a, (k0_off190 v183) a + S1x300.size a ≤ S32000x300.size a := fun v183 k0_hw61 => k0_hw61.2

def k0_off191 (v186 : BitVec 32) : Fin 2 → Nat :=
  let c0_i32_759 : BitVec 32 := 0#32
  ![v186.toNat, 0]

def k0_chk62 (v186 : BitVec 32) : Prop :=
  (∀ a, (k0_off63 v186) a + S1x300.size a ≤ S32000x300.size a) ∧
  (∀ a, (k0_off191 v186) a + S1x300.size a ≤ S32000x300.size a)
instance k0_chk62.dec : ∀ (v186 : BitVec 32), Decidable (k0_chk62 v186) := fun v186 => decidable_of_iff' _ (Iff.of_eq (k0_chk62.eq_1 v186))
theorem k0_off63_inb : ∀ (v186 : BitVec 32) (k0_hw62 : k0_chk62 v186), ∀ a, (k0_off63 v186) a + S1x300.size a ≤ S32000x300.size a := fun v186 k0_hw62 => k0_hw62.1
theorem k0_off191_inb : ∀ (v186 : BitVec 32) (k0_hw62 : k0_chk62 v186), ∀ a, (k0_off191 v186) a + S1x300.size a ≤ S32000x300.size a := fun v186 k0_hw62 => k0_hw62.2

def k0_off192 (v189 : BitVec 32) : Fin 2 → Nat :=
  let c0_i32_763 : BitVec 32 := 0#32
  ![v189.toNat, 0]

def k0_chk63 (v189 : BitVec 32) : Prop :=
  (∀ a, (k0_off64 v189) a + S1x300.size a ≤ S32000x300.size a) ∧
  (∀ a, (k0_off192 v189) a + S1x300.size a ≤ S32000x300.size a)
instance k0_chk63.dec : ∀ (v189 : BitVec 32), Decidable (k0_chk63 v189) := fun v189 => decidable_of_iff' _ (Iff.of_eq (k0_chk63.eq_1 v189))
theorem k0_off64_inb : ∀ (v189 : BitVec 32) (k0_hw63 : k0_chk63 v189), ∀ a, (k0_off64 v189) a + S1x300.size a ≤ S32000x300.size a := fun v189 k0_hw63 => k0_hw63.1
theorem k0_off192_inb : ∀ (v189 : BitVec 32) (k0_hw63 : k0_chk63 v189), ∀ a, (k0_off192 v189) a + S1x300.size a ≤ S32000x300.size a := fun v189 k0_hw63 => k0_hw63.2

def k0_off193 (v192 : BitVec 32) : Fin 2 → Nat :=
  let c0_i32_767 : BitVec 32 := 0#32
  ![v192.toNat, 0]

def k0_chk64 (v192 : BitVec 32) : Prop :=
  (∀ a, (k0_off65 v192) a + S1x300.size a ≤ S32000x300.size a) ∧
  (∀ a, (k0_off193 v192) a + S1x300.size a ≤ S32000x300.size a)
instance k0_chk64.dec : ∀ (v192 : BitVec 32), Decidable (k0_chk64 v192) := fun v192 => decidable_of_iff' _ (Iff.of_eq (k0_chk64.eq_1 v192))
theorem k0_off65_inb : ∀ (v192 : BitVec 32) (k0_hw64 : k0_chk64 v192), ∀ a, (k0_off65 v192) a + S1x300.size a ≤ S32000x300.size a := fun v192 k0_hw64 => k0_hw64.1
theorem k0_off193_inb : ∀ (v192 : BitVec 32) (k0_hw64 : k0_chk64 v192), ∀ a, (k0_off193 v192) a + S1x300.size a ≤ S32000x300.size a := fun v192 k0_hw64 => k0_hw64.2

def k0_off194 (v195 : BitVec 32) : Fin 2 → Nat :=
  let c0_i32_771 : BitVec 32 := 0#32
  ![v195.toNat, 0]

def k0_chk65 (v195 : BitVec 32) : Prop :=
  (∀ a, (k0_off66 v195) a + S1x300.size a ≤ S32000x300.size a) ∧
  (∀ a, (k0_off194 v195) a + S1x300.size a ≤ S32000x300.size a)
instance k0_chk65.dec : ∀ (v195 : BitVec 32), Decidable (k0_chk65 v195) := fun v195 => decidable_of_iff' _ (Iff.of_eq (k0_chk65.eq_1 v195))
theorem k0_off66_inb : ∀ (v195 : BitVec 32) (k0_hw65 : k0_chk65 v195), ∀ a, (k0_off66 v195) a + S1x300.size a ≤ S32000x300.size a := fun v195 k0_hw65 => k0_hw65.1
theorem k0_off194_inb : ∀ (v195 : BitVec 32) (k0_hw65 : k0_chk65 v195), ∀ a, (k0_off194 v195) a + S1x300.size a ≤ S32000x300.size a := fun v195 k0_hw65 => k0_hw65.2

def k0_off195 (v198 : BitVec 32) : Fin 2 → Nat :=
  let c0_i32_775 : BitVec 32 := 0#32
  ![v198.toNat, 0]

def k0_chk66 (v198 : BitVec 32) : Prop :=
  (∀ a, (k0_off67 v198) a + S1x300.size a ≤ S32000x300.size a) ∧
  (∀ a, (k0_off195 v198) a + S1x300.size a ≤ S32000x300.size a)
instance k0_chk66.dec : ∀ (v198 : BitVec 32), Decidable (k0_chk66 v198) := fun v198 => decidable_of_iff' _ (Iff.of_eq (k0_chk66.eq_1 v198))
theorem k0_off67_inb : ∀ (v198 : BitVec 32) (k0_hw66 : k0_chk66 v198), ∀ a, (k0_off67 v198) a + S1x300.size a ≤ S32000x300.size a := fun v198 k0_hw66 => k0_hw66.1
theorem k0_off195_inb : ∀ (v198 : BitVec 32) (k0_hw66 : k0_chk66 v198), ∀ a, (k0_off195 v198) a + S1x300.size a ≤ S32000x300.size a := fun v198 k0_hw66 => k0_hw66.2

def k0_off196 (v201 : BitVec 32) : Fin 2 → Nat :=
  let c0_i32_779 : BitVec 32 := 0#32
  ![v201.toNat, 0]

def k0_chk67 (v201 : BitVec 32) : Prop :=
  (∀ a, (k0_off68 v201) a + S1x300.size a ≤ S32000x300.size a) ∧
  (∀ a, (k0_off196 v201) a + S1x300.size a ≤ S32000x300.size a)
instance k0_chk67.dec : ∀ (v201 : BitVec 32), Decidable (k0_chk67 v201) := fun v201 => decidable_of_iff' _ (Iff.of_eq (k0_chk67.eq_1 v201))
theorem k0_off68_inb : ∀ (v201 : BitVec 32) (k0_hw67 : k0_chk67 v201), ∀ a, (k0_off68 v201) a + S1x300.size a ≤ S32000x300.size a := fun v201 k0_hw67 => k0_hw67.1
theorem k0_off196_inb : ∀ (v201 : BitVec 32) (k0_hw67 : k0_chk67 v201), ∀ a, (k0_off196 v201) a + S1x300.size a ≤ S32000x300.size a := fun v201 k0_hw67 => k0_hw67.2

def k0_off197 (v204 : BitVec 32) : Fin 2 → Nat :=
  let c0_i32_783 : BitVec 32 := 0#32
  ![v204.toNat, 0]

def k0_chk68 (v204 : BitVec 32) : Prop :=
  (∀ a, (k0_off69 v204) a + S1x300.size a ≤ S32000x300.size a) ∧
  (∀ a, (k0_off197 v204) a + S1x300.size a ≤ S32000x300.size a)
instance k0_chk68.dec : ∀ (v204 : BitVec 32), Decidable (k0_chk68 v204) := fun v204 => decidable_of_iff' _ (Iff.of_eq (k0_chk68.eq_1 v204))
theorem k0_off69_inb : ∀ (v204 : BitVec 32) (k0_hw68 : k0_chk68 v204), ∀ a, (k0_off69 v204) a + S1x300.size a ≤ S32000x300.size a := fun v204 k0_hw68 => k0_hw68.1
theorem k0_off197_inb : ∀ (v204 : BitVec 32) (k0_hw68 : k0_chk68 v204), ∀ a, (k0_off197 v204) a + S1x300.size a ≤ S32000x300.size a := fun v204 k0_hw68 => k0_hw68.2

def k0_off198 (v207 : BitVec 32) : Fin 2 → Nat :=
  let c0_i32_787 : BitVec 32 := 0#32
  ![v207.toNat, 0]

def k0_chk69 (v207 : BitVec 32) : Prop :=
  (∀ a, (k0_off70 v207) a + S1x300.size a ≤ S32000x300.size a) ∧
  (∀ a, (k0_off198 v207) a + S1x300.size a ≤ S32000x300.size a)
instance k0_chk69.dec : ∀ (v207 : BitVec 32), Decidable (k0_chk69 v207) := fun v207 => decidable_of_iff' _ (Iff.of_eq (k0_chk69.eq_1 v207))
theorem k0_off70_inb : ∀ (v207 : BitVec 32) (k0_hw69 : k0_chk69 v207), ∀ a, (k0_off70 v207) a + S1x300.size a ≤ S32000x300.size a := fun v207 k0_hw69 => k0_hw69.1
theorem k0_off198_inb : ∀ (v207 : BitVec 32) (k0_hw69 : k0_chk69 v207), ∀ a, (k0_off198 v207) a + S1x300.size a ≤ S32000x300.size a := fun v207 k0_hw69 => k0_hw69.2

def k0_off199 (v210 : BitVec 32) : Fin 2 → Nat :=
  let c0_i32_791 : BitVec 32 := 0#32
  ![v210.toNat, 0]

def k0_chk70 (v210 : BitVec 32) : Prop :=
  (∀ a, (k0_off71 v210) a + S1x300.size a ≤ S32000x300.size a) ∧
  (∀ a, (k0_off199 v210) a + S1x300.size a ≤ S32000x300.size a)
instance k0_chk70.dec : ∀ (v210 : BitVec 32), Decidable (k0_chk70 v210) := fun v210 => decidable_of_iff' _ (Iff.of_eq (k0_chk70.eq_1 v210))
theorem k0_off71_inb : ∀ (v210 : BitVec 32) (k0_hw70 : k0_chk70 v210), ∀ a, (k0_off71 v210) a + S1x300.size a ≤ S32000x300.size a := fun v210 k0_hw70 => k0_hw70.1
theorem k0_off199_inb : ∀ (v210 : BitVec 32) (k0_hw70 : k0_chk70 v210), ∀ a, (k0_off199 v210) a + S1x300.size a ≤ S32000x300.size a := fun v210 k0_hw70 => k0_hw70.2

def k0_off200 (v213 : BitVec 32) : Fin 2 → Nat :=
  let c0_i32_795 : BitVec 32 := 0#32
  ![v213.toNat, 0]

def k0_chk71 (v213 : BitVec 32) : Prop :=
  (∀ a, (k0_off72 v213) a + S1x300.size a ≤ S32000x300.size a) ∧
  (∀ a, (k0_off200 v213) a + S1x300.size a ≤ S32000x300.size a)
instance k0_chk71.dec : ∀ (v213 : BitVec 32), Decidable (k0_chk71 v213) := fun v213 => decidable_of_iff' _ (Iff.of_eq (k0_chk71.eq_1 v213))
theorem k0_off72_inb : ∀ (v213 : BitVec 32) (k0_hw71 : k0_chk71 v213), ∀ a, (k0_off72 v213) a + S1x300.size a ≤ S32000x300.size a := fun v213 k0_hw71 => k0_hw71.1
theorem k0_off200_inb : ∀ (v213 : BitVec 32) (k0_hw71 : k0_chk71 v213), ∀ a, (k0_off200 v213) a + S1x300.size a ≤ S32000x300.size a := fun v213 k0_hw71 => k0_hw71.2

def k0_off201 (v216 : BitVec 32) : Fin 2 → Nat :=
  let c0_i32_799 : BitVec 32 := 0#32
  ![v216.toNat, 0]

def k0_chk72 (v216 : BitVec 32) : Prop :=
  (∀ a, (k0_off73 v216) a + S1x300.size a ≤ S32000x300.size a) ∧
  (∀ a, (k0_off201 v216) a + S1x300.size a ≤ S32000x300.size a)
instance k0_chk72.dec : ∀ (v216 : BitVec 32), Decidable (k0_chk72 v216) := fun v216 => decidable_of_iff' _ (Iff.of_eq (k0_chk72.eq_1 v216))
theorem k0_off73_inb : ∀ (v216 : BitVec 32) (k0_hw72 : k0_chk72 v216), ∀ a, (k0_off73 v216) a + S1x300.size a ≤ S32000x300.size a := fun v216 k0_hw72 => k0_hw72.1
theorem k0_off201_inb : ∀ (v216 : BitVec 32) (k0_hw72 : k0_chk72 v216), ∀ a, (k0_off201 v216) a + S1x300.size a ≤ S32000x300.size a := fun v216 k0_hw72 => k0_hw72.2

def k0_off202 (v219 : BitVec 32) : Fin 2 → Nat :=
  let c0_i32_803 : BitVec 32 := 0#32
  ![v219.toNat, 0]

def k0_chk73 (v219 : BitVec 32) : Prop :=
  (∀ a, (k0_off74 v219) a + S1x300.size a ≤ S32000x300.size a) ∧
  (∀ a, (k0_off202 v219) a + S1x300.size a ≤ S32000x300.size a)
instance k0_chk73.dec : ∀ (v219 : BitVec 32), Decidable (k0_chk73 v219) := fun v219 => decidable_of_iff' _ (Iff.of_eq (k0_chk73.eq_1 v219))
theorem k0_off74_inb : ∀ (v219 : BitVec 32) (k0_hw73 : k0_chk73 v219), ∀ a, (k0_off74 v219) a + S1x300.size a ≤ S32000x300.size a := fun v219 k0_hw73 => k0_hw73.1
theorem k0_off202_inb : ∀ (v219 : BitVec 32) (k0_hw73 : k0_chk73 v219), ∀ a, (k0_off202 v219) a + S1x300.size a ≤ S32000x300.size a := fun v219 k0_hw73 => k0_hw73.2

def k0_off203 (v222 : BitVec 32) : Fin 2 → Nat :=
  let c0_i32_807 : BitVec 32 := 0#32
  ![v222.toNat, 0]

def k0_chk74 (v222 : BitVec 32) : Prop :=
  (∀ a, (k0_off75 v222) a + S1x300.size a ≤ S32000x300.size a) ∧
  (∀ a, (k0_off203 v222) a + S1x300.size a ≤ S32000x300.size a)
instance k0_chk74.dec : ∀ (v222 : BitVec 32), Decidable (k0_chk74 v222) := fun v222 => decidable_of_iff' _ (Iff.of_eq (k0_chk74.eq_1 v222))
theorem k0_off75_inb : ∀ (v222 : BitVec 32) (k0_hw74 : k0_chk74 v222), ∀ a, (k0_off75 v222) a + S1x300.size a ≤ S32000x300.size a := fun v222 k0_hw74 => k0_hw74.1
theorem k0_off203_inb : ∀ (v222 : BitVec 32) (k0_hw74 : k0_chk74 v222), ∀ a, (k0_off203 v222) a + S1x300.size a ≤ S32000x300.size a := fun v222 k0_hw74 => k0_hw74.2

def k0_off204 (v225 : BitVec 32) : Fin 2 → Nat :=
  let c0_i32_811 : BitVec 32 := 0#32
  ![v225.toNat, 0]

def k0_chk75 (v225 : BitVec 32) : Prop :=
  (∀ a, (k0_off76 v225) a + S1x300.size a ≤ S32000x300.size a) ∧
  (∀ a, (k0_off204 v225) a + S1x300.size a ≤ S32000x300.size a)
instance k0_chk75.dec : ∀ (v225 : BitVec 32), Decidable (k0_chk75 v225) := fun v225 => decidable_of_iff' _ (Iff.of_eq (k0_chk75.eq_1 v225))
theorem k0_off76_inb : ∀ (v225 : BitVec 32) (k0_hw75 : k0_chk75 v225), ∀ a, (k0_off76 v225) a + S1x300.size a ≤ S32000x300.size a := fun v225 k0_hw75 => k0_hw75.1
theorem k0_off204_inb : ∀ (v225 : BitVec 32) (k0_hw75 : k0_chk75 v225), ∀ a, (k0_off204 v225) a + S1x300.size a ≤ S32000x300.size a := fun v225 k0_hw75 => k0_hw75.2

def k0_off205 (v228 : BitVec 32) : Fin 2 → Nat :=
  let c0_i32_815 : BitVec 32 := 0#32
  ![v228.toNat, 0]

def k0_chk76 (v228 : BitVec 32) : Prop :=
  (∀ a, (k0_off77 v228) a + S1x300.size a ≤ S32000x300.size a) ∧
  (∀ a, (k0_off205 v228) a + S1x300.size a ≤ S32000x300.size a)
instance k0_chk76.dec : ∀ (v228 : BitVec 32), Decidable (k0_chk76 v228) := fun v228 => decidable_of_iff' _ (Iff.of_eq (k0_chk76.eq_1 v228))
theorem k0_off77_inb : ∀ (v228 : BitVec 32) (k0_hw76 : k0_chk76 v228), ∀ a, (k0_off77 v228) a + S1x300.size a ≤ S32000x300.size a := fun v228 k0_hw76 => k0_hw76.1
theorem k0_off205_inb : ∀ (v228 : BitVec 32) (k0_hw76 : k0_chk76 v228), ∀ a, (k0_off205 v228) a + S1x300.size a ≤ S32000x300.size a := fun v228 k0_hw76 => k0_hw76.2

def k0_off206 (v231 : BitVec 32) : Fin 2 → Nat :=
  let c0_i32_819 : BitVec 32 := 0#32
  ![v231.toNat, 0]

def k0_chk77 (v231 : BitVec 32) : Prop :=
  (∀ a, (k0_off78 v231) a + S1x300.size a ≤ S32000x300.size a) ∧
  (∀ a, (k0_off206 v231) a + S1x300.size a ≤ S32000x300.size a)
instance k0_chk77.dec : ∀ (v231 : BitVec 32), Decidable (k0_chk77 v231) := fun v231 => decidable_of_iff' _ (Iff.of_eq (k0_chk77.eq_1 v231))
theorem k0_off78_inb : ∀ (v231 : BitVec 32) (k0_hw77 : k0_chk77 v231), ∀ a, (k0_off78 v231) a + S1x300.size a ≤ S32000x300.size a := fun v231 k0_hw77 => k0_hw77.1
theorem k0_off206_inb : ∀ (v231 : BitVec 32) (k0_hw77 : k0_chk77 v231), ∀ a, (k0_off206 v231) a + S1x300.size a ≤ S32000x300.size a := fun v231 k0_hw77 => k0_hw77.2

def k0_off207 (v234 : BitVec 32) : Fin 2 → Nat :=
  let c0_i32_823 : BitVec 32 := 0#32
  ![v234.toNat, 0]

def k0_chk78 (v234 : BitVec 32) : Prop :=
  (∀ a, (k0_off79 v234) a + S1x300.size a ≤ S32000x300.size a) ∧
  (∀ a, (k0_off207 v234) a + S1x300.size a ≤ S32000x300.size a)
instance k0_chk78.dec : ∀ (v234 : BitVec 32), Decidable (k0_chk78 v234) := fun v234 => decidable_of_iff' _ (Iff.of_eq (k0_chk78.eq_1 v234))
theorem k0_off79_inb : ∀ (v234 : BitVec 32) (k0_hw78 : k0_chk78 v234), ∀ a, (k0_off79 v234) a + S1x300.size a ≤ S32000x300.size a := fun v234 k0_hw78 => k0_hw78.1
theorem k0_off207_inb : ∀ (v234 : BitVec 32) (k0_hw78 : k0_chk78 v234), ∀ a, (k0_off207 v234) a + S1x300.size a ≤ S32000x300.size a := fun v234 k0_hw78 => k0_hw78.2

def k0_off208 (v237 : BitVec 32) : Fin 2 → Nat :=
  let c0_i32_827 : BitVec 32 := 0#32
  ![v237.toNat, 0]

def k0_chk79 (v237 : BitVec 32) : Prop :=
  (∀ a, (k0_off80 v237) a + S1x300.size a ≤ S32000x300.size a) ∧
  (∀ a, (k0_off208 v237) a + S1x300.size a ≤ S32000x300.size a)
instance k0_chk79.dec : ∀ (v237 : BitVec 32), Decidable (k0_chk79 v237) := fun v237 => decidable_of_iff' _ (Iff.of_eq (k0_chk79.eq_1 v237))
theorem k0_off80_inb : ∀ (v237 : BitVec 32) (k0_hw79 : k0_chk79 v237), ∀ a, (k0_off80 v237) a + S1x300.size a ≤ S32000x300.size a := fun v237 k0_hw79 => k0_hw79.1
theorem k0_off208_inb : ∀ (v237 : BitVec 32) (k0_hw79 : k0_chk79 v237), ∀ a, (k0_off208 v237) a + S1x300.size a ≤ S32000x300.size a := fun v237 k0_hw79 => k0_hw79.2

def k0_off209 (v240 : BitVec 32) : Fin 2 → Nat :=
  let c0_i32_831 : BitVec 32 := 0#32
  ![v240.toNat, 0]

def k0_chk80 (v240 : BitVec 32) : Prop :=
  (∀ a, (k0_off81 v240) a + S1x300.size a ≤ S32000x300.size a) ∧
  (∀ a, (k0_off209 v240) a + S1x300.size a ≤ S32000x300.size a)
instance k0_chk80.dec : ∀ (v240 : BitVec 32), Decidable (k0_chk80 v240) := fun v240 => decidable_of_iff' _ (Iff.of_eq (k0_chk80.eq_1 v240))
theorem k0_off81_inb : ∀ (v240 : BitVec 32) (k0_hw80 : k0_chk80 v240), ∀ a, (k0_off81 v240) a + S1x300.size a ≤ S32000x300.size a := fun v240 k0_hw80 => k0_hw80.1
theorem k0_off209_inb : ∀ (v240 : BitVec 32) (k0_hw80 : k0_chk80 v240), ∀ a, (k0_off209 v240) a + S1x300.size a ≤ S32000x300.size a := fun v240 k0_hw80 => k0_hw80.2

def k0_off210 (v243 : BitVec 32) : Fin 2 → Nat :=
  let c0_i32_835 : BitVec 32 := 0#32
  ![v243.toNat, 0]

def k0_chk81 (v243 : BitVec 32) : Prop :=
  (∀ a, (k0_off82 v243) a + S1x300.size a ≤ S32000x300.size a) ∧
  (∀ a, (k0_off210 v243) a + S1x300.size a ≤ S32000x300.size a)
instance k0_chk81.dec : ∀ (v243 : BitVec 32), Decidable (k0_chk81 v243) := fun v243 => decidable_of_iff' _ (Iff.of_eq (k0_chk81.eq_1 v243))
theorem k0_off82_inb : ∀ (v243 : BitVec 32) (k0_hw81 : k0_chk81 v243), ∀ a, (k0_off82 v243) a + S1x300.size a ≤ S32000x300.size a := fun v243 k0_hw81 => k0_hw81.1
theorem k0_off210_inb : ∀ (v243 : BitVec 32) (k0_hw81 : k0_chk81 v243), ∀ a, (k0_off210 v243) a + S1x300.size a ≤ S32000x300.size a := fun v243 k0_hw81 => k0_hw81.2

def k0_off211 (v246 : BitVec 32) : Fin 2 → Nat :=
  let c0_i32_839 : BitVec 32 := 0#32
  ![v246.toNat, 0]

def k0_chk82 (v246 : BitVec 32) : Prop :=
  (∀ a, (k0_off83 v246) a + S1x300.size a ≤ S32000x300.size a) ∧
  (∀ a, (k0_off211 v246) a + S1x300.size a ≤ S32000x300.size a)
instance k0_chk82.dec : ∀ (v246 : BitVec 32), Decidable (k0_chk82 v246) := fun v246 => decidable_of_iff' _ (Iff.of_eq (k0_chk82.eq_1 v246))
theorem k0_off83_inb : ∀ (v246 : BitVec 32) (k0_hw82 : k0_chk82 v246), ∀ a, (k0_off83 v246) a + S1x300.size a ≤ S32000x300.size a := fun v246 k0_hw82 => k0_hw82.1
theorem k0_off211_inb : ∀ (v246 : BitVec 32) (k0_hw82 : k0_chk82 v246), ∀ a, (k0_off211 v246) a + S1x300.size a ≤ S32000x300.size a := fun v246 k0_hw82 => k0_hw82.2

def k0_off212 (v249 : BitVec 32) : Fin 2 → Nat :=
  let c0_i32_843 : BitVec 32 := 0#32
  ![v249.toNat, 0]

def k0_chk83 (v249 : BitVec 32) : Prop :=
  (∀ a, (k0_off84 v249) a + S1x300.size a ≤ S32000x300.size a) ∧
  (∀ a, (k0_off212 v249) a + S1x300.size a ≤ S32000x300.size a)
instance k0_chk83.dec : ∀ (v249 : BitVec 32), Decidable (k0_chk83 v249) := fun v249 => decidable_of_iff' _ (Iff.of_eq (k0_chk83.eq_1 v249))
theorem k0_off84_inb : ∀ (v249 : BitVec 32) (k0_hw83 : k0_chk83 v249), ∀ a, (k0_off84 v249) a + S1x300.size a ≤ S32000x300.size a := fun v249 k0_hw83 => k0_hw83.1
theorem k0_off212_inb : ∀ (v249 : BitVec 32) (k0_hw83 : k0_chk83 v249), ∀ a, (k0_off212 v249) a + S1x300.size a ≤ S32000x300.size a := fun v249 k0_hw83 => k0_hw83.2

def k0_off213 (v252 : BitVec 32) : Fin 2 → Nat :=
  let c0_i32_847 : BitVec 32 := 0#32
  ![v252.toNat, 0]

def k0_chk84 (v252 : BitVec 32) : Prop :=
  (∀ a, (k0_off85 v252) a + S1x300.size a ≤ S32000x300.size a) ∧
  (∀ a, (k0_off213 v252) a + S1x300.size a ≤ S32000x300.size a)
instance k0_chk84.dec : ∀ (v252 : BitVec 32), Decidable (k0_chk84 v252) := fun v252 => decidable_of_iff' _ (Iff.of_eq (k0_chk84.eq_1 v252))
theorem k0_off85_inb : ∀ (v252 : BitVec 32) (k0_hw84 : k0_chk84 v252), ∀ a, (k0_off85 v252) a + S1x300.size a ≤ S32000x300.size a := fun v252 k0_hw84 => k0_hw84.1
theorem k0_off213_inb : ∀ (v252 : BitVec 32) (k0_hw84 : k0_chk84 v252), ∀ a, (k0_off213 v252) a + S1x300.size a ≤ S32000x300.size a := fun v252 k0_hw84 => k0_hw84.2

def k0_off214 (v255 : BitVec 32) : Fin 2 → Nat :=
  let c0_i32_851 : BitVec 32 := 0#32
  ![v255.toNat, 0]

def k0_chk85 (v255 : BitVec 32) : Prop :=
  (∀ a, (k0_off86 v255) a + S1x300.size a ≤ S32000x300.size a) ∧
  (∀ a, (k0_off214 v255) a + S1x300.size a ≤ S32000x300.size a)
instance k0_chk85.dec : ∀ (v255 : BitVec 32), Decidable (k0_chk85 v255) := fun v255 => decidable_of_iff' _ (Iff.of_eq (k0_chk85.eq_1 v255))
theorem k0_off86_inb : ∀ (v255 : BitVec 32) (k0_hw85 : k0_chk85 v255), ∀ a, (k0_off86 v255) a + S1x300.size a ≤ S32000x300.size a := fun v255 k0_hw85 => k0_hw85.1
theorem k0_off214_inb : ∀ (v255 : BitVec 32) (k0_hw85 : k0_chk85 v255), ∀ a, (k0_off214 v255) a + S1x300.size a ≤ S32000x300.size a := fun v255 k0_hw85 => k0_hw85.2

def k0_off215 (v258 : BitVec 32) : Fin 2 → Nat :=
  let c0_i32_855 : BitVec 32 := 0#32
  ![v258.toNat, 0]

def k0_chk86 (v258 : BitVec 32) : Prop :=
  (∀ a, (k0_off87 v258) a + S1x300.size a ≤ S32000x300.size a) ∧
  (∀ a, (k0_off215 v258) a + S1x300.size a ≤ S32000x300.size a)
instance k0_chk86.dec : ∀ (v258 : BitVec 32), Decidable (k0_chk86 v258) := fun v258 => decidable_of_iff' _ (Iff.of_eq (k0_chk86.eq_1 v258))
theorem k0_off87_inb : ∀ (v258 : BitVec 32) (k0_hw86 : k0_chk86 v258), ∀ a, (k0_off87 v258) a + S1x300.size a ≤ S32000x300.size a := fun v258 k0_hw86 => k0_hw86.1
theorem k0_off215_inb : ∀ (v258 : BitVec 32) (k0_hw86 : k0_chk86 v258), ∀ a, (k0_off215 v258) a + S1x300.size a ≤ S32000x300.size a := fun v258 k0_hw86 => k0_hw86.2

def k0_off216 (v261 : BitVec 32) : Fin 2 → Nat :=
  let c0_i32_859 : BitVec 32 := 0#32
  ![v261.toNat, 0]

def k0_chk87 (v261 : BitVec 32) : Prop :=
  (∀ a, (k0_off88 v261) a + S1x300.size a ≤ S32000x300.size a) ∧
  (∀ a, (k0_off216 v261) a + S1x300.size a ≤ S32000x300.size a)
instance k0_chk87.dec : ∀ (v261 : BitVec 32), Decidable (k0_chk87 v261) := fun v261 => decidable_of_iff' _ (Iff.of_eq (k0_chk87.eq_1 v261))
theorem k0_off88_inb : ∀ (v261 : BitVec 32) (k0_hw87 : k0_chk87 v261), ∀ a, (k0_off88 v261) a + S1x300.size a ≤ S32000x300.size a := fun v261 k0_hw87 => k0_hw87.1
theorem k0_off216_inb : ∀ (v261 : BitVec 32) (k0_hw87 : k0_chk87 v261), ∀ a, (k0_off216 v261) a + S1x300.size a ≤ S32000x300.size a := fun v261 k0_hw87 => k0_hw87.2

def k0_off217 (v264 : BitVec 32) : Fin 2 → Nat :=
  let c0_i32_863 : BitVec 32 := 0#32
  ![v264.toNat, 0]

def k0_chk88 (v264 : BitVec 32) : Prop :=
  (∀ a, (k0_off89 v264) a + S1x300.size a ≤ S32000x300.size a) ∧
  (∀ a, (k0_off217 v264) a + S1x300.size a ≤ S32000x300.size a)
instance k0_chk88.dec : ∀ (v264 : BitVec 32), Decidable (k0_chk88 v264) := fun v264 => decidable_of_iff' _ (Iff.of_eq (k0_chk88.eq_1 v264))
theorem k0_off89_inb : ∀ (v264 : BitVec 32) (k0_hw88 : k0_chk88 v264), ∀ a, (k0_off89 v264) a + S1x300.size a ≤ S32000x300.size a := fun v264 k0_hw88 => k0_hw88.1
theorem k0_off217_inb : ∀ (v264 : BitVec 32) (k0_hw88 : k0_chk88 v264), ∀ a, (k0_off217 v264) a + S1x300.size a ≤ S32000x300.size a := fun v264 k0_hw88 => k0_hw88.2

def k0_off218 (v267 : BitVec 32) : Fin 2 → Nat :=
  let c0_i32_867 : BitVec 32 := 0#32
  ![v267.toNat, 0]

def k0_chk89 (v267 : BitVec 32) : Prop :=
  (∀ a, (k0_off90 v267) a + S1x300.size a ≤ S32000x300.size a) ∧
  (∀ a, (k0_off218 v267) a + S1x300.size a ≤ S32000x300.size a)
instance k0_chk89.dec : ∀ (v267 : BitVec 32), Decidable (k0_chk89 v267) := fun v267 => decidable_of_iff' _ (Iff.of_eq (k0_chk89.eq_1 v267))
theorem k0_off90_inb : ∀ (v267 : BitVec 32) (k0_hw89 : k0_chk89 v267), ∀ a, (k0_off90 v267) a + S1x300.size a ≤ S32000x300.size a := fun v267 k0_hw89 => k0_hw89.1
theorem k0_off218_inb : ∀ (v267 : BitVec 32) (k0_hw89 : k0_chk89 v267), ∀ a, (k0_off218 v267) a + S1x300.size a ≤ S32000x300.size a := fun v267 k0_hw89 => k0_hw89.2

def k0_off219 (v270 : BitVec 32) : Fin 2 → Nat :=
  let c0_i32_871 : BitVec 32 := 0#32
  ![v270.toNat, 0]

def k0_chk90 (v270 : BitVec 32) : Prop :=
  (∀ a, (k0_off91 v270) a + S1x300.size a ≤ S32000x300.size a) ∧
  (∀ a, (k0_off219 v270) a + S1x300.size a ≤ S32000x300.size a)
instance k0_chk90.dec : ∀ (v270 : BitVec 32), Decidable (k0_chk90 v270) := fun v270 => decidable_of_iff' _ (Iff.of_eq (k0_chk90.eq_1 v270))
theorem k0_off91_inb : ∀ (v270 : BitVec 32) (k0_hw90 : k0_chk90 v270), ∀ a, (k0_off91 v270) a + S1x300.size a ≤ S32000x300.size a := fun v270 k0_hw90 => k0_hw90.1
theorem k0_off219_inb : ∀ (v270 : BitVec 32) (k0_hw90 : k0_chk90 v270), ∀ a, (k0_off219 v270) a + S1x300.size a ≤ S32000x300.size a := fun v270 k0_hw90 => k0_hw90.2

def k0_off220 (v273 : BitVec 32) : Fin 2 → Nat :=
  let c0_i32_875 : BitVec 32 := 0#32
  ![v273.toNat, 0]

def k0_chk91 (v273 : BitVec 32) : Prop :=
  (∀ a, (k0_off92 v273) a + S1x300.size a ≤ S32000x300.size a) ∧
  (∀ a, (k0_off220 v273) a + S1x300.size a ≤ S32000x300.size a)
instance k0_chk91.dec : ∀ (v273 : BitVec 32), Decidable (k0_chk91 v273) := fun v273 => decidable_of_iff' _ (Iff.of_eq (k0_chk91.eq_1 v273))
theorem k0_off92_inb : ∀ (v273 : BitVec 32) (k0_hw91 : k0_chk91 v273), ∀ a, (k0_off92 v273) a + S1x300.size a ≤ S32000x300.size a := fun v273 k0_hw91 => k0_hw91.1
theorem k0_off220_inb : ∀ (v273 : BitVec 32) (k0_hw91 : k0_chk91 v273), ∀ a, (k0_off220 v273) a + S1x300.size a ≤ S32000x300.size a := fun v273 k0_hw91 => k0_hw91.2

def k0_off221 (v276 : BitVec 32) : Fin 2 → Nat :=
  let c0_i32_879 : BitVec 32 := 0#32
  ![v276.toNat, 0]

def k0_chk92 (v276 : BitVec 32) : Prop :=
  (∀ a, (k0_off93 v276) a + S1x300.size a ≤ S32000x300.size a) ∧
  (∀ a, (k0_off221 v276) a + S1x300.size a ≤ S32000x300.size a)
instance k0_chk92.dec : ∀ (v276 : BitVec 32), Decidable (k0_chk92 v276) := fun v276 => decidable_of_iff' _ (Iff.of_eq (k0_chk92.eq_1 v276))
theorem k0_off93_inb : ∀ (v276 : BitVec 32) (k0_hw92 : k0_chk92 v276), ∀ a, (k0_off93 v276) a + S1x300.size a ≤ S32000x300.size a := fun v276 k0_hw92 => k0_hw92.1
theorem k0_off221_inb : ∀ (v276 : BitVec 32) (k0_hw92 : k0_chk92 v276), ∀ a, (k0_off221 v276) a + S1x300.size a ≤ S32000x300.size a := fun v276 k0_hw92 => k0_hw92.2

def k0_off222 (v279 : BitVec 32) : Fin 2 → Nat :=
  let c0_i32_883 : BitVec 32 := 0#32
  ![v279.toNat, 0]

def k0_chk93 (v279 : BitVec 32) : Prop :=
  (∀ a, (k0_off94 v279) a + S1x300.size a ≤ S32000x300.size a) ∧
  (∀ a, (k0_off222 v279) a + S1x300.size a ≤ S32000x300.size a)
instance k0_chk93.dec : ∀ (v279 : BitVec 32), Decidable (k0_chk93 v279) := fun v279 => decidable_of_iff' _ (Iff.of_eq (k0_chk93.eq_1 v279))
theorem k0_off94_inb : ∀ (v279 : BitVec 32) (k0_hw93 : k0_chk93 v279), ∀ a, (k0_off94 v279) a + S1x300.size a ≤ S32000x300.size a := fun v279 k0_hw93 => k0_hw93.1
theorem k0_off222_inb : ∀ (v279 : BitVec 32) (k0_hw93 : k0_chk93 v279), ∀ a, (k0_off222 v279) a + S1x300.size a ≤ S32000x300.size a := fun v279 k0_hw93 => k0_hw93.2

def k0_off223 (v282 : BitVec 32) : Fin 2 → Nat :=
  let c0_i32_887 : BitVec 32 := 0#32
  ![v282.toNat, 0]

def k0_chk94 (v282 : BitVec 32) : Prop :=
  (∀ a, (k0_off95 v282) a + S1x300.size a ≤ S32000x300.size a) ∧
  (∀ a, (k0_off223 v282) a + S1x300.size a ≤ S32000x300.size a)
instance k0_chk94.dec : ∀ (v282 : BitVec 32), Decidable (k0_chk94 v282) := fun v282 => decidable_of_iff' _ (Iff.of_eq (k0_chk94.eq_1 v282))
theorem k0_off95_inb : ∀ (v282 : BitVec 32) (k0_hw94 : k0_chk94 v282), ∀ a, (k0_off95 v282) a + S1x300.size a ≤ S32000x300.size a := fun v282 k0_hw94 => k0_hw94.1
theorem k0_off223_inb : ∀ (v282 : BitVec 32) (k0_hw94 : k0_chk94 v282), ∀ a, (k0_off223 v282) a + S1x300.size a ≤ S32000x300.size a := fun v282 k0_hw94 => k0_hw94.2

def k0_off224 (v285 : BitVec 32) : Fin 2 → Nat :=
  let c0_i32_891 : BitVec 32 := 0#32
  ![v285.toNat, 0]

def k0_chk95 (v285 : BitVec 32) : Prop :=
  (∀ a, (k0_off96 v285) a + S1x300.size a ≤ S32000x300.size a) ∧
  (∀ a, (k0_off224 v285) a + S1x300.size a ≤ S32000x300.size a)
instance k0_chk95.dec : ∀ (v285 : BitVec 32), Decidable (k0_chk95 v285) := fun v285 => decidable_of_iff' _ (Iff.of_eq (k0_chk95.eq_1 v285))
theorem k0_off96_inb : ∀ (v285 : BitVec 32) (k0_hw95 : k0_chk95 v285), ∀ a, (k0_off96 v285) a + S1x300.size a ≤ S32000x300.size a := fun v285 k0_hw95 => k0_hw95.1
theorem k0_off224_inb : ∀ (v285 : BitVec 32) (k0_hw95 : k0_chk95 v285), ∀ a, (k0_off224 v285) a + S1x300.size a ≤ S32000x300.size a := fun v285 k0_hw95 => k0_hw95.2

def k0_off225 (v288 : BitVec 32) : Fin 2 → Nat :=
  let c0_i32_895 : BitVec 32 := 0#32
  ![v288.toNat, 0]

def k0_chk96 (v288 : BitVec 32) : Prop :=
  (∀ a, (k0_off97 v288) a + S1x300.size a ≤ S32000x300.size a) ∧
  (∀ a, (k0_off225 v288) a + S1x300.size a ≤ S32000x300.size a)
instance k0_chk96.dec : ∀ (v288 : BitVec 32), Decidable (k0_chk96 v288) := fun v288 => decidable_of_iff' _ (Iff.of_eq (k0_chk96.eq_1 v288))
theorem k0_off97_inb : ∀ (v288 : BitVec 32) (k0_hw96 : k0_chk96 v288), ∀ a, (k0_off97 v288) a + S1x300.size a ≤ S32000x300.size a := fun v288 k0_hw96 => k0_hw96.1
theorem k0_off225_inb : ∀ (v288 : BitVec 32) (k0_hw96 : k0_chk96 v288), ∀ a, (k0_off225 v288) a + S1x300.size a ≤ S32000x300.size a := fun v288 k0_hw96 => k0_hw96.2

def k0_off226 (v291 : BitVec 32) : Fin 2 → Nat :=
  let c0_i32_899 : BitVec 32 := 0#32
  ![v291.toNat, 0]

def k0_chk97 (v291 : BitVec 32) : Prop :=
  (∀ a, (k0_off98 v291) a + S1x300.size a ≤ S32000x300.size a) ∧
  (∀ a, (k0_off226 v291) a + S1x300.size a ≤ S32000x300.size a)
instance k0_chk97.dec : ∀ (v291 : BitVec 32), Decidable (k0_chk97 v291) := fun v291 => decidable_of_iff' _ (Iff.of_eq (k0_chk97.eq_1 v291))
theorem k0_off98_inb : ∀ (v291 : BitVec 32) (k0_hw97 : k0_chk97 v291), ∀ a, (k0_off98 v291) a + S1x300.size a ≤ S32000x300.size a := fun v291 k0_hw97 => k0_hw97.1
theorem k0_off226_inb : ∀ (v291 : BitVec 32) (k0_hw97 : k0_chk97 v291), ∀ a, (k0_off226 v291) a + S1x300.size a ≤ S32000x300.size a := fun v291 k0_hw97 => k0_hw97.2

def k0_off227 (v294 : BitVec 32) : Fin 2 → Nat :=
  let c0_i32_903 : BitVec 32 := 0#32
  ![v294.toNat, 0]

def k0_chk98 (v294 : BitVec 32) : Prop :=
  (∀ a, (k0_off99 v294) a + S1x300.size a ≤ S32000x300.size a) ∧
  (∀ a, (k0_off227 v294) a + S1x300.size a ≤ S32000x300.size a)
instance k0_chk98.dec : ∀ (v294 : BitVec 32), Decidable (k0_chk98 v294) := fun v294 => decidable_of_iff' _ (Iff.of_eq (k0_chk98.eq_1 v294))
theorem k0_off99_inb : ∀ (v294 : BitVec 32) (k0_hw98 : k0_chk98 v294), ∀ a, (k0_off99 v294) a + S1x300.size a ≤ S32000x300.size a := fun v294 k0_hw98 => k0_hw98.1
theorem k0_off227_inb : ∀ (v294 : BitVec 32) (k0_hw98 : k0_chk98 v294), ∀ a, (k0_off227 v294) a + S1x300.size a ≤ S32000x300.size a := fun v294 k0_hw98 => k0_hw98.2

def k0_off228 (v297 : BitVec 32) : Fin 2 → Nat :=
  let c0_i32_907 : BitVec 32 := 0#32
  ![v297.toNat, 0]

def k0_chk99 (v297 : BitVec 32) : Prop :=
  (∀ a, (k0_off100 v297) a + S1x300.size a ≤ S32000x300.size a) ∧
  (∀ a, (k0_off228 v297) a + S1x300.size a ≤ S32000x300.size a)
instance k0_chk99.dec : ∀ (v297 : BitVec 32), Decidable (k0_chk99 v297) := fun v297 => decidable_of_iff' _ (Iff.of_eq (k0_chk99.eq_1 v297))
theorem k0_off100_inb : ∀ (v297 : BitVec 32) (k0_hw99 : k0_chk99 v297), ∀ a, (k0_off100 v297) a + S1x300.size a ≤ S32000x300.size a := fun v297 k0_hw99 => k0_hw99.1
theorem k0_off228_inb : ∀ (v297 : BitVec 32) (k0_hw99 : k0_chk99 v297), ∀ a, (k0_off228 v297) a + S1x300.size a ≤ S32000x300.size a := fun v297 k0_hw99 => k0_hw99.2

def k0_off229 (v300 : BitVec 32) : Fin 2 → Nat :=
  let c0_i32_911 : BitVec 32 := 0#32
  ![v300.toNat, 0]

def k0_chk100 (v300 : BitVec 32) : Prop :=
  (∀ a, (k0_off101 v300) a + S1x300.size a ≤ S32000x300.size a) ∧
  (∀ a, (k0_off229 v300) a + S1x300.size a ≤ S32000x300.size a)
instance k0_chk100.dec : ∀ (v300 : BitVec 32), Decidable (k0_chk100 v300) := fun v300 => decidable_of_iff' _ (Iff.of_eq (k0_chk100.eq_1 v300))
theorem k0_off101_inb : ∀ (v300 : BitVec 32) (k0_hw100 : k0_chk100 v300), ∀ a, (k0_off101 v300) a + S1x300.size a ≤ S32000x300.size a := fun v300 k0_hw100 => k0_hw100.1
theorem k0_off229_inb : ∀ (v300 : BitVec 32) (k0_hw100 : k0_chk100 v300), ∀ a, (k0_off229 v300) a + S1x300.size a ≤ S32000x300.size a := fun v300 k0_hw100 => k0_hw100.2

def k0_off230 (v303 : BitVec 32) : Fin 2 → Nat :=
  let c0_i32_915 : BitVec 32 := 0#32
  ![v303.toNat, 0]

def k0_chk101 (v303 : BitVec 32) : Prop :=
  (∀ a, (k0_off102 v303) a + S1x300.size a ≤ S32000x300.size a) ∧
  (∀ a, (k0_off230 v303) a + S1x300.size a ≤ S32000x300.size a)
instance k0_chk101.dec : ∀ (v303 : BitVec 32), Decidable (k0_chk101 v303) := fun v303 => decidable_of_iff' _ (Iff.of_eq (k0_chk101.eq_1 v303))
theorem k0_off102_inb : ∀ (v303 : BitVec 32) (k0_hw101 : k0_chk101 v303), ∀ a, (k0_off102 v303) a + S1x300.size a ≤ S32000x300.size a := fun v303 k0_hw101 => k0_hw101.1
theorem k0_off230_inb : ∀ (v303 : BitVec 32) (k0_hw101 : k0_chk101 v303), ∀ a, (k0_off230 v303) a + S1x300.size a ≤ S32000x300.size a := fun v303 k0_hw101 => k0_hw101.2

def k0_off231 (v306 : BitVec 32) : Fin 2 → Nat :=
  let c0_i32_919 : BitVec 32 := 0#32
  ![v306.toNat, 0]

def k0_chk102 (v306 : BitVec 32) : Prop :=
  (∀ a, (k0_off103 v306) a + S1x300.size a ≤ S32000x300.size a) ∧
  (∀ a, (k0_off231 v306) a + S1x300.size a ≤ S32000x300.size a)
instance k0_chk102.dec : ∀ (v306 : BitVec 32), Decidable (k0_chk102 v306) := fun v306 => decidable_of_iff' _ (Iff.of_eq (k0_chk102.eq_1 v306))
theorem k0_off103_inb : ∀ (v306 : BitVec 32) (k0_hw102 : k0_chk102 v306), ∀ a, (k0_off103 v306) a + S1x300.size a ≤ S32000x300.size a := fun v306 k0_hw102 => k0_hw102.1
theorem k0_off231_inb : ∀ (v306 : BitVec 32) (k0_hw102 : k0_chk102 v306), ∀ a, (k0_off231 v306) a + S1x300.size a ≤ S32000x300.size a := fun v306 k0_hw102 => k0_hw102.2

def k0_off232 (v309 : BitVec 32) : Fin 2 → Nat :=
  let c0_i32_923 : BitVec 32 := 0#32
  ![v309.toNat, 0]

def k0_chk103 (v309 : BitVec 32) : Prop :=
  (∀ a, (k0_off104 v309) a + S1x300.size a ≤ S32000x300.size a) ∧
  (∀ a, (k0_off232 v309) a + S1x300.size a ≤ S32000x300.size a)
instance k0_chk103.dec : ∀ (v309 : BitVec 32), Decidable (k0_chk103 v309) := fun v309 => decidable_of_iff' _ (Iff.of_eq (k0_chk103.eq_1 v309))
theorem k0_off104_inb : ∀ (v309 : BitVec 32) (k0_hw103 : k0_chk103 v309), ∀ a, (k0_off104 v309) a + S1x300.size a ≤ S32000x300.size a := fun v309 k0_hw103 => k0_hw103.1
theorem k0_off232_inb : ∀ (v309 : BitVec 32) (k0_hw103 : k0_chk103 v309), ∀ a, (k0_off232 v309) a + S1x300.size a ≤ S32000x300.size a := fun v309 k0_hw103 => k0_hw103.2

def k0_off233 (v312 : BitVec 32) : Fin 2 → Nat :=
  let c0_i32_927 : BitVec 32 := 0#32
  ![v312.toNat, 0]

def k0_chk104 (v312 : BitVec 32) : Prop :=
  (∀ a, (k0_off105 v312) a + S1x300.size a ≤ S32000x300.size a) ∧
  (∀ a, (k0_off233 v312) a + S1x300.size a ≤ S32000x300.size a)
instance k0_chk104.dec : ∀ (v312 : BitVec 32), Decidable (k0_chk104 v312) := fun v312 => decidable_of_iff' _ (Iff.of_eq (k0_chk104.eq_1 v312))
theorem k0_off105_inb : ∀ (v312 : BitVec 32) (k0_hw104 : k0_chk104 v312), ∀ a, (k0_off105 v312) a + S1x300.size a ≤ S32000x300.size a := fun v312 k0_hw104 => k0_hw104.1
theorem k0_off233_inb : ∀ (v312 : BitVec 32) (k0_hw104 : k0_chk104 v312), ∀ a, (k0_off233 v312) a + S1x300.size a ≤ S32000x300.size a := fun v312 k0_hw104 => k0_hw104.2

def k0_off234 (v315 : BitVec 32) : Fin 2 → Nat :=
  let c0_i32_931 : BitVec 32 := 0#32
  ![v315.toNat, 0]

def k0_chk105 (v315 : BitVec 32) : Prop :=
  (∀ a, (k0_off106 v315) a + S1x300.size a ≤ S32000x300.size a) ∧
  (∀ a, (k0_off234 v315) a + S1x300.size a ≤ S32000x300.size a)
instance k0_chk105.dec : ∀ (v315 : BitVec 32), Decidable (k0_chk105 v315) := fun v315 => decidable_of_iff' _ (Iff.of_eq (k0_chk105.eq_1 v315))
theorem k0_off106_inb : ∀ (v315 : BitVec 32) (k0_hw105 : k0_chk105 v315), ∀ a, (k0_off106 v315) a + S1x300.size a ≤ S32000x300.size a := fun v315 k0_hw105 => k0_hw105.1
theorem k0_off234_inb : ∀ (v315 : BitVec 32) (k0_hw105 : k0_chk105 v315), ∀ a, (k0_off234 v315) a + S1x300.size a ≤ S32000x300.size a := fun v315 k0_hw105 => k0_hw105.2

def k0_off235 (v318 : BitVec 32) : Fin 2 → Nat :=
  let c0_i32_935 : BitVec 32 := 0#32
  ![v318.toNat, 0]

def k0_chk106 (v318 : BitVec 32) : Prop :=
  (∀ a, (k0_off107 v318) a + S1x300.size a ≤ S32000x300.size a) ∧
  (∀ a, (k0_off235 v318) a + S1x300.size a ≤ S32000x300.size a)
instance k0_chk106.dec : ∀ (v318 : BitVec 32), Decidable (k0_chk106 v318) := fun v318 => decidable_of_iff' _ (Iff.of_eq (k0_chk106.eq_1 v318))
theorem k0_off107_inb : ∀ (v318 : BitVec 32) (k0_hw106 : k0_chk106 v318), ∀ a, (k0_off107 v318) a + S1x300.size a ≤ S32000x300.size a := fun v318 k0_hw106 => k0_hw106.1
theorem k0_off235_inb : ∀ (v318 : BitVec 32) (k0_hw106 : k0_chk106 v318), ∀ a, (k0_off235 v318) a + S1x300.size a ≤ S32000x300.size a := fun v318 k0_hw106 => k0_hw106.2

def k0_off236 (v321 : BitVec 32) : Fin 2 → Nat :=
  let c0_i32_939 : BitVec 32 := 0#32
  ![v321.toNat, 0]

def k0_chk107 (v321 : BitVec 32) : Prop :=
  (∀ a, (k0_off108 v321) a + S1x300.size a ≤ S32000x300.size a) ∧
  (∀ a, (k0_off236 v321) a + S1x300.size a ≤ S32000x300.size a)
instance k0_chk107.dec : ∀ (v321 : BitVec 32), Decidable (k0_chk107 v321) := fun v321 => decidable_of_iff' _ (Iff.of_eq (k0_chk107.eq_1 v321))
theorem k0_off108_inb : ∀ (v321 : BitVec 32) (k0_hw107 : k0_chk107 v321), ∀ a, (k0_off108 v321) a + S1x300.size a ≤ S32000x300.size a := fun v321 k0_hw107 => k0_hw107.1
theorem k0_off236_inb : ∀ (v321 : BitVec 32) (k0_hw107 : k0_chk107 v321), ∀ a, (k0_off236 v321) a + S1x300.size a ≤ S32000x300.size a := fun v321 k0_hw107 => k0_hw107.2

def k0_off237 (v324 : BitVec 32) : Fin 2 → Nat :=
  let c0_i32_943 : BitVec 32 := 0#32
  ![v324.toNat, 0]

def k0_chk108 (v324 : BitVec 32) : Prop :=
  (∀ a, (k0_off109 v324) a + S1x300.size a ≤ S32000x300.size a) ∧
  (∀ a, (k0_off237 v324) a + S1x300.size a ≤ S32000x300.size a)
instance k0_chk108.dec : ∀ (v324 : BitVec 32), Decidable (k0_chk108 v324) := fun v324 => decidable_of_iff' _ (Iff.of_eq (k0_chk108.eq_1 v324))
theorem k0_off109_inb : ∀ (v324 : BitVec 32) (k0_hw108 : k0_chk108 v324), ∀ a, (k0_off109 v324) a + S1x300.size a ≤ S32000x300.size a := fun v324 k0_hw108 => k0_hw108.1
theorem k0_off237_inb : ∀ (v324 : BitVec 32) (k0_hw108 : k0_chk108 v324), ∀ a, (k0_off237 v324) a + S1x300.size a ≤ S32000x300.size a := fun v324 k0_hw108 => k0_hw108.2

def k0_off238 (v327 : BitVec 32) : Fin 2 → Nat :=
  let c0_i32_947 : BitVec 32 := 0#32
  ![v327.toNat, 0]

def k0_chk109 (v327 : BitVec 32) : Prop :=
  (∀ a, (k0_off110 v327) a + S1x300.size a ≤ S32000x300.size a) ∧
  (∀ a, (k0_off238 v327) a + S1x300.size a ≤ S32000x300.size a)
instance k0_chk109.dec : ∀ (v327 : BitVec 32), Decidable (k0_chk109 v327) := fun v327 => decidable_of_iff' _ (Iff.of_eq (k0_chk109.eq_1 v327))
theorem k0_off110_inb : ∀ (v327 : BitVec 32) (k0_hw109 : k0_chk109 v327), ∀ a, (k0_off110 v327) a + S1x300.size a ≤ S32000x300.size a := fun v327 k0_hw109 => k0_hw109.1
theorem k0_off238_inb : ∀ (v327 : BitVec 32) (k0_hw109 : k0_chk109 v327), ∀ a, (k0_off238 v327) a + S1x300.size a ≤ S32000x300.size a := fun v327 k0_hw109 => k0_hw109.2

def k0_off239 (v330 : BitVec 32) : Fin 2 → Nat :=
  let c0_i32_951 : BitVec 32 := 0#32
  ![v330.toNat, 0]

def k0_chk110 (v330 : BitVec 32) : Prop :=
  (∀ a, (k0_off111 v330) a + S1x300.size a ≤ S32000x300.size a) ∧
  (∀ a, (k0_off239 v330) a + S1x300.size a ≤ S32000x300.size a)
instance k0_chk110.dec : ∀ (v330 : BitVec 32), Decidable (k0_chk110 v330) := fun v330 => decidable_of_iff' _ (Iff.of_eq (k0_chk110.eq_1 v330))
theorem k0_off111_inb : ∀ (v330 : BitVec 32) (k0_hw110 : k0_chk110 v330), ∀ a, (k0_off111 v330) a + S1x300.size a ≤ S32000x300.size a := fun v330 k0_hw110 => k0_hw110.1
theorem k0_off239_inb : ∀ (v330 : BitVec 32) (k0_hw110 : k0_chk110 v330), ∀ a, (k0_off239 v330) a + S1x300.size a ≤ S32000x300.size a := fun v330 k0_hw110 => k0_hw110.2

def k0_off240 (v333 : BitVec 32) : Fin 2 → Nat :=
  let c0_i32_955 : BitVec 32 := 0#32
  ![v333.toNat, 0]

def k0_chk111 (v333 : BitVec 32) : Prop :=
  (∀ a, (k0_off112 v333) a + S1x300.size a ≤ S32000x300.size a) ∧
  (∀ a, (k0_off240 v333) a + S1x300.size a ≤ S32000x300.size a)
instance k0_chk111.dec : ∀ (v333 : BitVec 32), Decidable (k0_chk111 v333) := fun v333 => decidable_of_iff' _ (Iff.of_eq (k0_chk111.eq_1 v333))
theorem k0_off112_inb : ∀ (v333 : BitVec 32) (k0_hw111 : k0_chk111 v333), ∀ a, (k0_off112 v333) a + S1x300.size a ≤ S32000x300.size a := fun v333 k0_hw111 => k0_hw111.1
theorem k0_off240_inb : ∀ (v333 : BitVec 32) (k0_hw111 : k0_chk111 v333), ∀ a, (k0_off240 v333) a + S1x300.size a ≤ S32000x300.size a := fun v333 k0_hw111 => k0_hw111.2

def k0_off241 (v336 : BitVec 32) : Fin 2 → Nat :=
  let c0_i32_959 : BitVec 32 := 0#32
  ![v336.toNat, 0]

def k0_chk112 (v336 : BitVec 32) : Prop :=
  (∀ a, (k0_off113 v336) a + S1x300.size a ≤ S32000x300.size a) ∧
  (∀ a, (k0_off241 v336) a + S1x300.size a ≤ S32000x300.size a)
instance k0_chk112.dec : ∀ (v336 : BitVec 32), Decidable (k0_chk112 v336) := fun v336 => decidable_of_iff' _ (Iff.of_eq (k0_chk112.eq_1 v336))
theorem k0_off113_inb : ∀ (v336 : BitVec 32) (k0_hw112 : k0_chk112 v336), ∀ a, (k0_off113 v336) a + S1x300.size a ≤ S32000x300.size a := fun v336 k0_hw112 => k0_hw112.1
theorem k0_off241_inb : ∀ (v336 : BitVec 32) (k0_hw112 : k0_chk112 v336), ∀ a, (k0_off241 v336) a + S1x300.size a ≤ S32000x300.size a := fun v336 k0_hw112 => k0_hw112.2

def k0_off242 (v339 : BitVec 32) : Fin 2 → Nat :=
  let c0_i32_963 : BitVec 32 := 0#32
  ![v339.toNat, 0]

def k0_chk113 (v339 : BitVec 32) : Prop :=
  (∀ a, (k0_off114 v339) a + S1x300.size a ≤ S32000x300.size a) ∧
  (∀ a, (k0_off242 v339) a + S1x300.size a ≤ S32000x300.size a)
instance k0_chk113.dec : ∀ (v339 : BitVec 32), Decidable (k0_chk113 v339) := fun v339 => decidable_of_iff' _ (Iff.of_eq (k0_chk113.eq_1 v339))
theorem k0_off114_inb : ∀ (v339 : BitVec 32) (k0_hw113 : k0_chk113 v339), ∀ a, (k0_off114 v339) a + S1x300.size a ≤ S32000x300.size a := fun v339 k0_hw113 => k0_hw113.1
theorem k0_off242_inb : ∀ (v339 : BitVec 32) (k0_hw113 : k0_chk113 v339), ∀ a, (k0_off242 v339) a + S1x300.size a ≤ S32000x300.size a := fun v339 k0_hw113 => k0_hw113.2

def k0_off243 (v342 : BitVec 32) : Fin 2 → Nat :=
  let c0_i32_967 : BitVec 32 := 0#32
  ![v342.toNat, 0]

def k0_chk114 (v342 : BitVec 32) : Prop :=
  (∀ a, (k0_off115 v342) a + S1x300.size a ≤ S32000x300.size a) ∧
  (∀ a, (k0_off243 v342) a + S1x300.size a ≤ S32000x300.size a)
instance k0_chk114.dec : ∀ (v342 : BitVec 32), Decidable (k0_chk114 v342) := fun v342 => decidable_of_iff' _ (Iff.of_eq (k0_chk114.eq_1 v342))
theorem k0_off115_inb : ∀ (v342 : BitVec 32) (k0_hw114 : k0_chk114 v342), ∀ a, (k0_off115 v342) a + S1x300.size a ≤ S32000x300.size a := fun v342 k0_hw114 => k0_hw114.1
theorem k0_off243_inb : ∀ (v342 : BitVec 32) (k0_hw114 : k0_chk114 v342), ∀ a, (k0_off243 v342) a + S1x300.size a ≤ S32000x300.size a := fun v342 k0_hw114 => k0_hw114.2

def k0_off244 (v345 : BitVec 32) : Fin 2 → Nat :=
  let c0_i32_971 : BitVec 32 := 0#32
  ![v345.toNat, 0]

def k0_chk115 (v345 : BitVec 32) : Prop :=
  (∀ a, (k0_off116 v345) a + S1x300.size a ≤ S32000x300.size a) ∧
  (∀ a, (k0_off244 v345) a + S1x300.size a ≤ S32000x300.size a)
instance k0_chk115.dec : ∀ (v345 : BitVec 32), Decidable (k0_chk115 v345) := fun v345 => decidable_of_iff' _ (Iff.of_eq (k0_chk115.eq_1 v345))
theorem k0_off116_inb : ∀ (v345 : BitVec 32) (k0_hw115 : k0_chk115 v345), ∀ a, (k0_off116 v345) a + S1x300.size a ≤ S32000x300.size a := fun v345 k0_hw115 => k0_hw115.1
theorem k0_off244_inb : ∀ (v345 : BitVec 32) (k0_hw115 : k0_chk115 v345), ∀ a, (k0_off244 v345) a + S1x300.size a ≤ S32000x300.size a := fun v345 k0_hw115 => k0_hw115.2

def k0_off245 (v348 : BitVec 32) : Fin 2 → Nat :=
  let c0_i32_975 : BitVec 32 := 0#32
  ![v348.toNat, 0]

def k0_chk116 (v348 : BitVec 32) : Prop :=
  (∀ a, (k0_off117 v348) a + S1x300.size a ≤ S32000x300.size a) ∧
  (∀ a, (k0_off245 v348) a + S1x300.size a ≤ S32000x300.size a)
instance k0_chk116.dec : ∀ (v348 : BitVec 32), Decidable (k0_chk116 v348) := fun v348 => decidable_of_iff' _ (Iff.of_eq (k0_chk116.eq_1 v348))
theorem k0_off117_inb : ∀ (v348 : BitVec 32) (k0_hw116 : k0_chk116 v348), ∀ a, (k0_off117 v348) a + S1x300.size a ≤ S32000x300.size a := fun v348 k0_hw116 => k0_hw116.1
theorem k0_off245_inb : ∀ (v348 : BitVec 32) (k0_hw116 : k0_chk116 v348), ∀ a, (k0_off245 v348) a + S1x300.size a ≤ S32000x300.size a := fun v348 k0_hw116 => k0_hw116.2

def k0_off246 (v351 : BitVec 32) : Fin 2 → Nat :=
  let c0_i32_979 : BitVec 32 := 0#32
  ![v351.toNat, 0]

def k0_chk117 (v351 : BitVec 32) : Prop :=
  (∀ a, (k0_off118 v351) a + S1x300.size a ≤ S32000x300.size a) ∧
  (∀ a, (k0_off246 v351) a + S1x300.size a ≤ S32000x300.size a)
instance k0_chk117.dec : ∀ (v351 : BitVec 32), Decidable (k0_chk117 v351) := fun v351 => decidable_of_iff' _ (Iff.of_eq (k0_chk117.eq_1 v351))
theorem k0_off118_inb : ∀ (v351 : BitVec 32) (k0_hw117 : k0_chk117 v351), ∀ a, (k0_off118 v351) a + S1x300.size a ≤ S32000x300.size a := fun v351 k0_hw117 => k0_hw117.1
theorem k0_off246_inb : ∀ (v351 : BitVec 32) (k0_hw117 : k0_chk117 v351), ∀ a, (k0_off246 v351) a + S1x300.size a ≤ S32000x300.size a := fun v351 k0_hw117 => k0_hw117.2

def k0_off247 (v354 : BitVec 32) : Fin 2 → Nat :=
  let c0_i32_983 : BitVec 32 := 0#32
  ![v354.toNat, 0]

def k0_chk118 (v354 : BitVec 32) : Prop :=
  (∀ a, (k0_off119 v354) a + S1x300.size a ≤ S32000x300.size a) ∧
  (∀ a, (k0_off247 v354) a + S1x300.size a ≤ S32000x300.size a)
instance k0_chk118.dec : ∀ (v354 : BitVec 32), Decidable (k0_chk118 v354) := fun v354 => decidable_of_iff' _ (Iff.of_eq (k0_chk118.eq_1 v354))
theorem k0_off119_inb : ∀ (v354 : BitVec 32) (k0_hw118 : k0_chk118 v354), ∀ a, (k0_off119 v354) a + S1x300.size a ≤ S32000x300.size a := fun v354 k0_hw118 => k0_hw118.1
theorem k0_off247_inb : ∀ (v354 : BitVec 32) (k0_hw118 : k0_chk118 v354), ∀ a, (k0_off247 v354) a + S1x300.size a ≤ S32000x300.size a := fun v354 k0_hw118 => k0_hw118.2

def k0_off248 (v357 : BitVec 32) : Fin 2 → Nat :=
  let c0_i32_987 : BitVec 32 := 0#32
  ![v357.toNat, 0]

def k0_chk119 (v357 : BitVec 32) : Prop :=
  (∀ a, (k0_off120 v357) a + S1x300.size a ≤ S32000x300.size a) ∧
  (∀ a, (k0_off248 v357) a + S1x300.size a ≤ S32000x300.size a)
instance k0_chk119.dec : ∀ (v357 : BitVec 32), Decidable (k0_chk119 v357) := fun v357 => decidable_of_iff' _ (Iff.of_eq (k0_chk119.eq_1 v357))
theorem k0_off120_inb : ∀ (v357 : BitVec 32) (k0_hw119 : k0_chk119 v357), ∀ a, (k0_off120 v357) a + S1x300.size a ≤ S32000x300.size a := fun v357 k0_hw119 => k0_hw119.1
theorem k0_off248_inb : ∀ (v357 : BitVec 32) (k0_hw119 : k0_chk119 v357), ∀ a, (k0_off248 v357) a + S1x300.size a ≤ S32000x300.size a := fun v357 k0_hw119 => k0_hw119.2

def k0_off249 (v360 : BitVec 32) : Fin 2 → Nat :=
  let c0_i32_991 : BitVec 32 := 0#32
  ![v360.toNat, 0]

def k0_chk120 (v360 : BitVec 32) : Prop :=
  (∀ a, (k0_off121 v360) a + S1x300.size a ≤ S32000x300.size a) ∧
  (∀ a, (k0_off249 v360) a + S1x300.size a ≤ S32000x300.size a)
instance k0_chk120.dec : ∀ (v360 : BitVec 32), Decidable (k0_chk120 v360) := fun v360 => decidable_of_iff' _ (Iff.of_eq (k0_chk120.eq_1 v360))
theorem k0_off121_inb : ∀ (v360 : BitVec 32) (k0_hw120 : k0_chk120 v360), ∀ a, (k0_off121 v360) a + S1x300.size a ≤ S32000x300.size a := fun v360 k0_hw120 => k0_hw120.1
theorem k0_off249_inb : ∀ (v360 : BitVec 32) (k0_hw120 : k0_chk120 v360), ∀ a, (k0_off249 v360) a + S1x300.size a ≤ S32000x300.size a := fun v360 k0_hw120 => k0_hw120.2

def k0_off250 (v363 : BitVec 32) : Fin 2 → Nat :=
  let c0_i32_995 : BitVec 32 := 0#32
  ![v363.toNat, 0]

def k0_chk121 (v363 : BitVec 32) : Prop :=
  (∀ a, (k0_off122 v363) a + S1x300.size a ≤ S32000x300.size a) ∧
  (∀ a, (k0_off250 v363) a + S1x300.size a ≤ S32000x300.size a)
instance k0_chk121.dec : ∀ (v363 : BitVec 32), Decidable (k0_chk121 v363) := fun v363 => decidable_of_iff' _ (Iff.of_eq (k0_chk121.eq_1 v363))
theorem k0_off122_inb : ∀ (v363 : BitVec 32) (k0_hw121 : k0_chk121 v363), ∀ a, (k0_off122 v363) a + S1x300.size a ≤ S32000x300.size a := fun v363 k0_hw121 => k0_hw121.1
theorem k0_off250_inb : ∀ (v363 : BitVec 32) (k0_hw121 : k0_chk121 v363), ∀ a, (k0_off250 v363) a + S1x300.size a ≤ S32000x300.size a := fun v363 k0_hw121 => k0_hw121.2

def k0_off251 (v366 : BitVec 32) : Fin 2 → Nat :=
  let c0_i32_999 : BitVec 32 := 0#32
  ![v366.toNat, 0]

def k0_chk122 (v366 : BitVec 32) : Prop :=
  (∀ a, (k0_off123 v366) a + S1x300.size a ≤ S32000x300.size a) ∧
  (∀ a, (k0_off251 v366) a + S1x300.size a ≤ S32000x300.size a)
instance k0_chk122.dec : ∀ (v366 : BitVec 32), Decidable (k0_chk122 v366) := fun v366 => decidable_of_iff' _ (Iff.of_eq (k0_chk122.eq_1 v366))
theorem k0_off123_inb : ∀ (v366 : BitVec 32) (k0_hw122 : k0_chk122 v366), ∀ a, (k0_off123 v366) a + S1x300.size a ≤ S32000x300.size a := fun v366 k0_hw122 => k0_hw122.1
theorem k0_off251_inb : ∀ (v366 : BitVec 32) (k0_hw122 : k0_chk122 v366), ∀ a, (k0_off251 v366) a + S1x300.size a ≤ S32000x300.size a := fun v366 k0_hw122 => k0_hw122.2

def k0_off252 (v369 : BitVec 32) : Fin 2 → Nat :=
  let c0_i32_1003 : BitVec 32 := 0#32
  ![v369.toNat, 0]

def k0_chk123 (v369 : BitVec 32) : Prop :=
  (∀ a, (k0_off124 v369) a + S1x300.size a ≤ S32000x300.size a) ∧
  (∀ a, (k0_off252 v369) a + S1x300.size a ≤ S32000x300.size a)
instance k0_chk123.dec : ∀ (v369 : BitVec 32), Decidable (k0_chk123 v369) := fun v369 => decidable_of_iff' _ (Iff.of_eq (k0_chk123.eq_1 v369))
theorem k0_off124_inb : ∀ (v369 : BitVec 32) (k0_hw123 : k0_chk123 v369), ∀ a, (k0_off124 v369) a + S1x300.size a ≤ S32000x300.size a := fun v369 k0_hw123 => k0_hw123.1
theorem k0_off252_inb : ∀ (v369 : BitVec 32) (k0_hw123 : k0_chk123 v369), ∀ a, (k0_off252 v369) a + S1x300.size a ≤ S32000x300.size a := fun v369 k0_hw123 => k0_hw123.2

def k0_off253 (v372 : BitVec 32) : Fin 2 → Nat :=
  let c0_i32_1007 : BitVec 32 := 0#32
  ![v372.toNat, 0]

def k0_chk124 (v372 : BitVec 32) : Prop :=
  (∀ a, (k0_off125 v372) a + S1x300.size a ≤ S32000x300.size a) ∧
  (∀ a, (k0_off253 v372) a + S1x300.size a ≤ S32000x300.size a)
instance k0_chk124.dec : ∀ (v372 : BitVec 32), Decidable (k0_chk124 v372) := fun v372 => decidable_of_iff' _ (Iff.of_eq (k0_chk124.eq_1 v372))
theorem k0_off125_inb : ∀ (v372 : BitVec 32) (k0_hw124 : k0_chk124 v372), ∀ a, (k0_off125 v372) a + S1x300.size a ≤ S32000x300.size a := fun v372 k0_hw124 => k0_hw124.1
theorem k0_off253_inb : ∀ (v372 : BitVec 32) (k0_hw124 : k0_chk124 v372), ∀ a, (k0_off253 v372) a + S1x300.size a ≤ S32000x300.size a := fun v372 k0_hw124 => k0_hw124.2

def k0_off254 (v375 : BitVec 32) : Fin 2 → Nat :=
  let c0_i32_1011 : BitVec 32 := 0#32
  ![v375.toNat, 0]

def k0_chk125 (v375 : BitVec 32) : Prop :=
  (∀ a, (k0_off126 v375) a + S1x300.size a ≤ S32000x300.size a) ∧
  (∀ a, (k0_off254 v375) a + S1x300.size a ≤ S32000x300.size a)
instance k0_chk125.dec : ∀ (v375 : BitVec 32), Decidable (k0_chk125 v375) := fun v375 => decidable_of_iff' _ (Iff.of_eq (k0_chk125.eq_1 v375))
theorem k0_off126_inb : ∀ (v375 : BitVec 32) (k0_hw125 : k0_chk125 v375), ∀ a, (k0_off126 v375) a + S1x300.size a ≤ S32000x300.size a := fun v375 k0_hw125 => k0_hw125.1
theorem k0_off254_inb : ∀ (v375 : BitVec 32) (k0_hw125 : k0_chk125 v375), ∀ a, (k0_off254 v375) a + S1x300.size a ≤ S32000x300.size a := fun v375 k0_hw125 => k0_hw125.2

def k0_off255 (v378 : BitVec 32) : Fin 2 → Nat :=
  let c0_i32_1015 : BitVec 32 := 0#32
  ![v378.toNat, 0]

def k0_chk126 (v378 : BitVec 32) : Prop :=
  (∀ a, (k0_off127 v378) a + S1x300.size a ≤ S32000x300.size a) ∧
  (∀ a, (k0_off255 v378) a + S1x300.size a ≤ S32000x300.size a)
instance k0_chk126.dec : ∀ (v378 : BitVec 32), Decidable (k0_chk126 v378) := fun v378 => decidable_of_iff' _ (Iff.of_eq (k0_chk126.eq_1 v378))
theorem k0_off127_inb : ∀ (v378 : BitVec 32) (k0_hw126 : k0_chk126 v378), ∀ a, (k0_off127 v378) a + S1x300.size a ≤ S32000x300.size a := fun v378 k0_hw126 => k0_hw126.1
theorem k0_off255_inb : ∀ (v378 : BitVec 32) (k0_hw126 : k0_chk126 v378), ∀ a, (k0_off255 v378) a + S1x300.size a ≤ S32000x300.size a := fun v378 k0_hw126 => k0_hw126.2

def k0_off256 (v381 : BitVec 32) : Fin 2 → Nat :=
  let c0_i32_1019 : BitVec 32 := 0#32
  ![v381.toNat, 0]

def k0_chk127 (v381 : BitVec 32) : Prop :=
  (∀ a, (k0_off128 v381) a + S1x300.size a ≤ S32000x300.size a) ∧
  (∀ a, (k0_off256 v381) a + S1x300.size a ≤ S32000x300.size a)
instance k0_chk127.dec : ∀ (v381 : BitVec 32), Decidable (k0_chk127 v381) := fun v381 => decidable_of_iff' _ (Iff.of_eq (k0_chk127.eq_1 v381))
theorem k0_off128_inb : ∀ (v381 : BitVec 32) (k0_hw127 : k0_chk127 v381), ∀ a, (k0_off128 v381) a + S1x300.size a ≤ S32000x300.size a := fun v381 k0_hw127 => k0_hw127.1
theorem k0_off256_inb : ∀ (v381 : BitVec 32) (k0_hw127 : k0_chk127 v381), ∀ a, (k0_off256 v381) a + S1x300.size a ≤ S32000x300.size a := fun v381 k0_hw127 => k0_hw127.2

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S300x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S8x128_S1024 : S8x128.ShapeCasts S1024
  bitsLt_bf16_f32 : FTy.bits .bf16 < FTy.bits .f32
  transposes_S512x300_S300x512_1_0 : S512x300.Transposes [1, 0] S300x512
  shapeCasts_S512_S1x512 : S512.ShapeCasts S1x512
  numel1_S1 : S1.numel = 1
  inb_S128_S1_0 : ∀ a, (![0] : Fin 1 → Nat) a + S1.size a ≤ S128.size a
  squeezes_S1_S_ : S1.Squeezes S_
  inb_S128x300_S1x300_0_0 : ∀ a, (![0, 0] : Fin 2 → Nat) a + S1x300.size a ≤ S128x300.size a
  squeezes_S1x300_S300 : S1x300.Squeezes S300
  inb_S128_S1_1 : ∀ a, (![1] : Fin 1 → Nat) a + S1.size a ≤ S128.size a
  inb_S128x300_S1x300_1_0 : ∀ a, (![1, 0] : Fin 2 → Nat) a + S1x300.size a ≤ S128x300.size a
  inb_S128_S1_2 : ∀ a, (![2] : Fin 1 → Nat) a + S1.size a ≤ S128.size a
  inb_S128x300_S1x300_2_0 : ∀ a, (![2, 0] : Fin 2 → Nat) a + S1x300.size a ≤ S128x300.size a
  inb_S128_S1_3 : ∀ a, (![3] : Fin 1 → Nat) a + S1.size a ≤ S128.size a
  inb_S128x300_S1x300_3_0 : ∀ a, (![3, 0] : Fin 2 → Nat) a + S1x300.size a ≤ S128x300.size a
  inb_S128_S1_4 : ∀ a, (![4] : Fin 1 → Nat) a + S1.size a ≤ S128.size a
  inb_S128x300_S1x300_4_0 : ∀ a, (![4, 0] : Fin 2 → Nat) a + S1x300.size a ≤ S128x300.size a
  inb_S128_S1_5 : ∀ a, (![5] : Fin 1 → Nat) a + S1.size a ≤ S128.size a
  inb_S128x300_S1x300_5_0 : ∀ a, (![5, 0] : Fin 2 → Nat) a + S1x300.size a ≤ S128x300.size a
  inb_S128_S1_6 : ∀ a, (![6] : Fin 1 → Nat) a + S1.size a ≤ S128.size a
  inb_S128x300_S1x300_6_0 : ∀ a, (![6, 0] : Fin 2 → Nat) a + S1x300.size a ≤ S128x300.size a
  inb_S128_S1_7 : ∀ a, (![7] : Fin 1 → Nat) a + S1.size a ≤ S128.size a
  inb_S128x300_S1x300_7_0 : ∀ a, (![7, 0] : Fin 2 → Nat) a + S1x300.size a ≤ S128x300.size a
  inb_S128_S1_8 : ∀ a, (![8] : Fin 1 → Nat) a + S1.size a ≤ S128.size a
  inb_S128x300_S1x300_8_0 : ∀ a, (![8, 0] : Fin 2 → Nat) a + S1x300.size a ≤ S128x300.size a
  inb_S128_S1_9 : ∀ a, (![9] : Fin 1 → Nat) a + S1.size a ≤ S128.size a
  inb_S128x300_S1x300_9_0 : ∀ a, (![9, 0] : Fin 2 → Nat) a + S1x300.size a ≤ S128x300.size a
  inb_S128_S1_10 : ∀ a, (![10] : Fin 1 → Nat) a + S1.size a ≤ S128.size a
  inb_S128x300_S1x300_10_0 : ∀ a, (![10, 0] : Fin 2 → Nat) a + S1x300.size a ≤ S128x300.size a
  inb_S128_S1_11 : ∀ a, (![11] : Fin 1 → Nat) a + S1.size a ≤ S128.size a
  inb_S128x300_S1x300_11_0 : ∀ a, (![11, 0] : Fin 2 → Nat) a + S1x300.size a ≤ S128x300.size a
  inb_S128_S1_12 : ∀ a, (![12] : Fin 1 → Nat) a + S1.size a ≤ S128.size a
  inb_S128x300_S1x300_12_0 : ∀ a, (![12, 0] : Fin 2 → Nat) a + S1x300.size a ≤ S128x300.size a
  inb_S128_S1_13 : ∀ a, (![13] : Fin 1 → Nat) a + S1.size a ≤ S128.size a
  inb_S128x300_S1x300_13_0 : ∀ a, (![13, 0] : Fin 2 → Nat) a + S1x300.size a ≤ S128x300.size a
  inb_S128_S1_14 : ∀ a, (![14] : Fin 1 → Nat) a + S1.size a ≤ S128.size a
  inb_S128x300_S1x300_14_0 : ∀ a, (![14, 0] : Fin 2 → Nat) a + S1x300.size a ≤ S128x300.size a
  inb_S128_S1_15 : ∀ a, (![15] : Fin 1 → Nat) a + S1.size a ≤ S128.size a
  inb_S128x300_S1x300_15_0 : ∀ a, (![15, 0] : Fin 2 → Nat) a + S1x300.size a ≤ S128x300.size a
  inb_S128_S1_16 : ∀ a, (![16] : Fin 1 → Nat) a + S1.size a ≤ S128.size a
  inb_S128x300_S1x300_16_0 : ∀ a, (![16, 0] : Fin 2 → Nat) a + S1x300.size a ≤ S128x300.size a
  inb_S128_S1_17 : ∀ a, (![17] : Fin 1 → Nat) a + S1.size a ≤ S128.size a
  inb_S128x300_S1x300_17_0 : ∀ a, (![17, 0] : Fin 2 → Nat) a + S1x300.size a ≤ S128x300.size a
  inb_S128_S1_18 : ∀ a, (![18] : Fin 1 → Nat) a + S1.size a ≤ S128.size a
  inb_S128x300_S1x300_18_0 : ∀ a, (![18, 0] : Fin 2 → Nat) a + S1x300.size a ≤ S128x300.size a
  inb_S128_S1_19 : ∀ a, (![19] : Fin 1 → Nat) a + S1.size a ≤ S128.size a
  inb_S128x300_S1x300_19_0 : ∀ a, (![19, 0] : Fin 2 → Nat) a + S1x300.size a ≤ S128x300.size a
  inb_S128_S1_20 : ∀ a, (![20] : Fin 1 → Nat) a + S1.size a ≤ S128.size a
  inb_S128x300_S1x300_20_0 : ∀ a, (![20, 0] : Fin 2 → Nat) a + S1x300.size a ≤ S128x300.size a
  inb_S128_S1_21 : ∀ a, (![21] : Fin 1 → Nat) a + S1.size a ≤ S128.size a
  inb_S128x300_S1x300_21_0 : ∀ a, (![21, 0] : Fin 2 → Nat) a + S1x300.size a ≤ S128x300.size a
  inb_S128_S1_22 : ∀ a, (![22] : Fin 1 → Nat) a + S1.size a ≤ S128.size a
  inb_S128x300_S1x300_22_0 : ∀ a, (![22, 0] : Fin 2 → Nat) a + S1x300.size a ≤ S128x300.size a
  inb_S128_S1_23 : ∀ a, (![23] : Fin 1 → Nat) a + S1.size a ≤ S128.size a
  inb_S128x300_S1x300_23_0 : ∀ a, (![23, 0] : Fin 2 → Nat) a + S1x300.size a ≤ S128x300.size a
  inb_S128_S1_24 : ∀ a, (![24] : Fin 1 → Nat) a + S1.size a ≤ S128.size a
  inb_S128x300_S1x300_24_0 : ∀ a, (![24, 0] : Fin 2 → Nat) a + S1x300.size a ≤ S128x300.size a
  inb_S128_S1_25 : ∀ a, (![25] : Fin 1 → Nat) a + S1.size a ≤ S128.size a
  inb_S128x300_S1x300_25_0 : ∀ a, (![25, 0] : Fin 2 → Nat) a + S1x300.size a ≤ S128x300.size a
  inb_S128_S1_26 : ∀ a, (![26] : Fin 1 → Nat) a + S1.size a ≤ S128.size a
  inb_S128x300_S1x300_26_0 : ∀ a, (![26, 0] : Fin 2 → Nat) a + S1x300.size a ≤ S128x300.size a
  inb_S128_S1_27 : ∀ a, (![27] : Fin 1 → Nat) a + S1.size a ≤ S128.size a
  inb_S128x300_S1x300_27_0 : ∀ a, (![27, 0] : Fin 2 → Nat) a + S1x300.size a ≤ S128x300.size a
  inb_S128_S1_28 : ∀ a, (![28] : Fin 1 → Nat) a + S1.size a ≤ S128.size a
  inb_S128x300_S1x300_28_0 : ∀ a, (![28, 0] : Fin 2 → Nat) a + S1x300.size a ≤ S128x300.size a
  inb_S128_S1_29 : ∀ a, (![29] : Fin 1 → Nat) a + S1.size a ≤ S128.size a
  inb_S128x300_S1x300_29_0 : ∀ a, (![29, 0] : Fin 2 → Nat) a + S1x300.size a ≤ S128x300.size a
  inb_S128_S1_30 : ∀ a, (![30] : Fin 1 → Nat) a + S1.size a ≤ S128.size a
  inb_S128x300_S1x300_30_0 : ∀ a, (![30, 0] : Fin 2 → Nat) a + S1x300.size a ≤ S128x300.size a
  inb_S128_S1_31 : ∀ a, (![31] : Fin 1 → Nat) a + S1.size a ≤ S128.size a
  inb_S128x300_S1x300_31_0 : ∀ a, (![31, 0] : Fin 2 → Nat) a + S1x300.size a ≤ S128x300.size a
  inb_S128_S1_32 : ∀ a, (![32] : Fin 1 → Nat) a + S1.size a ≤ S128.size a
  inb_S128x300_S1x300_32_0 : ∀ a, (![32, 0] : Fin 2 → Nat) a + S1x300.size a ≤ S128x300.size a
  inb_S128_S1_33 : ∀ a, (![33] : Fin 1 → Nat) a + S1.size a ≤ S128.size a
  inb_S128x300_S1x300_33_0 : ∀ a, (![33, 0] : Fin 2 → Nat) a + S1x300.size a ≤ S128x300.size a
  inb_S128_S1_34 : ∀ a, (![34] : Fin 1 → Nat) a + S1.size a ≤ S128.size a
  inb_S128x300_S1x300_34_0 : ∀ a, (![34, 0] : Fin 2 → Nat) a + S1x300.size a ≤ S128x300.size a
  inb_S128_S1_35 : ∀ a, (![35] : Fin 1 → Nat) a + S1.size a ≤ S128.size a
  inb_S128x300_S1x300_35_0 : ∀ a, (![35, 0] : Fin 2 → Nat) a + S1x300.size a ≤ S128x300.size a
  inb_S128_S1_36 : ∀ a, (![36] : Fin 1 → Nat) a + S1.size a ≤ S128.size a
  inb_S128x300_S1x300_36_0 : ∀ a, (![36, 0] : Fin 2 → Nat) a + S1x300.size a ≤ S128x300.size a
  inb_S128_S1_37 : ∀ a, (![37] : Fin 1 → Nat) a + S1.size a ≤ S128.size a
  inb_S128x300_S1x300_37_0 : ∀ a, (![37, 0] : Fin 2 → Nat) a + S1x300.size a ≤ S128x300.size a
  inb_S128_S1_38 : ∀ a, (![38] : Fin 1 → Nat) a + S1.size a ≤ S128.size a
  inb_S128x300_S1x300_38_0 : ∀ a, (![38, 0] : Fin 2 → Nat) a + S1x300.size a ≤ S128x300.size a
  inb_S128_S1_39 : ∀ a, (![39] : Fin 1 → Nat) a + S1.size a ≤ S128.size a
  inb_S128x300_S1x300_39_0 : ∀ a, (![39, 0] : Fin 2 → Nat) a + S1x300.size a ≤ S128x300.size a
  inb_S128_S1_40 : ∀ a, (![40] : Fin 1 → Nat) a + S1.size a ≤ S128.size a
  inb_S128x300_S1x300_40_0 : ∀ a, (![40, 0] : Fin 2 → Nat) a + S1x300.size a ≤ S128x300.size a
  inb_S128_S1_41 : ∀ a, (![41] : Fin 1 → Nat) a + S1.size a ≤ S128.size a
  inb_S128x300_S1x300_41_0 : ∀ a, (![41, 0] : Fin 2 → Nat) a + S1x300.size a ≤ S128x300.size a
  inb_S128_S1_42 : ∀ a, (![42] : Fin 1 → Nat) a + S1.size a ≤ S128.size a
  inb_S128x300_S1x300_42_0 : ∀ a, (![42, 0] : Fin 2 → Nat) a + S1x300.size a ≤ S128x300.size a
  inb_S128_S1_43 : ∀ a, (![43] : Fin 1 → Nat) a + S1.size a ≤ S128.size a
  inb_S128x300_S1x300_43_0 : ∀ a, (![43, 0] : Fin 2 → Nat) a + S1x300.size a ≤ S128x300.size a
  inb_S128_S1_44 : ∀ a, (![44] : Fin 1 → Nat) a + S1.size a ≤ S128.size a
  inb_S128x300_S1x300_44_0 : ∀ a, (![44, 0] : Fin 2 → Nat) a + S1x300.size a ≤ S128x300.size a
  inb_S128_S1_45 : ∀ a, (![45] : Fin 1 → Nat) a + S1.size a ≤ S128.size a
  inb_S128x300_S1x300_45_0 : ∀ a, (![45, 0] : Fin 2 → Nat) a + S1x300.size a ≤ S128x300.size a
  inb_S128_S1_46 : ∀ a, (![46] : Fin 1 → Nat) a + S1.size a ≤ S128.size a
  inb_S128x300_S1x300_46_0 : ∀ a, (![46, 0] : Fin 2 → Nat) a + S1x300.size a ≤ S128x300.size a
  inb_S128_S1_47 : ∀ a, (![47] : Fin 1 → Nat) a + S1.size a ≤ S128.size a
  inb_S128x300_S1x300_47_0 : ∀ a, (![47, 0] : Fin 2 → Nat) a + S1x300.size a ≤ S128x300.size a
  inb_S128_S1_48 : ∀ a, (![48] : Fin 1 → Nat) a + S1.size a ≤ S128.size a
  inb_S128x300_S1x300_48_0 : ∀ a, (![48, 0] : Fin 2 → Nat) a + S1x300.size a ≤ S128x300.size a
  inb_S128_S1_49 : ∀ a, (![49] : Fin 1 → Nat) a + S1.size a ≤ S128.size a
  inb_S128x300_S1x300_49_0 : ∀ a, (![49, 0] : Fin 2 → Nat) a + S1x300.size a ≤ S128x300.size a
  inb_S128_S1_50 : ∀ a, (![50] : Fin 1 → Nat) a + S1.size a ≤ S128.size a
  inb_S128x300_S1x300_50_0 : ∀ a, (![50, 0] : Fin 2 → Nat) a + S1x300.size a ≤ S128x300.size a
  inb_S128_S1_51 : ∀ a, (![51] : Fin 1 → Nat) a + S1.size a ≤ S128.size a
  inb_S128x300_S1x300_51_0 : ∀ a, (![51, 0] : Fin 2 → Nat) a + S1x300.size a ≤ S128x300.size a
  inb_S128_S1_52 : ∀ a, (![52] : Fin 1 → Nat) a + S1.size a ≤ S128.size a
  inb_S128x300_S1x300_52_0 : ∀ a, (![52, 0] : Fin 2 → Nat) a + S1x300.size a ≤ S128x300.size a
  inb_S128_S1_53 : ∀ a, (![53] : Fin 1 → Nat) a + S1.size a ≤ S128.size a
  inb_S128x300_S1x300_53_0 : ∀ a, (![53, 0] : Fin 2 → Nat) a + S1x300.size a ≤ S128x300.size a
  inb_S128_S1_54 : ∀ a, (![54] : Fin 1 → Nat) a + S1.size a ≤ S128.size a
  inb_S128x300_S1x300_54_0 : ∀ a, (![54, 0] : Fin 2 → Nat) a + S1x300.size a ≤ S128x300.size a
  inb_S128_S1_55 : ∀ a, (![55] : Fin 1 → Nat) a + S1.size a ≤ S128.size a
  inb_S128x300_S1x300_55_0 : ∀ a, (![55, 0] : Fin 2 → Nat) a + S1x300.size a ≤ S128x300.size a
  inb_S128_S1_56 : ∀ a, (![56] : Fin 1 → Nat) a + S1.size a ≤ S128.size a
  inb_S128x300_S1x300_56_0 : ∀ a, (![56, 0] : Fin 2 → Nat) a + S1x300.size a ≤ S128x300.size a
  inb_S128_S1_57 : ∀ a, (![57] : Fin 1 → Nat) a + S1.size a ≤ S128.size a
  inb_S128x300_S1x300_57_0 : ∀ a, (![57, 0] : Fin 2 → Nat) a + S1x300.size a ≤ S128x300.size a
  inb_S128_S1_58 : ∀ a, (![58] : Fin 1 → Nat) a + S1.size a ≤ S128.size a
  inb_S128x300_S1x300_58_0 : ∀ a, (![58, 0] : Fin 2 → Nat) a + S1x300.size a ≤ S128x300.size a
  inb_S128_S1_59 : ∀ a, (![59] : Fin 1 → Nat) a + S1.size a ≤ S128.size a
  inb_S128x300_S1x300_59_0 : ∀ a, (![59, 0] : Fin 2 → Nat) a + S1x300.size a ≤ S128x300.size a
  inb_S128_S1_60 : ∀ a, (![60] : Fin 1 → Nat) a + S1.size a ≤ S128.size a
  inb_S128x300_S1x300_60_0 : ∀ a, (![60, 0] : Fin 2 → Nat) a + S1x300.size a ≤ S128x300.size a
  inb_S128_S1_61 : ∀ a, (![61] : Fin 1 → Nat) a + S1.size a ≤ S128.size a
  inb_S128x300_S1x300_61_0 : ∀ a, (![61, 0] : Fin 2 → Nat) a + S1x300.size a ≤ S128x300.size a
  inb_S128_S1_62 : ∀ a, (![62] : Fin 1 → Nat) a + S1.size a ≤ S128.size a
  inb_S128x300_S1x300_62_0 : ∀ a, (![62, 0] : Fin 2 → Nat) a + S1x300.size a ≤ S128x300.size a
  inb_S128_S1_63 : ∀ a, (![63] : Fin 1 → Nat) a + S1.size a ≤ S128.size a
  inb_S128x300_S1x300_63_0 : ∀ a, (![63, 0] : Fin 2 → Nat) a + S1x300.size a ≤ S128x300.size a
  inb_S128_S1_64 : ∀ a, (![64] : Fin 1 → Nat) a + S1.size a ≤ S128.size a
  inb_S128x300_S1x300_64_0 : ∀ a, (![64, 0] : Fin 2 → Nat) a + S1x300.size a ≤ S128x300.size a
  inb_S128_S1_65 : ∀ a, (![65] : Fin 1 → Nat) a + S1.size a ≤ S128.size a
  inb_S128x300_S1x300_65_0 : ∀ a, (![65, 0] : Fin 2 → Nat) a + S1x300.size a ≤ S128x300.size a
  inb_S128_S1_66 : ∀ a, (![66] : Fin 1 → Nat) a + S1.size a ≤ S128.size a
  inb_S128x300_S1x300_66_0 : ∀ a, (![66, 0] : Fin 2 → Nat) a + S1x300.size a ≤ S128x300.size a
  inb_S128_S1_67 : ∀ a, (![67] : Fin 1 → Nat) a + S1.size a ≤ S128.size a
  inb_S128x300_S1x300_67_0 : ∀ a, (![67, 0] : Fin 2 → Nat) a + S1x300.size a ≤ S128x300.size a
  inb_S128_S1_68 : ∀ a, (![68] : Fin 1 → Nat) a + S1.size a ≤ S128.size a
  inb_S128x300_S1x300_68_0 : ∀ a, (![68, 0] : Fin 2 → Nat) a + S1x300.size a ≤ S128x300.size a
  inb_S128_S1_69 : ∀ a, (![69] : Fin 1 → Nat) a + S1.size a ≤ S128.size a
  inb_S128x300_S1x300_69_0 : ∀ a, (![69, 0] : Fin 2 → Nat) a + S1x300.size a ≤ S128x300.size a
  inb_S128_S1_70 : ∀ a, (![70] : Fin 1 → Nat) a + S1.size a ≤ S128.size a
  inb_S128x300_S1x300_70_0 : ∀ a, (![70, 0] : Fin 2 → Nat) a + S1x300.size a ≤ S128x300.size a
  inb_S128_S1_71 : ∀ a, (![71] : Fin 1 → Nat) a + S1.size a ≤ S128.size a
  inb_S128x300_S1x300_71_0 : ∀ a, (![71, 0] : Fin 2 → Nat) a + S1x300.size a ≤ S128x300.size a
  inb_S128_S1_72 : ∀ a, (![72] : Fin 1 → Nat) a + S1.size a ≤ S128.size a
  inb_S128x300_S1x300_72_0 : ∀ a, (![72, 0] : Fin 2 → Nat) a + S1x300.size a ≤ S128x300.size a
  inb_S128_S1_73 : ∀ a, (![73] : Fin 1 → Nat) a + S1.size a ≤ S128.size a
  inb_S128x300_S1x300_73_0 : ∀ a, (![73, 0] : Fin 2 → Nat) a + S1x300.size a ≤ S128x300.size a
  inb_S128_S1_74 : ∀ a, (![74] : Fin 1 → Nat) a + S1.size a ≤ S128.size a
  inb_S128x300_S1x300_74_0 : ∀ a, (![74, 0] : Fin 2 → Nat) a + S1x300.size a ≤ S128x300.size a
  inb_S128_S1_75 : ∀ a, (![75] : Fin 1 → Nat) a + S1.size a ≤ S128.size a
  inb_S128x300_S1x300_75_0 : ∀ a, (![75, 0] : Fin 2 → Nat) a + S1x300.size a ≤ S128x300.size a
  inb_S128_S1_76 : ∀ a, (![76] : Fin 1 → Nat) a + S1.size a ≤ S128.size a
  inb_S128x300_S1x300_76_0 : ∀ a, (![76, 0] : Fin 2 → Nat) a + S1x300.size a ≤ S128x300.size a
  inb_S128_S1_77 : ∀ a, (![77] : Fin 1 → Nat) a + S1.size a ≤ S128.size a
  inb_S128x300_S1x300_77_0 : ∀ a, (![77, 0] : Fin 2 → Nat) a + S1x300.size a ≤ S128x300.size a
  inb_S128_S1_78 : ∀ a, (![78] : Fin 1 → Nat) a + S1.size a ≤ S128.size a
  inb_S128x300_S1x300_78_0 : ∀ a, (![78, 0] : Fin 2 → Nat) a + S1x300.size a ≤ S128x300.size a
  inb_S128_S1_79 : ∀ a, (![79] : Fin 1 → Nat) a + S1.size a ≤ S128.size a
  inb_S128x300_S1x300_79_0 : ∀ a, (![79, 0] : Fin 2 → Nat) a + S1x300.size a ≤ S128x300.size a
  inb_S128_S1_80 : ∀ a, (![80] : Fin 1 → Nat) a + S1.size a ≤ S128.size a
  inb_S128x300_S1x300_80_0 : ∀ a, (![80, 0] : Fin 2 → Nat) a + S1x300.size a ≤ S128x300.size a
  inb_S128_S1_81 : ∀ a, (![81] : Fin 1 → Nat) a + S1.size a ≤ S128.size a
  inb_S128x300_S1x300_81_0 : ∀ a, (![81, 0] : Fin 2 → Nat) a + S1x300.size a ≤ S128x300.size a
  inb_S128_S1_82 : ∀ a, (![82] : Fin 1 → Nat) a + S1.size a ≤ S128.size a
  inb_S128x300_S1x300_82_0 : ∀ a, (![82, 0] : Fin 2 → Nat) a + S1x300.size a ≤ S128x300.size a
  inb_S128_S1_83 : ∀ a, (![83] : Fin 1 → Nat) a + S1.size a ≤ S128.size a
  inb_S128x300_S1x300_83_0 : ∀ a, (![83, 0] : Fin 2 → Nat) a + S1x300.size a ≤ S128x300.size a
  inb_S128_S1_84 : ∀ a, (![84] : Fin 1 → Nat) a + S1.size a ≤ S128.size a
  inb_S128x300_S1x300_84_0 : ∀ a, (![84, 0] : Fin 2 → Nat) a + S1x300.size a ≤ S128x300.size a
  inb_S128_S1_85 : ∀ a, (![85] : Fin 1 → Nat) a + S1.size a ≤ S128.size a
  inb_S128x300_S1x300_85_0 : ∀ a, (![85, 0] : Fin 2 → Nat) a + S1x300.size a ≤ S128x300.size a
  inb_S128_S1_86 : ∀ a, (![86] : Fin 1 → Nat) a + S1.size a ≤ S128.size a
  inb_S128x300_S1x300_86_0 : ∀ a, (![86, 0] : Fin 2 → Nat) a + S1x300.size a ≤ S128x300.size a
  inb_S128_S1_87 : ∀ a, (![87] : Fin 1 → Nat) a + S1.size a ≤ S128.size a
  inb_S128x300_S1x300_87_0 : ∀ a, (![87, 0] : Fin 2 → Nat) a + S1x300.size a ≤ S128x300.size a
  inb_S128_S1_88 : ∀ a, (![88] : Fin 1 → Nat) a + S1.size a ≤ S128.size a
  inb_S128x300_S1x300_88_0 : ∀ a, (![88, 0] : Fin 2 → Nat) a + S1x300.size a ≤ S128x300.size a
  inb_S128_S1_89 : ∀ a, (![89] : Fin 1 → Nat) a + S1.size a ≤ S128.size a
  inb_S128x300_S1x300_89_0 : ∀ a, (![89, 0] : Fin 2 → Nat) a + S1x300.size a ≤ S128x300.size a
  inb_S128_S1_90 : ∀ a, (![90] : Fin 1 → Nat) a + S1.size a ≤ S128.size a
  inb_S128x300_S1x300_90_0 : ∀ a, (![90, 0] : Fin 2 → Nat) a + S1x300.size a ≤ S128x300.size a
  inb_S128_S1_91 : ∀ a, (![91] : Fin 1 → Nat) a + S1.size a ≤ S128.size a
  inb_S128x300_S1x300_91_0 : ∀ a, (![91, 0] : Fin 2 → Nat) a + S1x300.size a ≤ S128x300.size a
  inb_S128_S1_92 : ∀ a, (![92] : Fin 1 → Nat) a + S1.size a ≤ S128.size a
  inb_S128x300_S1x300_92_0 : ∀ a, (![92, 0] : Fin 2 → Nat) a + S1x300.size a ≤ S128x300.size a
  inb_S128_S1_93 : ∀ a, (![93] : Fin 1 → Nat) a + S1.size a ≤ S128.size a
  inb_S128x300_S1x300_93_0 : ∀ a, (![93, 0] : Fin 2 → Nat) a + S1x300.size a ≤ S128x300.size a
  inb_S128_S1_94 : ∀ a, (![94] : Fin 1 → Nat) a + S1.size a ≤ S128.size a
  inb_S128x300_S1x300_94_0 : ∀ a, (![94, 0] : Fin 2 → Nat) a + S1x300.size a ≤ S128x300.size a
  inb_S128_S1_95 : ∀ a, (![95] : Fin 1 → Nat) a + S1.size a ≤ S128.size a
  inb_S128x300_S1x300_95_0 : ∀ a, (![95, 0] : Fin 2 → Nat) a + S1x300.size a ≤ S128x300.size a
  inb_S128_S1_96 : ∀ a, (![96] : Fin 1 → Nat) a + S1.size a ≤ S128.size a
  inb_S128x300_S1x300_96_0 : ∀ a, (![96, 0] : Fin 2 → Nat) a + S1x300.size a ≤ S128x300.size a
  inb_S128_S1_97 : ∀ a, (![97] : Fin 1 → Nat) a + S1.size a ≤ S128.size a
  inb_S128x300_S1x300_97_0 : ∀ a, (![97, 0] : Fin 2 → Nat) a + S1x300.size a ≤ S128x300.size a
  inb_S128_S1_98 : ∀ a, (![98] : Fin 1 → Nat) a + S1.size a ≤ S128.size a
  inb_S128x300_S1x300_98_0 : ∀ a, (![98, 0] : Fin 2 → Nat) a + S1x300.size a ≤ S128x300.size a
  inb_S128_S1_99 : ∀ a, (![99] : Fin 1 → Nat) a + S1.size a ≤ S128.size a
  inb_S128x300_S1x300_99_0 : ∀ a, (![99, 0] : Fin 2 → Nat) a + S1x300.size a ≤ S128x300.size a
  inb_S128_S1_100 : ∀ a, (![100] : Fin 1 → Nat) a + S1.size a ≤ S128.size a
  inb_S128x300_S1x300_100_0 : ∀ a, (![100, 0] : Fin 2 → Nat) a + S1x300.size a ≤ S128x300.size a
  inb_S128_S1_101 : ∀ a, (![101] : Fin 1 → Nat) a + S1.size a ≤ S128.size a
  inb_S128x300_S1x300_101_0 : ∀ a, (![101, 0] : Fin 2 → Nat) a + S1x300.size a ≤ S128x300.size a
  inb_S128_S1_102 : ∀ a, (![102] : Fin 1 → Nat) a + S1.size a ≤ S128.size a
  inb_S128x300_S1x300_102_0 : ∀ a, (![102, 0] : Fin 2 → Nat) a + S1x300.size a ≤ S128x300.size a
  inb_S128_S1_103 : ∀ a, (![103] : Fin 1 → Nat) a + S1.size a ≤ S128.size a
  inb_S128x300_S1x300_103_0 : ∀ a, (![103, 0] : Fin 2 → Nat) a + S1x300.size a ≤ S128x300.size a
  inb_S128_S1_104 : ∀ a, (![104] : Fin 1 → Nat) a + S1.size a ≤ S128.size a
  inb_S128x300_S1x300_104_0 : ∀ a, (![104, 0] : Fin 2 → Nat) a + S1x300.size a ≤ S128x300.size a
  inb_S128_S1_105 : ∀ a, (![105] : Fin 1 → Nat) a + S1.size a ≤ S128.size a
  inb_S128x300_S1x300_105_0 : ∀ a, (![105, 0] : Fin 2 → Nat) a + S1x300.size a ≤ S128x300.size a
  inb_S128_S1_106 : ∀ a, (![106] : Fin 1 → Nat) a + S1.size a ≤ S128.size a
  inb_S128x300_S1x300_106_0 : ∀ a, (![106, 0] : Fin 2 → Nat) a + S1x300.size a ≤ S128x300.size a
  inb_S128_S1_107 : ∀ a, (![107] : Fin 1 → Nat) a + S1.size a ≤ S128.size a
  inb_S128x300_S1x300_107_0 : ∀ a, (![107, 0] : Fin 2 → Nat) a + S1x300.size a ≤ S128x300.size a
  inb_S128_S1_108 : ∀ a, (![108] : Fin 1 → Nat) a + S1.size a ≤ S128.size a
  inb_S128x300_S1x300_108_0 : ∀ a, (![108, 0] : Fin 2 → Nat) a + S1x300.size a ≤ S128x300.size a
  inb_S128_S1_109 : ∀ a, (![109] : Fin 1 → Nat) a + S1.size a ≤ S128.size a
  inb_S128x300_S1x300_109_0 : ∀ a, (![109, 0] : Fin 2 → Nat) a + S1x300.size a ≤ S128x300.size a
  inb_S128_S1_110 : ∀ a, (![110] : Fin 1 → Nat) a + S1.size a ≤ S128.size a
  inb_S128x300_S1x300_110_0 : ∀ a, (![110, 0] : Fin 2 → Nat) a + S1x300.size a ≤ S128x300.size a
  inb_S128_S1_111 : ∀ a, (![111] : Fin 1 → Nat) a + S1.size a ≤ S128.size a
  inb_S128x300_S1x300_111_0 : ∀ a, (![111, 0] : Fin 2 → Nat) a + S1x300.size a ≤ S128x300.size a
  inb_S128_S1_112 : ∀ a, (![112] : Fin 1 → Nat) a + S1.size a ≤ S128.size a
  inb_S128x300_S1x300_112_0 : ∀ a, (![112, 0] : Fin 2 → Nat) a + S1x300.size a ≤ S128x300.size a
  inb_S128_S1_113 : ∀ a, (![113] : Fin 1 → Nat) a + S1.size a ≤ S128.size a
  inb_S128x300_S1x300_113_0 : ∀ a, (![113, 0] : Fin 2 → Nat) a + S1x300.size a ≤ S128x300.size a
  inb_S128_S1_114 : ∀ a, (![114] : Fin 1 → Nat) a + S1.size a ≤ S128.size a
  inb_S128x300_S1x300_114_0 : ∀ a, (![114, 0] : Fin 2 → Nat) a + S1x300.size a ≤ S128x300.size a
  inb_S128_S1_115 : ∀ a, (![115] : Fin 1 → Nat) a + S1.size a ≤ S128.size a
  inb_S128x300_S1x300_115_0 : ∀ a, (![115, 0] : Fin 2 → Nat) a + S1x300.size a ≤ S128x300.size a
  inb_S128_S1_116 : ∀ a, (![116] : Fin 1 → Nat) a + S1.size a ≤ S128.size a
  inb_S128x300_S1x300_116_0 : ∀ a, (![116, 0] : Fin 2 → Nat) a + S1x300.size a ≤ S128x300.size a
  inb_S128_S1_117 : ∀ a, (![117] : Fin 1 → Nat) a + S1.size a ≤ S128.size a
  inb_S128x300_S1x300_117_0 : ∀ a, (![117, 0] : Fin 2 → Nat) a + S1x300.size a ≤ S128x300.size a
  inb_S128_S1_118 : ∀ a, (![118] : Fin 1 → Nat) a + S1.size a ≤ S128.size a
  inb_S128x300_S1x300_118_0 : ∀ a, (![118, 0] : Fin 2 → Nat) a + S1x300.size a ≤ S128x300.size a
  inb_S128_S1_119 : ∀ a, (![119] : Fin 1 → Nat) a + S1.size a ≤ S128.size a
  inb_S128x300_S1x300_119_0 : ∀ a, (![119, 0] : Fin 2 → Nat) a + S1x300.size a ≤ S128x300.size a
  inb_S128_S1_120 : ∀ a, (![120] : Fin 1 → Nat) a + S1.size a ≤ S128.size a
  inb_S128x300_S1x300_120_0 : ∀ a, (![120, 0] : Fin 2 → Nat) a + S1x300.size a ≤ S128x300.size a
  inb_S128_S1_121 : ∀ a, (![121] : Fin 1 → Nat) a + S1.size a ≤ S128.size a
  inb_S128x300_S1x300_121_0 : ∀ a, (![121, 0] : Fin 2 → Nat) a + S1x300.size a ≤ S128x300.size a
  inb_S128_S1_122 : ∀ a, (![122] : Fin 1 → Nat) a + S1.size a ≤ S128.size a
  inb_S128x300_S1x300_122_0 : ∀ a, (![122, 0] : Fin 2 → Nat) a + S1x300.size a ≤ S128x300.size a
  inb_S128_S1_123 : ∀ a, (![123] : Fin 1 → Nat) a + S1.size a ≤ S128.size a
  inb_S128x300_S1x300_123_0 : ∀ a, (![123, 0] : Fin 2 → Nat) a + S1x300.size a ≤ S128x300.size a
  inb_S128_S1_124 : ∀ a, (![124] : Fin 1 → Nat) a + S1.size a ≤ S128.size a
  inb_S128x300_S1x300_124_0 : ∀ a, (![124, 0] : Fin 2 → Nat) a + S1x300.size a ≤ S128x300.size a
  inb_S128_S1_125 : ∀ a, (![125] : Fin 1 → Nat) a + S1.size a ≤ S128.size a
  inb_S128x300_S1x300_125_0 : ∀ a, (![125, 0] : Fin 2 → Nat) a + S1x300.size a ≤ S128x300.size a
  inb_S128_S1_126 : ∀ a, (![126] : Fin 1 → Nat) a + S1.size a ≤ S128.size a
  inb_S128x300_S1x300_126_0 : ∀ a, (![126, 0] : Fin 2 → Nat) a + S1x300.size a ≤ S128x300.size a
  inb_S128_S1_127 : ∀ a, (![127] : Fin 1 → Nat) a + S1.size a ≤ S128.size a
  inb_S128x300_S1x300_127_0 : ∀ a, (![127, 0] : Fin 2 → Nat) a + S1x300.size a ≤ S128x300.size a
  inb_S128x300_S128x300_0_0 : ∀ a, (![0, 0] : Fin 2 → Nat) a + S128x300.size a ≤ S128x300.size a
  h_S128x300 : 0 < S128x300.numel
  inb_S300x512_S300x512_0_0 : ∀ a, (![0, 0] : Fin 2 → Nat) a + S300x512.size a ≤ S300x512.size a
  h_S300x512 : 0 < S300x512.numel
  shapeCasts_S300x512_S300x512 : S300x512.ShapeCasts S300x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S128x512 : S1x512.Broadcasts S128x512
  inb_S128x512_S128x512_0_0 : ∀ a, (![0, 0] : Fin 2 → Nat) a + S128x512.size a ≤ S128x512.size a
  h_S128x512 : 0 < S128x512.numel
  shapeCasts_S1024x512_S8x128x512 : S1024x512.ShapeCasts S8x128x512
  dot_S128x300_S300x512_S128x512_1_0_0_1_n_n_wf : DotDims.WF S128x300 S300x512 S128x512 [1] [0] [0] [1] [] []
  hcc0_scratch1 : 4 + S128.numel ≤ 132
  hrank0 : 0 < grid0.rank
  k0_off1_inb : ∀ i : grid0.Coords, ∀ (r : Fin 128), ∀ a, (k0_off1 i (BitVec.ofNat 32 r.val)) a + S1.size a ≤ S1024.size a
  hstage0_0 : ∀ j, (stage0_0 j).IsWhole
  nbuf0_0 : grid0.bufCount reads0_0 true = 1
  hreads0_0 : ∀ i i' : grid0.Coords, (∀ a, reads0_0 a = true → i a = i' a) → cc0_transform_1 i = cc0_transform_1 i'
  hinb0_0 : ∀ (i : grid0.Coords) a, (cc0_transform_1 i a + 1) * S300x512.size a ≤ S300x512.size a
  hwx0_0 : ∀ i : grid0.Coords, EltTy.bits .bf16 = 32 ∨ (Rect.block (s := S300x512) S300x512.size (cc0_transform_1 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_2 i = cc0_transform_2 i'
  hinb0_1 : ∀ (i : grid0.Coords) a, (cc0_transform_2 i a + 1) * S1x512.size a ≤ S1x512.size a
  hwx0_1 : ∀ i : grid0.Coords, EltTy.bits .f32 = 32 ∨ (Rect.block (s := S1x512) S1x512.size (cc0_transform_2 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_3 i = cc0_transform_3 i'
  hinb0_2 : ∀ (i : grid0.Coords) a, (cc0_transform_3 i a + 1) * S128x512.size a ≤ S1024x512.size a
  hwx0_2 : ∀ i : grid0.Coords, EltTy.bits .f32 = 32 ∨ (Rect.block (s := S1024x512) S128x512.size (cc0_transform_3 i) (hinb0_2 i)).WholeWords (EltTy.packing .f32)

variable [Facts₀]

abbrev cc0_scratch1 : DmaSems sig S128 := SemArray.consecutive 4 S128 hcc0_scratch1
def dot_S128x300_S300x512_S128x512_1_0_0_1_n_n : DotDims S128x300 S300x512 S128x512 where
  lhsContracting := [1]
  rhsContracting := [0]
  lhsNonContracting := [0]
  rhsNonContracting := [1]
  lhsBatch := []
  rhsBatch := []
  wf := dot_S128x300_S300x512_S128x512_1_0_0_1_n_n_wf

abbrev spec0_0 : Pipeline.WinSpec sig grid0.rank :=
  Pipeline.WinSpec.ofSpec (Memref.whole main_v2) S300x512.size reads0_0 false true 1 stage0_0 sem0_0 nbuf0_0 hstage0_0

abbrev spec0_1 : Pipeline.WinSpec sig grid0.rank :=
  Pipeline.WinSpec.ofSpec (Memref.whole main_v3) S1x512.size reads0_1 false true 1 stage0_1 sem0_1 nbuf0_1 hstage0_1

abbrev spec0_2 : Pipeline.WinSpec sig grid0.rank :=
  Pipeline.WinSpec.ofSpec (Memref.whole main_v4) S128x512.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_1 | 1 => cc0_transform_2 | 2 => cc0_transform_3 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | ⟨_ + 3, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S8x128 : Shape := ⟨2, ![8, 128]⟩
abbrev S32000x300 : Shape := ⟨2, ![32000, 300]⟩
abbrev S512x300 : Shape := ⟨2, ![512, 300]⟩
abbrev S512 : Shape := ⟨1, ![512]⟩
abbrev S8x128x1 : Shape := ⟨3, ![8, 128, 1]⟩
abbrev S1x1x32000 : Shape := ⟨3, ![1, 1, 32000]⟩
abbrev S8x128x32000 : Shape := ⟨3, ![8, 128, 32000]⟩
abbrev S8x128x300 : Shape := ⟨3, ![8, 128, 300]⟩
abbrev S8x128x512 : Shape := ⟨3, ![8, 128, 512]⟩
abbrev S1x1x512 : Shape := ⟨3, ![1, 1, 512]⟩

abbrev nBuf : Space → Nat
  | .hbm => 15
  | .vmem => 0
  | .smem => 0
  | _ => 0

abbrev bufTy : (tb : Table) → Fin (tcTables nBuf tb) → BufTy
  | .hbm, ⟨0, _⟩ => ⟨S8x128, .i32⟩
  | .hbm, ⟨1, _⟩ => ⟨S32000x300, .f32⟩
  | .hbm, ⟨2, _⟩ => ⟨S512x300, .f32⟩
  | .hbm, ⟨3, _⟩ => ⟨S512, .f32⟩
  | .hbm, ⟨4, _⟩ => ⟨S8x128x1, .i32⟩
  | .hbm, ⟨5, _⟩ => ⟨S1x1x32000, .i32⟩
  | .hbm, ⟨6, _⟩ => ⟨S8x128x32000, .i32⟩
  | .hbm, ⟨7, _⟩ => ⟨S8x128x32000, .i32⟩
  | .hbm, ⟨8, _⟩ => ⟨S8x128x32000, .i1⟩
  | .hbm, ⟨9, _⟩ => ⟨S8x128x32000, .f32⟩
  | .hbm, ⟨10, _⟩ => ⟨S8x128x300, .f32⟩
  | .hbm, ⟨11, _⟩ => ⟨S8x128x512, .f32⟩
  | .hbm, ⟨12, _⟩ => ⟨S1x1x512, .f32⟩
  | .hbm, ⟨13, _⟩ => ⟨S8x128x512, .f32⟩
  | .hbm, ⟨14, _⟩ => ⟨S8x128x512, .f32⟩
  | _, _ => ⟨S8x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩

abbrev nD : Nat := 1
abbrev τ : Topo := Topo.v7x

variable {F : FTy → Type} [FloatOps F]

class Facts₀ : Prop where
  bcast_S8x128_S8x128x1_0_1 : S8x128.BroadcastsInDim S8x128x1 (![0, 1] : Fin 2 → Fin S8x128x1.rank)
  bcast_S8x128x1_S8x128x32000_0_1_2 : S8x128x1.BroadcastsInDim S8x128x32000 (![0, 1, 2] : Fin 3 → Fin S8x128x32000.rank)
  bcast_S1x1x32000_S8x128x32000_0_1_2 : S1x1x32000.BroadcastsInDim S8x128x32000 (![0, 1, 2] : Fin 3 → Fin S8x128x32000.rank)
  bcast_S512_S1x1x512_2 : S512.BroadcastsInDim S1x1x512 (![2] : Fin 1 → Fin S1x1x512.rank)
  bcast_S1x1x512_S8x128x512_0_1_2 : S1x1x512.BroadcastsInDim S8x128x512 (![0, 1, 2] : Fin 3 → Fin S8x128x512.rank)
  dot_S8x128x32000_S32000x300_S8x128x300_2_0_01_1_n_n_wf : DotDims.WF S8x128x32000 S32000x300 S8x128x300 [2] [0] [0, 1] [1] [] []
  dot_S8x128x300_S512x300_S8x128x512_2_1_01_0_n_n_wf : DotDims.WF S8x128x300 S512x300 S8x128x512 [2] [1] [0, 1] [0] [] []

variable [Facts₀]

def dot_S8x128x32000_S32000x300_S8x128x300_2_0_01_1_n_n : DotDims S8x128x32000 S32000x300 S8x128x300 where
  lhsContracting := [2]
  rhsContracting := [0]
  lhsNonContracting := [0, 1]
  rhsNonContracting := [1]
  lhsBatch := []
  rhsBatch := []
  wf := dot_S8x128x32000_S32000x300_S8x128x300_2_0_01_1_n_n_wf
def dot_S8x128x300_S512x300_S8x128x512_2_1_01_0_n_n : DotDims S8x128x300 S512x300 S8x128x512 where
  lhsContracting := [2]
  rhsContracting := [1]
  lhsNonContracting := [0, 1]
  rhsNonContracting := [0]
  lhsBatch := []
  rhsBatch := []
  wf := dot_S8x128x300_S512x300_S8x128x512_2_1_01_0_n_n_wf

class Facts : Prop extends Facts₀ where

variable [Facts]
-- ==== Proof.Spec.lean ====
/-
  The result both programs compute, as one function of the four argument arrays, over the extended reals.

  Token (b, s) names row `tokens[b, s]` of the 32000-row table; its 300 entries are contracted with row m of the
  512 × 300 weight matrix and entry m of the bias is added:

      out[b, s, m] = (∑ d < 300, table[tokens[b, s], d] · w[m, d]) + bias[m].

  A token word is read as a row number modulo the table's height, which changes nothing for a word below it
  (the precondition says every token is one) and keeps the function total.
-/
import Idealize.ShloMosaic.PureOps.Ideal
import Idealize.ShloMosaic.Lib.ValueIdx

noncomputable section

open scoped BigOperators

namespace Cert.Spec

open Idealize.ShloMosaic Idealize.ShloMosaic.ValueIdx

/-- The table row a token word names. -/
def rowOf (v : BitVec 32) : Fin 32000 := ⟨v.toNat % 32000, Nat.mod_lt _ (by decide)⟩

/-- For a word below the table's height the row is the word. -/
theorem rowOf_val (v : BitVec 32) (h : v.toNat < 32000) : (rowOf v).val = v.toNat := Nat.mod_eq_of_lt h

/-- Entry d of the embedding of token (b, s): entry d of the table row the token names. -/
def emb (tok : IVec (⟨2, ![8, 128]⟩ : Shape) 32) (tbl : FVec Ideal (⟨2, ![32000, 300]⟩ : Shape) .f32)
    (b : Fin 8) (s : Fin 128) (d : Fin 300) : EReal :=
  tbl (ix2 (rowOf (tok (ix2 b s))) d)

/-- The result at (b, s, m): the embedding contracted with row m of the weights, plus entry m of the bias. -/
def outAt (tok : IVec (⟨2, ![8, 128]⟩ : Shape) 32) (tbl : FVec Ideal (⟨2, ![32000, 300]⟩ : Shape) .f32)
    (w : FVec Ideal (⟨2, ![512, 300]⟩ : Shape) .f32) (bias : FVec Ideal (⟨1, ![512]⟩ : Shape) .f32)
    (b : Fin 8) (s : Fin 128) (mm : Fin 512) : EReal :=
  (∑ d : Fin 300, emb tok tbl b s d * w (ix2 mm d)) + bias (ix1 mm)

/-- The whole result array. -/
def out (tok : IVec (⟨2, ![8, 128]⟩ : Shape) 32) (tbl : FVec Ideal (⟨2, ![32000, 300]⟩ : Shape) .f32)
    (w : FVec Ideal (⟨2, ![512, 300]⟩ : Shape) .f32) (bias : FVec Ideal (⟨1, ![512]⟩ : Shape) .f32) :
    FVec Ideal (⟨3, ![8, 128, 512]⟩ : Shape) .f32 :=
  fun i => outAt tok tbl w bias (i 0) (i 1) (i 2)

theorem out_apply (tok : IVec (⟨2, ![8, 128]⟩ : Shape) 32) (tbl : FVec Ideal (⟨2, ![32000, 300]⟩ : Shape) .f32)
    (w : FVec Ideal (⟨2, ![512, 300]⟩ : Shape) .f32) (bias : FVec Ideal (⟨1, ![512]⟩ : Shape) .f32)
    (b : Fin 8) (s : Fin 128) (mm : Fin 512) :
    out tok tbl w bias (ix3 b s mm) = outAt tok tbl w bias b s mm := rfl

end Cert.Spec

end
-- ==== Proof.TokensInRange.lean ====
/-
  Every token names a row of the table: the precondition's last conjunct, decoded.

  The precondition is one bit, the conjunction of "every |entry| is below +∞" for the three float arrays and of
  "0 ≤ tokens[b, s] < 32000" (signed) over all 8 × 128 tokens; it is 1 exactly when every conjunct is. A word that is
  signed-nonnegative and signed-below 32000 is below 32000 as an unsigned number, and the row it names is that number.
-/
import proofs.«410898_j66494683677006_3_alg».proof.Pre_finite_inputs
import Idealize.ShloMosaic.Lib.ReduceAll
import Idealize.ShloMosaic.Lib.StableHlo.Predicate

noncomputable section

namespace Cert.TokensInRange

open Idealize.ShloMosaic

/-- A 32-bit word that is at least 0 and below 32000 as a signed number is below 32000 as an unsigned one: being
    signed-nonnegative its top bit is clear, so its signed and unsigned readings agree. -/
theorem toNat_lt_of_signed_range (w : BitVec 32) (hge : IntOp.cmpi .sge w 0#32 = 1#1)
    (hlt : IntOp.cmpi .slt w 32000#32 = 1#1) : w.toNat < 32000 := by
  rw [IntOp.cmpi_sge] at hge
  rw [IntOp.cmpi_slt] at hlt
  have h0 : (0#32 : BitVec 32).toInt = 0 := by decide
  have hn : (32000#32 : BitVec 32).toInt = 32000 := by decide
  rw [h0] at hge
  rw [hn] at hlt
  rw [BitVec.toInt_eq_toNat_cond] at hge hlt
  split at hge <;> omega

/-- Under the precondition every token word is below the table's height. -/
theorem tokens_lt {F : FTy → Type} [FloatOps F] [Cert.Pre_finite_inputs.Facts]
    (a0 : IVec Cert.Pre_finite_inputs.S8x128 32) (a1 : FVec F Cert.Pre_finite_inputs.S32000x300 .f32)
    (a2 : FVec F Cert.Pre_finite_inputs.S512x300 .f32) (a3 : FVec F Cert.Pre_finite_inputs.S512 .f32)
    (h : Cert.Pre_finite_inputs.fn (F := F) a0 a1 a2 a3 = fun _ => 1#1) :
    ∀ j : Cert.Pre_finite_inputs.S8x128.Idx, (a0 j).toNat < 32000 := by
  intro j
  -- the one bit of the result, read at its single index
  have e := congrFun h (fun a => a.elim0)
  unfold Cert.Pre_finite_inputs.fn Cert.Pre_finite_inputs.fn_part1 at e
  dsimp only at e
  -- the outer conjunction: only its second half, the all-tokens reduction, is used
  have eall := (IntOp.andi_eq_one.1 e).2
  -- the rank-0 result shape has a single index, so every token reduces into it:
  -- an and-reduction that is 1 met a 1 at every token
  haveI : Subsingleton Cert.Pre_finite_inputs.S_.Idx := ⟨fun a b => funext fun d => d.elim0⟩
  have ej := Host.reduce_andi_all _ _ _ _ _ eall j
  -- at token j both signed comparisons hold; the broadcast constants read 0 and 32000 everywhere
  obtain ⟨hge, hlt⟩ := IntOp.andi_eq_one.1 ej
  exact toNat_lt_of_signed_range (a0 j) hge hlt

end Cert.TokensInRange

end
-- ==== Proof.RefValue.lean ====
/-
  The reference's result is the specification's function of the arguments.

  The reference builds the one-hot array onehot[b, s, v] = (tokens[b, s] = v), contracts it with the table over v,
  contracts the result with the weights over d and adds the bias. A product with 0 is 0 on the extended reals, so the
  contraction over v keeps the one term v = tokens[b, s] (a row of the table, by the precondition): the embedding.
-/
import proofs.«410898_j66494683677006_3_alg».proof.Proof.Gen.ReferenceIdeal.Read
import proofs.«410898_j66494683677006_3_alg».proof.Proof.Spec

noncomputable section

open scoped BigOperators

namespace Cert.RefValue

open Cert.ReferenceIdeal Idealize.ShloMosaic Idealize.ShloMosaic.ValueIdx

/-! ## Words: a token equals the v-th counting word exactly when it names row v -/

/-- A word below the table's height is the counting word of its own row. -/
theorem ofNat_rowOf (t : BitVec 32) (h : t.toNat < 32000) : BitVec.ofNat 32 (Cert.Spec.rowOf t).val = t := by
  rw [Cert.Spec.rowOf_val t h]
  rw [BitVec.ofNat_toNat, BitVec.setWidth_eq]

/-- A token below the table's height that equals the counting word of v names row v. -/
theorem rowOf_of_eq_ofNat (t : BitVec 32) (h : t.toNat < 32000) (v : Fin 32000) (e : t = BitVec.ofNat 32 v.val) :
    Cert.Spec.rowOf t = v := by
  refine Fin.ext ?_
  rw [Cert.Spec.rowOf_val t h, e, BitVec.toNat_ofNat]
  exact Nat.mod_eq_of_lt (by have := v.isLt; omega)

/-- The conversion of a compared pair of words to an extended real: 1 if they are equal, 0 if not. -/
theorem uitofp_cmpi_eq (a c : BitVec 32) :
    (FloatOps.uitofp (F := Ideal) .f32 (IntOp.cmpi .eq a c) : EReal) = if a = c then 1 else 0 := by
  by_cases h : a = c
  · subst h
    rw [if_pos rfl]
    show (((BitVec.ofBool (a == a)).toNat : ℝ) : EReal) = 1
    rw [beq_self_eq_true]
    simp
  · rw [if_neg h]
    show (((BitVec.ofBool (a == c)).toNat : ℝ) : EReal) = 0
    rw [beq_eq_false_iff_ne.mpr h]
    simp

/-! ## The stages, read at explicit coordinates -/

/-- The one-hot array at (b, s, v): 1 if token (b, s) is the v-th counting word, else 0. -/
theorem onehot_at (x0 : (⟨S8x128, .i32⟩ : BufTy).Contents (Elt Ideal)) (b : Fin 8) (s : Fin 128) (v : Fin 32000) :
    Read.val_main_v0 (F := Ideal) x0 (ix3 b s v) = if x0 (ix2 b s) = BitVec.ofNat 32 v.val then 1 else 0 := by
  rw [Read.val_main_v0_apply, Read.val_main_call0_v4_apply, Read.val_main_call0_v2_apply, Read.val_main_call0_v0_apply,
    Read.val_main_call0_v3_apply, Read.val_main_call0_v1_apply]
  have e0 : Read.idx_main_call0_v0 (Read.idx_main_call0_v2 (ix3 b s v)) = ix2 b s :=
    funext fun a => Fin.ext (by match a with | ⟨0, _⟩ => rfl | ⟨1, _⟩ => rfl)
  rw [e0]
  exact uitofp_cmpi_eq _ _

/-- The contraction over v keeps the one term v = tokens[b, s]: entry d of the row of the table the token names. -/
theorem embed_at (x0 : (⟨S8x128, .i32⟩ : BufTy).Contents (Elt Ideal)) (x1 : (⟨S32000x300, .f32⟩ : BufTy).Contents (Elt Ideal))
    (htok : ∀ j : S8x128.Idx, (x0 j).toNat < 32000) (b : Fin 8) (s : Fin 128) (d : Fin 300) :
    Read.val_main_v1 (F := Ideal) x0 x1 (ix3 b s d) = Cert.Spec.emb x0 x1 b s d := by
  rw [Read.val_main_v1_apply]
  have el : ∀ k : Fin 32000, Read.lidx_main_v1 (ix3 b s d) k = ix3 b s k := fun k =>
    funext fun a => Fin.ext (by match a with | ⟨0, _⟩ => rfl | ⟨1, _⟩ => rfl | ⟨2, _⟩ => rfl)
  have er : ∀ k : Fin 32000, Read.ridx_main_v1 (ix3 b s d) k = ix2 k d := fun k =>
    funext fun a => Fin.ext (by match a with | ⟨0, _⟩ => rfl | ⟨1, _⟩ => rfl)
  rw [Finset.sum_eq_single (Cert.Spec.rowOf (x0 (ix2 b s)))]
  · rw [el, er, onehot_at, if_pos (ofNat_rowOf _ (htok _)).symm, one_mul]
    rfl
  · intro k _ hk
    rw [el, onehot_at, if_neg (fun e => hk (rowOf_of_eq_ofNat _ (htok _) k e).symm), zero_mul]
  · intro h
    exact absurd (Finset.mem_univ _) h

/-- The contraction over d at (b, s, m): the embedding against row m of the weights. -/
theorem proj_at (x0 : (⟨S8x128, .i32⟩ : BufTy).Contents (Elt Ideal)) (x1 : (⟨S32000x300, .f32⟩ : BufTy).Contents (Elt Ideal))
    (x2 : (⟨S512x300, .f32⟩ : BufTy).Contents (Elt Ideal))
    (htok : ∀ j : S8x128.Idx, (x0 j).toNat < 32000) (b : Fin 8) (s : Fin 128) (mm : Fin 512) :
    Read.val_main_v2 (F := Ideal) x0 x1 x2 (ix3 b s mm) = ∑ d : Fin 300, Cert.Spec.emb x0 x1 b s d * x2 (ix2 mm d) := by
  rw [Read.val_main_v2_apply]
  refine Finset.sum_congr rfl fun d _ => ?_
  have el : Read.lidx_main_v2 (ix3 b s mm) d = ix3 b s d :=
    funext fun a => Fin.ext (by match a with | ⟨0, _⟩ => rfl | ⟨1, _⟩ => rfl | ⟨2, _⟩ => rfl)
  have er : Read.ridx_main_v2 (ix3 b s mm) d = ix2 mm d :=
    funext fun a => Fin.ext (by match a with | ⟨0, _⟩ => rfl | ⟨1, _⟩ => rfl)
  rw [el, er, embed_at x0 x1 htok]

/-- The broadcast bias at (b, s, m) is entry m of the bias. -/
theorem bias_at (x3 : (⟨S512, .f32⟩ : BufTy).Contents (Elt Ideal)) (b : Fin 8) (s : Fin 128) (mm : Fin 512) :
    Read.val_main_v4 (F := Ideal) x3 (ix3 b s mm) = x3 (ix1 mm) := by
  rw [Read.val_main_v4_apply, Read.val_main_v3_apply]
  have e : Read.idx_main_v3 (Read.idx_main_v4 (ix3 b s mm)) = ix1 mm :=
    funext fun a => Fin.ext (by match a with | ⟨0, _⟩ => rfl)
  rw [e]

/-- The reference's last stage, at the ideal instance, is the specification of its four arguments, when every token
    is a row of the table. -/
theorem result_eq (x0 : (⟨S8x128, .i32⟩ : BufTy).Contents (Elt Ideal)) (x1 : (⟨S32000x300, .f32⟩ : BufTy).Contents (Elt Ideal))
    (x2 : (⟨S512x300, .f32⟩ : BufTy).Contents (Elt Ideal)) (x3 : (⟨S512, .f32⟩ : BufTy).Contents (Elt Ideal))
    (htok : ∀ j : S8x128.Idx, (x0 j).toNat < 32000) :
    Cert.ReferenceIdeal.Read.val_main_v5 (F := Ideal) x0 x1 x2 x3 = Cert.Spec.out x0 x1 x2 x3 := by
  funext i
  obtain ⟨b, s, mm, rfl⟩ : ∃ (b : Fin 8) (s : Fin 128) (mm : Fin 512), i = ix3 b s mm := ⟨i 0, i 1, i 2, eq_ix3 i⟩
  rw [Read.val_main_v5_apply, Ideal.addf_def, proj_at x0 x1 x2 htok, bias_at, Cert.Spec.out_apply]
  rfl

end Cert.RefValue

end
-- ==== Proof.Kernel.Around.lean ====
/-
  The program around its one kernel region.

  @main reshapes the 8 × 128 tokens to a table of 1024 words, rounds and transposes the weights, reshapes the bias to one
  row, runs the region, and reshapes the 1024 × 512 result to 8 × 128 × 512. Here: the buffers' contents when the region is
  entered (the arguments as launched, the four host results computed from them), the table's contents, @main as "host
  lines, the region, host lines", what the last line may touch, the table of embeddings as the one buffer the kernel
  reads by its own copies, the 128 semaphore cells of those copies, and the frame claim's post read off the run's.
-/
import proofs.«410898_j66494683677006_3_alg».proof.Proof.Gen.Kernel.Launch
import proofs.«410898_j66494683677006_3_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main around the region -/

/-- Core `c`'s buffer contents when the region is entered: the launch contents after the four host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the four host lines, the region, and the last host line: it reduces to the region continued by that line,
    at the contents after the first four. -/
theorem hmain (𝒱₀ : Variants) : Pipeline.HMainPK (Ix := Unit) (Name := ℕ) (U := Pipeline.UD sig nD τ) (Lvl := ℕ) pcfgs 0 defs₀ 𝒱₀ m (main (F := F)) (V m)
      (fun _ => Pipeline.chain [StableHlo.seq hostOps1]) :=
  Pipeline.hmainP_around pcfgs 0 defs₀ 𝒱₀ m main [hostOps0] [hostOps1]
    (show List.Forall _ hostOps0 from hostOps0_sub) (show List.Forall _ hostOps0 from hostOps0_fresh) main_chain

/-- The arguments are no host line's result: the region finds them as launched. -/
theorem V_main_arg0 (c : Dev nD) : V m c main_arg0 = m ((c : Thread nD τ).loc main_arg0) := by
  show StableHlo.after hostOps0 (fun b => m (c, b)) (Proc.devRef .tc main_arg0) = _
  after_results
theorem V_main_arg1 (c : Dev nD) : V m c main_arg1 = m ((c : Thread nD τ).loc main_arg1) := by
  show StableHlo.after hostOps0 (fun b => m (c, b)) (Proc.devRef .tc main_arg1) = _
  after_results
theorem V_main_arg2 (c : Dev nD) : V m c main_arg2 = m ((c : Thread nD τ).loc main_arg2) := by
  show StableHlo.after hostOps0 (fun b => m (c, b)) (Proc.devRef .tc main_arg2) = _
  after_results
theorem V_main_arg3 (c : Dev nD) : V m c main_arg3 = m ((c : Thread nD τ).loc main_arg3) := by
  show StableHlo.after hostOps0 (fun b => m (c, b)) (Proc.devRef .tc main_arg3) = _
  after_results

/-! ## The prefetched table -/

/-- The table's contents when the region is entered (there is one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- Any contents are admissible: no window's index map reads the table. -/
abbrev adm : (pcfg0 (F := F)).Adm := ⟨tbl m, trivial⟩
/-- The pipeline at the table's contents. -/
abbrev cfgM : Pipeline.Cfg sig Λ₀ := cfg0 (adm m)

/-! ## The last host line -/

/-- The one buffer the kernel reads by its own copies: the table of embeddings, left where it is. -/
def H0 : Finset (Ref sig .tc) := {main_arg1}
theorem H0_sub : H0 ⊆ Pipeline.restRefsP sig pre0 spec0 := by decide

/-- The line after the region touches the result array and its own result only: no table, and not the embeddings. -/
theorem sfx_sub : ∀ ops ∈ ([hostOps1] : List (List (HloOp τ sig (Elt F)))), ∀ op ∈ ops,
    op.bufs ⊆ Pipeline.tailRefsBut sig pre0 spec0 H0 := by
  intro ops hops op hop
  simp only [List.mem_cons, List.mem_nil_iff, or_false] at hops
  rcases hops with rfl
  refine Pipeline.sub_tailRefsBut pre0 spec0 H0 op ((List.forall_iff_forall_mem.mp hostOps1_sub) op hop) ?_ ?_
  · simp only [hostOps1, List.mem_cons, List.mem_nil_iff, or_false] at hop
    rcases hop with rfl
    intro k; fin_cases k
    simp only [StableHlo.reshape_bufs, Finset.mem_insert, Finset.mem_singleton, not_or]
    exact ⟨StableHlo.devRef_ne_of_ne (by decide), StableHlo.devRef_ne_of_ne (by decide)⟩
  · simp only [hostOps1, List.mem_cons, List.mem_nil_iff, or_false] at hop
    rcases hop with rfl
    intro b hb
    obtain rfl : b = main_arg1 := Finset.mem_singleton.mp hb
    simp only [StableHlo.reshape_bufs, Finset.mem_insert, Finset.mem_singleton, not_or]
    exact ⟨StableHlo.devRef_ne_of_ne (by decide), StableHlo.devRef_ne_of_ne (by decide)⟩
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.reshape_writes, Finset.mem_singleton] <;> exact StableHlo.devRef_ne_of_ne (by decide)

/-! ## The copies' semaphore cells -/

/-- The 128 cells the body's row copies complete on: cells 4 to 131 of the pool (0 to 3 are the windows'). -/
abbrev osem0 : Fin 128 → SemLoc sig := fun j => SemLoc.dma ⟨4 + j.val, by have := j.isLt; show 4 + j.val < 132; omega⟩
theorem ownSemFacts0 : Pipeline.OwnSemFacts spec0 osem0 := by decide

/-! ## The frame claim's post from the run's -/

/-- A buffer that is no window's array and is not the last line's result holds after that line what it held when the
    region was entered: the line writes its own result only, and the region's exit contents differ from the entry's at
    the arrays only. -/
theorem afterTail_keep (dats : (p : Fin 1) → (c : Dev nD) → Dat τ (Elt F) Unit ℕ (Pipeline.UD sig nD τ) ℕ (Pipeline.pin (pcfgs (F := F)) (fun _ => adm m) p) c)
    (c : Dev nD) (b : Ref sig .tc) (hb : ∀ w, Pipeline.arrRef spec0 w ≠ b) (h5 : b ≠ main_v5) :
    Pipeline.afterTail (pcfgs (F := F)) (fun _ => adm m) dats 0 (V0 m) [hostOps1] c b = V m c b := by
  unfold Pipeline.afterTail
  rw [StableHlo.after_of_forall_not_mem _ _ (fun op hop hw => ?_)]
  · exact Pipeline.withArrays_of_ne _ c (V0 m c) _ b hb
  · simp only [List.flatten_cons, List.flatten_nil, List.append_nil, hostOps1, List.mem_cons, List.mem_nil_iff, or_false] at hop
    subst hop
    simp only [StableHlo.reshape_writes, Finset.mem_singleton] at hw
    exact h5 (Proc.devRef_injective _ hw)

/-- For any proof data whose arrays are the region-entry contents, a run that ends with every array at what the data say
    and every other buffer at the last line's result ends with the four arguments as launched: none is an array of a
    window, none is written by a host line. -/
theorem frame_of (dats : (p : Fin 1) → (c : Dev nD) → Dat τ (Elt F) Unit ℕ (Pipeline.UD sig nD τ) ℕ (Pipeline.pin (pcfgs (F := F)) (fun _ => adm m) p) c)
    (h : θ_run defs (onTc (τ := τ) (main (F := F))) (s₀ m ρ)
      (Pipeline.FramePost (Pipeline.pin (pcfgs (F := F)) (fun _ => adm m)) dats 0 (Pipeline.afterTail (pcfgs (F := F)) (fun _ => adm m) dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (by decide : main_arg0 ∈ Pipeline.restRefs sig spec0)).trans
        ((afterTail_keep m dats c main_arg0 (by decide) (by decide)).trans (V_main_arg0 m c)),
      ((h c).2 main_arg1 (by decide : main_arg1 ∈ Pipeline.restRefs sig spec0)).trans
        ((afterTail_keep m dats c main_arg1 (by decide) (by decide)).trans (V_main_arg1 m c)),
      ((h c).2 main_arg2 (by decide : main_arg2 ∈ Pipeline.restRefs sig spec0)).trans
        ((afterTail_keep m dats c main_arg2 (by decide) (by decide)).trans (V_main_arg2 m c)),
      ((h c).2 main_arg3 (by decide : main_arg3 ∈ Pipeline.restRefs sig spec0)).trans
        ((afterTail_keep m dats c main_arg3 (by decide) (by decide)).trans (V_main_arg3 m c))⟩) h

end Cert.Kernel.Hand

end
-- ==== Proof.Kernel.Res.lean ====
/-
  The buffers the kernel body touches besides its three staged windows, and how each is held while the body runs.

  The token table (1024 words, in scalar memory) is held at half the full share and only read. The 32000 × 300 table of
  embeddings stays where it is; the body copies 128 of its rows, all copies in flight at once and possibly several of
  one row, so it is held as one read share per semaphore cell the copies complete on. The 128 × 300 scratch the rows land
  in is held row by row, row k being the destination of copy k alone. A word below 32000 names a row of the table:
  that is the side condition each copy's source row carries.
-/
import proofs.«410898_j66494683677006_3_alg».proof.Proof.Gen.Kernel.Launch
import proofs.«410898_j66494683677006_3_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The token table, the table of embeddings and the scratch, each a whole buffer. -/
abbrev tbM : Memref sig .tc .smem S1024 .i32 := Memref.whole main_v0
abbrev htbM : (tbM).IsWhole := Memref.isWhole_whole _
abbrev hbM : Memref sig .tc .hbm S32000x300 .f32 := Memref.whole main_arg1
abbrev hhbM : (hbM).IsWhole := Memref.isWhole_whole _
abbrev scM : Memref sig .tc .vmem S128x300 .f32 := Memref.whole cc0_scratch0
abbrev hscM : (scM).IsWhole := Memref.isWhole_whole _

/-- The token table's contents type on core `c`, and the table held at half the full share. -/
abbrev TbBuf (c : Dev nD) : Type := Buf (Elt F) ((tbM).view.loc (c : Thread nD τ))
abbrev tbPt (c : Dev nD) (f : TbBuf (F := F) c) : sProp 𝕄 := (tbM).view.loc (c : Thread nD τ) ↦{fullShare.right} f

/-- The table of embeddings' contents type, the table held whole at the full share, and its read share for cell `k`. -/
abbrev HbBuf (c : Dev nD) : Type := Buf (Elt F) ((hbM).view.loc (c : Thread nD τ))
abbrev hbPt (c : Dev nD) (f : HbBuf (F := F) c) : sProp 𝕄 := (hbM).view.loc (c : Thread nD τ) ↦{fullShare} f
abbrev hbTok (c : Dev nD) (k : Nat) (f : HbBuf (F := F) c) : sProp 𝕄 :=
  (hbM).view.loc (c : Thread nD τ) ↦{Transfers.shareTokN fullShare k} f

/-- The scratch's contents type, and the scratch's elements under a rectangle of it held at the full share. -/
abbrev ScBuf (c : Dev nD) : Type := Buf (Elt F) ((scM).view.loc (c : Thread nD τ))
abbrev scRow (c : Dev nD) (R : Rect S128x300) (f : ScBuf (F := F) c) : sProp 𝕄 :=
  (scM).view.loc (c : Thread nD τ) ↦[(scM).view.setOn R.set]{fullShare} f

/-- Row k of the scratch as a rectangle, and as the one-row memref a copy lands in. -/
theorem rowInb (k : Fin 128) : ∀ a, (![k.val, 0] : Fin 2 → Nat) a + S1x300.size a ≤ S128x300.size a := by
  intro a
  have := k.isLt
  fin_cases a <;> simp [S1x300, S128x300] <;> omega
abbrev rowRect (k : Fin 128) : Rect S128x300 := Rect.unit (s := S128x300) ![k.val, 0] S1x300.size (rowInb k)
abbrev rowSq (k : Fin 128) : Memref sig .tc .vmem S300 .f32 :=
  ((scM).slice (rowRect k) (fun _ => rfl)).squeeze S300 squeezes_S1x300_S300

/-- A word below 32000 names a row of the 32000-row table: the one-row block at that row lies inside it. -/
theorem chk_row (v : BitVec 32) (h : v.toNat < 32000) :
    ∀ a, (![v.toNat, 0] : Fin 2 → Nat) a + S1x300.size a ≤ S32000x300.size a := by
  intro a
  fin_cases a <;> simp [S1x300, S32000x300] <;> omega

/-- Every word of the token table names a row of the table of embeddings: stated of a word as a load reads it. -/
abbrev TokOk (c : Dev nD) (T : TbBuf (F := F) c) : Prop :=
  ∀ (off : Fin 1 → Nat) (inb : ∀ a, off a + S1.size a ≤ S1024.size a) (x : S1.Idx),
    ((tbM).view.readAt (Elt F) (Rect.unit (s := S1024) off S1.size inb).toLoadRect T x).toNat < 32000

/-- The 128 landed rows as one 128 × 300 array: entry (k, d) is entry d of row k. -/
def gathered (pay : Fin 128 → Vec F S300 .f32) : Vec F S128x300 .f32 :=
  fun j => pay ⟨(j 0).val, (j 0).isLt⟩ (fun a => match a with | ⟨0, _⟩ => ⟨(j 1).val, (j 1).isLt⟩)

end Cert.Kernel.Hand

end
-- ==== Proof.Kernel.EntryValues.lean ====
/-
  What the region finds in the buffers the host lines before it wrote, index by index.

  The token table is the 8 × 128 tokens laid out in row-major order: word n is token (n / 128, n mod 128). The staged
  weights are the 512 × 300 weight matrix transposed (its rounding to a narrower float format is the identity over the
  extended reals): entry (d, m) is weight (m, d). The staged bias row is the bias: entry (0, m) is bias m. So if every token
  is below 32000, every word of the table names a row of the table of embeddings.
-/
import proofs.«410898_j66494683677006_3_alg».proof.Proof.Gen.Kernel.Launch
import proofs.«410898_j66494683677006_3_alg».proof.Proof.Gen.Kernel.Skeleton
import proofs.«410898_j66494683677006_3_alg».proof.Proof.Kernel.Res
import proofs.«410898_j66494683677006_3_alg».proof.Proof.Kernel.Around
import Idealize.ShloMosaic.Lib.ValueIdx
import Idealize.ShloMosaic.Lib.Pipeline.Value
import Idealize.ShloMosaic.Lib.ValueLayout
import Idealize.ShloMosaic.Lib.StableHlo.Run
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx

variable (m : (ℓ : Loc nD τ sig) → Buf (Elt F) ℓ)

/-- Every word of the token table, as the region finds it, names a row of the table of embeddings. -/
abbrev TblOk : Prop := ∀ c : Dev nD, TokOk c (tbl m 0)

/-- The token table is the tokens recast to one row of 1024 words. -/
theorem tbl_eq : (tbl m 0 : S1024.Idx → _)
    = shapeCast S1024 (m (((0 : Dev nD) : Thread nD τ).loc main_arg0)) shapeCasts_S8x128_S1024 := by
  show StableHlo.after hostOps0 (fun b => m ((0 : Dev nD), b)) (Proc.devRef .tc main_v0) = _
  after_results
  rfl

/-- The staged bias row is the bias recast to a 1 × 512 array. -/
theorem V_main_v3_eq (c : Dev nD) : (V m c main_v3 : S1x512.Idx → _)
    = shapeCast S1x512 (m ((c : Thread nD τ).loc main_arg3)) shapeCasts_S512_S1x512 := by
  show StableHlo.after hostOps0 (fun b => m (c, b)) (Proc.devRef .tc main_v3) = _
  after_results
  rfl

/-- The staged weights are the weights rounded to the narrower format, then transposed. -/
theorem V_main_v2_eq (c : Dev nD) : (V m c main_v2 : S300x512.Idx → _)
    = transpose S300x512 [1, 0]
        (truncf .bf16 (m ((c : Thread nD τ).loc main_arg2)) bitsLt_bf16_f32 : (⟨S512x300, .bf16⟩ : BufTy).Contents (Elt F))
        transposes_S512x300_S300x512_1_0 := by
  show StableHlo.after hostOps0 (fun b => m (c, b)) (Proc.devRef .tc main_v2) = _
  after_results

/-- Word n of the token table is token (n / 128, n mod 128). -/
theorem tbl_word (n : Fin 1024) :
    tbl m 0 (ix1 n) = m (((0 : Dev nD) : Thread nD τ).loc main_arg0) (ix2 (⟨n.val / 128, by omega⟩ : Fin 8) (⟨n.val % 128, by omega⟩ : Fin 128)) := by
  -- word n and token (n / 128, n mod 128) sit at the same row-major position: (n / 128) * 128 + n mod 128 = n
  rw [tbl_eq]
  refine shapeCast_apply (s := S8x128) (t := S1024) _ _ _ _ ?_
  rw [Shape.rowMajor_val_two, Shape.rowMajor_val_one]
  show n.val / 128 * 128 + n.val % 128 = n.val
  omega

/-- If every token is below 32000, every word a load reads off the table is. -/
theorem tblOk_of_tokens (h : ∀ j : S8x128.Idx, (m (((0 : Dev nD) : Thread nD τ).loc main_arg0) j).toNat < 32000) : TblOk m := by
  intro c off inb x
  obtain rfl : c = 0 := Subsingleton.elim _ _
  -- a one-word read through the whole table is the table at some index, and every index is a word number n
  obtain ⟨j, e⟩ : ∃ j : S1024.Idx,
      (tbM).view.readAt (Elt F) (Rect.unit (s := S1024) off S1.size inb).toLoadRect (tbl m 0) x = tbl m 0 j := ⟨_, rfl⟩
  obtain ⟨n, rfl⟩ : ∃ n : Fin 1024, j = ix1 n := ⟨j 0, eq_ix1 j⟩
  rw [e, tbl_word m n]
  exact h _

/-- The staged bias row: entry (0, mm) is bias mm. -/
theorem V_main_v3_apply (c : Dev nD) (mm : Fin 512) :
    V m c main_v3 (ix2 (0 : Fin 1) mm) = m ((c : Thread nD τ).loc main_arg3) (ix1 mm) := by
  -- entry (0, mm) of the row and entry mm of the bias sit at the same row-major position: 0 * 512 + mm = mm
  rw [V_main_v3_eq]
  refine shapeCast_apply (s := S512) (t := S1x512) _ _ _ _ ?_
  rw [Shape.rowMajor_val_two, Shape.rowMajor_val_one]
  show mm.val = 0 * 512 + mm.val
  omega

/-- The staged weights over the extended reals: entry (d, mm) is weight (mm, d). -/
theorem V_main_v2_apply (m : (ℓ : Loc nD τ sig) → Buf (Elt Ideal) ℓ) (c : Dev nD) (d : Fin 300) (mm : Fin 512) :
    V (F := Ideal) m c main_v2 (ix2 d mm) = m ((c : Thread nD τ).loc main_arg2) (ix2 mm d) := by
  -- the transpose reads the rounded weights at the swapped index, and rounding is the identity over the extended reals
  rw [V_main_v2_eq]
  refine (transpose_apply (s := S512x300) (t := S300x512) [1, 0] _ _ (ix2 d mm) (ix2 mm d) ?_).trans ?_
  · intro b
    match b with
    | ⟨0, _⟩ => rfl
    | ⟨1, _⟩ => rfl
  · rfl

end Cert.Kernel.Hand

end
-- ==== Proof.Kernel.RowJoin.lean ====
/-
  The scratch row by row.

  The 128 rows of the 128 × 300 scratch are pairwise disjoint and together are the whole scratch. So the scratch held
  whole is its rows held one by one; and once copy k has landed its 300 entries in row k, for every k, the rows held one
  by one are the scratch held whole at the array whose entry (k, d) is entry d of what copy k delivered, whatever
  the scratch held before.
-/
import proofs.«410898_j66494683677006_3_alg».proof.Proof.Gen.Kernel.Launch
import proofs.«410898_j66494683677006_3_alg».proof.Proof.Gen.Kernel.Skeleton
import proofs.«410898_j66494683677006_3_alg».proof.Proof.Kernel.Res
import Idealize.ShloMosaic.Lib.HeldBySlice
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! The facts about rows, indices and writes that the two statements below are assembled from. -/
namespace RowJoin

/-- An index of the scratch lies in row k exactly when its first coordinate is k. -/
theorem mem_rowRect (k : Fin 128) (x : S128x300.Idx) : x ∈ (rowRect k).set ↔ (x 0).val = k.val := by
  have h1 := ValueIdx.idx2_lt1 x
  rw [Rect.mem_set_unit]
  constructor
  · intro h
    have h0 := h 0
    simp [S1x300] at h0
    omega
  · intro h a
    fin_cases a <;> simp [S1x300] <;> omega

/-- Different rows share no element. -/
theorem rows_disjoint (k k' : Fin 128) (hne : k ≠ k') :
    Disjoint ((scM).view.setOn (rowRect k).set) ((scM).view.setOn (rowRect k').set) := by
  refine View.disjoint_setOn _ (Finset.disjoint_left.mpr fun x hx hx' => hne (Fin.ext ?_))
  rw [mem_rowRect] at hx hx'
  omega

/-- Every element of the scratch lies in some row. -/
theorem rows_union : Finset.univ.biUnion (fun k : Fin 128 => (scM).view.setOn (rowRect k).set) = (scM).view.set := by
  ext i
  simp only [Finset.mem_biUnion, Finset.mem_univ, true_and]
  constructor
  · rintro ⟨k, hk⟩
    exact View.setOn_subset_set _ _ hk
  · intro hi
    obtain ⟨x, -, rfl⟩ := Finset.mem_map.mp hi
    exact ⟨⟨(x 0).val, ValueIdx.idx2_lt0 x⟩, (View.mem_setOn _).2 ((mem_rowRect _ x).2 rfl)⟩

/-- A cast undone: if a read back through one identification of types gives b, the other way gives a. -/
theorem cast_eq_of_cast_eq {α β : Type} (h : α = β) (h' : β = α) {a : α} {b : β} (hab : cast h a = b) : cast h' b = a := by
  subst h; exact hab.symm

/-- The gathered array at an index whose coordinates are (k, d) is entry d of row k. -/
theorem gathered_apply (pay : Fin 128 → Vec F S300 .f32) (j : S128x300.Idx) (k : Fin 128) (d : S300.Idx)
    (h0 : (j 0).val = k.val) (h1 : (j 1).val = (d 0).val) : gathered pay j = pay k d := by
  unfold gathered
  have hk : (⟨(j 0).val, (j 0).isLt⟩ : Fin 128) = k := Fin.ext h0
  have hd : (fun a : Fin 1 => match a with | ⟨0, _⟩ => (⟨(j 1).val, (j 1).isLt⟩ : Fin 300)) = d := by
    funext a
    match a with
    | ⟨0, _⟩ => exact Fin.ext h1
  rw [hk]
  exact congrArg (pay k) hd

/-- Entry d of the one-row memref of row k sits at coordinates (k, d) of the scratch. -/
theorem rowSq_coords (k : Fin 128) (d : S300.Idx) (hn : S300.numel = (rowRect k).shape.numel) :
    (((rowRect k).emb (Shape.reshapeEquiv hn d)) 0).val = k.val
      ∧ (((rowRect k).emb (Shape.reshapeEquiv hn d)) 1).val = (d 0).val := by
  have e := Shape.reshapeEquiv_cons_one (n := 1) (d := ![300]) hn d
  constructor
  · rw [Rect.emb_apply]
    have : ((Shape.reshapeEquiv hn d) 0).val < 1 := ((Shape.reshapeEquiv hn d) 0).isLt
    simp
    omega
  · rw [Rect.emb_apply, e]
    simp
    rfl

/-- The one-row memref of row k goes through exactly the scratch's elements under row k. -/
theorem set_rowSq (k : Fin 128) : (rowSq k).view.set = (scM).view.setOn (rowRect k).set := by
  rw [Memref.set_view_squeeze]
  exact View.set_slice (scM).view (rowRect k)

/-- On row k's elements, what was written through the one-row memref of row k is the gathered array, whatever the
    scratch held before. -/
theorem row_write_eq (c : Dev nD) (k : Fin 128) (f : ScBuf (F := F) c) (pay : Fin 128 → Vec F S300 .f32)
    (i : Idx ((scM).view.loc (c : Thread nD τ))) (hi : i ∈ (scM).view.setOn (rowRect k).set) :
    View.write (Elt F) (rowSq k).view f (pay k) Finset.univ i = (hscM).unread (gathered pay) i := by
  rw [← set_rowSq] at hi
  obtain ⟨d, -, rfl⟩ := Finset.mem_map.mp hi
  rw [View.write_emb_of_mem _ _ (Finset.mem_univ _)]
  have hn : S300.numel = (rowRect k).shape.numel := squeezes_S1x300_S300.numel_eq
  have hr : (rowSq k).view.read (Elt F) ((hscM).unread (gathered pay)) d
      = gathered pay ((rowRect k).emb (Shape.reshapeEquiv hn d)) := congrFun ((hscM).read_unread (gathered pay)) _
  obtain ⟨h0, h1⟩ := rowSq_coords k d hn
  rw [gathered_apply pay _ k d h0 h1, View.read_apply] at hr
  exact cast_eq_of_cast_eq _ _ hr

end RowJoin

open RowJoin

/-- The scratch held whole is its 128 rows held one by one. -/
theorem rows_split (c : Dev nD) (f : ScBuf (F := F) c) :
    ((scM).view.loc (c : Thread nD τ) ↦[(scM).view.set]{fullShare} f : sProp 𝕄)
      ⊢ bigSep Finset.univ (fun k : Fin 128 => scRow c (rowRect k) f) := by
  rw [← rows_union, pointsTo_biUnion _ _ (fun k _ k' _ hne => rows_disjoint k k' hne)]

/-- The 128 rows, each holding what was written through the one-row memref of that row over some earlier contents, are
    the scratch held whole at the gathered array. -/
theorem rows_join (c : Dev nD) (fs : Fin 128 → ScBuf (F := F) c) (pay : Fin 128 → Vec F S300 .f32) :
    bigSep Finset.univ (fun k : Fin 128 => scRow c (rowRect k) (View.write (Elt F) (rowSq k).view (fs k) (pay k) Finset.univ))
      ⊢ ((scM).view.loc (c : Thread nD τ) ↦[(scM).view.set]{fullShare} (hscM).unread (gathered pay) : sProp 𝕄) := by
  have e : ∀ k ∈ (Finset.univ : Finset (Fin 128)),
      (scRow c (rowRect k) (View.write (Elt F) (rowSq k).view (fs k) (pay k) Finset.univ) : sProp 𝕄)
        = scRow c (rowRect k) ((hscM).unread (gathered pay)) :=
    fun k _ => pointsTo_congr fun i hi => row_write_eq c k (fs k) pay i hi
  rw [bigSep_congr e, ← pointsTo_biUnion _ _ (fun k _ k' _ hne => rows_disjoint k k' hne), rows_union]

end Cert.Kernel.Hand

end
-- ==== Proof.Kernel.BodyRun.lean ====
/-
  The kernel body at one grid point, run.

  At point i the body reads the 128 token words 128·i, …, 128·i + 127 of the table, starts 128 copies — copy k moves row
  (token word k) of the table of embeddings into row k of the scratch, completing on semaphore cell 4 + k —, waits for
  all 128, loads the scratch whole, multiplies it with the staged weights, adds the staged bias row and stores the
  128 × 512 block. Each copy's source row lies inside the table because every token word is below 32000. While the copies
  fly the table of embeddings is held as one read share per cell (two copies may read one row) and the scratch row by
  row; once all have landed the rows are the scratch held whole, at the array whose row k is what copy k delivered:
  row (token word k) of the table.
-/
import proofs.«410898_j66494683677006_3_alg».proof.Proof.Gen.Kernel.Launch
import proofs.«410898_j66494683677006_3_alg».proof.Proof.Gen.Kernel.Skeleton
import proofs.«410898_j66494683677006_3_alg».proof.Proof.Kernel.Res
import proofs.«410898_j66494683677006_3_alg».proof.Proof.Kernel.RowJoin
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Token word k of grid point i: word 128·i + k of the table. -/
def tokWord (c : Dev nD) (i : grid0.Coords) (T : TbBuf (F := F) c) (k : Fin 128) : Elt F .i32 :=
  (tbM).view.readAt (Elt F) (Rect.unit (s := S1024) (k0_off1 i (BitVec.ofNat 32 k.val)) S1.size (k0_off1_inb i k)).toLoadRect T
    (Shape.Idx.first (numel1_S1.symm ▸ Nat.one_pos))

/-- The row of the table of embeddings a word below 32000 names, as the one-row memref a copy reads. -/
abbrev rowOfTok (v : BitVec 32) (hv : v.toNat < 32000) : Memref sig .tc .hbm S300 .f32 :=
  ((hbM).slice (Rect.unit (s := S32000x300) ![v.toNat, 0] S1x300.size (chk_row v hv)) (fun _ => rfl)).squeeze S300 squeezes_S1x300_S300

/-- What copy k delivers at point i: the row of the table of embeddings that token word k names. -/
def payOf (c : Dev nD) (i : grid0.Coords) (T : TbBuf (F := F) c) (fh : HbBuf (F := F) c) (hT : TokOk c T) (k : Fin 128) : Vec F S300 .f32 :=
  ReadAs.same.apply ((rowOfTok (tokWord c i T k) (hT _ _ _)).view.read (Elt F) fh)

set_option maxHeartbeats 4000000 in
/-- The table of embeddings' read shares, one per cell of the pool. -/
abbrev readToks (c : Dev nD) (fh : HbBuf (F := F) c) : sProp 𝕄 :=
  iprop(hbTok c 0 fh ∗ hbTok c 1 fh ∗ hbTok c 2 fh ∗ hbTok c 3 fh ∗ hbTok c 4 fh ∗ hbTok c 5 fh ∗ hbTok c 6 fh ∗ hbTok c 7 fh ∗ hbTok c 8 fh ∗ hbTok c 9 fh ∗ hbTok c 10 fh ∗ hbTok c 11 fh ∗ hbTok c 12 fh ∗ hbTok c 13 fh ∗ hbTok c 14 fh ∗ hbTok c 15 fh ∗ hbTok c 16 fh ∗ hbTok c 17 fh ∗ hbTok c 18 fh ∗ hbTok c 19 fh ∗ hbTok c 20 fh ∗ hbTok c 21 fh ∗ hbTok c 22 fh ∗ hbTok c 23 fh ∗ hbTok c 24 fh ∗ hbTok c 25 fh ∗ hbTok c 26 fh ∗ hbTok c 27 fh ∗ hbTok c 28 fh ∗ hbTok c 29 fh ∗ hbTok c 30 fh ∗ hbTok c 31 fh ∗ hbTok c 32 fh ∗ hbTok c 33 fh ∗ hbTok c 34 fh ∗ hbTok c 35 fh ∗ hbTok c 36 fh ∗ hbTok c 37 fh ∗ hbTok c 38 fh ∗ hbTok c 39 fh ∗ hbTok c 40 fh ∗ hbTok c 41 fh ∗ hbTok c 42 fh ∗ hbTok c 43 fh ∗ hbTok c 44 fh ∗ hbTok c 45 fh ∗ hbTok c 46 fh ∗ hbTok c 47 fh ∗ hbTok c 48 fh ∗ hbTok c 49 fh ∗ hbTok c 50 fh ∗ hbTok c 51 fh ∗ hbTok c 52 fh ∗ hbTok c 53 fh ∗ hbTok c 54 fh ∗ hbTok c 55 fh ∗ hbTok c 56 fh ∗ hbTok c 57 fh ∗ hbTok c 58 fh ∗ hbTok c 59 fh ∗ hbTok c 60 fh ∗ hbTok c 61 fh ∗ hbTok c 62 fh ∗ hbTok c 63 fh ∗ hbTok c 64 fh ∗ hbTok c 65 fh ∗ hbTok c 66 fh ∗ hbTok c 67 fh ∗ hbTok c 68 fh ∗ hbTok c 69 fh ∗ hbTok c 70 fh ∗ hbTok c 71 fh ∗ hbTok c 72 fh ∗ hbTok c 73 fh ∗ hbTok c 74 fh ∗ hbTok c 75 fh ∗ hbTok c 76 fh ∗ hbTok c 77 fh ∗ hbTok c 78 fh ∗ hbTok c 79 fh ∗ hbTok c 80 fh ∗ hbTok c 81 fh ∗ hbTok c 82 fh ∗ hbTok c 83 fh ∗ hbTok c 84 fh ∗ hbTok c 85 fh ∗ hbTok c 86 fh ∗ hbTok c 87 fh ∗ hbTok c 88 fh ∗ hbTok c 89 fh ∗ hbTok c 90 fh ∗ hbTok c 91 fh ∗ hbTok c 92 fh ∗ hbTok c 93 fh ∗ hbTok c 94 fh ∗ hbTok c 95 fh ∗ hbTok c 96 fh ∗ hbTok c 97 fh ∗ hbTok c 98 fh ∗ hbTok c 99 fh ∗ hbTok c 100 fh ∗ hbTok c 101 fh ∗ hbTok c 102 fh ∗ hbTok c 103 fh ∗ hbTok c 104 fh ∗ hbTok c 105 fh ∗ hbTok c 106 fh ∗ hbTok c 107 fh ∗ hbTok c 108 fh ∗ hbTok c 109 fh ∗ hbTok c 110 fh ∗ hbTok c 111 fh ∗ hbTok c 112 fh ∗ hbTok c 113 fh ∗ hbTok c 114 fh ∗ hbTok c 115 fh ∗ hbTok c 116 fh ∗ hbTok c 117 fh ∗ hbTok c 118 fh ∗ hbTok c 119 fh ∗ hbTok c 120 fh ∗ hbTok c 121 fh ∗ hbTok c 122 fh ∗ hbTok c 123 fh ∗ hbTok c 124 fh ∗ hbTok c 125 fh ∗ hbTok c 126 fh ∗ hbTok c 127 fh ∗ hbTok c 128 fh ∗ hbTok c 129 fh ∗ hbTok c 130 fh ∗ hbTok c 131 fh)

set_option maxHeartbeats 4000000 in
/-- The copies' 128 cells, each at zero. -/
abbrev ownCells (c : Dev nD) : sProp 𝕄 :=
  iprop(semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0 ∗ semVal ((c : Thread nD τ), SemLoc.dma 54) 0 ∗ semVal ((c : Thread nD τ), SemLoc.dma 55) 0 ∗ semVal ((c : Thread nD τ), SemLoc.dma 56) 0 ∗ semVal ((c : Thread nD τ), SemLoc.dma 57) 0 ∗ semVal ((c : Thread nD τ), SemLoc.dma 58) 0 ∗ semVal ((c : Thread nD τ), SemLoc.dma 59) 0 ∗ semVal ((c : Thread nD τ), SemLoc.dma 60) 0 ∗ semVal ((c : Thread nD τ), SemLoc.dma 61) 0 ∗ semVal ((c : Thread nD τ), SemLoc.dma 62) 0 ∗ semVal ((c : Thread nD τ), SemLoc.dma 63) 0 ∗ semVal ((c : Thread nD τ), SemLoc.dma 64) 0 ∗ semVal ((c : Thread nD τ), SemLoc.dma 65) 0 ∗ semVal ((c : Thread nD τ), SemLoc.dma 66) 0 ∗ semVal ((c : Thread nD τ), SemLoc.dma 67) 0 ∗ semVal ((c : Thread nD τ), SemLoc.dma 68) 0 ∗ semVal ((c : Thread nD τ), SemLoc.dma 69) 0 ∗ semVal ((c : Thread nD τ), SemLoc.dma 70) 0 ∗ semVal ((c : Thread nD τ), SemLoc.dma 71) 0 ∗ semVal ((c : Thread nD τ), SemLoc.dma 72) 0 ∗ semVal ((c : Thread nD τ), SemLoc.dma 73) 0 ∗ semVal ((c : Thread nD τ), SemLoc.dma 74) 0 ∗ semVal ((c : Thread nD τ), SemLoc.dma 75) 0 ∗ semVal ((c : Thread nD τ), SemLoc.dma 76) 0 ∗ semVal ((c : Thread nD τ), SemLoc.dma 77) 0 ∗ semVal ((c : Thread nD τ), SemLoc.dma 78) 0 ∗ semVal ((c : Thread nD τ), SemLoc.dma 79) 0 ∗ semVal ((c : Thread nD τ), SemLoc.dma 80) 0 ∗ semVal ((c : Thread nD τ), SemLoc.dma 81) 0 ∗ semVal ((c : Thread nD τ), SemLoc.dma 82) 0 ∗ semVal ((c : Thread nD τ), SemLoc.dma 83) 0 ∗ semVal ((c : Thread nD τ), SemLoc.dma 84) 0 ∗ semVal ((c : Thread nD τ), SemLoc.dma 85) 0 ∗ semVal ((c : Thread nD τ), SemLoc.dma 86) 0 ∗ semVal ((c : Thread nD τ), SemLoc.dma 87) 0 ∗ semVal ((c : Thread nD τ), SemLoc.dma 88) 0 ∗ semVal ((c : Thread nD τ), SemLoc.dma 89) 0 ∗ semVal ((c : Thread nD τ), SemLoc.dma 90) 0 ∗ semVal ((c : Thread nD τ), SemLoc.dma 91) 0 ∗ semVal ((c : Thread nD τ), SemLoc.dma 92) 0 ∗ semVal ((c : Thread nD τ), SemLoc.dma 93) 0 ∗ semVal ((c : Thread nD τ), SemLoc.dma 94) 0 ∗ semVal ((c : Thread nD τ), SemLoc.dma 95) 0 ∗ semVal ((c : Thread nD τ), SemLoc.dma 96) 0 ∗ semVal ((c : Thread nD τ), SemLoc.dma 97) 0 ∗ semVal ((c : Thread nD τ), SemLoc.dma 98) 0 ∗ semVal ((c : Thread nD τ), SemLoc.dma 99) 0 ∗ semVal ((c : Thread nD τ), SemLoc.dma 100) 0 ∗ semVal ((c : Thread nD τ), SemLoc.dma 101) 0 ∗ semVal ((c : Thread nD τ), SemLoc.dma 102) 0 ∗ semVal ((c : Thread nD τ), SemLoc.dma 103) 0 ∗ semVal ((c : Thread nD τ), SemLoc.dma 104) 0 ∗ semVal ((c : Thread nD τ), SemLoc.dma 105) 0 ∗ semVal ((c : Thread nD τ), SemLoc.dma 106) 0 ∗ semVal ((c : Thread nD τ), SemLoc.dma 107) 0 ∗ semVal ((c : Thread nD τ), SemLoc.dma 108) 0 ∗ semVal ((c : Thread nD τ), SemLoc.dma 109) 0 ∗ semVal ((c : Thread nD τ), SemLoc.dma 110) 0 ∗ semVal ((c : Thread nD τ), SemLoc.dma 111) 0 ∗ semVal ((c : Thread nD τ), SemLoc.dma 112) 0 ∗ semVal ((c : Thread nD τ), SemLoc.dma 113) 0 ∗ semVal ((c : Thread nD τ), SemLoc.dma 114) 0 ∗ semVal ((c : Thread nD τ), SemLoc.dma 115) 0 ∗ semVal ((c : Thread nD τ), SemLoc.dma 116) 0 ∗ semVal ((c : Thread nD τ), SemLoc.dma 117) 0 ∗ semVal ((c : Thread nD τ), SemLoc.dma 118) 0 ∗ semVal ((c : Thread nD τ), SemLoc.dma 119) 0 ∗ semVal ((c : Thread nD τ), SemLoc.dma 120) 0 ∗ semVal ((c : Thread nD τ), SemLoc.dma 121) 0 ∗ semVal ((c : Thread nD τ), SemLoc.dma 122) 0 ∗ semVal ((c : Thread nD τ), SemLoc.dma 123) 0 ∗ semVal ((c : Thread nD τ), SemLoc.dma 124) 0 ∗ semVal ((c : Thread nD τ), SemLoc.dma 125) 0 ∗ semVal ((c : Thread nD τ), SemLoc.dma 126) 0 ∗ semVal ((c : Thread nD τ), SemLoc.dma 127) 0 ∗ semVal ((c : Thread nD τ), SemLoc.dma 128) 0 ∗ semVal ((c : Thread nD τ), SemLoc.dma 129) 0 ∗ semVal ((c : Thread nD τ), SemLoc.dma 130) 0 ∗ semVal ((c : Thread nD τ), SemLoc.dma 131) 0)

set_option maxHeartbeats 4000000 in
/-- The rows held one by one, written out row by row. -/
theorem rows_chain (c : Dev nD) (f : ScBuf (F := F) c) :
    (bigSep Finset.univ (fun k : Fin 128 => scRow c (rowRect k) f) : sProp 𝕄)
      = iprop(scRow c (Rect.unit (s := S128x300) ![0, 0] S1x300.size inb_S128x300_S1x300_0_0) f ∗ scRow c (Rect.unit (s := S128x300) ![1, 0] S1x300.size inb_S128x300_S1x300_1_0) f ∗ scRow c (Rect.unit (s := S128x300) ![2, 0] S1x300.size inb_S128x300_S1x300_2_0) f ∗ scRow c (Rect.unit (s := S128x300) ![3, 0] S1x300.size inb_S128x300_S1x300_3_0) f ∗ scRow c (Rect.unit (s := S128x300) ![4, 0] S1x300.size inb_S128x300_S1x300_4_0) f ∗ scRow c (Rect.unit (s := S128x300) ![5, 0] S1x300.size inb_S128x300_S1x300_5_0) f ∗ scRow c (Rect.unit (s := S128x300) ![6, 0] S1x300.size inb_S128x300_S1x300_6_0) f ∗ scRow c (Rect.unit (s := S128x300) ![7, 0] S1x300.size inb_S128x300_S1x300_7_0) f ∗ scRow c (Rect.unit (s := S128x300) ![8, 0] S1x300.size inb_S128x300_S1x300_8_0) f ∗ scRow c (Rect.unit (s := S128x300) ![9, 0] S1x300.size inb_S128x300_S1x300_9_0) f ∗ scRow c (Rect.unit (s := S128x300) ![10, 0] S1x300.size inb_S128x300_S1x300_10_0) f ∗ scRow c (Rect.unit (s := S128x300) ![11, 0] S1x300.size inb_S128x300_S1x300_11_0) f ∗ scRow c (Rect.unit (s := S128x300) ![12, 0] S1x300.size inb_S128x300_S1x300_12_0) f ∗ scRow c (Rect.unit (s := S128x300) ![13, 0] S1x300.size inb_S128x300_S1x300_13_0) f ∗ scRow c (Rect.unit (s := S128x300) ![14, 0] S1x300.size inb_S128x300_S1x300_14_0) f ∗ scRow c (Rect.unit (s := S128x300) ![15, 0] S1x300.size inb_S128x300_S1x300_15_0) f ∗ scRow c (Rect.unit (s := S128x300) ![16, 0] S1x300.size inb_S128x300_S1x300_16_0) f ∗ scRow c (Rect.unit (s := S128x300) ![17, 0] S1x300.size inb_S128x300_S1x300_17_0) f ∗ scRow c (Rect.unit (s := S128x300) ![18, 0] S1x300.size inb_S128x300_S1x300_18_0) f ∗ scRow c (Rect.unit (s := S128x300) ![19, 0] S1x300.size inb_S128x300_S1x300_19_0) f ∗ scRow c (Rect.unit (s := S128x300) ![20, 0] S1x300.size inb_S128x300_S1x300_20_0) f ∗ scRow c (Rect.unit (s := S128x300) ![21, 0] S1x300.size inb_S128x300_S1x300_21_0) f ∗ scRow c (Rect.unit (s := S128x300) ![22, 0] S1x300.size inb_S128x300_S1x300_22_0) f ∗ scRow c (Rect.unit (s := S128x300) ![23, 0] S1x300.size inb_S128x300_S1x300_23_0) f ∗ scRow c (Rect.unit (s := S128x300) ![24, 0] S1x300.size inb_S128x300_S1x300_24_0) f ∗ scRow c (Rect.unit (s := S128x300) ![25, 0] S1x300.size inb_S128x300_S1x300_25_0) f ∗ scRow c (Rect.unit (s := S128x300) ![26, 0] S1x300.size inb_S128x300_S1x300_26_0) f ∗ scRow c (Rect.unit (s := S128x300) ![27, 0] S1x300.size inb_S128x300_S1x300_27_0) f ∗ scRow c (Rect.unit (s := S128x300) ![28, 0] S1x300.size inb_S128x300_S1x300_28_0) f ∗ scRow c (Rect.unit (s := S128x300) ![29, 0] S1x300.size inb_S128x300_S1x300_29_0) f ∗ scRow c (Rect.unit (s := S128x300) ![30, 0] S1x300.size inb_S128x300_S1x300_30_0) f ∗ scRow c (Rect.unit (s := S128x300) ![31, 0] S1x300.size inb_S128x300_S1x300_31_0) f ∗ scRow c (Rect.unit (s := S128x300) ![32, 0] S1x300.size inb_S128x300_S1x300_32_0) f ∗ scRow c (Rect.unit (s := S128x300) ![33, 0] S1x300.size inb_S128x300_S1x300_33_0) f ∗ scRow c (Rect.unit (s := S128x300) ![34, 0] S1x300.size inb_S128x300_S1x300_34_0) f ∗ scRow c (Rect.unit (s := S128x300) ![35, 0] S1x300.size inb_S128x300_S1x300_35_0) f ∗ scRow c (Rect.unit (s := S128x300) ![36, 0] S1x300.size inb_S128x300_S1x300_36_0) f ∗ scRow c (Rect.unit (s := S128x300) ![37, 0] S1x300.size inb_S128x300_S1x300_37_0) f ∗ scRow c (Rect.unit (s := S128x300) ![38, 0] S1x300.size inb_S128x300_S1x300_38_0) f ∗ scRow c (Rect.unit (s := S128x300) ![39, 0] S1x300.size inb_S128x300_S1x300_39_0) f ∗ scRow c (Rect.unit (s := S128x300) ![40, 0] S1x300.size inb_S128x300_S1x300_40_0) f ∗ scRow c (Rect.unit (s := S128x300) ![41, 0] S1x300.size inb_S128x300_S1x300_41_0) f ∗ scRow c (Rect.unit (s := S128x300) ![42, 0] S1x300.size inb_S128x300_S1x300_42_0) f ∗ scRow c (Rect.unit (s := S128x300) ![43, 0] S1x300.size inb_S128x300_S1x300_43_0) f ∗ scRow c (Rect.unit (s := S128x300) ![44, 0] S1x300.size inb_S128x300_S1x300_44_0) f ∗ scRow c (Rect.unit (s := S128x300) ![45, 0] S1x300.size inb_S128x300_S1x300_45_0) f ∗ scRow c (Rect.unit (s := S128x300) ![46, 0] S1x300.size inb_S128x300_S1x300_46_0) f ∗ scRow c (Rect.unit (s := S128x300) ![47, 0] S1x300.size inb_S128x300_S1x300_47_0) f ∗ scRow c (Rect.unit (s := S128x300) ![48, 0] S1x300.size inb_S128x300_S1x300_48_0) f ∗ scRow c (Rect.unit (s := S128x300) ![49, 0] S1x300.size inb_S128x300_S1x300_49_0) f ∗ scRow c (Rect.unit (s := S128x300) ![50, 0] S1x300.size inb_S128x300_S1x300_50_0) f ∗ scRow c (Rect.unit (s := S128x300) ![51, 0] S1x300.size inb_S128x300_S1x300_51_0) f ∗ scRow c (Rect.unit (s := S128x300) ![52, 0] S1x300.size inb_S128x300_S1x300_52_0) f ∗ scRow c (Rect.unit (s := S128x300) ![53, 0] S1x300.size inb_S128x300_S1x300_53_0) f ∗ scRow c (Rect.unit (s := S128x300) ![54, 0] S1x300.size inb_S128x300_S1x300_54_0) f ∗ scRow c (Rect.unit (s := S128x300) ![55, 0] S1x300.size inb_S128x300_S1x300_55_0) f ∗ scRow c (Rect.unit (s := S128x300) ![56, 0] S1x300.size inb_S128x300_S1x300_56_0) f ∗ scRow c (Rect.unit (s := S128x300) ![57, 0] S1x300.size inb_S128x300_S1x300_57_0) f ∗ scRow c (Rect.unit (s := S128x300) ![58, 0] S1x300.size inb_S128x300_S1x300_58_0) f ∗ scRow c (Rect.unit (s := S128x300) ![59, 0] S1x300.size inb_S128x300_S1x300_59_0) f ∗ scRow c (Rect.unit (s := S128x300) ![60, 0] S1x300.size inb_S128x300_S1x300_60_0) f ∗ scRow c (Rect.unit (s := S128x300) ![61, 0] S1x300.size inb_S128x300_S1x300_61_0) f ∗ scRow c (Rect.unit (s := S128x300) ![62, 0] S1x300.size inb_S128x300_S1x300_62_0) f ∗ scRow c (Rect.unit (s := S128x300) ![63, 0] S1x300.size inb_S128x300_S1x300_63_0) f ∗ scRow c (Rect.unit (s := S128x300) ![64, 0] S1x300.size inb_S128x300_S1x300_64_0) f ∗ scRow c (Rect.unit (s := S128x300) ![65, 0] S1x300.size inb_S128x300_S1x300_65_0) f ∗ scRow c (Rect.unit (s := S128x300) ![66, 0] S1x300.size inb_S128x300_S1x300_66_0) f ∗ scRow c (Rect.unit (s := S128x300) ![67, 0] S1x300.size inb_S128x300_S1x300_67_0) f ∗ scRow c (Rect.unit (s := S128x300) ![68, 0] S1x300.size inb_S128x300_S1x300_68_0) f ∗ scRow c (Rect.unit (s := S128x300) ![69, 0] S1x300.size inb_S128x300_S1x300_69_0) f ∗ scRow c (Rect.unit (s := S128x300) ![70, 0] S1x300.size inb_S128x300_S1x300_70_0) f ∗ scRow c (Rect.unit (s := S128x300) ![71, 0] S1x300.size inb_S128x300_S1x300_71_0) f ∗ scRow c (Rect.unit (s := S128x300) ![72, 0] S1x300.size inb_S128x300_S1x300_72_0) f ∗ scRow c (Rect.unit (s := S128x300) ![73, 0] S1x300.size inb_S128x300_S1x300_73_0) f ∗ scRow c (Rect.unit (s := S128x300) ![74, 0] S1x300.size inb_S128x300_S1x300_74_0) f ∗ scRow c (Rect.unit (s := S128x300) ![75, 0] S1x300.size inb_S128x300_S1x300_75_0) f ∗ scRow c (Rect.unit (s := S128x300) ![76, 0] S1x300.size inb_S128x300_S1x300_76_0) f ∗ scRow c (Rect.unit (s := S128x300) ![77, 0] S1x300.size inb_S128x300_S1x300_77_0) f ∗ scRow c (Rect.unit (s := S128x300) ![78, 0] S1x300.size inb_S128x300_S1x300_78_0) f ∗ scRow c (Rect.unit (s := S128x300) ![79, 0] S1x300.size inb_S128x300_S1x300_79_0) f ∗ scRow c (Rect.unit (s := S128x300) ![80, 0] S1x300.size inb_S128x300_S1x300_80_0) f ∗ scRow c (Rect.unit (s := S128x300) ![81, 0] S1x300.size inb_S128x300_S1x300_81_0) f ∗ scRow c (Rect.unit (s := S128x300) ![82, 0] S1x300.size inb_S128x300_S1x300_82_0) f ∗ scRow c (Rect.unit (s := S128x300) ![83, 0] S1x300.size inb_S128x300_S1x300_83_0) f ∗ scRow c (Rect.unit (s := S128x300) ![84, 0] S1x300.size inb_S128x300_S1x300_84_0) f ∗ scRow c (Rect.unit (s := S128x300) ![85, 0] S1x300.size inb_S128x300_S1x300_85_0) f ∗ scRow c (Rect.unit (s := S128x300) ![86, 0] S1x300.size inb_S128x300_S1x300_86_0) f ∗ scRow c (Rect.unit (s := S128x300) ![87, 0] S1x300.size inb_S128x300_S1x300_87_0) f ∗ scRow c (Rect.unit (s := S128x300) ![88, 0] S1x300.size inb_S128x300_S1x300_88_0) f ∗ scRow c (Rect.unit (s := S128x300) ![89, 0] S1x300.size inb_S128x300_S1x300_89_0) f ∗ scRow c (Rect.unit (s := S128x300) ![90, 0] S1x300.size inb_S128x300_S1x300_90_0) f ∗ scRow c (Rect.unit (s := S128x300) ![91, 0] S1x300.size inb_S128x300_S1x300_91_0) f ∗ scRow c (Rect.unit (s := S128x300) ![92, 0] S1x300.size inb_S128x300_S1x300_92_0) f ∗ scRow c (Rect.unit (s := S128x300) ![93, 0] S1x300.size inb_S128x300_S1x300_93_0) f ∗ scRow c (Rect.unit (s := S128x300) ![94, 0] S1x300.size inb_S128x300_S1x300_94_0) f ∗ scRow c (Rect.unit (s := S128x300) ![95, 0] S1x300.size inb_S128x300_S1x300_95_0) f ∗ scRow c (Rect.unit (s := S128x300) ![96, 0] S1x300.size inb_S128x300_S1x300_96_0) f ∗ scRow c (Rect.unit (s := S128x300) ![97, 0] S1x300.size inb_S128x300_S1x300_97_0) f ∗ scRow c (Rect.unit (s := S128x300) ![98, 0] S1x300.size inb_S128x300_S1x300_98_0) f ∗ scRow c (Rect.unit (s := S128x300) ![99, 0] S1x300.size inb_S128x300_S1x300_99_0) f ∗ scRow c (Rect.unit (s := S128x300) ![100, 0] S1x300.size inb_S128x300_S1x300_100_0) f ∗ scRow c (Rect.unit (s := S128x300) ![101, 0] S1x300.size inb_S128x300_S1x300_101_0) f ∗ scRow c (Rect.unit (s := S128x300) ![102, 0] S1x300.size inb_S128x300_S1x300_102_0) f ∗ scRow c (Rect.unit (s := S128x300) ![103, 0] S1x300.size inb_S128x300_S1x300_103_0) f ∗ scRow c (Rect.unit (s := S128x300) ![104, 0] S1x300.size inb_S128x300_S1x300_104_0) f ∗ scRow c (Rect.unit (s := S128x300) ![105, 0] S1x300.size inb_S128x300_S1x300_105_0) f ∗ scRow c (Rect.unit (s := S128x300) ![106, 0] S1x300.size inb_S128x300_S1x300_106_0) f ∗ scRow c (Rect.unit (s := S128x300) ![107, 0] S1x300.size inb_S128x300_S1x300_107_0) f ∗ scRow c (Rect.unit (s := S128x300) ![108, 0] S1x300.size inb_S128x300_S1x300_108_0) f ∗ scRow c (Rect.unit (s := S128x300) ![109, 0] S1x300.size inb_S128x300_S1x300_109_0) f ∗ scRow c (Rect.unit (s := S128x300) ![110, 0] S1x300.size inb_S128x300_S1x300_110_0) f ∗ scRow c (Rect.unit (s := S128x300) ![111, 0] S1x300.size inb_S128x300_S1x300_111_0) f ∗ scRow c (Rect.unit (s := S128x300) ![112, 0] S1x300.size inb_S128x300_S1x300_112_0) f ∗ scRow c (Rect.unit (s := S128x300) ![113, 0] S1x300.size inb_S128x300_S1x300_113_0) f ∗ scRow c (Rect.unit (s := S128x300) ![114, 0] S1x300.size inb_S128x300_S1x300_114_0) f ∗ scRow c (Rect.unit (s := S128x300) ![115, 0] S1x300.size inb_S128x300_S1x300_115_0) f ∗ scRow c (Rect.unit (s := S128x300) ![116, 0] S1x300.size inb_S128x300_S1x300_116_0) f ∗ scRow c (Rect.unit (s := S128x300) ![117, 0] S1x300.size inb_S128x300_S1x300_117_0) f ∗ scRow c (Rect.unit (s := S128x300) ![118, 0] S1x300.size inb_S128x300_S1x300_118_0) f ∗ scRow c (Rect.unit (s := S128x300) ![119, 0] S1x300.size inb_S128x300_S1x300_119_0) f ∗ scRow c (Rect.unit (s := S128x300) ![120, 0] S1x300.size inb_S128x300_S1x300_120_0) f ∗ scRow c (Rect.unit (s := S128x300) ![121, 0] S1x300.size inb_S128x300_S1x300_121_0) f ∗ scRow c (Rect.unit (s := S128x300) ![122, 0] S1x300.size inb_S128x300_S1x300_122_0) f ∗ scRow c (Rect.unit (s := S128x300) ![123, 0] S1x300.size inb_S128x300_S1x300_123_0) f ∗ scRow c (Rect.unit (s := S128x300) ![124, 0] S1x300.size inb_S128x300_S1x300_124_0) f ∗ scRow c (Rect.unit (s := S128x300) ![125, 0] S1x300.size inb_S128x300_S1x300_125_0) f ∗ scRow c (Rect.unit (s := S128x300) ![126, 0] S1x300.size inb_S128x300_S1x300_126_0) f ∗ scRow c (Rect.unit (s := S128x300) ![127, 0] S1x300.size inb_S128x300_S1x300_127_0) f) :=
  bigSep_univ_eq_bigSepL [(0 : Fin 128), (1 : Fin 128), (2 : Fin 128), (3 : Fin 128), (4 : Fin 128), (5 : Fin 128), (6 : Fin 128), (7 : Fin 128), (8 : Fin 128), (9 : Fin 128), (10 : Fin 128), (11 : Fin 128), (12 : Fin 128), (13 : Fin 128), (14 : Fin 128), (15 : Fin 128), (16 : Fin 128), (17 : Fin 128), (18 : Fin 128), (19 : Fin 128), (20 : Fin 128), (21 : Fin 128), (22 : Fin 128), (23 : Fin 128), (24 : Fin 128), (25 : Fin 128), (26 : Fin 128), (27 : Fin 128), (28 : Fin 128), (29 : Fin 128), (30 : Fin 128), (31 : Fin 128), (32 : Fin 128), (33 : Fin 128), (34 : Fin 128), (35 : Fin 128), (36 : Fin 128), (37 : Fin 128), (38 : Fin 128), (39 : Fin 128), (40 : Fin 128), (41 : Fin 128), (42 : Fin 128), (43 : Fin 128), (44 : Fin 128), (45 : Fin 128), (46 : Fin 128), (47 : Fin 128), (48 : Fin 128), (49 : Fin 128), (50 : Fin 128), (51 : Fin 128), (52 : Fin 128), (53 : Fin 128), (54 : Fin 128), (55 : Fin 128), (56 : Fin 128), (57 : Fin 128), (58 : Fin 128), (59 : Fin 128), (60 : Fin 128), (61 : Fin 128), (62 : Fin 128), (63 : Fin 128), (64 : Fin 128), (65 : Fin 128), (66 : Fin 128), (67 : Fin 128), (68 : Fin 128), (69 : Fin 128), (70 : Fin 128), (71 : Fin 128), (72 : Fin 128), (73 : Fin 128), (74 : Fin 128), (75 : Fin 128), (76 : Fin 128), (77 : Fin 128), (78 : Fin 128), (79 : Fin 128), (80 : Fin 128), (81 : Fin 128), (82 : Fin 128), (83 : Fin 128), (84 : Fin 128), (85 : Fin 128), (86 : Fin 128), (87 : Fin 128), (88 : Fin 128), (89 : Fin 128), (90 : Fin 128), (91 : Fin 128), (92 : Fin 128), (93 : Fin 128), (94 : Fin 128), (95 : Fin 128), (96 : Fin 128), (97 : Fin 128), (98 : Fin 128), (99 : Fin 128), (100 : Fin 128), (101 : Fin 128), (102 : Fin 128), (103 : Fin 128), (104 : Fin 128), (105 : Fin 128), (106 : Fin 128), (107 : Fin 128), (108 : Fin 128), (109 : Fin 128), (110 : Fin 128), (111 : Fin 128), (112 : Fin 128), (113 : Fin 128), (114 : Fin 128), (115 : Fin 128), (116 : Fin 128), (117 : Fin 128), (118 : Fin 128), (119 : Fin 128), (120 : Fin 128), (121 : Fin 128), (122 : Fin 128), (123 : Fin 128), (124 : Fin 128), (125 : Fin 128), (126 : Fin 128), (127 : Fin 128)] (by decide +kernel) (by decide +kernel) _

set_option maxHeartbeats 4000000 in
/-- The landed rows held one by one, written out row by row. -/
theorem landed_chain (c : Dev nD) (fs : ScBuf (F := F) c) (pay : Fin 128 → Vec F S300 .f32) :
    (bigSep Finset.univ (fun k : Fin 128 => scRow c (rowRect k) (View.write (Elt F) (rowSq k).view fs (pay k) Finset.univ)) : sProp 𝕄)
      = iprop(scRow c (Rect.unit (s := S128x300) ![0, 0] S1x300.size inb_S128x300_S1x300_0_0) (View.write (Elt F) (((scM).slice (Rect.unit (s := S128x300) ![0, 0] S1x300.size inb_S128x300_S1x300_0_0) (fun _ => rfl)).squeeze S300 squeezes_S1x300_S300).view fs (pay 0) Finset.univ) ∗ scRow c (Rect.unit (s := S128x300) ![1, 0] S1x300.size inb_S128x300_S1x300_1_0) (View.write (Elt F) (((scM).slice (Rect.unit (s := S128x300) ![1, 0] S1x300.size inb_S128x300_S1x300_1_0) (fun _ => rfl)).squeeze S300 squeezes_S1x300_S300).view fs (pay 1) Finset.univ) ∗ scRow c (Rect.unit (s := S128x300) ![2, 0] S1x300.size inb_S128x300_S1x300_2_0) (View.write (Elt F) (((scM).slice (Rect.unit (s := S128x300) ![2, 0] S1x300.size inb_S128x300_S1x300_2_0) (fun _ => rfl)).squeeze S300 squeezes_S1x300_S300).view fs (pay 2) Finset.univ) ∗ scRow c (Rect.unit (s := S128x300) ![3, 0] S1x300.size inb_S128x300_S1x300_3_0) (View.write (Elt F) (((scM).slice (Rect.unit (s := S128x300) ![3, 0] S1x300.size inb_S128x300_S1x300_3_0) (fun _ => rfl)).squeeze S300 squeezes_S1x300_S300).view fs (pay 3) Finset.univ) ∗ scRow c (Rect.unit (s := S128x300) ![4, 0] S1x300.size inb_S128x300_S1x300_4_0) (View.write (Elt F) (((scM).slice (Rect.unit (s := S128x300) ![4, 0] S1x300.size inb_S128x300_S1x300_4_0) (fun _ => rfl)).squeeze S300 squeezes_S1x300_S300).view fs (pay 4) Finset.univ) ∗ scRow c (Rect.unit (s := S128x300) ![5, 0] S1x300.size inb_S128x300_S1x300_5_0) (View.write (Elt F) (((scM).slice (Rect.unit (s := S128x300) ![5, 0] S1x300.size inb_S128x300_S1x300_5_0) (fun _ => rfl)).squeeze S300 squeezes_S1x300_S300).view fs (pay 5) Finset.univ) ∗ scRow c (Rect.unit (s := S128x300) ![6, 0] S1x300.size inb_S128x300_S1x300_6_0) (View.write (Elt F) (((scM).slice (Rect.unit (s := S128x300) ![6, 0] S1x300.size inb_S128x300_S1x300_6_0) (fun _ => rfl)).squeeze S300 squeezes_S1x300_S300).view fs (pay 6) Finset.univ) ∗ scRow c (Rect.unit (s := S128x300) ![7, 0] S1x300.size inb_S128x300_S1x300_7_0) (View.write (Elt F) (((scM).slice (Rect.unit (s := S128x300) ![7, 0] S1x300.size inb_S128x300_S1x300_7_0) (fun _ => rfl)).squeeze S300 squeezes_S1x300_S300).view fs (pay 7) Finset.univ) ∗ scRow c (Rect.unit (s := S128x300) ![8, 0] S1x300.size inb_S128x300_S1x300_8_0) (View.write (Elt F) (((scM).slice (Rect.unit (s := S128x300) ![8, 0] S1x300.size inb_S128x300_S1x300_8_0) (fun _ => rfl)).squeeze S300 squeezes_S1x300_S300).view fs (pay 8) Finset.univ) ∗ scRow c (Rect.unit (s := S128x300) ![9, 0] S1x300.size inb_S128x300_S1x300_9_0) (View.write (Elt F) (((scM).slice (Rect.unit (s := S128x300) ![9, 0] S1x300.size inb_S128x300_S1x300_9_0) (fun _ => rfl)).squeeze S300 squeezes_S1x300_S300).view fs (pay 9) Finset.univ) ∗ scRow c (Rect.unit (s := S128x300) ![10, 0] S1x300.size inb_S128x300_S1x300_10_0) (View.write (Elt F) (((scM).slice (Rect.unit (s := S128x300) ![10, 0] S1x300.size inb_S128x300_S1x300_10_0) (fun _ => rfl)).squeeze S300 squeezes_S1x300_S300).view fs (pay 10) Finset.univ) ∗ scRow c (Rect.unit (s := S128x300) ![11, 0] S1x300.size inb_S128x300_S1x300_11_0) (View.write (Elt F) (((scM).slice (Rect.unit (s := S128x300) ![11, 0] S1x300.size inb_S128x300_S1x300_11_0) (fun _ => rfl)).squeeze S300 squeezes_S1x300_S300).view fs (pay 11) Finset.univ) ∗ scRow c (Rect.unit (s := S128x300) ![12, 0] S1x300.size inb_S128x300_S1x300_12_0) (View.write (Elt F) (((scM).slice (Rect.unit (s := S128x300) ![12, 0] S1x300.size inb_S128x300_S1x300_12_0) (fun _ => rfl)).squeeze S300 squeezes_S1x300_S300).view fs (pay 12) Finset.univ) ∗ scRow c (Rect.unit (s := S128x300) ![13, 0] S1x300.size inb_S128x300_S1x300_13_0) (View.write (Elt F) (((scM).slice (Rect.unit (s := S128x300) ![13, 0] S1x300.size inb_S128x300_S1x300_13_0) (fun _ => rfl)).squeeze S300 squeezes_S1x300_S300).view fs (pay 13) Finset.univ) ∗ scRow c (Rect.unit (s := S128x300) ![14, 0] S1x300.size inb_S128x300_S1x300_14_0) (View.write (Elt F) (((scM).slice (Rect.unit (s := S128x300) ![14, 0] S1x300.size inb_S128x300_S1x300_14_0) (fun _ => rfl)).squeeze S300 squeezes_S1x300_S300).view fs (pay 14) Finset.univ) ∗ scRow c (Rect.unit (s := S128x300) ![15, 0] S1x300.size inb_S128x300_S1x300_15_0) (View.write (Elt F) (((scM).slice (Rect.unit (s := S128x300) ![15, 0] S1x300.size inb_S128x300_S1x300_15_0) (fun _ => rfl)).squeeze S300 squeezes_S1x300_S300).view fs (pay 15) Finset.univ) ∗ scRow c (Rect.unit (s := S128x300) ![16, 0] S1x300.size inb_S128x300_S1x300_16_0) (View.write (Elt F) (((scM).slice (Rect.unit (s := S128x300) ![16, 0] S1x300.size inb_S128x300_S1x300_16_0) (fun _ => rfl)).squeeze S300 squeezes_S1x300_S300).view fs (pay 16) Finset.univ) ∗ scRow c (Rect.unit (s := S128x300) ![17, 0] S1x300.size inb_S128x300_S1x300_17_0) (View.write (Elt F) (((scM).slice (Rect.unit (s := S128x300) ![17, 0] S1x300.size inb_S128x300_S1x300_17_0) (fun _ => rfl)).squeeze S300 squeezes_S1x300_S300).view fs (pay 17) Finset.univ) ∗ scRow c (Rect.unit (s := S128x300) ![18, 0] S1x300.size inb_S128x300_S1x300_18_0) (View.write (Elt F) (((scM).slice (Rect.unit (s := S128x300) ![18, 0] S1x300.size inb_S128x300_S1x300_18_0) (fun _ => rfl)).squeeze S300 squeezes_S1x300_S300).view fs (pay 18) Finset.univ) ∗ scRow c (Rect.unit (s := S128x300) ![19, 0] S1x300.size inb_S128x300_S1x300_19_0) (View.write (Elt F) (((scM).slice (Rect.unit (s := S128x300) ![19, 0] S1x300.size inb_S128x300_S1x300_19_0) (fun _ => rfl)).squeeze S300 squeezes_S1x300_S300).view fs (pay 19) Finset.univ) ∗ scRow c (Rect.unit (s := S128x300) ![20, 0] S1x300.size inb_S128x300_S1x300_20_0) (View.write (Elt F) (((scM).slice (Rect.unit (s := S128x300) ![20, 0] S1x300.size inb_S128x300_S1x300_20_0) (fun _ => rfl)).squeeze S300 squeezes_S1x300_S300).view fs (pay 20) Finset.univ) ∗ scRow c (Rect.unit (s := S128x300) ![21, 0] S1x300.size inb_S128x300_S1x300_21_0) (View.write (Elt F) (((scM).slice (Rect.unit (s := S128x300) ![21, 0] S1x300.size inb_S128x300_S1x300_21_0) (fun _ => rfl)).squeeze S300 squeezes_S1x300_S300).view fs (pay 21) Finset.univ) ∗ scRow c (Rect.unit (s := S128x300) ![22, 0] S1x300.size inb_S128x300_S1x300_22_0) (View.write (Elt F) (((scM).slice (Rect.unit (s := S128x300) ![22, 0] S1x300.size inb_S128x300_S1x300_22_0) (fun _ => rfl)).squeeze S300 squeezes_S1x300_S300).view fs (pay 22) Finset.univ) ∗ scRow c (Rect.unit (s := S128x300) ![23, 0] S1x300.size inb_S128x300_S1x300_23_0) (View.write (Elt F) (((scM).slice (Rect.unit (s := S128x300) ![23, 0] S1x300.size inb_S128x300_S1x300_23_0) (fun _ => rfl)).squeeze S300 squeezes_S1x300_S300).view fs (pay 23) Finset.univ) ∗ scRow c (Rect.unit (s := S128x300) ![24, 0] S1x300.size inb_S128x300_S1x300_24_0) (View.write (Elt F) (((scM).slice (Rect.unit (s := S128x300) ![24, 0] S1x300.size inb_S128x300_S1x300_24_0) (fun _ => rfl)).squeeze S300 squeezes_S1x300_S300).view fs (pay 24) Finset.univ) ∗ scRow c (Rect.unit (s := S128x300) ![25, 0] S1x300.size inb_S128x300_S1x300_25_0) (View.write (Elt F) (((scM).slice (Rect.unit (s := S128x300) ![25, 0] S1x300.size inb_S128x300_S1x300_25_0) (fun _ => rfl)).squeeze S300 squeezes_S1x300_S300).view fs (pay 25) Finset.univ) ∗ scRow c (Rect.unit (s := S128x300) ![26, 0] S1x300.size inb_S128x300_S1x300_26_0) (View.write (Elt F) (((scM).slice (Rect.unit (s := S128x300) ![26, 0] S1x300.size inb_S128x300_S1x300_26_0) (fun _ => rfl)).squeeze S300 squeezes_S1x300_S300).view fs (pay 26) Finset.univ) ∗ scRow c (Rect.unit (s := S128x300) ![27, 0] S1x300.size inb_S128x300_S1x300_27_0) (View.write (Elt F) (((scM).slice (Rect.unit (s := S128x300) ![27, 0] S1x300.size inb_S128x300_S1x300_27_0) (fun _ => rfl)).squeeze S300 squeezes_S1x300_S300).view fs (pay 27) Finset.univ) ∗ scRow c (Rect.unit (s := S128x300) ![28, 0] S1x300.size inb_S128x300_S1x300_28_0) (View.write (Elt F) (((scM).slice (Rect.unit (s := S128x300) ![28, 0] S1x300.size inb_S128x300_S1x300_28_0) (fun _ => rfl)).squeeze S300 squeezes_S1x300_S300).view fs (pay 28) Finset.univ) ∗ scRow c (Rect.unit (s := S128x300) ![29, 0] S1x300.size inb_S128x300_S1x300_29_0) (View.write (Elt F) (((scM).slice (Rect.unit (s := S128x300) ![29, 0] S1x300.size inb_S128x300_S1x300_29_0) (fun _ => rfl)).squeeze S300 squeezes_S1x300_S300).view fs (pay 29) Finset.univ) ∗ scRow c (Rect.unit (s := S128x300) ![30, 0] S1x300.size inb_S128x300_S1x300_30_0) (View.write (Elt F) (((scM).slice (Rect.unit (s := S128x300) ![30, 0] S1x300.size inb_S128x300_S1x300_30_0) (fun _ => rfl)).squeeze S300 squeezes_S1x300_S300).view fs (pay 30) Finset.univ) ∗ scRow c (Rect.unit (s := S128x300) ![31, 0] S1x300.size inb_S128x300_S1x300_31_0) (View.write (Elt F) (((scM).slice (Rect.unit (s := S128x300) ![31, 0] S1x300.size inb_S128x300_S1x300_31_0) (fun _ => rfl)).squeeze S300 squeezes_S1x300_S300).view fs (pay 31) Finset.univ) ∗ scRow c (Rect.unit (s := S128x300) ![32, 0] S1x300.size inb_S128x300_S1x300_32_0) (View.write (Elt F) (((scM).slice (Rect.unit (s := S128x300) ![32, 0] S1x300.size inb_S128x300_S1x300_32_0) (fun _ => rfl)).squeeze S300 squeezes_S1x300_S300).view fs (pay 32) Finset.univ) ∗ scRow c (Rect.unit (s := S128x300) ![33, 0] S1x300.size inb_S128x300_S1x300_33_0) (View.write (Elt F) (((scM).slice (Rect.unit (s := S128x300) ![33, 0] S1x300.size inb_S128x300_S1x300_33_0) (fun _ => rfl)).squeeze S300 squeezes_S1x300_S300).view fs (pay 33) Finset.univ) ∗ scRow c (Rect.unit (s := S128x300) ![34, 0] S1x300.size inb_S128x300_S1x300_34_0) (View.write (Elt F) (((scM).slice (Rect.unit (s := S128x300) ![34, 0] S1x300.size inb_S128x300_S1x300_34_0) (fun _ => rfl)).squeeze S300 squeezes_S1x300_S300).view fs (pay 34) Finset.univ) ∗ scRow c (Rect.unit (s := S128x300) ![35, 0] S1x300.size inb_S128x300_S1x300_35_0) (View.write (Elt F) (((scM).slice (Rect.unit (s := S128x300) ![35, 0] S1x300.size inb_S128x300_S1x300_35_0) (fun _ => rfl)).squeeze S300 squeezes_S1x300_S300).view fs (pay 35) Finset.univ) ∗ scRow c (Rect.unit (s := S128x300) ![36, 0] S1x300.size inb_S128x300_S1x300_36_0) (View.write (Elt F) (((scM).slice (Rect.unit (s := S128x300) ![36, 0] S1x300.size inb_S128x300_S1x300_36_0) (fun _ => rfl)).squeeze S300 squeezes_S1x300_S300).view fs (pay 36) Finset.univ) ∗ scRow c (Rect.unit (s := S128x300) ![37, 0] S1x300.size inb_S128x300_S1x300_37_0) (View.write (Elt F) (((scM).slice (Rect.unit (s := S128x300) ![37, 0] S1x300.size inb_S128x300_S1x300_37_0) (fun _ => rfl)).squeeze S300 squeezes_S1x300_S300).view fs (pay 37) Finset.univ) ∗ scRow c (Rect.unit (s := S128x300) ![38, 0] S1x300.size inb_S128x300_S1x300_38_0) (View.write (Elt F) (((scM).slice (Rect.unit (s := S128x300) ![38, 0] S1x300.size inb_S128x300_S1x300_38_0) (fun _ => rfl)).squeeze S300 squeezes_S1x300_S300).view fs (pay 38) Finset.univ) ∗ scRow c (Rect.unit (s := S128x300) ![39, 0] S1x300.size inb_S128x300_S1x300_39_0) (View.write (Elt F) (((scM).slice (Rect.unit (s := S128x300) ![39, 0] S1x300.size inb_S128x300_S1x300_39_0) (fun _ => rfl)).squeeze S300 squeezes_S1x300_S300).view fs (pay 39) Finset.univ) ∗ scRow c (Rect.unit (s := S128x300) ![40, 0] S1x300.size inb_S128x300_S1x300_40_0) (View.write (Elt F) (((scM).slice (Rect.unit (s := S128x300) ![40, 0] S1x300.size inb_S128x300_S1x300_40_0) (fun _ => rfl)).squeeze S300 squeezes_S1x300_S300).view fs (pay 40) Finset.univ) ∗ scRow c (Rect.unit (s := S128x300) ![41, 0] S1x300.size inb_S128x300_S1x300_41_0) (View.write (Elt F) (((scM).slice (Rect.unit (s := S128x300) ![41, 0] S1x300.size inb_S128x300_S1x300_41_0) (fun _ => rfl)).squeeze S300 squeezes_S1x300_S300).view fs (pay 41) Finset.univ) ∗ scRow c (Rect.unit (s := S128x300) ![42, 0] S1x300.size inb_S128x300_S1x300_42_0) (View.write (Elt F) (((scM).slice (Rect.unit (s := S128x300) ![42, 0] S1x300.size inb_S128x300_S1x300_42_0) (fun _ => rfl)).squeeze S300 squeezes_S1x300_S300).view fs (pay 42) Finset.univ) ∗ scRow c (Rect.unit (s := S128x300) ![43, 0] S1x300.size inb_S128x300_S1x300_43_0) (View.write (Elt F) (((scM).slice (Rect.unit (s := S128x300) ![43, 0] S1x300.size inb_S128x300_S1x300_43_0) (fun _ => rfl)).squeeze S300 squeezes_S1x300_S300).view fs (pay 43) Finset.univ) ∗ scRow c (Rect.unit (s := S128x300) ![44, 0] S1x300.size inb_S128x300_S1x300_44_0) (View.write (Elt F) (((scM).slice (Rect.unit (s := S128x300) ![44, 0] S1x300.size inb_S128x300_S1x300_44_0) (fun _ => rfl)).squeeze S300 squeezes_S1x300_S300).view fs (pay 44) Finset.univ) ∗ scRow c (Rect.unit (s := S128x300) ![45, 0] S1x300.size inb_S128x300_S1x300_45_0) (View.write (Elt F) (((scM).slice (Rect.unit (s := S128x300) ![45, 0] S1x300.size inb_S128x300_S1x300_45_0) (fun _ => rfl)).squeeze S300 squeezes_S1x300_S300).view fs (pay 45) Finset.univ) ∗ scRow c (Rect.unit (s := S128x300) ![46, 0] S1x300.size inb_S128x300_S1x300_46_0) (View.write (Elt F) (((scM).slice (Rect.unit (s := S128x300) ![46, 0] S1x300.size inb_S128x300_S1x300_46_0) (fun _ => rfl)).squeeze S300 squeezes_S1x300_S300).view fs (pay 46) Finset.univ) ∗ scRow c (Rect.unit (s := S128x300) ![47, 0] S1x300.size inb_S128x300_S1x300_47_0) (View.write (Elt F) (((scM).slice (Rect.unit (s := S128x300) ![47, 0] S1x300.size inb_S128x300_S1x300_47_0) (fun _ => rfl)).squeeze S300 squeezes_S1x300_S300).view fs (pay 47) Finset.univ) ∗ scRow c (Rect.unit (s := S128x300) ![48, 0] S1x300.size inb_S128x300_S1x300_48_0) (View.write (Elt F) (((scM).slice (Rect.unit (s := S128x300) ![48, 0] S1x300.size inb_S128x300_S1x300_48_0) (fun _ => rfl)).squeeze S300 squeezes_S1x300_S300).view fs (pay 48) Finset.univ) ∗ scRow c (Rect.unit (s := S128x300) ![49, 0] S1x300.size inb_S128x300_S1x300_49_0) (View.write (Elt F) (((scM).slice (Rect.unit (s := S128x300) ![49, 0] S1x300.size inb_S128x300_S1x300_49_0) (fun _ => rfl)).squeeze S300 squeezes_S1x300_S300).view fs (pay 49) Finset.univ) ∗ scRow c (Rect.unit (s := S128x300) ![50, 0] S1x300.size inb_S128x300_S1x300_50_0) (View.write (Elt F) (((scM).slice (Rect.unit (s := S128x300) ![50, 0] S1x300.size inb_S128x300_S1x300_50_0) (fun _ => rfl)).squeeze S300 squeezes_S1x300_S300).view fs (pay 50) Finset.univ) ∗ scRow c (Rect.unit (s := S128x300) ![51, 0] S1x300.size inb_S128x300_S1x300_51_0) (View.write (Elt F) (((scM).slice (Rect.unit (s := S128x300) ![51, 0] S1x300.size inb_S128x300_S1x300_51_0) (fun _ => rfl)).squeeze S300 squeezes_S1x300_S300).view fs (pay 51) Finset.univ) ∗ scRow c (Rect.unit (s := S128x300) ![52, 0] S1x300.size inb_S128x300_S1x300_52_0) (View.write (Elt F) (((scM).slice (Rect.unit (s := S128x300) ![52, 0] S1x300.size inb_S128x300_S1x300_52_0) (fun _ => rfl)).squeeze S300 squeezes_S1x300_S300).view fs (pay 52) Finset.univ) ∗ scRow c (Rect.unit (s := S128x300) ![53, 0] S1x300.size inb_S128x300_S1x300_53_0) (View.write (Elt F) (((scM).slice (Rect.unit (s := S128x300) ![53, 0] S1x300.size inb_S128x300_S1x300_53_0) (fun _ => rfl)).squeeze S300 squeezes_S1x300_S300).view fs (pay 53) Finset.univ) ∗ scRow c (Rect.unit (s := S128x300) ![54, 0] S1x300.size inb_S128x300_S1x300_54_0) (View.write (Elt F) (((scM).slice (Rect.unit (s := S128x300) ![54, 0] S1x300.size inb_S128x300_S1x300_54_0) (fun _ => rfl)).squeeze S300 squeezes_S1x300_S300).view fs (pay 54) Finset.univ) ∗ scRow c (Rect.unit (s := S128x300) ![55, 0] S1x300.size inb_S128x300_S1x300_55_0) (View.write (Elt F) (((scM).slice (Rect.unit (s := S128x300) ![55, 0] S1x300.size inb_S128x300_S1x300_55_0) (fun _ => rfl)).squeeze S300 squeezes_S1x300_S300).view fs (pay 55) Finset.univ) ∗ scRow c (Rect.unit (s := S128x300) ![56, 0] S1x300.size inb_S128x300_S1x300_56_0) (View.write (Elt F) (((scM).slice (Rect.unit (s := S128x300) ![56, 0] S1x300.size inb_S128x300_S1x300_56_0) (fun _ => rfl)).squeeze S300 squeezes_S1x300_S300).view fs (pay 56) Finset.univ) ∗ scRow c (Rect.unit (s := S128x300) ![57, 0] S1x300.size inb_S128x300_S1x300_57_0) (View.write (Elt F) (((scM).slice (Rect.unit (s := S128x300) ![57, 0] S1x300.size inb_S128x300_S1x300_57_0) (fun _ => rfl)).squeeze S300 squeezes_S1x300_S300).view fs (pay 57) Finset.univ) ∗ scRow c (Rect.unit (s := S128x300) ![58, 0] S1x300.size inb_S128x300_S1x300_58_0) (View.write (Elt F) (((scM).slice (Rect.unit (s := S128x300) ![58, 0] S1x300.size inb_S128x300_S1x300_58_0) (fun _ => rfl)).squeeze S300 squeezes_S1x300_S300).view fs (pay 58) Finset.univ) ∗ scRow c (Rect.unit (s := S128x300) ![59, 0] S1x300.size inb_S128x300_S1x300_59_0) (View.write (Elt F) (((scM).slice (Rect.unit (s := S128x300) ![59, 0] S1x300.size inb_S128x300_S1x300_59_0) (fun _ => rfl)).squeeze S300 squeezes_S1x300_S300).view fs (pay 59) Finset.univ) ∗ scRow c (Rect.unit (s := S128x300) ![60, 0] S1x300.size inb_S128x300_S1x300_60_0) (View.write (Elt F) (((scM).slice (Rect.unit (s := S128x300) ![60, 0] S1x300.size inb_S128x300_S1x300_60_0) (fun _ => rfl)).squeeze S300 squeezes_S1x300_S300).view fs (pay 60) Finset.univ) ∗ scRow c (Rect.unit (s := S128x300) ![61, 0] S1x300.size inb_S128x300_S1x300_61_0) (View.write (Elt F) (((scM).slice (Rect.unit (s := S128x300) ![61, 0] S1x300.size inb_S128x300_S1x300_61_0) (fun _ => rfl)).squeeze S300 squeezes_S1x300_S300).view fs (pay 61) Finset.univ) ∗ scRow c (Rect.unit (s := S128x300) ![62, 0] S1x300.size inb_S128x300_S1x300_62_0) (View.write (Elt F) (((scM).slice (Rect.unit (s := S128x300) ![62, 0] S1x300.size inb_S128x300_S1x300_62_0) (fun _ => rfl)).squeeze S300 squeezes_S1x300_S300).view fs (pay 62) Finset.univ) ∗ scRow c (Rect.unit (s := S128x300) ![63, 0] S1x300.size inb_S128x300_S1x300_63_0) (View.write (Elt F) (((scM).slice (Rect.unit (s := S128x300) ![63, 0] S1x300.size inb_S128x300_S1x300_63_0) (fun _ => rfl)).squeeze S300 squeezes_S1x300_S300).view fs (pay 63) Finset.univ) ∗ scRow c (Rect.unit (s := S128x300) ![64, 0] S1x300.size inb_S128x300_S1x300_64_0) (View.write (Elt F) (((scM).slice (Rect.unit (s := S128x300) ![64, 0] S1x300.size inb_S128x300_S1x300_64_0) (fun _ => rfl)).squeeze S300 squeezes_S1x300_S300).view fs (pay 64) Finset.univ) ∗ scRow c (Rect.unit (s := S128x300) ![65, 0] S1x300.size inb_S128x300_S1x300_65_0) (View.write (Elt F) (((scM).slice (Rect.unit (s := S128x300) ![65, 0] S1x300.size inb_S128x300_S1x300_65_0) (fun _ => rfl)).squeeze S300 squeezes_S1x300_S300).view fs (pay 65) Finset.univ) ∗ scRow c (Rect.unit (s := S128x300) ![66, 0] S1x300.size inb_S128x300_S1x300_66_0) (View.write (Elt F) (((scM).slice (Rect.unit (s := S128x300) ![66, 0] S1x300.size inb_S128x300_S1x300_66_0) (fun _ => rfl)).squeeze S300 squeezes_S1x300_S300).view fs (pay 66) Finset.univ) ∗ scRow c (Rect.unit (s := S128x300) ![67, 0] S1x300.size inb_S128x300_S1x300_67_0) (View.write (Elt F) (((scM).slice (Rect.unit (s := S128x300) ![67, 0] S1x300.size inb_S128x300_S1x300_67_0) (fun _ => rfl)).squeeze S300 squeezes_S1x300_S300).view fs (pay 67) Finset.univ) ∗ scRow c (Rect.unit (s := S128x300) ![68, 0] S1x300.size inb_S128x300_S1x300_68_0) (View.write (Elt F) (((scM).slice (Rect.unit (s := S128x300) ![68, 0] S1x300.size inb_S128x300_S1x300_68_0) (fun _ => rfl)).squeeze S300 squeezes_S1x300_S300).view fs (pay 68) Finset.univ) ∗ scRow c (Rect.unit (s := S128x300) ![69, 0] S1x300.size inb_S128x300_S1x300_69_0) (View.write (Elt F) (((scM).slice (Rect.unit (s := S128x300) ![69, 0] S1x300.size inb_S128x300_S1x300_69_0) (fun _ => rfl)).squeeze S300 squeezes_S1x300_S300).view fs (pay 69) Finset.univ) ∗ scRow c (Rect.unit (s := S128x300) ![70, 0] S1x300.size inb_S128x300_S1x300_70_0) (View.write (Elt F) (((scM).slice (Rect.unit (s := S128x300) ![70, 0] S1x300.size inb_S128x300_S1x300_70_0) (fun _ => rfl)).squeeze S300 squeezes_S1x300_S300).view fs (pay 70) Finset.univ) ∗ scRow c (Rect.unit (s := S128x300) ![71, 0] S1x300.size inb_S128x300_S1x300_71_0) (View.write (Elt F) (((scM).slice (Rect.unit (s := S128x300) ![71, 0] S1x300.size inb_S128x300_S1x300_71_0) (fun _ => rfl)).squeeze S300 squeezes_S1x300_S300).view fs (pay 71) Finset.univ) ∗ scRow c (Rect.unit (s := S128x300) ![72, 0] S1x300.size inb_S128x300_S1x300_72_0) (View.write (Elt F) (((scM).slice (Rect.unit (s := S128x300) ![72, 0] S1x300.size inb_S128x300_S1x300_72_0) (fun _ => rfl)).squeeze S300 squeezes_S1x300_S300).view fs (pay 72) Finset.univ) ∗ scRow c (Rect.unit (s := S128x300) ![73, 0] S1x300.size inb_S128x300_S1x300_73_0) (View.write (Elt F) (((scM).slice (Rect.unit (s := S128x300) ![73, 0] S1x300.size inb_S128x300_S1x300_73_0) (fun _ => rfl)).squeeze S300 squeezes_S1x300_S300).view fs (pay 73) Finset.univ) ∗ scRow c (Rect.unit (s := S128x300) ![74, 0] S1x300.size inb_S128x300_S1x300_74_0) (View.write (Elt F) (((scM).slice (Rect.unit (s := S128x300) ![74, 0] S1x300.size inb_S128x300_S1x300_74_0) (fun _ => rfl)).squeeze S300 squeezes_S1x300_S300).view fs (pay 74) Finset.univ) ∗ scRow c (Rect.unit (s := S128x300) ![75, 0] S1x300.size inb_S128x300_S1x300_75_0) (View.write (Elt F) (((scM).slice (Rect.unit (s := S128x300) ![75, 0] S1x300.size inb_S128x300_S1x300_75_0) (fun _ => rfl)).squeeze S300 squeezes_S1x300_S300).view fs (pay 75) Finset.univ) ∗ scRow c (Rect.unit (s := S128x300) ![76, 0] S1x300.size inb_S128x300_S1x300_76_0) (View.write (Elt F) (((scM).slice (Rect.unit (s := S128x300) ![76, 0] S1x300.size inb_S128x300_S1x300_76_0) (fun _ => rfl)).squeeze S300 squeezes_S1x300_S300).view fs (pay 76) Finset.univ) ∗ scRow c (Rect.unit (s := S128x300) ![77, 0] S1x300.size inb_S128x300_S1x300_77_0) (View.write (Elt F) (((scM).slice (Rect.unit (s := S128x300) ![77, 0] S1x300.size inb_S128x300_S1x300_77_0) (fun _ => rfl)).squeeze S300 squeezes_S1x300_S300).view fs (pay 77) Finset.univ) ∗ scRow c (Rect.unit (s := S128x300) ![78, 0] S1x300.size inb_S128x300_S1x300_78_0) (View.write (Elt F) (((scM).slice (Rect.unit (s := S128x300) ![78, 0] S1x300.size inb_S128x300_S1x300_78_0) (fun _ => rfl)).squeeze S300 squeezes_S1x300_S300).view fs (pay 78) Finset.univ) ∗ scRow c (Rect.unit (s := S128x300) ![79, 0] S1x300.size inb_S128x300_S1x300_79_0) (View.write (Elt F) (((scM).slice (Rect.unit (s := S128x300) ![79, 0] S1x300.size inb_S128x300_S1x300_79_0) (fun _ => rfl)).squeeze S300 squeezes_S1x300_S300).view fs (pay 79) Finset.univ) ∗ scRow c (Rect.unit (s := S128x300) ![80, 0] S1x300.size inb_S128x300_S1x300_80_0) (View.write (Elt F) (((scM).slice (Rect.unit (s := S128x300) ![80, 0] S1x300.size inb_S128x300_S1x300_80_0) (fun _ => rfl)).squeeze S300 squeezes_S1x300_S300).view fs (pay 80) Finset.univ) ∗ scRow c (Rect.unit (s := S128x300) ![81, 0] S1x300.size inb_S128x300_S1x300_81_0) (View.write (Elt F) (((scM).slice (Rect.unit (s := S128x300) ![81, 0] S1x300.size inb_S128x300_S1x300_81_0) (fun _ => rfl)).squeeze S300 squeezes_S1x300_S300).view fs (pay 81) Finset.univ) ∗ scRow c (Rect.unit (s := S128x300) ![82, 0] S1x300.size inb_S128x300_S1x300_82_0) (View.write (Elt F) (((scM).slice (Rect.unit (s := S128x300) ![82, 0] S1x300.size inb_S128x300_S1x300_82_0) (fun _ => rfl)).squeeze S300 squeezes_S1x300_S300).view fs (pay 82) Finset.univ) ∗ scRow c (Rect.unit (s := S128x300) ![83, 0] S1x300.size inb_S128x300_S1x300_83_0) (View.write (Elt F) (((scM).slice (Rect.unit (s := S128x300) ![83, 0] S1x300.size inb_S128x300_S1x300_83_0) (fun _ => rfl)).squeeze S300 squeezes_S1x300_S300).view fs (pay 83) Finset.univ) ∗ scRow c (Rect.unit (s := S128x300) ![84, 0] S1x300.size inb_S128x300_S1x300_84_0) (View.write (Elt F) (((scM).slice (Rect.unit (s := S128x300) ![84, 0] S1x300.size inb_S128x300_S1x300_84_0) (fun _ => rfl)).squeeze S300 squeezes_S1x300_S300).view fs (pay 84) Finset.univ) ∗ scRow c (Rect.unit (s := S128x300) ![85, 0] S1x300.size inb_S128x300_S1x300_85_0) (View.write (Elt F) (((scM).slice (Rect.unit (s := S128x300) ![85, 0] S1x300.size inb_S128x300_S1x300_85_0) (fun _ => rfl)).squeeze S300 squeezes_S1x300_S300).view fs (pay 85) Finset.univ) ∗ scRow c (Rect.unit (s := S128x300) ![86, 0] S1x300.size inb_S128x300_S1x300_86_0) (View.write (Elt F) (((scM).slice (Rect.unit (s := S128x300) ![86, 0] S1x300.size inb_S128x300_S1x300_86_0) (fun _ => rfl)).squeeze S300 squeezes_S1x300_S300).view fs (pay 86) Finset.univ) ∗ scRow c (Rect.unit (s := S128x300) ![87, 0] S1x300.size inb_S128x300_S1x300_87_0) (View.write (Elt F) (((scM).slice (Rect.unit (s := S128x300) ![87, 0] S1x300.size inb_S128x300_S1x300_87_0) (fun _ => rfl)).squeeze S300 squeezes_S1x300_S300).view fs (pay 87) Finset.univ) ∗ scRow c (Rect.unit (s := S128x300) ![88, 0] S1x300.size inb_S128x300_S1x300_88_0) (View.write (Elt F) (((scM).slice (Rect.unit (s := S128x300) ![88, 0] S1x300.size inb_S128x300_S1x300_88_0) (fun _ => rfl)).squeeze S300 squeezes_S1x300_S300).view fs (pay 88) Finset.univ) ∗ scRow c (Rect.unit (s := S128x300) ![89, 0] S1x300.size inb_S128x300_S1x300_89_0) (View.write (Elt F) (((scM).slice (Rect.unit (s := S128x300) ![89, 0] S1x300.size inb_S128x300_S1x300_89_0) (fun _ => rfl)).squeeze S300 squeezes_S1x300_S300).view fs (pay 89) Finset.univ) ∗ scRow c (Rect.unit (s := S128x300) ![90, 0] S1x300.size inb_S128x300_S1x300_90_0) (View.write (Elt F) (((scM).slice (Rect.unit (s := S128x300) ![90, 0] S1x300.size inb_S128x300_S1x300_90_0) (fun _ => rfl)).squeeze S300 squeezes_S1x300_S300).view fs (pay 90) Finset.univ) ∗ scRow c (Rect.unit (s := S128x300) ![91, 0] S1x300.size inb_S128x300_S1x300_91_0) (View.write (Elt F) (((scM).slice (Rect.unit (s := S128x300) ![91, 0] S1x300.size inb_S128x300_S1x300_91_0) (fun _ => rfl)).squeeze S300 squeezes_S1x300_S300).view fs (pay 91) Finset.univ) ∗ scRow c (Rect.unit (s := S128x300) ![92, 0] S1x300.size inb_S128x300_S1x300_92_0) (View.write (Elt F) (((scM).slice (Rect.unit (s := S128x300) ![92, 0] S1x300.size inb_S128x300_S1x300_92_0) (fun _ => rfl)).squeeze S300 squeezes_S1x300_S300).view fs (pay 92) Finset.univ) ∗ scRow c (Rect.unit (s := S128x300) ![93, 0] S1x300.size inb_S128x300_S1x300_93_0) (View.write (Elt F) (((scM).slice (Rect.unit (s := S128x300) ![93, 0] S1x300.size inb_S128x300_S1x300_93_0) (fun _ => rfl)).squeeze S300 squeezes_S1x300_S300).view fs (pay 93) Finset.univ) ∗ scRow c (Rect.unit (s := S128x300) ![94, 0] S1x300.size inb_S128x300_S1x300_94_0) (View.write (Elt F) (((scM).slice (Rect.unit (s := S128x300) ![94, 0] S1x300.size inb_S128x300_S1x300_94_0) (fun _ => rfl)).squeeze S300 squeezes_S1x300_S300).view fs (pay 94) Finset.univ) ∗ scRow c (Rect.unit (s := S128x300) ![95, 0] S1x300.size inb_S128x300_S1x300_95_0) (View.write (Elt F) (((scM).slice (Rect.unit (s := S128x300) ![95, 0] S1x300.size inb_S128x300_S1x300_95_0) (fun _ => rfl)).squeeze S300 squeezes_S1x300_S300).view fs (pay 95) Finset.univ) ∗ scRow c (Rect.unit (s := S128x300) ![96, 0] S1x300.size inb_S128x300_S1x300_96_0) (View.write (Elt F) (((scM).slice (Rect.unit (s := S128x300) ![96, 0] S1x300.size inb_S128x300_S1x300_96_0) (fun _ => rfl)).squeeze S300 squeezes_S1x300_S300).view fs (pay 96) Finset.univ) ∗ scRow c (Rect.unit (s := S128x300) ![97, 0] S1x300.size inb_S128x300_S1x300_97_0) (View.write (Elt F) (((scM).slice (Rect.unit (s := S128x300) ![97, 0] S1x300.size inb_S128x300_S1x300_97_0) (fun _ => rfl)).squeeze S300 squeezes_S1x300_S300).view fs (pay 97) Finset.univ) ∗ scRow c (Rect.unit (s := S128x300) ![98, 0] S1x300.size inb_S128x300_S1x300_98_0) (View.write (Elt F) (((scM).slice (Rect.unit (s := S128x300) ![98, 0] S1x300.size inb_S128x300_S1x300_98_0) (fun _ => rfl)).squeeze S300 squeezes_S1x300_S300).view fs (pay 98) Finset.univ) ∗ scRow c (Rect.unit (s := S128x300) ![99, 0] S1x300.size inb_S128x300_S1x300_99_0) (View.write (Elt F) (((scM).slice (Rect.unit (s := S128x300) ![99, 0] S1x300.size inb_S128x300_S1x300_99_0) (fun _ => rfl)).squeeze S300 squeezes_S1x300_S300).view fs (pay 99) Finset.univ) ∗ scRow c (Rect.unit (s := S128x300) ![100, 0] S1x300.size inb_S128x300_S1x300_100_0) (View.write (Elt F) (((scM).slice (Rect.unit (s := S128x300) ![100, 0] S1x300.size inb_S128x300_S1x300_100_0) (fun _ => rfl)).squeeze S300 squeezes_S1x300_S300).view fs (pay 100) Finset.univ) ∗ scRow c (Rect.unit (s := S128x300) ![101, 0] S1x300.size inb_S128x300_S1x300_101_0) (View.write (Elt F) (((scM).slice (Rect.unit (s := S128x300) ![101, 0] S1x300.size inb_S128x300_S1x300_101_0) (fun _ => rfl)).squeeze S300 squeezes_S1x300_S300).view fs (pay 101) Finset.univ) ∗ scRow c (Rect.unit (s := S128x300) ![102, 0] S1x300.size inb_S128x300_S1x300_102_0) (View.write (Elt F) (((scM).slice (Rect.unit (s := S128x300) ![102, 0] S1x300.size inb_S128x300_S1x300_102_0) (fun _ => rfl)).squeeze S300 squeezes_S1x300_S300).view fs (pay 102) Finset.univ) ∗ scRow c (Rect.unit (s := S128x300) ![103, 0] S1x300.size inb_S128x300_S1x300_103_0) (View.write (Elt F) (((scM).slice (Rect.unit (s := S128x300) ![103, 0] S1x300.size inb_S128x300_S1x300_103_0) (fun _ => rfl)).squeeze S300 squeezes_S1x300_S300).view fs (pay 103) Finset.univ) ∗ scRow c (Rect.unit (s := S128x300) ![104, 0] S1x300.size inb_S128x300_S1x300_104_0) (View.write (Elt F) (((scM).slice (Rect.unit (s := S128x300) ![104, 0] S1x300.size inb_S128x300_S1x300_104_0) (fun _ => rfl)).squeeze S300 squeezes_S1x300_S300).view fs (pay 104) Finset.univ) ∗ scRow c (Rect.unit (s := S128x300) ![105, 0] S1x300.size inb_S128x300_S1x300_105_0) (View.write (Elt F) (((scM).slice (Rect.unit (s := S128x300) ![105, 0] S1x300.size inb_S128x300_S1x300_105_0) (fun _ => rfl)).squeeze S300 squeezes_S1x300_S300).view fs (pay 105) Finset.univ) ∗ scRow c (Rect.unit (s := S128x300) ![106, 0] S1x300.size inb_S128x300_S1x300_106_0) (View.write (Elt F) (((scM).slice (Rect.unit (s := S128x300) ![106, 0] S1x300.size inb_S128x300_S1x300_106_0) (fun _ => rfl)).squeeze S300 squeezes_S1x300_S300).view fs (pay 106) Finset.univ) ∗ scRow c (Rect.unit (s := S128x300) ![107, 0] S1x300.size inb_S128x300_S1x300_107_0) (View.write (Elt F) (((scM).slice (Rect.unit (s := S128x300) ![107, 0] S1x300.size inb_S128x300_S1x300_107_0) (fun _ => rfl)).squeeze S300 squeezes_S1x300_S300).view fs (pay 107) Finset.univ) ∗ scRow c (Rect.unit (s := S128x300) ![108, 0] S1x300.size inb_S128x300_S1x300_108_0) (View.write (Elt F) (((scM).slice (Rect.unit (s := S128x300) ![108, 0] S1x300.size inb_S128x300_S1x300_108_0) (fun _ => rfl)).squeeze S300 squeezes_S1x300_S300).view fs (pay 108) Finset.univ) ∗ scRow c (Rect.unit (s := S128x300) ![109, 0] S1x300.size inb_S128x300_S1x300_109_0) (View.write (Elt F) (((scM).slice (Rect.unit (s := S128x300) ![109, 0] S1x300.size inb_S128x300_S1x300_109_0) (fun _ => rfl)).squeeze S300 squeezes_S1x300_S300).view fs (pay 109) Finset.univ) ∗ scRow c (Rect.unit (s := S128x300) ![110, 0] S1x300.size inb_S128x300_S1x300_110_0) (View.write (Elt F) (((scM).slice (Rect.unit (s := S128x300) ![110, 0] S1x300.size inb_S128x300_S1x300_110_0) (fun _ => rfl)).squeeze S300 squeezes_S1x300_S300).view fs (pay 110) Finset.univ) ∗ scRow c (Rect.unit (s := S128x300) ![111, 0] S1x300.size inb_S128x300_S1x300_111_0) (View.write (Elt F) (((scM).slice (Rect.unit (s := S128x300) ![111, 0] S1x300.size inb_S128x300_S1x300_111_0) (fun _ => rfl)).squeeze S300 squeezes_S1x300_S300).view fs (pay 111) Finset.univ) ∗ scRow c (Rect.unit (s := S128x300) ![112, 0] S1x300.size inb_S128x300_S1x300_112_0) (View.write (Elt F) (((scM).slice (Rect.unit (s := S128x300) ![112, 0] S1x300.size inb_S128x300_S1x300_112_0) (fun _ => rfl)).squeeze S300 squeezes_S1x300_S300).view fs (pay 112) Finset.univ) ∗ scRow c (Rect.unit (s := S128x300) ![113, 0] S1x300.size inb_S128x300_S1x300_113_0) (View.write (Elt F) (((scM).slice (Rect.unit (s := S128x300) ![113, 0] S1x300.size inb_S128x300_S1x300_113_0) (fun _ => rfl)).squeeze S300 squeezes_S1x300_S300).view fs (pay 113) Finset.univ) ∗ scRow c (Rect.unit (s := S128x300) ![114, 0] S1x300.size inb_S128x300_S1x300_114_0) (View.write (Elt F) (((scM).slice (Rect.unit (s := S128x300) ![114, 0] S1x300.size inb_S128x300_S1x300_114_0) (fun _ => rfl)).squeeze S300 squeezes_S1x300_S300).view fs (pay 114) Finset.univ) ∗ scRow c (Rect.unit (s := S128x300) ![115, 0] S1x300.size inb_S128x300_S1x300_115_0) (View.write (Elt F) (((scM).slice (Rect.unit (s := S128x300) ![115, 0] S1x300.size inb_S128x300_S1x300_115_0) (fun _ => rfl)).squeeze S300 squeezes_S1x300_S300).view fs (pay 115) Finset.univ) ∗ scRow c (Rect.unit (s := S128x300) ![116, 0] S1x300.size inb_S128x300_S1x300_116_0) (View.write (Elt F) (((scM).slice (Rect.unit (s := S128x300) ![116, 0] S1x300.size inb_S128x300_S1x300_116_0) (fun _ => rfl)).squeeze S300 squeezes_S1x300_S300).view fs (pay 116) Finset.univ) ∗ scRow c (Rect.unit (s := S128x300) ![117, 0] S1x300.size inb_S128x300_S1x300_117_0) (View.write (Elt F) (((scM).slice (Rect.unit (s := S128x300) ![117, 0] S1x300.size inb_S128x300_S1x300_117_0) (fun _ => rfl)).squeeze S300 squeezes_S1x300_S300).view fs (pay 117) Finset.univ) ∗ scRow c (Rect.unit (s := S128x300) ![118, 0] S1x300.size inb_S128x300_S1x300_118_0) (View.write (Elt F) (((scM).slice (Rect.unit (s := S128x300) ![118, 0] S1x300.size inb_S128x300_S1x300_118_0) (fun _ => rfl)).squeeze S300 squeezes_S1x300_S300).view fs (pay 118) Finset.univ) ∗ scRow c (Rect.unit (s := S128x300) ![119, 0] S1x300.size inb_S128x300_S1x300_119_0) (View.write (Elt F) (((scM).slice (Rect.unit (s := S128x300) ![119, 0] S1x300.size inb_S128x300_S1x300_119_0) (fun _ => rfl)).squeeze S300 squeezes_S1x300_S300).view fs (pay 119) Finset.univ) ∗ scRow c (Rect.unit (s := S128x300) ![120, 0] S1x300.size inb_S128x300_S1x300_120_0) (View.write (Elt F) (((scM).slice (Rect.unit (s := S128x300) ![120, 0] S1x300.size inb_S128x300_S1x300_120_0) (fun _ => rfl)).squeeze S300 squeezes_S1x300_S300).view fs (pay 120) Finset.univ) ∗ scRow c (Rect.unit (s := S128x300) ![121, 0] S1x300.size inb_S128x300_S1x300_121_0) (View.write (Elt F) (((scM).slice (Rect.unit (s := S128x300) ![121, 0] S1x300.size inb_S128x300_S1x300_121_0) (fun _ => rfl)).squeeze S300 squeezes_S1x300_S300).view fs (pay 121) Finset.univ) ∗ scRow c (Rect.unit (s := S128x300) ![122, 0] S1x300.size inb_S128x300_S1x300_122_0) (View.write (Elt F) (((scM).slice (Rect.unit (s := S128x300) ![122, 0] S1x300.size inb_S128x300_S1x300_122_0) (fun _ => rfl)).squeeze S300 squeezes_S1x300_S300).view fs (pay 122) Finset.univ) ∗ scRow c (Rect.unit (s := S128x300) ![123, 0] S1x300.size inb_S128x300_S1x300_123_0) (View.write (Elt F) (((scM).slice (Rect.unit (s := S128x300) ![123, 0] S1x300.size inb_S128x300_S1x300_123_0) (fun _ => rfl)).squeeze S300 squeezes_S1x300_S300).view fs (pay 123) Finset.univ) ∗ scRow c (Rect.unit (s := S128x300) ![124, 0] S1x300.size inb_S128x300_S1x300_124_0) (View.write (Elt F) (((scM).slice (Rect.unit (s := S128x300) ![124, 0] S1x300.size inb_S128x300_S1x300_124_0) (fun _ => rfl)).squeeze S300 squeezes_S1x300_S300).view fs (pay 124) Finset.univ) ∗ scRow c (Rect.unit (s := S128x300) ![125, 0] S1x300.size inb_S128x300_S1x300_125_0) (View.write (Elt F) (((scM).slice (Rect.unit (s := S128x300) ![125, 0] S1x300.size inb_S128x300_S1x300_125_0) (fun _ => rfl)).squeeze S300 squeezes_S1x300_S300).view fs (pay 125) Finset.univ) ∗ scRow c (Rect.unit (s := S128x300) ![126, 0] S1x300.size inb_S128x300_S1x300_126_0) (View.write (Elt F) (((scM).slice (Rect.unit (s := S128x300) ![126, 0] S1x300.size inb_S128x300_S1x300_126_0) (fun _ => rfl)).squeeze S300 squeezes_S1x300_S300).view fs (pay 126) Finset.univ) ∗ scRow c (Rect.unit (s := S128x300) ![127, 0] S1x300.size inb_S128x300_S1x300_127_0) (View.write (Elt F) (((scM).slice (Rect.unit (s := S128x300) ![127, 0] S1x300.size inb_S128x300_S1x300_127_0) (fun _ => rfl)).squeeze S300 squeezes_S1x300_S300).view fs (pay 127) Finset.univ)) :=
  bigSep_univ_eq_bigSepL [(0 : Fin 128), (1 : Fin 128), (2 : Fin 128), (3 : Fin 128), (4 : Fin 128), (5 : Fin 128), (6 : Fin 128), (7 : Fin 128), (8 : Fin 128), (9 : Fin 128), (10 : Fin 128), (11 : Fin 128), (12 : Fin 128), (13 : Fin 128), (14 : Fin 128), (15 : Fin 128), (16 : Fin 128), (17 : Fin 128), (18 : Fin 128), (19 : Fin 128), (20 : Fin 128), (21 : Fin 128), (22 : Fin 128), (23 : Fin 128), (24 : Fin 128), (25 : Fin 128), (26 : Fin 128), (27 : Fin 128), (28 : Fin 128), (29 : Fin 128), (30 : Fin 128), (31 : Fin 128), (32 : Fin 128), (33 : Fin 128), (34 : Fin 128), (35 : Fin 128), (36 : Fin 128), (37 : Fin 128), (38 : Fin 128), (39 : Fin 128), (40 : Fin 128), (41 : Fin 128), (42 : Fin 128), (43 : Fin 128), (44 : Fin 128), (45 : Fin 128), (46 : Fin 128), (47 : Fin 128), (48 : Fin 128), (49 : Fin 128), (50 : Fin 128), (51 : Fin 128), (52 : Fin 128), (53 : Fin 128), (54 : Fin 128), (55 : Fin 128), (56 : Fin 128), (57 : Fin 128), (58 : Fin 128), (59 : Fin 128), (60 : Fin 128), (61 : Fin 128), (62 : Fin 128), (63 : Fin 128), (64 : Fin 128), (65 : Fin 128), (66 : Fin 128), (67 : Fin 128), (68 : Fin 128), (69 : Fin 128), (70 : Fin 128), (71 : Fin 128), (72 : Fin 128), (73 : Fin 128), (74 : Fin 128), (75 : Fin 128), (76 : Fin 128), (77 : Fin 128), (78 : Fin 128), (79 : Fin 128), (80 : Fin 128), (81 : Fin 128), (82 : Fin 128), (83 : Fin 128), (84 : Fin 128), (85 : Fin 128), (86 : Fin 128), (87 : Fin 128), (88 : Fin 128), (89 : Fin 128), (90 : Fin 128), (91 : Fin 128), (92 : Fin 128), (93 : Fin 128), (94 : Fin 128), (95 : Fin 128), (96 : Fin 128), (97 : Fin 128), (98 : Fin 128), (99 : Fin 128), (100 : Fin 128), (101 : Fin 128), (102 : Fin 128), (103 : Fin 128), (104 : Fin 128), (105 : Fin 128), (106 : Fin 128), (107 : Fin 128), (108 : Fin 128), (109 : Fin 128), (110 : Fin 128), (111 : Fin 128), (112 : Fin 128), (113 : Fin 128), (114 : Fin 128), (115 : Fin 128), (116 : Fin 128), (117 : Fin 128), (118 : Fin 128), (119 : Fin 128), (120 : Fin 128), (121 : Fin 128), (122 : Fin 128), (123 : Fin 128), (124 : Fin 128), (125 : Fin 128), (126 : Fin 128), (127 : Fin 128)] (by decide +kernel) (by decide +kernel) _

set_option maxHeartbeats 4000000 in
/-- What the body's one store leaves in the output's staging memref, as pieces, WITH the proof that the body runs: from the
    two staged inputs at their contents, the output's staging memref and the scratch at anything, the token table at half
    share with every word naming a row, the table of embeddings as its read shares, the 128 cells at zero and the core's
    record of waits, to the same with the output's pieces written, the scratch at some contents and 128 more waits
    recorded. The pieces are found by the run. -/
noncomputable def kernelRun (c : Dev nD) (i : grid0.Coords)
    (arg3 : Memref sig .tc .vmem S300x512 .bf16) (harg3 : arg3.IsWhole)
    (arg4 : Memref sig .tc .vmem S1x512 .f32) (harg4 : arg4.IsWhole)
    (arg5 : Memref sig .tc .vmem S128x512 .f32) (harg5 : arg5.IsWhole)
    (x0 : Vec F S300x512 .bf16) (x1 : Vec F S1x512 .f32)
    (T : TbBuf (F := F) c) (fh : HbBuf (F := F) c) (hT : TokOk c T) :
    { L : List (View.Piece (Elt F) S128x512 .f32) //
      ∀ (W : Waits sig Unit) (K : PUnit → sProp 𝕄),
        iprop(owns (c : Thread nD τ) arg3 fullShare x0 ∗ owns (c : Thread nD τ) arg4 fullShare x1
            ∗ (∃ d, owns (c : Thread nD τ) arg5 fullShare d) ∗ (∃ d, owns (c : Thread nD τ) scM fullShare d)
            ∗ tbPt c T ∗ readToks c fh ∗ ownCells c ∗ owes (c : Thread nD τ) 0 W
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L)
                ∗ (∃ d, owns (c : Thread nD τ) scM fullShare d)
                ∗ tbPt c T ∗ readToks c fh ∗ ownCells c ∗ (∃ W', owes (c : Thread nD τ) 0 W')) -∗ K ⟨⟩))
          ⊢ wp frame (wpE (defs₀ (F := F)) Variants.none c none) Set.univ
              (cc0__embed_kernel i tbM htbM hbM hhbM arg3 harg3 arg4 harg4 arg5 harg5 scM hscM cc0_scratch1) K } := by
  refine ⟨?_, fun W K => ?run⟩
  case run =>
    simp only [cc0__embed_kernel_eq_skeleton]; unfold cc0__embed_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton]
    unfold owns readToks ownCells
    iintro ⟨⟨%f0, %hf0, H0⟩, ⟨%f1, %hf1, H1⟩, ⟨%d2, %f2, -, H2⟩, ⟨%ds, %fs, -, HS⟩, HT, ⟨HB0, HB1, HB2, HB3, HB4, HB5, HB6, HB7, HB8, HB9, HB10, HB11, HB12, HB13, HB14, HB15, HB16, HB17, HB18, HB19, HB20, HB21, HB22, HB23, HB24, HB25, HB26, HB27, HB28, HB29, HB30, HB31, HB32, HB33, HB34, HB35, HB36, HB37, HB38, HB39, HB40, HB41, HB42, HB43, HB44, HB45, HB46, HB47, HB48, HB49, HB50, HB51, HB52, HB53, HB54, HB55, HB56, HB57, HB58, HB59, HB60, HB61, HB62, HB63, HB64, HB65, HB66, HB67, HB68, HB69, HB70, HB71, HB72, HB73, HB74, HB75, HB76, HB77, HB78, HB79, HB80, HB81, HB82, HB83, HB84, HB85, HB86, HB87, HB88, HB89, HB90, HB91, HB92, HB93, HB94, HB95, HB96, HB97, HB98, HB99, HB100, HB101, HB102, HB103, HB104, HB105, HB106, HB107, HB108, HB109, HB110, HB111, HB112, HB113, HB114, HB115, HB116, HB117, HB118, HB119, HB120, HB121, HB122, HB123, HB124, HB125, HB126, HB127, HB128, HB129, HB130, HB131⟩, ⟨HQ4, HQ5, HQ6, HQ7, HQ8, HQ9, HQ10, HQ11, HQ12, HQ13, HQ14, HQ15, HQ16, HQ17, HQ18, HQ19, HQ20, HQ21, HQ22, HQ23, HQ24, HQ25, HQ26, HQ27, HQ28, HQ29, HQ30, HQ31, HQ32, HQ33, HQ34, HQ35, HQ36, HQ37, HQ38, HQ39, HQ40, HQ41, HQ42, HQ43, HQ44, HQ45, HQ46, HQ47, HQ48, HQ49, HQ50, HQ51, HQ52, HQ53, HQ54, HQ55, HQ56, HQ57, HQ58, HQ59, HQ60, HQ61, HQ62, HQ63, HQ64, HQ65, HQ66, HQ67, HQ68, HQ69, HQ70, HQ71, HQ72, HQ73, HQ74, HQ75, HQ76, HQ77, HQ78, HQ79, HQ80, HQ81, HQ82, HQ83, HQ84, HQ85, HQ86, HQ87, HQ88, HQ89, HQ90, HQ91, HQ92, HQ93, HQ94, HQ95, HQ96, HQ97, HQ98, HQ99, HQ100, HQ101, HQ102, HQ103, HQ104, HQ105, HQ106, HQ107, HQ108, HQ109, HQ110, HQ111, HQ112, HQ113, HQ114, HQ115, HQ116, HQ117, HQ118, HQ119, HQ120, HQ121, HQ122, HQ123, HQ124, HQ125, HQ126, HQ127, HQ128, HQ129, HQ130, HQ131⟩, HW, Hk⟩
    obtain rfl := harg3.eq_unread hf0
    obtain rfl := harg4.eq_unread hf1
    -- the scratch row by row: row k is copy k's destination
    ihave HRs := ((rows_split c fs).trans (Entails.of_eq (rows_chain c fs))) $$ HS
    icases HRs with ⟨HR0, HR1, HR2, HR3, HR4, HR5, HR6, HR7, HR8, HR9, HR10, HR11, HR12, HR13, HR14, HR15, HR16, HR17, HR18, HR19, HR20, HR21, HR22, HR23, HR24, HR25, HR26, HR27, HR28, HR29, HR30, HR31, HR32, HR33, HR34, HR35, HR36, HR37, HR38, HR39, HR40, HR41, HR42, HR43, HR44, HR45, HR46, HR47, HR48, HR49, HR50, HR51, HR52, HR53, HR54, HR55, HR56, HR57, HR58, HR59, HR60, HR61, HR62, HR63, HR64, HR65, HR66, HR67, HR68, HR69, HR70, HR71, HR72, HR73, HR74, HR75, HR76, HR77, HR78, HR79, HR80, HR81, HR82, HR83, HR84, HR85, HR86, HR87, HR88, HR89, HR90, HR91, HR92, HR93, HR94, HR95, HR96, HR97, HR98, HR99, HR100, HR101, HR102, HR103, HR104, HR105, HR106, HR107, HR108, HR109, HR110, HR111, HR112, HR113, HR114, HR115, HR116, HR117, HR118, HR119, HR120, HR121, HR122, HR123, HR124, HR125, HR126, HR127⟩
    -- the 128 words, the 128 copies and their 128 waits
    sl_exec (disch := first | exact ⟨chk_row _ (hT _ _ _), chk_row _ (hT _ _ _)⟩ | exact chk_row _ (hT _ _ _))
    -- all copies have landed: the rows are the scratch whole, at the gathered rows
    ihave HSj := ((Entails.of_eq (landed_chain c fs (payOf c i T fh hT)).symm).trans (rows_join c (fun _ => fs) (payOf c i T fh hT))) $$ [HR0 HR1 HR2 HR3 HR4 HR5 HR6 HR7 HR8 HR9 HR10 HR11 HR12 HR13 HR14 HR15 HR16 HR17 HR18 HR19 HR20 HR21 HR22 HR23 HR24 HR25 HR26 HR27 HR28 HR29 HR30 HR31 HR32 HR33 HR34 HR35 HR36 HR37 HR38 HR39 HR40 HR41 HR42 HR43 HR44 HR45 HR46 HR47 HR48 HR49 HR50 HR51 HR52 HR53 HR54 HR55 HR56 HR57 HR58 HR59 HR60 HR61 HR62 HR63 HR64 HR65 HR66 HR67 HR68 HR69 HR70 HR71 HR72 HR73 HR74 HR75 HR76 HR77 HR78 HR79 HR80 HR81 HR82 HR83 HR84 HR85 HR86 HR87 HR88 HR89 HR90 HR91 HR92 HR93 HR94 HR95 HR96 HR97 HR98 HR99 HR100 HR101 HR102 HR103 HR104 HR105 HR106 HR107 HR108 HR109 HR110 HR111 HR112 HR113 HR114 HR115 HR116 HR117 HR118 HR119 HR120 HR121 HR122 HR123 HR124 HR125 HR126 HR127]
    · isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HR12]; · iexact HR12
      isplitl [HR13]; · iexact HR13
      isplitl [HR14]; · iexact HR14
      isplitl [HR15]; · iexact HR15
      isplitl [HR16]; · iexact HR16
      isplitl [HR17]; · iexact HR17
      isplitl [HR18]; · iexact HR18
      isplitl [HR19]; · iexact HR19
      isplitl [HR20]; · iexact HR20
      isplitl [HR21]; · iexact HR21
      isplitl [HR22]; · iexact HR22
      isplitl [HR23]; · iexact HR23
      isplitl [HR24]; · iexact HR24
      isplitl [HR25]; · iexact HR25
      isplitl [HR26]; · iexact HR26
      isplitl [HR27]; · iexact HR27
      isplitl [HR28]; · iexact HR28
      isplitl [HR29]; · iexact HR29
      isplitl [HR30]; · iexact HR30
      isplitl [HR31]; · iexact HR31
      isplitl [HR32]; · iexact HR32
      isplitl [HR33]; · iexact HR33
      isplitl [HR34]; · iexact HR34
      isplitl [HR35]; · iexact HR35
      isplitl [HR36]; · iexact HR36
      isplitl [HR37]; · iexact HR37
      isplitl [HR38]; · iexact HR38
      isplitl [HR39]; · iexact HR39
      isplitl [HR40]; · iexact HR40
      isplitl [HR41]; · iexact HR41
      isplitl [HR42]; · iexact HR42
      isplitl [HR43]; · iexact HR43
      isplitl [HR44]; · iexact HR44
      isplitl [HR45]; · iexact HR45
      isplitl [HR46]; · iexact HR46
      isplitl [HR47]; · iexact HR47
      isplitl [HR48]; · iexact HR48
      isplitl [HR49]; · iexact HR49
      isplitl [HR50]; · iexact HR50
      isplitl [HR51]; · iexact HR51
      isplitl [HR52]; · iexact HR52
      isplitl [HR53]; · iexact HR53
      isplitl [HR54]; · iexact HR54
      isplitl [HR55]; · iexact HR55
      isplitl [HR56]; · iexact HR56
      isplitl [HR57]; · iexact HR57
      isplitl [HR58]; · iexact HR58
      isplitl [HR59]; · iexact HR59
      isplitl [HR60]; · iexact HR60
      isplitl [HR61]; · iexact HR61
      isplitl [HR62]; · iexact HR62
      isplitl [HR63]; · iexact HR63
      isplitl [HR64]; · iexact HR64
      isplitl [HR65]; · iexact HR65
      isplitl [HR66]; · iexact HR66
      isplitl [HR67]; · iexact HR67
      isplitl [HR68]; · iexact HR68
      isplitl [HR69]; · iexact HR69
      isplitl [HR70]; · iexact HR70
      isplitl [HR71]; · iexact HR71
      isplitl [HR72]; · iexact HR72
      isplitl [HR73]; · iexact HR73
      isplitl [HR74]; · iexact HR74
      isplitl [HR75]; · iexact HR75
      isplitl [HR76]; · iexact HR76
      isplitl [HR77]; · iexact HR77
      isplitl [HR78]; · iexact HR78
      isplitl [HR79]; · iexact HR79
      isplitl [HR80]; · iexact HR80
      isplitl [HR81]; · iexact HR81
      isplitl [HR82]; · iexact HR82
      isplitl [HR83]; · iexact HR83
      isplitl [HR84]; · iexact HR84
      isplitl [HR85]; · iexact HR85
      isplitl [HR86]; · iexact HR86
      isplitl [HR87]; · iexact HR87
      isplitl [HR88]; · iexact HR88
      isplitl [HR89]; · iexact HR89
      isplitl [HR90]; · iexact HR90
      isplitl [HR91]; · iexact HR91
      isplitl [HR92]; · iexact HR92
      isplitl [HR93]; · iexact HR93
      isplitl [HR94]; · iexact HR94
      isplitl [HR95]; · iexact HR95
      isplitl [HR96]; · iexact HR96
      isplitl [HR97]; · iexact HR97
      isplitl [HR98]; · iexact HR98
      isplitl [HR99]; · iexact HR99
      isplitl [HR100]; · iexact HR100
      isplitl [HR101]; · iexact HR101
      isplitl [HR102]; · iexact HR102
      isplitl [HR103]; · iexact HR103
      isplitl [HR104]; · iexact HR104
      isplitl [HR105]; · iexact HR105
      isplitl [HR106]; · iexact HR106
      isplitl [HR107]; · iexact HR107
      isplitl [HR108]; · iexact HR108
      isplitl [HR109]; · iexact HR109
      isplitl [HR110]; · iexact HR110
      isplitl [HR111]; · iexact HR111
      isplitl [HR112]; · iexact HR112
      isplitl [HR113]; · iexact HR113
      isplitl [HR114]; · iexact HR114
      isplitl [HR115]; · iexact HR115
      isplitl [HR116]; · iexact HR116
      isplitl [HR117]; · iexact HR117
      isplitl [HR118]; · iexact HR118
      isplitl [HR119]; · iexact HR119
      isplitl [HR120]; · iexact HR120
      isplitl [HR121]; · iexact HR121
      isplitl [HR122]; · iexact HR122
      isplitl [HR123]; · iexact HR123
      isplitl [HR124]; · iexact HR124
      isplitl [HR125]; · iexact HR125
      isplitl [HR126]; · iexact HR126
      iexact HR127
    -- the scratch's load, the two inputs' loads, the product, the store
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [HSj]
    · iexists _, _; isplitr; swap; · iexact HSj
      ipureintro; rfl
    isplitl [HT]; · iexact HT
    isplitl [HB0 HB1 HB2 HB3 HB4 HB5 HB6 HB7 HB8 HB9 HB10 HB11 HB12 HB13 HB14 HB15 HB16 HB17 HB18 HB19 HB20 HB21 HB22 HB23 HB24 HB25 HB26 HB27 HB28 HB29 HB30 HB31 HB32 HB33 HB34 HB35 HB36 HB37 HB38 HB39 HB40 HB41 HB42 HB43 HB44 HB45 HB46 HB47 HB48 HB49 HB50 HB51 HB52 HB53 HB54 HB55 HB56 HB57 HB58 HB59 HB60 HB61 HB62 HB63 HB64 HB65 HB66 HB67 HB68 HB69 HB70 HB71 HB72 HB73 HB74 HB75 HB76 HB77 HB78 HB79 HB80 HB81 HB82 HB83 HB84 HB85 HB86 HB87 HB88 HB89 HB90 HB91 HB92 HB93 HB94 HB95 HB96 HB97 HB98 HB99 HB100 HB101 HB102 HB103 HB104 HB105 HB106 HB107 HB108 HB109 HB110 HB111 HB112 HB113 HB114 HB115 HB116 HB117 HB118 HB119 HB120 HB121 HB122 HB123 HB124 HB125 HB126 HB127 HB128 HB129 HB130 HB131]
    · isplitl [HB0]; · iexact HB0
      isplitl [HB1]; · iexact HB1
      isplitl [HB2]; · iexact HB2
      isplitl [HB3]; · iexact HB3
      isplitl [HB4]; · iexact HB4
      isplitl [HB5]; · iexact HB5
      isplitl [HB6]; · iexact HB6
      isplitl [HB7]; · iexact HB7
      isplitl [HB8]; · iexact HB8
      isplitl [HB9]; · iexact HB9
      isplitl [HB10]; · iexact HB10
      isplitl [HB11]; · iexact HB11
      isplitl [HB12]; · iexact HB12
      isplitl [HB13]; · iexact HB13
      isplitl [HB14]; · iexact HB14
      isplitl [HB15]; · iexact HB15
      isplitl [HB16]; · iexact HB16
      isplitl [HB17]; · iexact HB17
      isplitl [HB18]; · iexact HB18
      isplitl [HB19]; · iexact HB19
      isplitl [HB20]; · iexact HB20
      isplitl [HB21]; · iexact HB21
      isplitl [HB22]; · iexact HB22
      isplitl [HB23]; · iexact HB23
      isplitl [HB24]; · iexact HB24
      isplitl [HB25]; · iexact HB25
      isplitl [HB26]; · iexact HB26
      isplitl [HB27]; · iexact HB27
      isplitl [HB28]; · iexact HB28
      isplitl [HB29]; · iexact HB29
      isplitl [HB30]; · iexact HB30
      isplitl [HB31]; · iexact HB31
      isplitl [HB32]; · iexact HB32
      isplitl [HB33]; · iexact HB33
      isplitl [HB34]; · iexact HB34
      isplitl [HB35]; · iexact HB35
      isplitl [HB36]; · iexact HB36
      isplitl [HB37]; · iexact HB37
      isplitl [HB38]; · iexact HB38
      isplitl [HB39]; · iexact HB39
      isplitl [HB40]; · iexact HB40
      isplitl [HB41]; · iexact HB41
      isplitl [HB42]; · iexact HB42
      isplitl [HB43]; · iexact HB43
      isplitl [HB44]; · iexact HB44
      isplitl [HB45]; · iexact HB45
      isplitl [HB46]; · iexact HB46
      isplitl [HB47]; · iexact HB47
      isplitl [HB48]; · iexact HB48
      isplitl [HB49]; · iexact HB49
      isplitl [HB50]; · iexact HB50
      isplitl [HB51]; · iexact HB51
      isplitl [HB52]; · iexact HB52
      isplitl [HB53]; · iexact HB53
      isplitl [HB54]; · iexact HB54
      isplitl [HB55]; · iexact HB55
      isplitl [HB56]; · iexact HB56
      isplitl [HB57]; · iexact HB57
      isplitl [HB58]; · iexact HB58
      isplitl [HB59]; · iexact HB59
      isplitl [HB60]; · iexact HB60
      isplitl [HB61]; · iexact HB61
      isplitl [HB62]; · iexact HB62
      isplitl [HB63]; · iexact HB63
      isplitl [HB64]; · iexact HB64
      isplitl [HB65]; · iexact HB65
      isplitl [HB66]; · iexact HB66
      isplitl [HB67]; · iexact HB67
      isplitl [HB68]; · iexact HB68
      isplitl [HB69]; · iexact HB69
      isplitl [HB70]; · iexact HB70
      isplitl [HB71]; · iexact HB71
      isplitl [HB72]; · iexact HB72
      isplitl [HB73]; · iexact HB73
      isplitl [HB74]; · iexact HB74
      isplitl [HB75]; · iexact HB75
      isplitl [HB76]; · iexact HB76
      isplitl [HB77]; · iexact HB77
      isplitl [HB78]; · iexact HB78
      isplitl [HB79]; · iexact HB79
      isplitl [HB80]; · iexact HB80
      isplitl [HB81]; · iexact HB81
      isplitl [HB82]; · iexact HB82
      isplitl [HB83]; · iexact HB83
      isplitl [HB84]; · iexact HB84
      isplitl [HB85]; · iexact HB85
      isplitl [HB86]; · iexact HB86
      isplitl [HB87]; · iexact HB87
      isplitl [HB88]; · iexact HB88
      isplitl [HB89]; · iexact HB89
      isplitl [HB90]; · iexact HB90
      isplitl [HB91]; · iexact HB91
      isplitl [HB92]; · iexact HB92
      isplitl [HB93]; · iexact HB93
      isplitl [HB94]; · iexact HB94
      isplitl [HB95]; · iexact HB95
      isplitl [HB96]; · iexact HB96
      isplitl [HB97]; · iexact HB97
      isplitl [HB98]; · iexact HB98
      isplitl [HB99]; · iexact HB99
      isplitl [HB100]; · iexact HB100
      isplitl [HB101]; · iexact HB101
      isplitl [HB102]; · iexact HB102
      isplitl [HB103]; · iexact HB103
      isplitl [HB104]; · iexact HB104
      isplitl [HB105]; · iexact HB105
      isplitl [HB106]; · iexact HB106
      isplitl [HB107]; · iexact HB107
      isplitl [HB108]; · iexact HB108
      isplitl [HB109]; · iexact HB109
      isplitl [HB110]; · iexact HB110
      isplitl [HB111]; · iexact HB111
      isplitl [HB112]; · iexact HB112
      isplitl [HB113]; · iexact HB113
      isplitl [HB114]; · iexact HB114
      isplitl [HB115]; · iexact HB115
      isplitl [HB116]; · iexact HB116
      isplitl [HB117]; · iexact HB117
      isplitl [HB118]; · iexact HB118
      isplitl [HB119]; · iexact HB119
      isplitl [HB120]; · iexact HB120
      isplitl [HB121]; · iexact HB121
      isplitl [HB122]; · iexact HB122
      isplitl [HB123]; · iexact HB123
      isplitl [HB124]; · iexact HB124
      isplitl [HB125]; · iexact HB125
      isplitl [HB126]; · iexact HB126
      isplitl [HB127]; · iexact HB127
      isplitl [HB128]; · iexact HB128
      isplitl [HB129]; · iexact HB129
      isplitl [HB130]; · iexact HB130
      iexact HB131
    isplitl [HQ4 HQ5 HQ6 HQ7 HQ8 HQ9 HQ10 HQ11 HQ12 HQ13 HQ14 HQ15 HQ16 HQ17 HQ18 HQ19 HQ20 HQ21 HQ22 HQ23 HQ24 HQ25 HQ26 HQ27 HQ28 HQ29 HQ30 HQ31 HQ32 HQ33 HQ34 HQ35 HQ36 HQ37 HQ38 HQ39 HQ40 HQ41 HQ42 HQ43 HQ44 HQ45 HQ46 HQ47 HQ48 HQ49 HQ50 HQ51 HQ52 HQ53 HQ54 HQ55 HQ56 HQ57 HQ58 HQ59 HQ60 HQ61 HQ62 HQ63 HQ64 HQ65 HQ66 HQ67 HQ68 HQ69 HQ70 HQ71 HQ72 HQ73 HQ74 HQ75 HQ76 HQ77 HQ78 HQ79 HQ80 HQ81 HQ82 HQ83 HQ84 HQ85 HQ86 HQ87 HQ88 HQ89 HQ90 HQ91 HQ92 HQ93 HQ94 HQ95 HQ96 HQ97 HQ98 HQ99 HQ100 HQ101 HQ102 HQ103 HQ104 HQ105 HQ106 HQ107 HQ108 HQ109 HQ110 HQ111 HQ112 HQ113 HQ114 HQ115 HQ116 HQ117 HQ118 HQ119 HQ120 HQ121 HQ122 HQ123 HQ124 HQ125 HQ126 HQ127 HQ128 HQ129 HQ130 HQ131]
    · isplitl [HQ4]; · iexact HQ4
      isplitl [HQ5]; · iexact HQ5
      isplitl [HQ6]; · iexact HQ6
      isplitl [HQ7]; · iexact HQ7
      isplitl [HQ8]; · iexact HQ8
      isplitl [HQ9]; · iexact HQ9
      isplitl [HQ10]; · iexact HQ10
      isplitl [HQ11]; · iexact HQ11
      isplitl [HQ12]; · iexact HQ12
      isplitl [HQ13]; · iexact HQ13
      isplitl [HQ14]; · iexact HQ14
      isplitl [HQ15]; · iexact HQ15
      isplitl [HQ16]; · iexact HQ16
      isplitl [HQ17]; · iexact HQ17
      isplitl [HQ18]; · iexact HQ18
      isplitl [HQ19]; · iexact HQ19
      isplitl [HQ20]; · iexact HQ20
      isplitl [HQ21]; · iexact HQ21
      isplitl [HQ22]; · iexact HQ22
      isplitl [HQ23]; · iexact HQ23
      isplitl [HQ24]; · iexact HQ24
      isplitl [HQ25]; · iexact HQ25
      isplitl [HQ26]; · iexact HQ26
      isplitl [HQ27]; · iexact HQ27
      isplitl [HQ28]; · iexact HQ28
      isplitl [HQ29]; · iexact HQ29
      isplitl [HQ30]; · iexact HQ30
      isplitl [HQ31]; · iexact HQ31
      isplitl [HQ32]; · iexact HQ32
      isplitl [HQ33]; · iexact HQ33
      isplitl [HQ34]; · iexact HQ34
      isplitl [HQ35]; · iexact HQ35
      isplitl [HQ36]; · iexact HQ36
      isplitl [HQ37]; · iexact HQ37
      isplitl [HQ38]; · iexact HQ38
      isplitl [HQ39]; · iexact HQ39
      isplitl [HQ40]; · iexact HQ40
      isplitl [HQ41]; · iexact HQ41
      isplitl [HQ42]; · iexact HQ42
      isplitl [HQ43]; · iexact HQ43
      isplitl [HQ44]; · iexact HQ44
      isplitl [HQ45]; · iexact HQ45
      isplitl [HQ46]; · iexact HQ46
      isplitl [HQ47]; · iexact HQ47
      isplitl [HQ48]; · iexact HQ48
      isplitl [HQ49]; · iexact HQ49
      isplitl [HQ50]; · iexact HQ50
      isplitl [HQ51]; · iexact HQ51
      isplitl [HQ52]; · iexact HQ52
      isplitl [HQ53]; · iexact HQ53
      isplitl [HQ54]; · iexact HQ54
      isplitl [HQ55]; · iexact HQ55
      isplitl [HQ56]; · iexact HQ56
      isplitl [HQ57]; · iexact HQ57
      isplitl [HQ58]; · iexact HQ58
      isplitl [HQ59]; · iexact HQ59
      isplitl [HQ60]; · iexact HQ60
      isplitl [HQ61]; · iexact HQ61
      isplitl [HQ62]; · iexact HQ62
      isplitl [HQ63]; · iexact HQ63
      isplitl [HQ64]; · iexact HQ64
      isplitl [HQ65]; · iexact HQ65
      isplitl [HQ66]; · iexact HQ66
      isplitl [HQ67]; · iexact HQ67
      isplitl [HQ68]; · iexact HQ68
      isplitl [HQ69]; · iexact HQ69
      isplitl [HQ70]; · iexact HQ70
      isplitl [HQ71]; · iexact HQ71
      isplitl [HQ72]; · iexact HQ72
      isplitl [HQ73]; · iexact HQ73
      isplitl [HQ74]; · iexact HQ74
      isplitl [HQ75]; · iexact HQ75
      isplitl [HQ76]; · iexact HQ76
      isplitl [HQ77]; · iexact HQ77
      isplitl [HQ78]; · iexact HQ78
      isplitl [HQ79]; · iexact HQ79
      isplitl [HQ80]; · iexact HQ80
      isplitl [HQ81]; · iexact HQ81
      isplitl [HQ82]; · iexact HQ82
      isplitl [HQ83]; · iexact HQ83
      isplitl [HQ84]; · iexact HQ84
      isplitl [HQ85]; · iexact HQ85
      isplitl [HQ86]; · iexact HQ86
      isplitl [HQ87]; · iexact HQ87
      isplitl [HQ88]; · iexact HQ88
      isplitl [HQ89]; · iexact HQ89
      isplitl [HQ90]; · iexact HQ90
      isplitl [HQ91]; · iexact HQ91
      isplitl [HQ92]; · iexact HQ92
      isplitl [HQ93]; · iexact HQ93
      isplitl [HQ94]; · iexact HQ94
      isplitl [HQ95]; · iexact HQ95
      isplitl [HQ96]; · iexact HQ96
      isplitl [HQ97]; · iexact HQ97
      isplitl [HQ98]; · iexact HQ98
      isplitl [HQ99]; · iexact HQ99
      isplitl [HQ100]; · iexact HQ100
      isplitl [HQ101]; · iexact HQ101
      isplitl [HQ102]; · iexact HQ102
      isplitl [HQ103]; · iexact HQ103
      isplitl [HQ104]; · iexact HQ104
      isplitl [HQ105]; · iexact HQ105
      isplitl [HQ106]; · iexact HQ106
      isplitl [HQ107]; · iexact HQ107
      isplitl [HQ108]; · iexact HQ108
      isplitl [HQ109]; · iexact HQ109
      isplitl [HQ110]; · iexact HQ110
      isplitl [HQ111]; · iexact HQ111
      isplitl [HQ112]; · iexact HQ112
      isplitl [HQ113]; · iexact HQ113
      isplitl [HQ114]; · iexact HQ114
      isplitl [HQ115]; · iexact HQ115
      isplitl [HQ116]; · iexact HQ116
      isplitl [HQ117]; · iexact HQ117
      isplitl [HQ118]; · iexact HQ118
      isplitl [HQ119]; · iexact HQ119
      isplitl [HQ120]; · iexact HQ120
      isplitl [HQ121]; · iexact HQ121
      isplitl [HQ122]; · iexact HQ122
      isplitl [HQ123]; · iexact HQ123
      isplitl [HQ124]; · iexact HQ124
      isplitl [HQ125]; · iexact HQ125
      isplitl [HQ126]; · iexact HQ126
      isplitl [HQ127]; · iexact HQ127
      isplitl [HQ128]; · iexact HQ128
      isplitl [HQ129]; · iexact HQ129
      isplitl [HQ130]; · iexact HQ130
      iexact HQ131
    iexists _; iexact HW

/-- The run's pieces for the output tile its 128 × 512 block (one store of the whole block), so they cover it. -/
theorem cover0 (c : Dev nD) (i : grid0.Coords)
    (arg3 : Memref sig .tc .vmem S300x512 .bf16) (harg3 : arg3.IsWhole) (arg4 : Memref sig .tc .vmem S1x512 .f32) (harg4 : arg4.IsWhole)
    (arg5 : Memref sig .tc .vmem S128x512 .f32) (harg5 : arg5.IsWhole)
    (x0 : Vec F S300x512 .bf16) (x1 : Vec F S1x512 .f32) (T : TbBuf (F := F) c) (fh : HbBuf (F := F) c) (hT : TokOk c T) (y : S128x512.Idx) :
    ∃ pc ∈ (kernelRun c i arg3 harg3 arg4 harg4 arg5 harg5 x0 x1 T fh hT).1, y ∈ pc.1.set :=
  View.cover_of_tiledL (kernelRun c i arg3 harg3 arg4 harg4 arg5 harg5 x0 x1 T fh hT).1 S128x512.size (by sl_kernel_rfl) y

/-- One staging buffer of the output window, through which its contents are stated (the choice does not matter). -/
abbrev VO : View sig .tc .vmem S128x512 .f32 := (Memref.whole cc0_stg2_0 : Memref sig .tc .vmem S128x512 .f32).view

/-- What the run leaves in the output's staging buffer: its pieces read back over junk. -/
def out0 (c : Dev nD) (i : grid0.Coords)
    (arg3 : Memref sig .tc .vmem S300x512 .bf16) (harg3 : arg3.IsWhole) (arg4 : Memref sig .tc .vmem S1x512 .f32) (harg4 : arg4.IsWhole)
    (arg5 : Memref sig .tc .vmem S128x512 .f32) (harg5 : arg5.IsWhole)
    (x0 : Vec F S300x512 .bf16) (x1 : Vec F S1x512 .f32) (T : TbBuf (F := F) c) (fh : HbBuf (F := F) c) (hT : TokOk c T) : Vec F S128x512 .f32 :=
  VO.read (Elt F) (VO.writes (Elt F) VO.junk (kernelRun c i arg3 harg3 arg4 harg4 arg5 harg5 x0 x1 T fh hT).1)

end Cert.Kernel.Hand

end
-- ==== Proof.Kernel.Frame.lean ====
/-
  The frame of the program: it runs to the end, faults nowhere, and leaves its arguments unchanged.

  The pipeline stages the weights and the bias row once and the 128 × 512 output block at each of the 8 grid points; at each
  point the body is the run of the previous module. Its invariant is the same at every point, since every copy it starts
  it also waits for: the scratch at some contents, the 128 cells at zero, the table of embeddings whole at its launch
  contents (handed to the body as read shares and joined again after its last wait), and half of the token table. The
  library's run for a kernel with a prefetched table, transfers of its own within each point and host lines after the
  region then gives the run, and the four arguments are read off its post.
-/
import proofs.«410898_j66494683677006_3_alg».proof.Proof.Gen.Kernel.Launch
import proofs.«410898_j66494683677006_3_alg».proof.Proof.Gen.Kernel.Skeleton
import proofs.«410898_j66494683677006_3_alg».proof.Proof.Kernel.Around
import proofs.«410898_j66494683677006_3_alg».proof.Proof.Kernel.EntryValues
import proofs.«410898_j66494683677006_3_alg».proof.Proof.Kernel.BodyRun
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The windows' staging memrefs and blocks -/

/-- Each window's current staging memref at point `t`, as the pipeline passes it to the body, and its wholeness. -/
abbrev ms0_0 (t : Fin (cfgM m).N) : Memref sig .tc .vmem S300x512 .bf16 := spec0_0.stage ((cfgM m).slots t 0)
abbrev hs0_0 (t : Fin (cfgM m).N) : (ms0_0 m t).IsWhole := hstage0_0 (((cfgM m).slots t 0).cast nbuf0_0)
abbrev ms0_1 (t : Fin (cfgM m).N) : Memref sig .tc .vmem S1x512 .f32 := spec0_1.stage ((cfgM m).slots t 1)
abbrev hs0_1 (t : Fin (cfgM m).N) : (ms0_1 m t).IsWhole := hstage0_1 (((cfgM m).slots t 1).cast nbuf0_1)
abbrev ms0_2 (t : Fin (cfgM m).N) : Memref sig .tc .vmem S128x512 .f32 := spec0_2.stage ((cfgM m).slots t 2)
abbrev hs0_2 (t : Fin (cfgM m).N) : (ms0_2 m t).IsWhole := hstage0_2 (((cfgM m).slots t 2).cast nbuf0_2)

/-- The kernel body at point `t`, on what the pipeline calls it with. -/
abbrev bodyAt0 (t : Fin (cfgM m).N) : Prog (TpuEff nD τ sig (Elt F) Λ₀ .tc) PUnit :=
  cc0__embed_kernel (grid0.coords t) tbM htbM hbM hhbM (ms0_0 m t) (hs0_0 m t) (ms0_1 m t) (hs0_1 m t) (ms0_2 m t) (hs0_2 m t) scM hscM cc0_scratch1

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- An input window's current staging buffer holds its block at every point, fetched there or not: the two inputs'
    block index never moves, and the body leaves them in place. -/
theorem before0_0_of {c : Dev nD} (dat : Dat τ (Elt F) Unit ℕ (Pipeline.UD sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (Pipeline.UD sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the output's staging buffer holds after each point -/

/-- What the output's staging buffer holds after the body at point `t`. -/
def outsAt0 (hT : TblOk m) (c : Dev nD) (t : Fin (cfgM m).N) : Vec F S128x512 .f32 :=
  out0 c (grid0.coords t) (ms0_0 m t) (hs0_0 m t) (ms0_1 m t) (hs0_1 m t) (ms0_2 m t) (hs0_2 m t) (iblk m c 0 t) (iblk m c 1 t) (tbl m 0) (V m c main_arg1) (hT c)

/-! ## The pipeline's proof data -/

/-- The proof data of the one pipeline on core `c`: the arrays as the region finds them; after the body at point `t` each
    input's buffer at its block and the output's at `outsAt0`; the invariant: the scratch at some contents, the generator
    register at some state, the 128 cells at zero, the table of embeddings at its launch contents, and the token table's
    half; nothing owed; full shares. -/
def dats (hT : TblOk m) (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => iblk m c 1 t
    | ⟨2, _⟩ => outsAt0 m hT c t
  Φ _ := iprop(Pipeline.ΦD osem0 spec0 H0 (V m) c ∗ Pipeline.ΦT pre0 (tbl m) c)
  q _ := fullShare
  owed _ := 0

theorem A_eq (hT : TblOk m) (c : Dev nD) (w : Fin (cfgM m).W) : (dats m hT 0 c).A w = V m c (Pipeline.arrRef spec0 w) := by
  dsimp only [dats]

theorem after0_0 (hT : TblOk m) (c : Dev nD) (t : Fin (cfgM m).N) : (dats m hT 0 c).after 0 t = iblk m c 0 t := by dsimp only [dats]; try rfl
theorem after0_1 (hT : TblOk m) (c : Dev nD) (t : Fin (cfgM m).N) : (dats m hT 0 c).after 1 t = iblk m c 1 t := by dsimp only [dats]; try rfl
theorem after0_2 (hT : TblOk m) (c : Dev nD) (t : Fin (cfgM m).N) : (dats m hT 0 c).after 2 t = outsAt0 m hT c t := by dsimp only [dats]; try rfl

theorem before0_0 (hT : TblOk m) (c : Dev nD) (t : Fin (cfgM m).N) (d) : (dats m hT 0 c).before 0 t d = iblk m c 0 t :=
  before0_0_of m (dats m hT 0 c) (A_eq m hT c 0) (after0_0 m hT c) t d
theorem before0_1 (hT : TblOk m) (c : Dev nD) (t : Fin (cfgM m).N) (d) : (dats m hT 0 c).before 1 t d = iblk m c 1 t :=
  before0_1_of m (dats m hT 0 c) (A_eq m hT c 1) (after0_1 m hT c) t d

/-! ## The invariant, conjunct by conjunct -/

set_option maxRecDepth 1000000 in
set_option maxHeartbeats 4000000 in
/-- The 128 cells at zero, as a list over the cells' numbers 0 to 127. -/
theorem ownSems00_list (c : Dev nD) :
    (Pipeline.ownSems0 (Ix := Unit) (Name := ℕ) (U := Pipeline.UD sig nD τ) (Lvl := ℕ) (Val := Elt F) (τ := τ) osem0 c : sProp 𝕄)
      = BI.bigSepL [(0 : Fin 128), (1 : Fin 128), (2 : Fin 128), (3 : Fin 128), (4 : Fin 128), (5 : Fin 128), (6 : Fin 128), (7 : Fin 128), (8 : Fin 128), (9 : Fin 128), (10 : Fin 128), (11 : Fin 128), (12 : Fin 128), (13 : Fin 128), (14 : Fin 128), (15 : Fin 128), (16 : Fin 128), (17 : Fin 128), (18 : Fin 128), (19 : Fin 128), (20 : Fin 128), (21 : Fin 128), (22 : Fin 128), (23 : Fin 128), (24 : Fin 128), (25 : Fin 128), (26 : Fin 128), (27 : Fin 128), (28 : Fin 128), (29 : Fin 128), (30 : Fin 128), (31 : Fin 128), (32 : Fin 128), (33 : Fin 128), (34 : Fin 128), (35 : Fin 128), (36 : Fin 128), (37 : Fin 128), (38 : Fin 128), (39 : Fin 128), (40 : Fin 128), (41 : Fin 128), (42 : Fin 128), (43 : Fin 128), (44 : Fin 128), (45 : Fin 128), (46 : Fin 128), (47 : Fin 128), (48 : Fin 128), (49 : Fin 128), (50 : Fin 128), (51 : Fin 128), (52 : Fin 128), (53 : Fin 128), (54 : Fin 128), (55 : Fin 128), (56 : Fin 128), (57 : Fin 128), (58 : Fin 128), (59 : Fin 128), (60 : Fin 128), (61 : Fin 128), (62 : Fin 128), (63 : Fin 128), (64 : Fin 128), (65 : Fin 128), (66 : Fin 128), (67 : Fin 128), (68 : Fin 128), (69 : Fin 128), (70 : Fin 128), (71 : Fin 128), (72 : Fin 128), (73 : Fin 128), (74 : Fin 128), (75 : Fin 128), (76 : Fin 128), (77 : Fin 128), (78 : Fin 128), (79 : Fin 128), (80 : Fin 128), (81 : Fin 128), (82 : Fin 128), (83 : Fin 128), (84 : Fin 128), (85 : Fin 128), (86 : Fin 128), (87 : Fin 128), (88 : Fin 128), (89 : Fin 128), (90 : Fin 128), (91 : Fin 128), (92 : Fin 128), (93 : Fin 128), (94 : Fin 128), (95 : Fin 128), (96 : Fin 128), (97 : Fin 128), (98 : Fin 128), (99 : Fin 128), (100 : Fin 128), (101 : Fin 128), (102 : Fin 128), (103 : Fin 128), (104 : Fin 128), (105 : Fin 128), (106 : Fin 128), (107 : Fin 128), (108 : Fin 128), (109 : Fin 128), (110 : Fin 128), (111 : Fin 128), (112 : Fin 128), (113 : Fin 128), (114 : Fin 128), (115 : Fin 128), (116 : Fin 128), (117 : Fin 128), (118 : Fin 128), (119 : Fin 128), (120 : Fin 128), (121 : Fin 128), (122 : Fin 128), (123 : Fin 128), (124 : Fin 128), (125 : Fin 128), (126 : Fin 128), (127 : Fin 128)] (fun k => semVal ((c : Thread nD τ), osem0 k) 0) :=
  Pipeline.ownSems0_eq_of_list c osem0 [(0 : Fin 128), (1 : Fin 128), (2 : Fin 128), (3 : Fin 128), (4 : Fin 128), (5 : Fin 128), (6 : Fin 128), (7 : Fin 128), (8 : Fin 128), (9 : Fin 128), (10 : Fin 128), (11 : Fin 128), (12 : Fin 128), (13 : Fin 128), (14 : Fin 128), (15 : Fin 128), (16 : Fin 128), (17 : Fin 128), (18 : Fin 128), (19 : Fin 128), (20 : Fin 128), (21 : Fin 128), (22 : Fin 128), (23 : Fin 128), (24 : Fin 128), (25 : Fin 128), (26 : Fin 128), (27 : Fin 128), (28 : Fin 128), (29 : Fin 128), (30 : Fin 128), (31 : Fin 128), (32 : Fin 128), (33 : Fin 128), (34 : Fin 128), (35 : Fin 128), (36 : Fin 128), (37 : Fin 128), (38 : Fin 128), (39 : Fin 128), (40 : Fin 128), (41 : Fin 128), (42 : Fin 128), (43 : Fin 128), (44 : Fin 128), (45 : Fin 128), (46 : Fin 128), (47 : Fin 128), (48 : Fin 128), (49 : Fin 128), (50 : Fin 128), (51 : Fin 128), (52 : Fin 128), (53 : Fin 128), (54 : Fin 128), (55 : Fin 128), (56 : Fin 128), (57 : Fin 128), (58 : Fin 128), (59 : Fin 128), (60 : Fin 128), (61 : Fin 128), (62 : Fin 128), (63 : Fin 128), (64 : Fin 128), (65 : Fin 128), (66 : Fin 128), (67 : Fin 128), (68 : Fin 128), (69 : Fin 128), (70 : Fin 128), (71 : Fin 128), (72 : Fin 128), (73 : Fin 128), (74 : Fin 128), (75 : Fin 128), (76 : Fin 128), (77 : Fin 128), (78 : Fin 128), (79 : Fin 128), (80 : Fin 128), (81 : Fin 128), (82 : Fin 128), (83 : Fin 128), (84 : Fin 128), (85 : Fin 128), (86 : Fin 128), (87 : Fin 128), (88 : Fin 128), (89 : Fin 128), (90 : Fin 128), (91 : Fin 128), (92 : Fin 128), (93 : Fin 128), (94 : Fin 128), (95 : Fin 128), (96 : Fin 128), (97 : Fin 128), (98 : Fin 128), (99 : Fin 128), (100 : Fin 128), (101 : Fin 128), (102 : Fin 128), (103 : Fin 128), (104 : Fin 128), (105 : Fin 128), (106 : Fin 128), (107 : Fin 128), (108 : Fin 128), (109 : Fin 128), (110 : Fin 128), (111 : Fin 128), (112 : Fin 128), (113 : Fin 128), (114 : Fin 128), (115 : Fin 128), (116 : Fin 128), (117 : Fin 128), (118 : Fin 128), (119 : Fin 128), (120 : Fin 128), (121 : Fin 128), (122 : Fin 128), (123 : Fin 128), (124 : Fin 128), (125 : Fin 128), (126 : Fin 128), (127 : Fin 128)] (by decide +kernel) (by decide +kernel)

set_option maxRecDepth 1000000 in
set_option maxHeartbeats 4000000 in
/-- That list, cell by cell: cell k of the body is cell 4 + k of the pool. -/
theorem ownCells_list (c : Dev nD) :
    (BI.bigSepL [(0 : Fin 128), (1 : Fin 128), (2 : Fin 128), (3 : Fin 128), (4 : Fin 128), (5 : Fin 128), (6 : Fin 128), (7 : Fin 128), (8 : Fin 128), (9 : Fin 128), (10 : Fin 128), (11 : Fin 128), (12 : Fin 128), (13 : Fin 128), (14 : Fin 128), (15 : Fin 128), (16 : Fin 128), (17 : Fin 128), (18 : Fin 128), (19 : Fin 128), (20 : Fin 128), (21 : Fin 128), (22 : Fin 128), (23 : Fin 128), (24 : Fin 128), (25 : Fin 128), (26 : Fin 128), (27 : Fin 128), (28 : Fin 128), (29 : Fin 128), (30 : Fin 128), (31 : Fin 128), (32 : Fin 128), (33 : Fin 128), (34 : Fin 128), (35 : Fin 128), (36 : Fin 128), (37 : Fin 128), (38 : Fin 128), (39 : Fin 128), (40 : Fin 128), (41 : Fin 128), (42 : Fin 128), (43 : Fin 128), (44 : Fin 128), (45 : Fin 128), (46 : Fin 128), (47 : Fin 128), (48 : Fin 128), (49 : Fin 128), (50 : Fin 128), (51 : Fin 128), (52 : Fin 128), (53 : Fin 128), (54 : Fin 128), (55 : Fin 128), (56 : Fin 128), (57 : Fin 128), (58 : Fin 128), (59 : Fin 128), (60 : Fin 128), (61 : Fin 128), (62 : Fin 128), (63 : Fin 128), (64 : Fin 128), (65 : Fin 128), (66 : Fin 128), (67 : Fin 128), (68 : Fin 128), (69 : Fin 128), (70 : Fin 128), (71 : Fin 128), (72 : Fin 128), (73 : Fin 128), (74 : Fin 128), (75 : Fin 128), (76 : Fin 128), (77 : Fin 128), (78 : Fin 128), (79 : Fin 128), (80 : Fin 128), (81 : Fin 128), (82 : Fin 128), (83 : Fin 128), (84 : Fin 128), (85 : Fin 128), (86 : Fin 128), (87 : Fin 128), (88 : Fin 128), (89 : Fin 128), (90 : Fin 128), (91 : Fin 128), (92 : Fin 128), (93 : Fin 128), (94 : Fin 128), (95 : Fin 128), (96 : Fin 128), (97 : Fin 128), (98 : Fin 128), (99 : Fin 128), (100 : Fin 128), (101 : Fin 128), (102 : Fin 128), (103 : Fin 128), (104 : Fin 128), (105 : Fin 128), (106 : Fin 128), (107 : Fin 128), (108 : Fin 128), (109 : Fin 128), (110 : Fin 128), (111 : Fin 128), (112 : Fin 128), (113 : Fin 128), (114 : Fin 128), (115 : Fin 128), (116 : Fin 128), (117 : Fin 128), (118 : Fin 128), (119 : Fin 128), (120 : Fin 128), (121 : Fin 128), (122 : Fin 128), (123 : Fin 128), (124 : Fin 128), (125 : Fin 128), (126 : Fin 128), (127 : Fin 128)] (fun k => semVal ((c : Thread nD τ), osem0 k) 0) : sProp 𝕄) = ownCells c := by
  simp only [BI.bigSepL_cons_cons, BI.bigSepL_singleton]
  rfl

/-- The 128 cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄) = ownCells c :=
  (ownSems00_list c).trans (ownCells_list c)

/-- The table of embeddings at its launch contents. -/
theorem hbmPts0_eq (c : Dev nD) :
    (bigSep H0 (fun b => ((c : Thread nD τ).loc b) ↦{fullShare} V m c b) : sProp 𝕄) = hbPt c (V m c main_arg1) := by
  rw [BI.bigSep_eq_bigSepL_of_eq [main_arg1] (by decide) (by decide)]; rfl

theorem PhiD0_eq (c : Dev nD) :
    (Pipeline.ΦD osem0 spec0 H0 (V m) c : sProp 𝕄)
      = iprop(iprop((∃ d, owns (c : Thread nD τ) scM fullShare d)) ∗ (∃ r, prngReg c r) ∗ ownCells c ∗ hbPt c (V m c main_arg1)) := by
  rw [Pipeline.ΦD_eq, scopedRest0_eq, ownSems00_eq, hbmPts0_eq]; simp only [scM, owns_whole]; try rfl

theorem PhiT0_eq (c : Dev nD) : (Pipeline.ΦT pre0 (tbl m) c : sProp 𝕄) = tbPt c (tbl m 0) := by
  unfold Pipeline.ΦT Pipeline.prefHeld
  rw [show (Finset.univ : Finset (Fin 1)) = {(0 : Fin 1)} from by decide, bigSep_singleton]
  rfl

/-- The table of embeddings held whole is a remainder and one read share per cell of the pool. -/
theorem toks_split (c : Dev nD) (fh : HbBuf (F := F) c) :
    (hbPt c fh : sProp 𝕄) ⊣⊢ iprop(((hbM).view.loc (c : Thread nD τ) ↦{Transfers.shareDrop fullShare 132} fh) ∗ readToks c fh) := by
  have h := Transfers.pointsTo_toks_range (ℓ := (hbM).view.loc (c : Thread nD τ)) (S := Finset.univ) (f := fh) (Ix := Unit) (Name := ℕ) (U := Pipeline.UD sig nD τ) (Lvl := ℕ) fullShare 132
  rw [BI.bigSep_eq_bigSepL_of_eq (List.range 132) (by decide) (by decide)] at h
  exact h

/-! ## The body obligation -/

def bodyPre (hT : TblOk m) (c : Dev nD) (t : Fin (cfgM m).N) : sProp 𝕄 :=
  iprop((dats m hT 0 c).Φ t.castSucc ∗ (dats m hT 0 c).owesAt () t.castSucc
    ∗ (∃ d, owns (c : Thread nD τ) (ms0_0 m t) fullShare ((dats m hT 0 c).before 0 t d))
    ∗ (∃ d, owns (c : Thread nD τ) (ms0_1 m t) fullShare ((dats m hT 0 c).before 1 t d))
    ∗ (∃ d, owns (c : Thread nD τ) (ms0_2 m t) fullShare ((dats m hT 0 c).before 2 t d)))

def bodyPost (hT : TblOk m) (c : Dev nD) (t : Fin (cfgM m).N) : sProp 𝕄 :=
  iprop((dats m hT 0 c).Φ t.succ ∗ (dats m hT 0 c).owesAt () t.succ
    ∗ owns (c : Thread nD τ) (ms0_0 m t) fullShare ((dats m hT 0 c).after 0 t)
    ∗ owns (c : Thread nD τ) (ms0_1 m t) fullShare ((dats m hT 0 c).after 1 t)
    ∗ owns (c : Thread nD τ) (ms0_2 m t) fullShare ((dats m hT 0 c).after 2 t))

/-- The body at any point: the inputs' memrefs hold their blocks, so the run applies; the invariant hands the body its
    scratch, its cells at zero, the table of embeddings (split into read shares for the copies, joined again after the last
    wait) and the token table's half, and takes them back as they were; the waits recorded stay within the next point's
    bound (everything). -/
theorem sound_body (hT : TblOk m) (c : Dev nD) (t : Fin (cfgM m).N) :
    bodyPre m hT c t ⊢ wp frame (wpE (defs₀ (F := F)) Variants.none c none) Set.univ (bodyAt0 m t) (fun _ => bodyPost m hT c t) := by
  unfold bodyPre bodyPost bodyAt0
  simp only [before0_0, before0_1]
  rw [show (dats m hT 0 c).Φ t.succ = (dats m hT 0 c).Φ t.castSucc from rfl, after0_0, after0_1, after0_2]
  rw [show (dats m hT 0 c).Φ t.castSucc = iprop(Pipeline.ΦD osem0 spec0 H0 (V m) c ∗ Pipeline.ΦT pre0 (tbl m) c) from rfl, PhiD0_eq, PhiT0_eq]
  unfold Dat.owesAt Pipeline.owesWithin
  rw [show (dats m hT 0 c).owed t.castSucc = 0 from rfl, show (dats m hT 0 c).owed t.succ = 0 from rfl]
  unfold outsAt0
  unfold out0
  iintro ⟨⟨⟨HS0, Hg, Hq0, Hh0⟩, HT⟩, ⟨%W, -, HW⟩, ⟨%d0, H0⟩, ⟨%d1, H1⟩, ⟨%d2, H2⟩⟩
  ihave Hh := (toks_split c (V m c main_arg1)).1 $$ Hh0
  icases Hh with ⟨Hdrop, Htoks⟩
  iapply ((kernelRun c (grid0.coords t) _ _ _ _ _ _ (iblk m c 0 t) (iblk m c 1 t) (tbl m 0) (V m c main_arg1) (hT c)).2 W _)
  isplitl [H0]; · iexact H0
  isplitl [H1]; · iexact H1
  isplitl [H2]; · iexists _; iexact H2
  isplitl [HS0]; · iexact HS0
  isplitl [HT]; · iexact HT
  isplitl [Htoks]; · iexact Htoks
  isplitl [Hq0]; · iexact Hq0
  isplitl [HW]; · iexact HW
  iintro ⟨H0, H1, ⟨%e2, H2⟩, HS0, HT, Htoks, Hq0, ⟨%W', HW'⟩⟩
  ihave Hh0 := (toks_split c (V m c main_arg1)).2 $$ [Hdrop Htoks]
  · isplitl [Hdrop]; · iexact Hdrop
    iexact Htoks
  isplitl [HS0 Hg Hq0 Hh0 HT]
  · isplitl [HS0 Hg Hq0 Hh0]
    · isplitl [HS0]; · iexact HS0
      isplitl [Hg]; · iexact Hg
      isplitl [Hq0]; · iexact Hq0
      iexact Hh0
    iexact HT
  isplitl [HW']
  · iexists W'; isplitr; · ipureintro; exact fun _ _ => Or.inl trivial
    iexact HW'
  isplitl [H0]; · iexact H0
  isplitl [H1]; · iexact H1
  unfold owns; iexists _; isplitr
  swap; · iexact H2
  ipureintro; exact View.read_writes_of_cover _ _ _ _ _ (cover0 c _ _ _ _ _ _ _ _ _ _ _ _)

set_option maxRecDepth 1000000 in
/-- The library's body obligation, at every point. -/
theorem body_obligation (hT : TblOk m) (c : Dev nD) : BodyObligation (dats (F := F) m hT 0 c) (defs₀ (F := F)) Variants.none () Set.univ := fun t => by
  rw [bigSep_W0, bigSep_W0]
  show bodyPre m hT c t ⊢ wp frame (wpE (defs₀ (F := F)) Variants.none c none) Set.univ (bodyAt0 m t) (fun _ => bodyPost m hT c t)
  exact sound_body m hT c t

/-! ## The run and the frame -/

set_option backward.isDefEq.respectTransparency.types false in
/-- From any memory with zero counters whose token table names rows only: every weakly fair execution of @main terminates, and
    every final state has the pipeline's arrays at what the proof data say and every other unscoped buffer at what the last
    host line leaves. -/
theorem run_main (hT : TblOk m) : θ_run defs (onTc (τ := τ) (main (F := F))) (s₀ m ρ)
    (Pipeline.FramePost (Pipeline.pin (pcfgs (F := F)) (fun _ => adm m)) (dats m hT) 0
      (Pipeline.afterTail (pcfgs (F := F)) (fun _ => adm m) (dats m hT) 0 (V0 m) [hostOps1])) :=
  Pipeline.θ_run_frameP_dma_around pcfgs (fun _ => adm m) (dats m hT) (0 : Fin 1) launch0 osem0 defs₀ Variants.none ownSemFacts0 H0 H0_sub m ρ main
    (hbody := fun c => (body_obligation m hT c).loose) (hshare := fun c => (dats m hT 0 c).share_full fun _ => rfl)
    (howed := fun _ _ => rfl) (V₀ := V0 m) (opss := [hostOps1]) (hsub := sfx_sub) (hfresh := sfx_fresh) (hkeep := sfx_keeps)
    (hmain := hmain m Variants.none) (hA := A_eq m hT) (hpf := V_pre m)
    (hin := fun _ => .rfl)
    (hout := fun c => (show iprop(Pipeline.ΦD osem0 spec0 H0 (V m) c ∗ Pipeline.ΦT pre0 (tbl m) c) ⊢ Pipeline.ΦD osem0 spec0 H0 (V m) c from by
      iintro ⟨HD, -⟩; iexact HD))

/-- THE FRAME: the program runs to the end, faults nowhere, and its four arguments end unchanged, from any memory whose
    token table names rows of the table of embeddings only. -/
theorem frame (hT : TblOk m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m hT) (run_main m ρ hT)

end Cert.Kernel.Hand

end
-- ==== Proof.KernelIdeal.Around.lean ====
/-
  The program around its one kernel region.

  @main reshapes the 8 × 128 tokens to a table of 1024 words, rounds and transposes the weights, reshapes the bias to one
  row, runs the region, and reshapes the 1024 × 512 result to 8 × 128 × 512. Here: the buffers' contents when the region is
  entered (the arguments as launched, the four host results computed from them), the table's contents, @main as "host
  lines, the region, host lines", what the last line may touch, the table of embeddings as the one buffer the kernel
  reads by its own copies, the 128 semaphore cells of those copies, and the frame claim's post read off the run's.
-/
import proofs.«410898_j66494683677006_3_alg».proof.Proof.Gen.KernelIdeal.Launch
import proofs.«410898_j66494683677006_3_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main around the region -/

/-- Core `c`'s buffer contents when the region is entered: the launch contents after the four host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the four host lines, the region, and the last host line: it reduces to the region continued by that line,
    at the contents after the first four. -/
theorem hmain (𝒱₀ : Variants) : Pipeline.HMainPK (Ix := Unit) (Name := ℕ) (U := Pipeline.UD sig nD τ) (Lvl := ℕ) pcfgs 0 defs₀ 𝒱₀ m (main (F := F)) (V m)
      (fun _ => Pipeline.chain [StableHlo.seq hostOps1]) :=
  Pipeline.hmainP_around pcfgs 0 defs₀ 𝒱₀ m main [hostOps0] [hostOps1]
    (show List.Forall _ hostOps0 from hostOps0_sub) (show List.Forall _ hostOps0 from hostOps0_fresh) main_chain

/-- The arguments are no host line's result: the region finds them as launched. -/
theorem V_main_arg0 (c : Dev nD) : V m c main_arg0 = m ((c : Thread nD τ).loc main_arg0) := by
  show StableHlo.after hostOps0 (fun b => m (c, b)) (Proc.devRef .tc main_arg0) = _
  after_results
theorem V_main_arg1 (c : Dev nD) : V m c main_arg1 = m ((c : Thread nD τ).loc main_arg1) := by
  show StableHlo.after hostOps0 (fun b => m (c, b)) (Proc.devRef .tc main_arg1) = _
  after_results
theorem V_main_arg2 (c : Dev nD) : V m c main_arg2 = m ((c : Thread nD τ).loc main_arg2) := by
  show StableHlo.after hostOps0 (fun b => m (c, b)) (Proc.devRef .tc main_arg2) = _
  after_results
theorem V_main_arg3 (c : Dev nD) : V m c main_arg3 = m ((c : Thread nD τ).loc main_arg3) := by
  show StableHlo.after hostOps0 (fun b => m (c, b)) (Proc.devRef .tc main_arg3) = _
  after_results

/-! ## The prefetched table -/

/-- The table's contents when the region is entered (there is one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- Any contents are admissible: no window's index map reads the table. -/
abbrev adm : (pcfg0 (F := F)).Adm := ⟨tbl m, trivial⟩
/-- The pipeline at the table's contents. -/
abbrev cfgM : Pipeline.Cfg sig Λ₀ := cfg0 (adm m)

/-! ## The last host line -/

/-- The one buffer the kernel reads by its own copies: the table of embeddings, left where it is. -/
def H0 : Finset (Ref sig .tc) := {main_arg1}
theorem H0_sub : H0 ⊆ Pipeline.restRefsP sig pre0 spec0 := by decide

/-- The line after the region touches the result array and its own result only: no table, and not the embeddings. -/
theorem sfx_sub : ∀ ops ∈ ([hostOps1] : List (List (HloOp τ sig (Elt F)))), ∀ op ∈ ops,
    op.bufs ⊆ Pipeline.tailRefsBut sig pre0 spec0 H0 := by
  intro ops hops op hop
  simp only [List.mem_cons, List.mem_nil_iff, or_false] at hops
  rcases hops with rfl
  refine Pipeline.sub_tailRefsBut pre0 spec0 H0 op ((List.forall_iff_forall_mem.mp hostOps1_sub) op hop) ?_ ?_
  · simp only [hostOps1, List.mem_cons, List.mem_nil_iff, or_false] at hop
    rcases hop with rfl
    intro k; fin_cases k
    simp only [StableHlo.reshape_bufs, Finset.mem_insert, Finset.mem_singleton, not_or]
    exact ⟨StableHlo.devRef_ne_of_ne (by decide), StableHlo.devRef_ne_of_ne (by decide)⟩
  · simp only [hostOps1, List.mem_cons, List.mem_nil_iff, or_false] at hop
    rcases hop with rfl
    intro b hb
    obtain rfl : b = main_arg1 := Finset.mem_singleton.mp hb
    simp only [StableHlo.reshape_bufs, Finset.mem_insert, Finset.mem_singleton, not_or]
    exact ⟨StableHlo.devRef_ne_of_ne (by decide), StableHlo.devRef_ne_of_ne (by decide)⟩
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.reshape_writes, Finset.mem_singleton] <;> exact StableHlo.devRef_ne_of_ne (by decide)

/-! ## The copies' semaphore cells -/

/-- The 128 cells the body's row copies complete on: cells 4 to 131 of the pool (0 to 3 are the windows'). -/
abbrev osem0 : Fin 128 → SemLoc sig := fun j => SemLoc.dma ⟨4 + j.val, by have := j.isLt; show 4 + j.val < 132; omega⟩
theorem ownSemFacts0 : Pipeline.OwnSemFacts spec0 osem0 := by decide

/-! ## The frame claim's post from the run's -/

/-- A buffer that is no window's array and is not the last line's result holds after that line what it held when the
    region was entered: the line writes its own result only, and the region's exit contents differ from the entry's at
    the arrays only. -/
theorem afterTail_keep (dats : (p : Fin 1) → (c : Dev nD) → Dat τ (Elt F) Unit ℕ (Pipeline.UD sig nD τ) ℕ (Pipeline.pin (pcfgs (F := F)) (fun _ => adm m) p) c)
    (c : Dev nD) (b : Ref sig .tc) (hb : ∀ w, Pipeline.arrRef spec0 w ≠ b) (h5 : b ≠ main_v5) :
    Pipeline.afterTail (pcfgs (F := F)) (fun _ => adm m) dats 0 (V0 m) [hostOps1] c b = V m c b := by
  unfold Pipeline.afterTail
  rw [StableHlo.after_of_forall_not_mem _ _ (fun op hop hw => ?_)]
  · exact Pipeline.withArrays_of_ne _ c (V0 m c) _ b hb
  · simp only [List.flatten_cons, List.flatten_nil, List.append_nil, hostOps1, List.mem_cons, List.mem_nil_iff, or_false] at hop
    subst hop
    simp only [StableHlo.reshape_writes, Finset.mem_singleton] at hw
    exact h5 (Proc.devRef_injective _ hw)

/-- For any proof data whose arrays are the region-entry contents, a run that ends with every array at what the data say
    and every other buffer at the last line's result ends with the four arguments as launched: none is an array of a
    window, none is written by a host line. -/
theorem frame_of (dats : (p : Fin 1) → (c : Dev nD) → Dat τ (Elt F) Unit ℕ (Pipeline.UD sig nD τ) ℕ (Pipeline.pin (pcfgs (F := F)) (fun _ => adm m) p) c)
    (h : θ_run defs (onTc (τ := τ) (main (F := F))) (s₀ m ρ)
      (Pipeline.FramePost (Pipeline.pin (pcfgs (F := F)) (fun _ => adm m)) dats 0 (Pipeline.afterTail (pcfgs (F := F)) (fun _ => adm m) dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (by decide : main_arg0 ∈ Pipeline.restRefs sig spec0)).trans
        ((afterTail_keep m dats c main_arg0 (by decide) (by decide)).trans (V_main_arg0 m c)),
      ((h c).2 main_arg1 (by decide : main_arg1 ∈ Pipeline.restRefs sig spec0)).trans
        ((afterTail_keep m dats c main_arg1 (by decide) (by decide)).trans (V_main_arg1 m c)),
      ((h c).2 main_arg2 (by decide : main_arg2 ∈ Pipeline.restRefs sig spec0)).trans
        ((afterTail_keep m dats c main_arg2 (by decide) (by decide)).trans (V_main_arg2 m c)),
      ((h c).2 main_arg3 (by decide : main_arg3 ∈ Pipeline.restRefs sig spec0)).trans
        ((afterTail_keep m dats c main_arg3 (by decide) (by decide)).trans (V_main_arg3 m c))⟩) h

end Cert.KernelIdeal.Hand

end
-- ==== Proof.KernelIdeal.Res.lean ====
/-
  The buffers the kernel body touches besides its three staged windows, and how each is held while the body runs.

  The token table (1024 words, in scalar memory) is held at half the full share and only read. The 32000 × 300 table of
  embeddings stays where it is; the body copies 128 of its rows, all copies in flight at once and possibly several of
  one row, so it is held as one read share per semaphore cell the copies complete on. The 128 × 300 scratch the rows land
  in is held row by row, row k being the destination of copy k alone. A word below 32000 names a row of the table:
  that is the side condition each copy's source row carries.
-/
import proofs.«410898_j66494683677006_3_alg».proof.Proof.Gen.KernelIdeal.Launch
import proofs.«410898_j66494683677006_3_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The token table, the table of embeddings and the scratch, each a whole buffer. -/
abbrev tbM : Memref sig .tc .smem S1024 .i32 := Memref.whole main_v0
abbrev htbM : (tbM).IsWhole := Memref.isWhole_whole _
abbrev hbM : Memref sig .tc .hbm S32000x300 .f32 := Memref.whole main_arg1
abbrev hhbM : (hbM).IsWhole := Memref.isWhole_whole _
abbrev scM : Memref sig .tc .vmem S128x300 .f32 := Memref.whole cc0_scratch0
abbrev hscM : (scM).IsWhole := Memref.isWhole_whole _

/-- The token table's contents type on core `c`, and the table held at half the full share. -/
abbrev TbBuf (c : Dev nD) : Type := Buf (Elt F) ((tbM).view.loc (c : Thread nD τ))
abbrev tbPt (c : Dev nD) (f : TbBuf (F := F) c) : sProp 𝕄 := (tbM).view.loc (c : Thread nD τ) ↦{fullShare.right} f

/-- The table of embeddings' contents type, the table held whole at the full share, and its read share for cell `k`. -/
abbrev HbBuf (c : Dev nD) : Type := Buf (Elt F) ((hbM).view.loc (c : Thread nD τ))
abbrev hbPt (c : Dev nD) (f : HbBuf (F := F) c) : sProp 𝕄 := (hbM).view.loc (c : Thread nD τ) ↦{fullShare} f
abbrev hbTok (c : Dev nD) (k : Nat) (f : HbBuf (F := F) c) : sProp 𝕄 :=
  (hbM).view.loc (c : Thread nD τ) ↦{Transfers.shareTokN fullShare k} f

/-- The scratch's contents type, and the scratch's elements under a rectangle of it held at the full share. -/
abbrev ScBuf (c : Dev nD) : Type := Buf (Elt F) ((scM).view.loc (c : Thread nD τ))
abbrev scRow (c : Dev nD) (R : Rect S128x300) (f : ScBuf (F := F) c) : sProp 𝕄 :=
  (scM).view.loc (c : Thread nD τ) ↦[(scM).view.setOn R.set]{fullShare} f

/-- Row k of the scratch as a rectangle, and as the one-row memref a copy lands in. -/
theorem rowInb (k : Fin 128) : ∀ a, (![k.val, 0] : Fin 2 → Nat) a + S1x300.size a ≤ S128x300.size a := by
  intro a
  have := k.isLt
  fin_cases a <;> simp [S1x300, S128x300] <;> omega
abbrev rowRect (k : Fin 128) : Rect S128x300 := Rect.unit (s := S128x300) ![k.val, 0] S1x300.size (rowInb k)
abbrev rowSq (k : Fin 128) : Memref sig .tc .vmem S300 .f32 :=
  ((scM).slice (rowRect k) (fun _ => rfl)).squeeze S300 squeezes_S1x300_S300

/-- A word below 32000 names a row of the 32000-row table: the one-row block at that row lies inside it. -/
theorem chk_row (v : BitVec 32) (h : v.toNat < 32000) :
    ∀ a, (![v.toNat, 0] : Fin 2 → Nat) a + S1x300.size a ≤ S32000x300.size a := by
  intro a
  fin_cases a <;> simp [S1x300, S32000x300] <;> omega

/-- Every word of the token table names a row of the table of embeddings: stated of a word as a load reads it. -/
abbrev TokOk (c : Dev nD) (T : TbBuf (F := F) c) : Prop :=
  ∀ (off : Fin 1 → Nat) (inb : ∀ a, off a + S1.size a ≤ S1024.size a) (x : S1.Idx),
    ((tbM).view.readAt (Elt F) (Rect.unit (s := S1024) off S1.size inb).toLoadRect T x).toNat < 32000

/-- The 128 landed rows as one 128 × 300 array: entry (k, d) is entry d of row k. -/
def gathered (pay : Fin 128 → Vec F S300 .f32) : Vec F S128x300 .f32 :=
  fun j => pay ⟨(j 0).val, (j 0).isLt⟩ (fun a => match a with | ⟨0, _⟩ => ⟨(j 1).val, (j 1).isLt⟩)

end Cert.KernelIdeal.Hand

end
-- ==== Proof.KernelIdeal.EntryValues.lean ====
/-
  What the region finds in the buffers the host lines before it wrote, index by index.

  The token table is the 8 × 128 tokens laid out in row-major order: word n is token (n / 128, n mod 128). The staged
  weights are the 512 × 300 weight matrix transposed (its rounding to a narrower float format is the identity over the
  extended reals): entry (d, m) is weight (m, d). The staged bias row is the bias: entry (0, m) is bias m. So if every token
  is below 32000, every word of the table names a row of the table of embeddings.
-/
import proofs.«410898_j66494683677006_3_alg».proof.Proof.Gen.KernelIdeal.Launch
import proofs.«410898_j66494683677006_3_alg».proof.Proof.Gen.KernelIdeal.Skeleton
import proofs.«410898_j66494683677006_3_alg».proof.Proof.KernelIdeal.Res
import proofs.«410898_j66494683677006_3_alg».proof.Proof.KernelIdeal.Around
import Idealize.ShloMosaic.Lib.ValueIdx
import Idealize.ShloMosaic.Lib.Pipeline.Value
import Idealize.ShloMosaic.Lib.ValueLayout
import Idealize.ShloMosaic.Lib.StableHlo.Run
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx

variable (m : (ℓ : Loc nD τ sig) → Buf (Elt F) ℓ)

/-- Every word of the token table, as the region finds it, names a row of the table of embeddings. -/
abbrev TblOk : Prop := ∀ c : Dev nD, TokOk c (tbl m 0)

/-- The token table is the tokens recast to one row of 1024 words. -/
theorem tbl_eq : (tbl m 0 : S1024.Idx → _)
    = shapeCast S1024 (m (((0 : Dev nD) : Thread nD τ).loc main_arg0)) shapeCasts_S8x128_S1024 := by
  show StableHlo.after hostOps0 (fun b => m ((0 : Dev nD), b)) (Proc.devRef .tc main_v0) = _
  after_results
  rfl

/-- The staged bias row is the bias recast to a 1 × 512 array. -/
theorem V_main_v3_eq (c : Dev nD) : (V m c main_v3 : S1x512.Idx → _)
    = shapeCast S1x512 (m ((c : Thread nD τ).loc main_arg3)) shapeCasts_S512_S1x512 := by
  show StableHlo.after hostOps0 (fun b => m (c, b)) (Proc.devRef .tc main_v3) = _
  after_results
  rfl

/-- The staged weights are the weights rounded to the narrower format, then transposed. -/
theorem V_main_v2_eq (c : Dev nD) : (V m c main_v2 : S300x512.Idx → _)
    = transpose S300x512 [1, 0]
        (truncf .bf16 (m ((c : Thread nD τ).loc main_arg2)) bitsLt_bf16_f32 : (⟨S512x300, .bf16⟩ : BufTy).Contents (Elt F))
        transposes_S512x300_S300x512_1_0 := by
  show StableHlo.after hostOps0 (fun b => m (c, b)) (Proc.devRef .tc main_v2) = _
  after_results

/-- Word n of the token table is token (n / 128, n mod 128). -/
theorem tbl_word (n : Fin 1024) :
    tbl m 0 (ix1 n) = m (((0 : Dev nD) : Thread nD τ).loc main_arg0) (ix2 (⟨n.val / 128, by omega⟩ : Fin 8) (⟨n.val % 128, by omega⟩ : Fin 128)) := by
  -- word n and token (n / 128, n mod 128) sit at the same row-major position: (n / 128) * 128 + n mod 128 = n
  rw [tbl_eq]
  refine shapeCast_apply (s := S8x128) (t := S1024) _ _ _ _ ?_
  rw [Shape.rowMajor_val_two, Shape.rowMajor_val_one]
  show n.val / 128 * 128 + n.val % 128 = n.val
  omega

/-- If every token is below 32000, every word a load reads off the table is. -/
theorem tblOk_of_tokens (h : ∀ j : S8x128.Idx, (m (((0 : Dev nD) : Thread nD τ).loc main_arg0) j).toNat < 32000) : TblOk m := by
  intro c off inb x
  obtain rfl : c = 0 := Subsingleton.elim _ _
  -- a one-word read through the whole table is the table at some index, and every index is a word number n
  obtain ⟨j, e⟩ : ∃ j : S1024.Idx,
      (tbM).view.readAt (Elt F) (Rect.unit (s := S1024) off S1.size inb).toLoadRect (tbl m 0) x = tbl m 0 j := ⟨_, rfl⟩
  obtain ⟨n, rfl⟩ : ∃ n : Fin 1024, j = ix1 n := ⟨j 0, eq_ix1 j⟩
  rw [e, tbl_word m n]
  exact h _

/-- The staged bias row: entry (0, mm) is bias mm. -/
theorem V_main_v3_apply (c : Dev nD) (mm : Fin 512) :
    V m c main_v3 (ix2 (0 : Fin 1) mm) = m ((c : Thread nD τ).loc main_arg3) (ix1 mm) := by
  -- entry (0, mm) of the row and entry mm of the bias sit at the same row-major position: 0 * 512 + mm = mm
  rw [V_main_v3_eq]
  refine shapeCast_apply (s := S512) (t := S1x512) _ _ _ _ ?_
  rw [Shape.rowMajor_val_two, Shape.rowMajor_val_one]
  show mm.val = 0 * 512 + mm.val
  omega

/-- The staged weights over the extended reals: entry (d, mm) is weight (mm, d). -/
theorem V_main_v2_apply (m : (ℓ : Loc nD τ sig) → Buf (Elt Ideal) ℓ) (c : Dev nD) (d : Fin 300) (mm : Fin 512) :
    V (F := Ideal) m c main_v2 (ix2 d mm) = m ((c : Thread nD τ).loc main_arg2) (ix2 mm d) := by
  -- the transpose reads the rounded weights at the swapped index, and rounding is the identity over the extended reals
  rw [V_main_v2_eq]
  refine (transpose_apply (s := S512x300) (t := S300x512) [1, 0] _ _ (ix2 d mm) (ix2 mm d) ?_).trans ?_
  · intro b
    match b with
    | ⟨0, _⟩ => rfl
    | ⟨1, _⟩ => rfl
  · rfl

end Cert.KernelIdeal.Hand

end
-- ==== Proof.KernelIdeal.RowJoin.lean ====
/-
  The scratch row by row.

  The 128 rows of the 128 × 300 scratch are pairwise disjoint and together are the whole scratch. So the scratch held
  whole is its rows held one by one; and once copy k has landed its 300 entries in row k, for every k, the rows held one
  by one are the scratch held whole at the array whose entry (k, d) is entry d of what copy k delivered, whatever
  the scratch held before.
-/
import proofs.«410898_j66494683677006_3_alg».proof.Proof.Gen.KernelIdeal.Launch
import proofs.«410898_j66494683677006_3_alg».proof.Proof.Gen.KernelIdeal.Skeleton
import proofs.«410898_j66494683677006_3_alg».proof.Proof.KernelIdeal.Res
import Idealize.ShloMosaic.Lib.HeldBySlice
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! The facts about rows, indices and writes that the two statements below are assembled from. -/
namespace RowJoin

/-- An index of the scratch lies in row k exactly when its first coordinate is k. -/
theorem mem_rowRect (k : Fin 128) (x : S128x300.Idx) : x ∈ (rowRect k).set ↔ (x 0).val = k.val := by
  have h1 := ValueIdx.idx2_lt1 x
  rw [Rect.mem_set_unit]
  constructor
  · intro h
    have h0 := h 0
    simp [S1x300] at h0
    omega
  · intro h a
    fin_cases a <;> simp [S1x300] <;> omega

/-- Different rows share no element. -/
theorem rows_disjoint (k k' : Fin 128) (hne : k ≠ k') :
    Disjoint ((scM).view.setOn (rowRect k).set) ((scM).view.setOn (rowRect k').set) := by
  refine View.disjoint_setOn _ (Finset.disjoint_left.mpr fun x hx hx' => hne (Fin.ext ?_))
  rw [mem_rowRect] at hx hx'
  omega

/-- Every element of the scratch lies in some row. -/
theorem rows_union : Finset.univ.biUnion (fun k : Fin 128 => (scM).view.setOn (rowRect k).set) = (scM).view.set := by
  ext i
  simp only [Finset.mem_biUnion, Finset.mem_univ, true_and]
  constructor
  · rintro ⟨k, hk⟩
    exact View.setOn_subset_set _ _ hk
  · intro hi
    obtain ⟨x, -, rfl⟩ := Finset.mem_map.mp hi
    exact ⟨⟨(x 0).val, ValueIdx.idx2_lt0 x⟩, (View.mem_setOn _).2 ((mem_rowRect _ x).2 rfl)⟩

/-- A cast undone: if a read back through one identification of types gives b, the other way gives a. -/
theorem cast_eq_of_cast_eq {α β : Type} (h : α = β) (h' : β = α) {a : α} {b : β} (hab : cast h a = b) : cast h' b = a := by
  subst h; exact hab.symm

/-- The gathered array at an index whose coordinates are (k, d) is entry d of row k. -/
theorem gathered_apply (pay : Fin 128 → Vec F S300 .f32) (j : S128x300.Idx) (k : Fin 128) (d : S300.Idx)
    (h0 : (j 0).val = k.val) (h1 : (j 1).val = (d 0).val) : gathered pay j = pay k d := by
  unfold gathered
  have hk : (⟨(j 0).val, (j 0).isLt⟩ : Fin 128) = k := Fin.ext h0
  have hd : (fun a : Fin 1 => match a with | ⟨0, _⟩ => (⟨(j 1).val, (j 1).isLt⟩ : Fin 300)) = d := by
    funext a
    match a with
    | ⟨0, _⟩ => exact Fin.ext h1
  rw [hk]
  exact congrArg (pay k) hd

/-- Entry d of the one-row memref of row k sits at coordinates (k, d) of the scratch. -/
theorem rowSq_coords (k : Fin 128) (d : S300.Idx) (hn : S300.numel = (rowRect k).shape.numel) :
    (((rowRect k).emb (Shape.reshapeEquiv hn d)) 0).val = k.val
      ∧ (((rowRect k).emb (Shape.reshapeEquiv hn d)) 1).val = (d 0).val := by
  have e := Shape.reshapeEquiv_cons_one (n := 1) (d := ![300]) hn d
  constructor
  · rw [Rect.emb_apply]
    have : ((Shape.reshapeEquiv hn d) 0).val < 1 := ((Shape.reshapeEquiv hn d) 0).isLt
    simp
    omega
  · rw [Rect.emb_apply, e]
    simp
    rfl

/-- The one-row memref of row k goes through exactly the scratch's elements under row k. -/
theorem set_rowSq (k : Fin 128) : (rowSq k).view.set = (scM).view.setOn (rowRect k).set := by
  rw [Memref.set_view_squeeze]
  exact View.set_slice (scM).view (rowRect k)

/-- On row k's elements, what was written through the one-row memref of row k is the gathered array, whatever the
    scratch held before. -/
theorem row_write_eq (c : Dev nD) (k : Fin 128) (f : ScBuf (F := F) c) (pay : Fin 128 → Vec F S300 .f32)
    (i : Idx ((scM).view.loc (c : Thread nD τ))) (hi : i ∈ (scM).view.setOn (rowRect k).set) :
    View.write (Elt F) (rowSq k).view f (pay k) Finset.univ i = (hscM).unread (gathered pay) i := by
  rw [← set_rowSq] at hi
  obtain ⟨d, -, rfl⟩ := Finset.mem_map.mp hi
  rw [View.write_emb_of_mem _ _ (Finset.mem_univ _)]
  have hn : S300.numel = (rowRect k).shape.numel := squeezes_S1x300_S300.numel_eq
  have hr : (rowSq k).view.read (Elt F) ((hscM).unread (gathered pay)) d
      = gathered pay ((rowRect k).emb (Shape.reshapeEquiv hn d)) := congrFun ((hscM).read_unread (gathered pay)) _
  obtain ⟨h0, h1⟩ := rowSq_coords k d hn
  rw [gathered_apply pay _ k d h0 h1, View.read_apply] at hr
  exact cast_eq_of_cast_eq _ _ hr

end RowJoin

open RowJoin

/-- The scratch held whole is its 128 rows held one by one. -/
theorem rows_split (c : Dev nD) (f : ScBuf (F := F) c) :
    ((scM).view.loc (c : Thread nD τ) ↦[(scM).view.set]{fullShare} f : sProp 𝕄)
      ⊢ bigSep Finset.univ (fun k : Fin 128 => scRow c (rowRect k) f) := by
  rw [← rows_union, pointsTo_biUnion _ _ (fun k _ k' _ hne => rows_disjoint k k' hne)]

/-- The 128 rows, each holding what was written through the one-row memref of that row over some earlier contents, are
    the scratch held whole at the gathered array. -/
theorem rows_join (c : Dev nD) (fs : Fin 128 → ScBuf (F := F) c) (pay : Fin 128 → Vec F S300 .f32) :
    bigSep Finset.univ (fun k : Fin 128 => scRow c (rowRect k) (View.write (Elt F) (rowSq k).view (fs k) (pay k) Finset.univ))
      ⊢ ((scM).view.loc (c : Thread nD τ) ↦[(scM).view.set]{fullShare} (hscM).unread (gathered pay) : sProp 𝕄) := by
  have e : ∀ k ∈ (Finset.univ : Finset (Fin 128)),
      (scRow c (rowRect k) (View.write (Elt F) (rowSq k).view (fs k) (pay k) Finset.univ) : sProp 𝕄)
        = scRow c (rowRect k) ((hscM).unread (gathered pay)) :=
    fun k _ => pointsTo_congr fun i hi => row_write_eq c k (fs k) pay i hi
  rw [bigSep_congr e, ← pointsTo_biUnion _ _ (fun k _ k' _ hne => rows_disjoint k k' hne), rows_union]

end Cert.KernelIdeal.Hand

end
-- ==== Proof.KernelIdeal.BodyRun.lean ====
/-
  The kernel body at one grid point, run.

  At point i the body reads the 128 token words 128·i, …, 128·i + 127 of the table, starts 128 copies — copy k moves row
  (token word k) of the table of embeddings into row k of the scratch, completing on semaphore cell 4 + k —, waits for
  all 128, loads the scratch whole, multiplies it with the staged weights, adds the staged bias row and stores the
  128 × 512 block. Each copy's source row lies inside the table because every token word is below 32000. While the copies
  fly the table of embeddings is held as one read share per cell (two copies may read one row) and the scratch row by
  row; once all have landed the rows are the scratch held whole, at the array whose row k is what copy k delivered:
  row (token word k) of the table.
-/
import proofs.«410898_j66494683677006_3_alg».proof.Proof.Gen.KernelIdeal.Launch
import proofs.«410898_j66494683677006_3_alg».proof.Proof.Gen.KernelIdeal.Skeleton
import proofs.«410898_j66494683677006_3_alg».proof.Proof.KernelIdeal.Res
import proofs.«410898_j66494683677006_3_alg».proof.Proof.KernelIdeal.RowJoin
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Token word k of grid point i: word 128·i + k of the table. -/
def tokWord (c : Dev nD) (i : grid0.Coords) (T : TbBuf (F := F) c) (k : Fin 128) : Elt F .i32 :=
  (tbM).view.readAt (Elt F) (Rect.unit (s := S1024) (k0_off1 i (BitVec.ofNat 32 k.val)) S1.size (k0_off1_inb i k)).toLoadRect T
    (Shape.Idx.first (numel1_S1.symm ▸ Nat.one_pos))

/-- The row of the table of embeddings a word below 32000 names, as the one-row memref a copy reads. -/
abbrev rowOfTok (v : BitVec 32) (hv : v.toNat < 32000) : Memref sig .tc .hbm S300 .f32 :=
  ((hbM).slice (Rect.unit (s := S32000x300) ![v.toNat, 0] S1x300.size (chk_row v hv)) (fun _ => rfl)).squeeze S300 squeezes_S1x300_S300

/-- What copy k delivers at point i: the row of the table of embeddings that token word k names. -/
def payOf (c : Dev nD) (i : grid0.Coords) (T : TbBuf (F := F) c) (fh : HbBuf (F := F) c) (hT : TokOk c T) (k : Fin 128) : Vec F S300 .f32 :=
  ReadAs.same.apply ((rowOfTok (tokWord c i T k) (hT _ _ _)).view.read (Elt F) fh)

set_option maxHeartbeats 4000000 in
/-- The table of embeddings' read shares, one per cell of the pool. -/
abbrev readToks (c : Dev nD) (fh : HbBuf (F := F) c) : sProp 𝕄 :=
  iprop(hbTok c 0 fh ∗ hbTok c 1 fh ∗ hbTok c 2 fh ∗ hbTok c 3 fh ∗ hbTok c 4 fh ∗ hbTok c 5 fh ∗ hbTok c 6 fh ∗ hbTok c 7 fh ∗ hbTok c 8 fh ∗ hbTok c 9 fh ∗ hbTok c 10 fh ∗ hbTok c 11 fh ∗ hbTok c 12 fh ∗ hbTok c 13 fh ∗ hbTok c 14 fh ∗ hbTok c 15 fh ∗ hbTok c 16 fh ∗ hbTok c 17 fh ∗ hbTok c 18 fh ∗ hbTok c 19 fh ∗ hbTok c 20 fh ∗ hbTok c 21 fh ∗ hbTok c 22 fh ∗ hbTok c 23 fh ∗ hbTok c 24 fh ∗ hbTok c 25 fh ∗ hbTok c 26 fh ∗ hbTok c 27 fh ∗ hbTok c 28 fh ∗ hbTok c 29 fh ∗ hbTok c 30 fh ∗ hbTok c 31 fh ∗ hbTok c 32 fh ∗ hbTok c 33 fh ∗ hbTok c 34 fh ∗ hbTok c 35 fh ∗ hbTok c 36 fh ∗ hbTok c 37 fh ∗ hbTok c 38 fh ∗ hbTok c 39 fh ∗ hbTok c 40 fh ∗ hbTok c 41 fh ∗ hbTok c 42 fh ∗ hbTok c 43 fh ∗ hbTok c 44 fh ∗ hbTok c 45 fh ∗ hbTok c 46 fh ∗ hbTok c 47 fh ∗ hbTok c 48 fh ∗ hbTok c 49 fh ∗ hbTok c 50 fh ∗ hbTok c 51 fh ∗ hbTok c 52 fh ∗ hbTok c 53 fh ∗ hbTok c 54 fh ∗ hbTok c 55 fh ∗ hbTok c 56 fh ∗ hbTok c 57 fh ∗ hbTok c 58 fh ∗ hbTok c 59 fh ∗ hbTok c 60 fh ∗ hbTok c 61 fh ∗ hbTok c 62 fh ∗ hbTok c 63 fh ∗ hbTok c 64 fh ∗ hbTok c 65 fh ∗ hbTok c 66 fh ∗ hbTok c 67 fh ∗ hbTok c 68 fh ∗ hbTok c 69 fh ∗ hbTok c 70 fh ∗ hbTok c 71 fh ∗ hbTok c 72 fh ∗ hbTok c 73 fh ∗ hbTok c 74 fh ∗ hbTok c 75 fh ∗ hbTok c 76 fh ∗ hbTok c 77 fh ∗ hbTok c 78 fh ∗ hbTok c 79 fh ∗ hbTok c 80 fh ∗ hbTok c 81 fh ∗ hbTok c 82 fh ∗ hbTok c 83 fh ∗ hbTok c 84 fh ∗ hbTok c 85 fh ∗ hbTok c 86 fh ∗ hbTok c 87 fh ∗ hbTok c 88 fh ∗ hbTok c 89 fh ∗ hbTok c 90 fh ∗ hbTok c 91 fh ∗ hbTok c 92 fh ∗ hbTok c 93 fh ∗ hbTok c 94 fh ∗ hbTok c 95 fh ∗ hbTok c 96 fh ∗ hbTok c 97 fh ∗ hbTok c 98 fh ∗ hbTok c 99 fh ∗ hbTok c 100 fh ∗ hbTok c 101 fh ∗ hbTok c 102 fh ∗ hbTok c 103 fh ∗ hbTok c 104 fh ∗ hbTok c 105 fh ∗ hbTok c 106 fh ∗ hbTok c 107 fh ∗ hbTok c 108 fh ∗ hbTok c 109 fh ∗ hbTok c 110 fh ∗ hbTok c 111 fh ∗ hbTok c 112 fh ∗ hbTok c 113 fh ∗ hbTok c 114 fh ∗ hbTok c 115 fh ∗ hbTok c 116 fh ∗ hbTok c 117 fh ∗ hbTok c 118 fh ∗ hbTok c 119 fh ∗ hbTok c 120 fh ∗ hbTok c 121 fh ∗ hbTok c 122 fh ∗ hbTok c 123 fh ∗ hbTok c 124 fh ∗ hbTok c 125 fh ∗ hbTok c 126 fh ∗ hbTok c 127 fh ∗ hbTok c 128 fh ∗ hbTok c 129 fh ∗ hbTok c 130 fh ∗ hbTok c 131 fh)

set_option maxHeartbeats 4000000 in
/-- The copies' 128 cells, each at zero. -/
abbrev ownCells (c : Dev nD) : sProp 𝕄 :=
  iprop(semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0 ∗ semVal ((c : Thread nD τ), SemLoc.dma 54) 0 ∗ semVal ((c : Thread nD τ), SemLoc.dma 55) 0 ∗ semVal ((c : Thread nD τ), SemLoc.dma 56) 0 ∗ semVal ((c : Thread nD τ), SemLoc.dma 57) 0 ∗ semVal ((c : Thread nD τ), SemLoc.dma 58) 0 ∗ semVal ((c : Thread nD τ), SemLoc.dma 59) 0 ∗ semVal ((c : Thread nD τ), SemLoc.dma 60) 0 ∗ semVal ((c : Thread nD τ), SemLoc.dma 61) 0 ∗ semVal ((c : Thread nD τ), SemLoc.dma 62) 0 ∗ semVal ((c : Thread nD τ), SemLoc.dma 63) 0 ∗ semVal ((c : Thread nD τ), SemLoc.dma 64) 0 ∗ semVal ((c : Thread nD τ), SemLoc.dma 65) 0 ∗ semVal ((c : Thread nD τ), SemLoc.dma 66) 0 ∗ semVal ((c : Thread nD τ), SemLoc.dma 67) 0 ∗ semVal ((c : Thread nD τ), SemLoc.dma 68) 0 ∗ semVal ((c : Thread nD τ), SemLoc.dma 69) 0 ∗ semVal ((c : Thread nD τ), SemLoc.dma 70) 0 ∗ semVal ((c : Thread nD τ), SemLoc.dma 71) 0 ∗ semVal ((c : Thread nD τ), SemLoc.dma 72) 0 ∗ semVal ((c : Thread nD τ), SemLoc.dma 73) 0 ∗ semVal ((c : Thread nD τ), SemLoc.dma 74) 0 ∗ semVal ((c : Thread nD τ), SemLoc.dma 75) 0 ∗ semVal ((c : Thread nD τ), SemLoc.dma 76) 0 ∗ semVal ((c : Thread nD τ), SemLoc.dma 77) 0 ∗ semVal ((c : Thread nD τ), SemLoc.dma 78) 0 ∗ semVal ((c : Thread nD τ), SemLoc.dma 79) 0 ∗ semVal ((c : Thread nD τ), SemLoc.dma 80) 0 ∗ semVal ((c : Thread nD τ), SemLoc.dma 81) 0 ∗ semVal ((c : Thread nD τ), SemLoc.dma 82) 0 ∗ semVal ((c : Thread nD τ), SemLoc.dma 83) 0 ∗ semVal ((c : Thread nD τ), SemLoc.dma 84) 0 ∗ semVal ((c : Thread nD τ), SemLoc.dma 85) 0 ∗ semVal ((c : Thread nD τ), SemLoc.dma 86) 0 ∗ semVal ((c : Thread nD τ), SemLoc.dma 87) 0 ∗ semVal ((c : Thread nD τ), SemLoc.dma 88) 0 ∗ semVal ((c : Thread nD τ), SemLoc.dma 89) 0 ∗ semVal ((c : Thread nD τ), SemLoc.dma 90) 0 ∗ semVal ((c : Thread nD τ), SemLoc.dma 91) 0 ∗ semVal ((c : Thread nD τ), SemLoc.dma 92) 0 ∗ semVal ((c : Thread nD τ), SemLoc.dma 93) 0 ∗ semVal ((c : Thread nD τ), SemLoc.dma 94) 0 ∗ semVal ((c : Thread nD τ), SemLoc.dma 95) 0 ∗ semVal ((c : Thread nD τ), SemLoc.dma 96) 0 ∗ semVal ((c : Thread nD τ), SemLoc.dma 97) 0 ∗ semVal ((c : Thread nD τ), SemLoc.dma 98) 0 ∗ semVal ((c : Thread nD τ), SemLoc.dma 99) 0 ∗ semVal ((c : Thread nD τ), SemLoc.dma 100) 0 ∗ semVal ((c : Thread nD τ), SemLoc.dma 101) 0 ∗ semVal ((c : Thread nD τ), SemLoc.dma 102) 0 ∗ semVal ((c : Thread nD τ), SemLoc.dma 103) 0 ∗ semVal ((c : Thread nD τ), SemLoc.dma 104) 0 ∗ semVal ((c : Thread nD τ), SemLoc.dma 105) 0 ∗ semVal ((c : Thread nD τ), SemLoc.dma 106) 0 ∗ semVal ((c : Thread nD τ), SemLoc.dma 107) 0 ∗ semVal ((c : Thread nD τ), SemLoc.dma 108) 0 ∗ semVal ((c : Thread nD τ), SemLoc.dma 109) 0 ∗ semVal ((c : Thread nD τ), SemLoc.dma 110) 0 ∗ semVal ((c : Thread nD τ), SemLoc.dma 111) 0 ∗ semVal ((c : Thread nD τ), SemLoc.dma 112) 0 ∗ semVal ((c : Thread nD τ), SemLoc.dma 113) 0 ∗ semVal ((c : Thread nD τ), SemLoc.dma 114) 0 ∗ semVal ((c : Thread nD τ), SemLoc.dma 115) 0 ∗ semVal ((c : Thread nD τ), SemLoc.dma 116) 0 ∗ semVal ((c : Thread nD τ), SemLoc.dma 117) 0 ∗ semVal ((c : Thread nD τ), SemLoc.dma 118) 0 ∗ semVal ((c : Thread nD τ), SemLoc.dma 119) 0 ∗ semVal ((c : Thread nD τ), SemLoc.dma 120) 0 ∗ semVal ((c : Thread nD τ), SemLoc.dma 121) 0 ∗ semVal ((c : Thread nD τ), SemLoc.dma 122) 0 ∗ semVal ((c : Thread nD τ), SemLoc.dma 123) 0 ∗ semVal ((c : Thread nD τ), SemLoc.dma 124) 0 ∗ semVal ((c : Thread nD τ), SemLoc.dma 125) 0 ∗ semVal ((c : Thread nD τ), SemLoc.dma 126) 0 ∗ semVal ((c : Thread nD τ), SemLoc.dma 127) 0 ∗ semVal ((c : Thread nD τ), SemLoc.dma 128) 0 ∗ semVal ((c : Thread nD τ), SemLoc.dma 129) 0 ∗ semVal ((c : Thread nD τ), SemLoc.dma 130) 0 ∗ semVal ((c : Thread nD τ), SemLoc.dma 131) 0)

set_option maxHeartbeats 4000000 in
/-- The rows held one by one, written out row by row. -/
theorem rows_chain (c : Dev nD) (f : ScBuf (F := F) c) :
    (bigSep Finset.univ (fun k : Fin 128 => scRow c (rowRect k) f) : sProp 𝕄)
      = iprop(scRow c (Rect.unit (s := S128x300) ![0, 0] S1x300.size inb_S128x300_S1x300_0_0) f ∗ scRow c (Rect.unit (s := S128x300) ![1, 0] S1x300.size inb_S128x300_S1x300_1_0) f ∗ scRow c (Rect.unit (s := S128x300) ![2, 0] S1x300.size inb_S128x300_S1x300_2_0) f ∗ scRow c (Rect.unit (s := S128x300) ![3, 0] S1x300.size inb_S128x300_S1x300_3_0) f ∗ scRow c (Rect.unit (s := S128x300) ![4, 0] S1x300.size inb_S128x300_S1x300_4_0) f ∗ scRow c (Rect.unit (s := S128x300) ![5, 0] S1x300.size inb_S128x300_S1x300_5_0) f ∗ scRow c (Rect.unit (s := S128x300) ![6, 0] S1x300.size inb_S128x300_S1x300_6_0) f ∗ scRow c (Rect.unit (s := S128x300) ![7, 0] S1x300.size inb_S128x300_S1x300_7_0) f ∗ scRow c (Rect.unit (s := S128x300) ![8, 0] S1x300.size inb_S128x300_S1x300_8_0) f ∗ scRow c (Rect.unit (s := S128x300) ![9, 0] S1x300.size inb_S128x300_S1x300_9_0) f ∗ scRow c (Rect.unit (s := S128x300) ![10, 0] S1x300.size inb_S128x300_S1x300_10_0) f ∗ scRow c (Rect.unit (s := S128x300) ![11, 0] S1x300.size inb_S128x300_S1x300_11_0) f ∗ scRow c (Rect.unit (s := S128x300) ![12, 0] S1x300.size inb_S128x300_S1x300_12_0) f ∗ scRow c (Rect.unit (s := S128x300) ![13, 0] S1x300.size inb_S128x300_S1x300_13_0) f ∗ scRow c (Rect.unit (s := S128x300) ![14, 0] S1x300.size inb_S128x300_S1x300_14_0) f ∗ scRow c (Rect.unit (s := S128x300) ![15, 0] S1x300.size inb_S128x300_S1x300_15_0) f ∗ scRow c (Rect.unit (s := S128x300) ![16, 0] S1x300.size inb_S128x300_S1x300_16_0) f ∗ scRow c (Rect.unit (s := S128x300) ![17, 0] S1x300.size inb_S128x300_S1x300_17_0) f ∗ scRow c (Rect.unit (s := S128x300) ![18, 0] S1x300.size inb_S128x300_S1x300_18_0) f ∗ scRow c (Rect.unit (s := S128x300) ![19, 0] S1x300.size inb_S128x300_S1x300_19_0) f ∗ scRow c (Rect.unit (s := S128x300) ![20, 0] S1x300.size inb_S128x300_S1x300_20_0) f ∗ scRow c (Rect.unit (s := S128x300) ![21, 0] S1x300.size inb_S128x300_S1x300_21_0) f ∗ scRow c (Rect.unit (s := S128x300) ![22, 0] S1x300.size inb_S128x300_S1x300_22_0) f ∗ scRow c (Rect.unit (s := S128x300) ![23, 0] S1x300.size inb_S128x300_S1x300_23_0) f ∗ scRow c (Rect.unit (s := S128x300) ![24, 0] S1x300.size inb_S128x300_S1x300_24_0) f ∗ scRow c (Rect.unit (s := S128x300) ![25, 0] S1x300.size inb_S128x300_S1x300_25_0) f ∗ scRow c (Rect.unit (s := S128x300) ![26, 0] S1x300.size inb_S128x300_S1x300_26_0) f ∗ scRow c (Rect.unit (s := S128x300) ![27, 0] S1x300.size inb_S128x300_S1x300_27_0) f ∗ scRow c (Rect.unit (s := S128x300) ![28, 0] S1x300.size inb_S128x300_S1x300_28_0) f ∗ scRow c (Rect.unit (s := S128x300) ![29, 0] S1x300.size inb_S128x300_S1x300_29_0) f ∗ scRow c (Rect.unit (s := S128x300) ![30, 0] S1x300.size inb_S128x300_S1x300_30_0) f ∗ scRow c (Rect.unit (s := S128x300) ![31, 0] S1x300.size inb_S128x300_S1x300_31_0) f ∗ scRow c (Rect.unit (s := S128x300) ![32, 0] S1x300.size inb_S128x300_S1x300_32_0) f ∗ scRow c (Rect.unit (s := S128x300) ![33, 0] S1x300.size inb_S128x300_S1x300_33_0) f ∗ scRow c (Rect.unit (s := S128x300) ![34, 0] S1x300.size inb_S128x300_S1x300_34_0) f ∗ scRow c (Rect.unit (s := S128x300) ![35, 0] S1x300.size inb_S128x300_S1x300_35_0) f ∗ scRow c (Rect.unit (s := S128x300) ![36, 0] S1x300.size inb_S128x300_S1x300_36_0) f ∗ scRow c (Rect.unit (s := S128x300) ![37, 0] S1x300.size inb_S128x300_S1x300_37_0) f ∗ scRow c (Rect.unit (s := S128x300) ![38, 0] S1x300.size inb_S128x300_S1x300_38_0) f ∗ scRow c (Rect.unit (s := S128x300) ![39, 0] S1x300.size inb_S128x300_S1x300_39_0) f ∗ scRow c (Rect.unit (s := S128x300) ![40, 0] S1x300.size inb_S128x300_S1x300_40_0) f ∗ scRow c (Rect.unit (s := S128x300) ![41, 0] S1x300.size inb_S128x300_S1x300_41_0) f ∗ scRow c (Rect.unit (s := S128x300) ![42, 0] S1x300.size inb_S128x300_S1x300_42_0) f ∗ scRow c (Rect.unit (s := S128x300) ![43, 0] S1x300.size inb_S128x300_S1x300_43_0) f ∗ scRow c (Rect.unit (s := S128x300) ![44, 0] S1x300.size inb_S128x300_S1x300_44_0) f ∗ scRow c (Rect.unit (s := S128x300) ![45, 0] S1x300.size inb_S128x300_S1x300_45_0) f ∗ scRow c (Rect.unit (s := S128x300) ![46, 0] S1x300.size inb_S128x300_S1x300_46_0) f ∗ scRow c (Rect.unit (s := S128x300) ![47, 0] S1x300.size inb_S128x300_S1x300_47_0) f ∗ scRow c (Rect.unit (s := S128x300) ![48, 0] S1x300.size inb_S128x300_S1x300_48_0) f ∗ scRow c (Rect.unit (s := S128x300) ![49, 0] S1x300.size inb_S128x300_S1x300_49_0) f ∗ scRow c (Rect.unit (s := S128x300) ![50, 0] S1x300.size inb_S128x300_S1x300_50_0) f ∗ scRow c (Rect.unit (s := S128x300) ![51, 0] S1x300.size inb_S128x300_S1x300_51_0) f ∗ scRow c (Rect.unit (s := S128x300) ![52, 0] S1x300.size inb_S128x300_S1x300_52_0) f ∗ scRow c (Rect.unit (s := S128x300) ![53, 0] S1x300.size inb_S128x300_S1x300_53_0) f ∗ scRow c (Rect.unit (s := S128x300) ![54, 0] S1x300.size inb_S128x300_S1x300_54_0) f ∗ scRow c (Rect.unit (s := S128x300) ![55, 0] S1x300.size inb_S128x300_S1x300_55_0) f ∗ scRow c (Rect.unit (s := S128x300) ![56, 0] S1x300.size inb_S128x300_S1x300_56_0) f ∗ scRow c (Rect.unit (s := S128x300) ![57, 0] S1x300.size inb_S128x300_S1x300_57_0) f ∗ scRow c (Rect.unit (s := S128x300) ![58, 0] S1x300.size inb_S128x300_S1x300_58_0) f ∗ scRow c (Rect.unit (s := S128x300) ![59, 0] S1x300.size inb_S128x300_S1x300_59_0) f ∗ scRow c (Rect.unit (s := S128x300) ![60, 0] S1x300.size inb_S128x300_S1x300_60_0) f ∗ scRow c (Rect.unit (s := S128x300) ![61, 0] S1x300.size inb_S128x300_S1x300_61_0) f ∗ scRow c (Rect.unit (s := S128x300) ![62, 0] S1x300.size inb_S128x300_S1x300_62_0) f ∗ scRow c (Rect.unit (s := S128x300) ![63, 0] S1x300.size inb_S128x300_S1x300_63_0) f ∗ scRow c (Rect.unit (s := S128x300) ![64, 0] S1x300.size inb_S128x300_S1x300_64_0) f ∗ scRow c (Rect.unit (s := S128x300) ![65, 0] S1x300.size inb_S128x300_S1x300_65_0) f ∗ scRow c (Rect.unit (s := S128x300) ![66, 0] S1x300.size inb_S128x300_S1x300_66_0) f ∗ scRow c (Rect.unit (s := S128x300) ![67, 0] S1x300.size inb_S128x300_S1x300_67_0) f ∗ scRow c (Rect.unit (s := S128x300) ![68, 0] S1x300.size inb_S128x300_S1x300_68_0) f ∗ scRow c (Rect.unit (s := S128x300) ![69, 0] S1x300.size inb_S128x300_S1x300_69_0) f ∗ scRow c (Rect.unit (s := S128x300) ![70, 0] S1x300.size inb_S128x300_S1x300_70_0) f ∗ scRow c (Rect.unit (s := S128x300) ![71, 0] S1x300.size inb_S128x300_S1x300_71_0) f ∗ scRow c (Rect.unit (s := S128x300) ![72, 0] S1x300.size inb_S128x300_S1x300_72_0) f ∗ scRow c (Rect.unit (s := S128x300) ![73, 0] S1x300.size inb_S128x300_S1x300_73_0) f ∗ scRow c (Rect.unit (s := S128x300) ![74, 0] S1x300.size inb_S128x300_S1x300_74_0) f ∗ scRow c (Rect.unit (s := S128x300) ![75, 0] S1x300.size inb_S128x300_S1x300_75_0) f ∗ scRow c (Rect.unit (s := S128x300) ![76, 0] S1x300.size inb_S128x300_S1x300_76_0) f ∗ scRow c (Rect.unit (s := S128x300) ![77, 0] S1x300.size inb_S128x300_S1x300_77_0) f ∗ scRow c (Rect.unit (s := S128x300) ![78, 0] S1x300.size inb_S128x300_S1x300_78_0) f ∗ scRow c (Rect.unit (s := S128x300) ![79, 0] S1x300.size inb_S128x300_S1x300_79_0) f ∗ scRow c (Rect.unit (s := S128x300) ![80, 0] S1x300.size inb_S128x300_S1x300_80_0) f ∗ scRow c (Rect.unit (s := S128x300) ![81, 0] S1x300.size inb_S128x300_S1x300_81_0) f ∗ scRow c (Rect.unit (s := S128x300) ![82, 0] S1x300.size inb_S128x300_S1x300_82_0) f ∗ scRow c (Rect.unit (s := S128x300) ![83, 0] S1x300.size inb_S128x300_S1x300_83_0) f ∗ scRow c (Rect.unit (s := S128x300) ![84, 0] S1x300.size inb_S128x300_S1x300_84_0) f ∗ scRow c (Rect.unit (s := S128x300) ![85, 0] S1x300.size inb_S128x300_S1x300_85_0) f ∗ scRow c (Rect.unit (s := S128x300) ![86, 0] S1x300.size inb_S128x300_S1x300_86_0) f ∗ scRow c (Rect.unit (s := S128x300) ![87, 0] S1x300.size inb_S128x300_S1x300_87_0) f ∗ scRow c (Rect.unit (s := S128x300) ![88, 0] S1x300.size inb_S128x300_S1x300_88_0) f ∗ scRow c (Rect.unit (s := S128x300) ![89, 0] S1x300.size inb_S128x300_S1x300_89_0) f ∗ scRow c (Rect.unit (s := S128x300) ![90, 0] S1x300.size inb_S128x300_S1x300_90_0) f ∗ scRow c (Rect.unit (s := S128x300) ![91, 0] S1x300.size inb_S128x300_S1x300_91_0) f ∗ scRow c (Rect.unit (s := S128x300) ![92, 0] S1x300.size inb_S128x300_S1x300_92_0) f ∗ scRow c (Rect.unit (s := S128x300) ![93, 0] S1x300.size inb_S128x300_S1x300_93_0) f ∗ scRow c (Rect.unit (s := S128x300) ![94, 0] S1x300.size inb_S128x300_S1x300_94_0) f ∗ scRow c (Rect.unit (s := S128x300) ![95, 0] S1x300.size inb_S128x300_S1x300_95_0) f ∗ scRow c (Rect.unit (s := S128x300) ![96, 0] S1x300.size inb_S128x300_S1x300_96_0) f ∗ scRow c (Rect.unit (s := S128x300) ![97, 0] S1x300.size inb_S128x300_S1x300_97_0) f ∗ scRow c (Rect.unit (s := S128x300) ![98, 0] S1x300.size inb_S128x300_S1x300_98_0) f ∗ scRow c (Rect.unit (s := S128x300) ![99, 0] S1x300.size inb_S128x300_S1x300_99_0) f ∗ scRow c (Rect.unit (s := S128x300) ![100, 0] S1x300.size inb_S128x300_S1x300_100_0) f ∗ scRow c (Rect.unit (s := S128x300) ![101, 0] S1x300.size inb_S128x300_S1x300_101_0) f ∗ scRow c (Rect.unit (s := S128x300) ![102, 0] S1x300.size inb_S128x300_S1x300_102_0) f ∗ scRow c (Rect.unit (s := S128x300) ![103, 0] S1x300.size inb_S128x300_S1x300_103_0) f ∗ scRow c (Rect.unit (s := S128x300) ![104, 0] S1x300.size inb_S128x300_S1x300_104_0) f ∗ scRow c (Rect.unit (s := S128x300) ![105, 0] S1x300.size inb_S128x300_S1x300_105_0) f ∗ scRow c (Rect.unit (s := S128x300) ![106, 0] S1x300.size inb_S128x300_S1x300_106_0) f ∗ scRow c (Rect.unit (s := S128x300) ![107, 0] S1x300.size inb_S128x300_S1x300_107_0) f ∗ scRow c (Rect.unit (s := S128x300) ![108, 0] S1x300.size inb_S128x300_S1x300_108_0) f ∗ scRow c (Rect.unit (s := S128x300) ![109, 0] S1x300.size inb_S128x300_S1x300_109_0) f ∗ scRow c (Rect.unit (s := S128x300) ![110, 0] S1x300.size inb_S128x300_S1x300_110_0) f ∗ scRow c (Rect.unit (s := S128x300) ![111, 0] S1x300.size inb_S128x300_S1x300_111_0) f ∗ scRow c (Rect.unit (s := S128x300) ![112, 0] S1x300.size inb_S128x300_S1x300_112_0) f ∗ scRow c (Rect.unit (s := S128x300) ![113, 0] S1x300.size inb_S128x300_S1x300_113_0) f ∗ scRow c (Rect.unit (s := S128x300) ![114, 0] S1x300.size inb_S128x300_S1x300_114_0) f ∗ scRow c (Rect.unit (s := S128x300) ![115, 0] S1x300.size inb_S128x300_S1x300_115_0) f ∗ scRow c (Rect.unit (s := S128x300) ![116, 0] S1x300.size inb_S128x300_S1x300_116_0) f ∗ scRow c (Rect.unit (s := S128x300) ![117, 0] S1x300.size inb_S128x300_S1x300_117_0) f ∗ scRow c (Rect.unit (s := S128x300) ![118, 0] S1x300.size inb_S128x300_S1x300_118_0) f ∗ scRow c (Rect.unit (s := S128x300) ![119, 0] S1x300.size inb_S128x300_S1x300_119_0) f ∗ scRow c (Rect.unit (s := S128x300) ![120, 0] S1x300.size inb_S128x300_S1x300_120_0) f ∗ scRow c (Rect.unit (s := S128x300) ![121, 0] S1x300.size inb_S128x300_S1x300_121_0) f ∗ scRow c (Rect.unit (s := S128x300) ![122, 0] S1x300.size inb_S128x300_S1x300_122_0) f ∗ scRow c (Rect.unit (s := S128x300) ![123, 0] S1x300.size inb_S128x300_S1x300_123_0) f ∗ scRow c (Rect.unit (s := S128x300) ![124, 0] S1x300.size inb_S128x300_S1x300_124_0) f ∗ scRow c (Rect.unit (s := S128x300) ![125, 0] S1x300.size inb_S128x300_S1x300_125_0) f ∗ scRow c (Rect.unit (s := S128x300) ![126, 0] S1x300.size inb_S128x300_S1x300_126_0) f ∗ scRow c (Rect.unit (s := S128x300) ![127, 0] S1x300.size inb_S128x300_S1x300_127_0) f) :=
  bigSep_univ_eq_bigSepL [(0 : Fin 128), (1 : Fin 128), (2 : Fin 128), (3 : Fin 128), (4 : Fin 128), (5 : Fin 128), (6 : Fin 128), (7 : Fin 128), (8 : Fin 128), (9 : Fin 128), (10 : Fin 128), (11 : Fin 128), (12 : Fin 128), (13 : Fin 128), (14 : Fin 128), (15 : Fin 128), (16 : Fin 128), (17 : Fin 128), (18 : Fin 128), (19 : Fin 128), (20 : Fin 128), (21 : Fin 128), (22 : Fin 128), (23 : Fin 128), (24 : Fin 128), (25 : Fin 128), (26 : Fin 128), (27 : Fin 128), (28 : Fin 128), (29 : Fin 128), (30 : Fin 128), (31 : Fin 128), (32 : Fin 128), (33 : Fin 128), (34 : Fin 128), (35 : Fin 128), (36 : Fin 128), (37 : Fin 128), (38 : Fin 128), (39 : Fin 128), (40 : Fin 128), (41 : Fin 128), (42 : Fin 128), (43 : Fin 128), (44 : Fin 128), (45 : Fin 128), (46 : Fin 128), (47 : Fin 128), (48 : Fin 128), (49 : Fin 128), (50 : Fin 128), (51 : Fin 128), (52 : Fin 128), (53 : Fin 128), (54 : Fin 128), (55 : Fin 128), (56 : Fin 128), (57 : Fin 128), (58 : Fin 128), (59 : Fin 128), (60 : Fin 128), (61 : Fin 128), (62 : Fin 128), (63 : Fin 128), (64 : Fin 128), (65 : Fin 128), (66 : Fin 128), (67 : Fin 128), (68 : Fin 128), (69 : Fin 128), (70 : Fin 128), (71 : Fin 128), (72 : Fin 128), (73 : Fin 128), (74 : Fin 128), (75 : Fin 128), (76 : Fin 128), (77 : Fin 128), (78 : Fin 128), (79 : Fin 128), (80 : Fin 128), (81 : Fin 128), (82 : Fin 128), (83 : Fin 128), (84 : Fin 128), (85 : Fin 128), (86 : Fin 128), (87 : Fin 128), (88 : Fin 128), (89 : Fin 128), (90 : Fin 128), (91 : Fin 128), (92 : Fin 128), (93 : Fin 128), (94 : Fin 128), (95 : Fin 128), (96 : Fin 128), (97 : Fin 128), (98 : Fin 128), (99 : Fin 128), (100 : Fin 128), (101 : Fin 128), (102 : Fin 128), (103 : Fin 128), (104 : Fin 128), (105 : Fin 128), (106 : Fin 128), (107 : Fin 128), (108 : Fin 128), (109 : Fin 128), (110 : Fin 128), (111 : Fin 128), (112 : Fin 128), (113 : Fin 128), (114 : Fin 128), (115 : Fin 128), (116 : Fin 128), (117 : Fin 128), (118 : Fin 128), (119 : Fin 128), (120 : Fin 128), (121 : Fin 128), (122 : Fin 128), (123 : Fin 128), (124 : Fin 128), (125 : Fin 128), (126 : Fin 128), (127 : Fin 128)] (by decide +kernel) (by decide +kernel) _

set_option maxHeartbeats 4000000 in
/-- The landed rows held one by one, written out row by row. -/
theorem landed_chain (c : Dev nD) (fs : ScBuf (F := F) c) (pay : Fin 128 → Vec F S300 .f32) :
    (bigSep Finset.univ (fun k : Fin 128 => scRow c (rowRect k) (View.write (Elt F) (rowSq k).view fs (pay k) Finset.univ)) : sProp 𝕄)
      = iprop(scRow c (Rect.unit (s := S128x300) ![0, 0] S1x300.size inb_S128x300_S1x300_0_0) (View.write (Elt F) (((scM).slice (Rect.unit (s := S128x300) ![0, 0] S1x300.size inb_S128x300_S1x300_0_0) (fun _ => rfl)).squeeze S300 squeezes_S1x300_S300).view fs (pay 0) Finset.univ) ∗ scRow c (Rect.unit (s := S128x300) ![1, 0] S1x300.size inb_S128x300_S1x300_1_0) (View.write (Elt F) (((scM).slice (Rect.unit (s := S128x300) ![1, 0] S1x300.size inb_S128x300_S1x300_1_0) (fun _ => rfl)).squeeze S300 squeezes_S1x300_S300).view fs (pay 1) Finset.univ) ∗ scRow c (Rect.unit (s := S128x300) ![2, 0] S1x300.size inb_S128x300_S1x300_2_0) (View.write (Elt F) (((scM).slice (Rect.unit (s := S128x300) ![2, 0] S1x300.size inb_S128x300_S1x300_2_0) (fun _ => rfl)).squeeze S300 squeezes_S1x300_S300).view fs (pay 2) Finset.univ) ∗ scRow c (Rect.unit (s := S128x300) ![3, 0] S1x300.size inb_S128x300_S1x300_3_0) (View.write (Elt F) (((scM).slice (Rect.unit (s := S128x300) ![3, 0] S1x300.size inb_S128x300_S1x300_3_0) (fun _ => rfl)).squeeze S300 squeezes_S1x300_S300).view fs (pay 3) Finset.univ) ∗ scRow c (Rect.unit (s := S128x300) ![4, 0] S1x300.size inb_S128x300_S1x300_4_0) (View.write (Elt F) (((scM).slice (Rect.unit (s := S128x300) ![4, 0] S1x300.size inb_S128x300_S1x300_4_0) (fun _ => rfl)).squeeze S300 squeezes_S1x300_S300).view fs (pay 4) Finset.univ) ∗ scRow c (Rect.unit (s := S128x300) ![5, 0] S1x300.size inb_S128x300_S1x300_5_0) (View.write (Elt F) (((scM).slice (Rect.unit (s := S128x300) ![5, 0] S1x300.size inb_S128x300_S1x300_5_0) (fun _ => rfl)).squeeze S300 squeezes_S1x300_S300).view fs (pay 5) Finset.univ) ∗ scRow c (Rect.unit (s := S128x300) ![6, 0] S1x300.size inb_S128x300_S1x300_6_0) (View.write (Elt F) (((scM).slice (Rect.unit (s := S128x300) ![6, 0] S1x300.size inb_S128x300_S1x300_6_0) (fun _ => rfl)).squeeze S300 squeezes_S1x300_S300).view fs (pay 6) Finset.univ) ∗ scRow c (Rect.unit (s := S128x300) ![7, 0] S1x300.size inb_S128x300_S1x300_7_0) (View.write (Elt F) (((scM).slice (Rect.unit (s := S128x300) ![7, 0] S1x300.size inb_S128x300_S1x300_7_0) (fun _ => rfl)).squeeze S300 squeezes_S1x300_S300).view fs (pay 7) Finset.univ) ∗ scRow c (Rect.unit (s := S128x300) ![8, 0] S1x300.size inb_S128x300_S1x300_8_0) (View.write (Elt F) (((scM).slice (Rect.unit (s := S128x300) ![8, 0] S1x300.size inb_S128x300_S1x300_8_0) (fun _ => rfl)).squeeze S300 squeezes_S1x300_S300).view fs (pay 8) Finset.univ) ∗ scRow c (Rect.unit (s := S128x300) ![9, 0] S1x300.size inb_S128x300_S1x300_9_0) (View.write (Elt F) (((scM).slice (Rect.unit (s := S128x300) ![9, 0] S1x300.size inb_S128x300_S1x300_9_0) (fun _ => rfl)).squeeze S300 squeezes_S1x300_S300).view fs (pay 9) Finset.univ) ∗ scRow c (Rect.unit (s := S128x300) ![10, 0] S1x300.size inb_S128x300_S1x300_10_0) (View.write (Elt F) (((scM).slice (Rect.unit (s := S128x300) ![10, 0] S1x300.size inb_S128x300_S1x300_10_0) (fun _ => rfl)).squeeze S300 squeezes_S1x300_S300).view fs (pay 10) Finset.univ) ∗ scRow c (Rect.unit (s := S128x300) ![11, 0] S1x300.size inb_S128x300_S1x300_11_0) (View.write (Elt F) (((scM).slice (Rect.unit (s := S128x300) ![11, 0] S1x300.size inb_S128x300_S1x300_11_0) (fun _ => rfl)).squeeze S300 squeezes_S1x300_S300).view fs (pay 11) Finset.univ) ∗ scRow c (Rect.unit (s := S128x300) ![12, 0] S1x300.size inb_S128x300_S1x300_12_0) (View.write (Elt F) (((scM).slice (Rect.unit (s := S128x300) ![12, 0] S1x300.size inb_S128x300_S1x300_12_0) (fun _ => rfl)).squeeze S300 squeezes_S1x300_S300).view fs (pay 12) Finset.univ) ∗ scRow c (Rect.unit (s := S128x300) ![13, 0] S1x300.size inb_S128x300_S1x300_13_0) (View.write (Elt F) (((scM).slice (Rect.unit (s := S128x300) ![13, 0] S1x300.size inb_S128x300_S1x300_13_0) (fun _ => rfl)).squeeze S300 squeezes_S1x300_S300).view fs (pay 13) Finset.univ) ∗ scRow c (Rect.unit (s := S128x300) ![14, 0] S1x300.size inb_S128x300_S1x300_14_0) (View.write (Elt F) (((scM).slice (Rect.unit (s := S128x300) ![14, 0] S1x300.size inb_S128x300_S1x300_14_0) (fun _ => rfl)).squeeze S300 squeezes_S1x300_S300).view fs (pay 14) Finset.univ) ∗ scRow c (Rect.unit (s := S128x300) ![15, 0] S1x300.size inb_S128x300_S1x300_15_0) (View.write (Elt F) (((scM).slice (Rect.unit (s := S128x300) ![15, 0] S1x300.size inb_S128x300_S1x300_15_0) (fun _ => rfl)).squeeze S300 squeezes_S1x300_S300).view fs (pay 15) Finset.univ) ∗ scRow c (Rect.unit (s := S128x300) ![16, 0] S1x300.size inb_S128x300_S1x300_16_0) (View.write (Elt F) (((scM).slice (Rect.unit (s := S128x300) ![16, 0] S1x300.size inb_S128x300_S1x300_16_0) (fun _ => rfl)).squeeze S300 squeezes_S1x300_S300).view fs (pay 16) Finset.univ) ∗ scRow c (Rect.unit (s := S128x300) ![17, 0] S1x300.size inb_S128x300_S1x300_17_0) (View.write (Elt F) (((scM).slice (Rect.unit (s := S128x300) ![17, 0] S1x300.size inb_S128x300_S1x300_17_0) (fun _ => rfl)).squeeze S300 squeezes_S1x300_S300).view fs (pay 17) Finset.univ) ∗ scRow c (Rect.unit (s := S128x300) ![18, 0] S1x300.size inb_S128x300_S1x300_18_0) (View.write (Elt F) (((scM).slice (Rect.unit (s := S128x300) ![18, 0] S1x300.size inb_S128x300_S1x300_18_0) (fun _ => rfl)).squeeze S300 squeezes_S1x300_S300).view fs (pay 18) Finset.univ) ∗ scRow c (Rect.unit (s := S128x300) ![19, 0] S1x300.size inb_S128x300_S1x300_19_0) (View.write (Elt F) (((scM).slice (Rect.unit (s := S128x300) ![19, 0] S1x300.size inb_S128x300_S1x300_19_0) (fun _ => rfl)).squeeze S300 squeezes_S1x300_S300).view fs (pay 19) Finset.univ) ∗ scRow c (Rect.unit (s := S128x300) ![20, 0] S1x300.size inb_S128x300_S1x300_20_0) (View.write (Elt F) (((scM).slice (Rect.unit (s := S128x300) ![20, 0] S1x300.size inb_S128x300_S1x300_20_0) (fun _ => rfl)).squeeze S300 squeezes_S1x300_S300).view fs (pay 20) Finset.univ) ∗ scRow c (Rect.unit (s := S128x300) ![21, 0] S1x300.size inb_S128x300_S1x300_21_0) (View.write (Elt F) (((scM).slice (Rect.unit (s := S128x300) ![21, 0] S1x300.size inb_S128x300_S1x300_21_0) (fun _ => rfl)).squeeze S300 squeezes_S1x300_S300).view fs (pay 21) Finset.univ) ∗ scRow c (Rect.unit (s := S128x300) ![22, 0] S1x300.size inb_S128x300_S1x300_22_0) (View.write (Elt F) (((scM).slice (Rect.unit (s := S128x300) ![22, 0] S1x300.size inb_S128x300_S1x300_22_0) (fun _ => rfl)).squeeze S300 squeezes_S1x300_S300).view fs (pay 22) Finset.univ) ∗ scRow c (Rect.unit (s := S128x300) ![23, 0] S1x300.size inb_S128x300_S1x300_23_0) (View.write (Elt F) (((scM).slice (Rect.unit (s := S128x300) ![23, 0] S1x300.size inb_S128x300_S1x300_23_0) (fun _ => rfl)).squeeze S300 squeezes_S1x300_S300).view fs (pay 23) Finset.univ) ∗ scRow c (Rect.unit (s := S128x300) ![24, 0] S1x300.size inb_S128x300_S1x300_24_0) (View.write (Elt F) (((scM).slice (Rect.unit (s := S128x300) ![24, 0] S1x300.size inb_S128x300_S1x300_24_0) (fun _ => rfl)).squeeze S300 squeezes_S1x300_S300).view fs (pay 24) Finset.univ) ∗ scRow c (Rect.unit (s := S128x300) ![25, 0] S1x300.size inb_S128x300_S1x300_25_0) (View.write (Elt F) (((scM).slice (Rect.unit (s := S128x300) ![25, 0] S1x300.size inb_S128x300_S1x300_25_0) (fun _ => rfl)).squeeze S300 squeezes_S1x300_S300).view fs (pay 25) Finset.univ) ∗ scRow c (Rect.unit (s := S128x300) ![26, 0] S1x300.size inb_S128x300_S1x300_26_0) (View.write (Elt F) (((scM).slice (Rect.unit (s := S128x300) ![26, 0] S1x300.size inb_S128x300_S1x300_26_0) (fun _ => rfl)).squeeze S300 squeezes_S1x300_S300).view fs (pay 26) Finset.univ) ∗ scRow c (Rect.unit (s := S128x300) ![27, 0] S1x300.size inb_S128x300_S1x300_27_0) (View.write (Elt F) (((scM).slice (Rect.unit (s := S128x300) ![27, 0] S1x300.size inb_S128x300_S1x300_27_0) (fun _ => rfl)).squeeze S300 squeezes_S1x300_S300).view fs (pay 27) Finset.univ) ∗ scRow c (Rect.unit (s := S128x300) ![28, 0] S1x300.size inb_S128x300_S1x300_28_0) (View.write (Elt F) (((scM).slice (Rect.unit (s := S128x300) ![28, 0] S1x300.size inb_S128x300_S1x300_28_0) (fun _ => rfl)).squeeze S300 squeezes_S1x300_S300).view fs (pay 28) Finset.univ) ∗ scRow c (Rect.unit (s := S128x300) ![29, 0] S1x300.size inb_S128x300_S1x300_29_0) (View.write (Elt F) (((scM).slice (Rect.unit (s := S128x300) ![29, 0] S1x300.size inb_S128x300_S1x300_29_0) (fun _ => rfl)).squeeze S300 squeezes_S1x300_S300).view fs (pay 29) Finset.univ) ∗ scRow c (Rect.unit (s := S128x300) ![30, 0] S1x300.size inb_S128x300_S1x300_30_0) (View.write (Elt F) (((scM).slice (Rect.unit (s := S128x300) ![30, 0] S1x300.size inb_S128x300_S1x300_30_0) (fun _ => rfl)).squeeze S300 squeezes_S1x300_S300).view fs (pay 30) Finset.univ) ∗ scRow c (Rect.unit (s := S128x300) ![31, 0] S1x300.size inb_S128x300_S1x300_31_0) (View.write (Elt F) (((scM).slice (Rect.unit (s := S128x300) ![31, 0] S1x300.size inb_S128x300_S1x300_31_0) (fun _ => rfl)).squeeze S300 squeezes_S1x300_S300).view fs (pay 31) Finset.univ) ∗ scRow c (Rect.unit (s := S128x300) ![32, 0] S1x300.size inb_S128x300_S1x300_32_0) (View.write (Elt F) (((scM).slice (Rect.unit (s := S128x300) ![32, 0] S1x300.size inb_S128x300_S1x300_32_0) (fun _ => rfl)).squeeze S300 squeezes_S1x300_S300).view fs (pay 32) Finset.univ) ∗ scRow c (Rect.unit (s := S128x300) ![33, 0] S1x300.size inb_S128x300_S1x300_33_0) (View.write (Elt F) (((scM).slice (Rect.unit (s := S128x300) ![33, 0] S1x300.size inb_S128x300_S1x300_33_0) (fun _ => rfl)).squeeze S300 squeezes_S1x300_S300).view fs (pay 33) Finset.univ) ∗ scRow c (Rect.unit (s := S128x300) ![34, 0] S1x300.size inb_S128x300_S1x300_34_0) (View.write (Elt F) (((scM).slice (Rect.unit (s := S128x300) ![34, 0] S1x300.size inb_S128x300_S1x300_34_0) (fun _ => rfl)).squeeze S300 squeezes_S1x300_S300).view fs (pay 34) Finset.univ) ∗ scRow c (Rect.unit (s := S128x300) ![35, 0] S1x300.size inb_S128x300_S1x300_35_0) (View.write (Elt F) (((scM).slice (Rect.unit (s := S128x300) ![35, 0] S1x300.size inb_S128x300_S1x300_35_0) (fun _ => rfl)).squeeze S300 squeezes_S1x300_S300).view fs (pay 35) Finset.univ) ∗ scRow c (Rect.unit (s := S128x300) ![36, 0] S1x300.size inb_S128x300_S1x300_36_0) (View.write (Elt F) (((scM).slice (Rect.unit (s := S128x300) ![36, 0] S1x300.size inb_S128x300_S1x300_36_0) (fun _ => rfl)).squeeze S300 squeezes_S1x300_S300).view fs (pay 36) Finset.univ) ∗ scRow c (Rect.unit (s := S128x300) ![37, 0] S1x300.size inb_S128x300_S1x300_37_0) (View.write (Elt F) (((scM).slice (Rect.unit (s := S128x300) ![37, 0] S1x300.size inb_S128x300_S1x300_37_0) (fun _ => rfl)).squeeze S300 squeezes_S1x300_S300).view fs (pay 37) Finset.univ) ∗ scRow c (Rect.unit (s := S128x300) ![38, 0] S1x300.size inb_S128x300_S1x300_38_0) (View.write (Elt F) (((scM).slice (Rect.unit (s := S128x300) ![38, 0] S1x300.size inb_S128x300_S1x300_38_0) (fun _ => rfl)).squeeze S300 squeezes_S1x300_S300).view fs (pay 38) Finset.univ) ∗ scRow c (Rect.unit (s := S128x300) ![39, 0] S1x300.size inb_S128x300_S1x300_39_0) (View.write (Elt F) (((scM).slice (Rect.unit (s := S128x300) ![39, 0] S1x300.size inb_S128x300_S1x300_39_0) (fun _ => rfl)).squeeze S300 squeezes_S1x300_S300).view fs (pay 39) Finset.univ) ∗ scRow c (Rect.unit (s := S128x300) ![40, 0] S1x300.size inb_S128x300_S1x300_40_0) (View.write (Elt F) (((scM).slice (Rect.unit (s := S128x300) ![40, 0] S1x300.size inb_S128x300_S1x300_40_0) (fun _ => rfl)).squeeze S300 squeezes_S1x300_S300).view fs (pay 40) Finset.univ) ∗ scRow c (Rect.unit (s := S128x300) ![41, 0] S1x300.size inb_S128x300_S1x300_41_0) (View.write (Elt F) (((scM).slice (Rect.unit (s := S128x300) ![41, 0] S1x300.size inb_S128x300_S1x300_41_0) (fun _ => rfl)).squeeze S300 squeezes_S1x300_S300).view fs (pay 41) Finset.univ) ∗ scRow c (Rect.unit (s := S128x300) ![42, 0] S1x300.size inb_S128x300_S1x300_42_0) (View.write (Elt F) (((scM).slice (Rect.unit (s := S128x300) ![42, 0] S1x300.size inb_S128x300_S1x300_42_0) (fun _ => rfl)).squeeze S300 squeezes_S1x300_S300).view fs (pay 42) Finset.univ) ∗ scRow c (Rect.unit (s := S128x300) ![43, 0] S1x300.size inb_S128x300_S1x300_43_0) (View.write (Elt F) (((scM).slice (Rect.unit (s := S128x300) ![43, 0] S1x300.size inb_S128x300_S1x300_43_0) (fun _ => rfl)).squeeze S300 squeezes_S1x300_S300).view fs (pay 43) Finset.univ) ∗ scRow c (Rect.unit (s := S128x300) ![44, 0] S1x300.size inb_S128x300_S1x300_44_0) (View.write (Elt F) (((scM).slice (Rect.unit (s := S128x300) ![44, 0] S1x300.size inb_S128x300_S1x300_44_0) (fun _ => rfl)).squeeze S300 squeezes_S1x300_S300).view fs (pay 44) Finset.univ) ∗ scRow c (Rect.unit (s := S128x300) ![45, 0] S1x300.size inb_S128x300_S1x300_45_0) (View.write (Elt F) (((scM).slice (Rect.unit (s := S128x300) ![45, 0] S1x300.size inb_S128x300_S1x300_45_0) (fun _ => rfl)).squeeze S300 squeezes_S1x300_S300).view fs (pay 45) Finset.univ) ∗ scRow c (Rect.unit (s := S128x300) ![46, 0] S1x300.size inb_S128x300_S1x300_46_0) (View.write (Elt F) (((scM).slice (Rect.unit (s := S128x300) ![46, 0] S1x300.size inb_S128x300_S1x300_46_0) (fun _ => rfl)).squeeze S300 squeezes_S1x300_S300).view fs (pay 46) Finset.univ) ∗ scRow c (Rect.unit (s := S128x300) ![47, 0] S1x300.size inb_S128x300_S1x300_47_0) (View.write (Elt F) (((scM).slice (Rect.unit (s := S128x300) ![47, 0] S1x300.size inb_S128x300_S1x300_47_0) (fun _ => rfl)).squeeze S300 squeezes_S1x300_S300).view fs (pay 47) Finset.univ) ∗ scRow c (Rect.unit (s := S128x300) ![48, 0] S1x300.size inb_S128x300_S1x300_48_0) (View.write (Elt F) (((scM).slice (Rect.unit (s := S128x300) ![48, 0] S1x300.size inb_S128x300_S1x300_48_0) (fun _ => rfl)).squeeze S300 squeezes_S1x300_S300).view fs (pay 48) Finset.univ) ∗ scRow c (Rect.unit (s := S128x300) ![49, 0] S1x300.size inb_S128x300_S1x300_49_0) (View.write (Elt F) (((scM).slice (Rect.unit (s := S128x300) ![49, 0] S1x300.size inb_S128x300_S1x300_49_0) (fun _ => rfl)).squeeze S300 squeezes_S1x300_S300).view fs (pay 49) Finset.univ) ∗ scRow c (Rect.unit (s := S128x300) ![50, 0] S1x300.size inb_S128x300_S1x300_50_0) (View.write (Elt F) (((scM).slice (Rect.unit (s := S128x300) ![50, 0] S1x300.size inb_S128x300_S1x300_50_0) (fun _ => rfl)).squeeze S300 squeezes_S1x300_S300).view fs (pay 50) Finset.univ) ∗ scRow c (Rect.unit (s := S128x300) ![51, 0] S1x300.size inb_S128x300_S1x300_51_0) (View.write (Elt F) (((scM).slice (Rect.unit (s := S128x300) ![51, 0] S1x300.size inb_S128x300_S1x300_51_0) (fun _ => rfl)).squeeze S300 squeezes_S1x300_S300).view fs (pay 51) Finset.univ) ∗ scRow c (Rect.unit (s := S128x300) ![52, 0] S1x300.size inb_S128x300_S1x300_52_0) (View.write (Elt F) (((scM).slice (Rect.unit (s := S128x300) ![52, 0] S1x300.size inb_S128x300_S1x300_52_0) (fun _ => rfl)).squeeze S300 squeezes_S1x300_S300).view fs (pay 52) Finset.univ) ∗ scRow c (Rect.unit (s := S128x300) ![53, 0] S1x300.size inb_S128x300_S1x300_53_0) (View.write (Elt F) (((scM).slice (Rect.unit (s := S128x300) ![53, 0] S1x300.size inb_S128x300_S1x300_53_0) (fun _ => rfl)).squeeze S300 squeezes_S1x300_S300).view fs (pay 53) Finset.univ) ∗ scRow c (Rect.unit (s := S128x300) ![54, 0] S1x300.size inb_S128x300_S1x300_54_0) (View.write (Elt F) (((scM).slice (Rect.unit (s := S128x300) ![54, 0] S1x300.size inb_S128x300_S1x300_54_0) (fun _ => rfl)).squeeze S300 squeezes_S1x300_S300).view fs (pay 54) Finset.univ) ∗ scRow c (Rect.unit (s := S128x300) ![55, 0] S1x300.size inb_S128x300_S1x300_55_0) (View.write (Elt F) (((scM).slice (Rect.unit (s := S128x300) ![55, 0] S1x300.size inb_S128x300_S1x300_55_0) (fun _ => rfl)).squeeze S300 squeezes_S1x300_S300).view fs (pay 55) Finset.univ) ∗ scRow c (Rect.unit (s := S128x300) ![56, 0] S1x300.size inb_S128x300_S1x300_56_0) (View.write (Elt F) (((scM).slice (Rect.unit (s := S128x300) ![56, 0] S1x300.size inb_S128x300_S1x300_56_0) (fun _ => rfl)).squeeze S300 squeezes_S1x300_S300).view fs (pay 56) Finset.univ) ∗ scRow c (Rect.unit (s := S128x300) ![57, 0] S1x300.size inb_S128x300_S1x300_57_0) (View.write (Elt F) (((scM).slice (Rect.unit (s := S128x300) ![57, 0] S1x300.size inb_S128x300_S1x300_57_0) (fun _ => rfl)).squeeze S300 squeezes_S1x300_S300).view fs (pay 57) Finset.univ) ∗ scRow c (Rect.unit (s := S128x300) ![58, 0] S1x300.size inb_S128x300_S1x300_58_0) (View.write (Elt F) (((scM).slice (Rect.unit (s := S128x300) ![58, 0] S1x300.size inb_S128x300_S1x300_58_0) (fun _ => rfl)).squeeze S300 squeezes_S1x300_S300).view fs (pay 58) Finset.univ) ∗ scRow c (Rect.unit (s := S128x300) ![59, 0] S1x300.size inb_S128x300_S1x300_59_0) (View.write (Elt F) (((scM).slice (Rect.unit (s := S128x300) ![59, 0] S1x300.size inb_S128x300_S1x300_59_0) (fun _ => rfl)).squeeze S300 squeezes_S1x300_S300).view fs (pay 59) Finset.univ) ∗ scRow c (Rect.unit (s := S128x300) ![60, 0] S1x300.size inb_S128x300_S1x300_60_0) (View.write (Elt F) (((scM).slice (Rect.unit (s := S128x300) ![60, 0] S1x300.size inb_S128x300_S1x300_60_0) (fun _ => rfl)).squeeze S300 squeezes_S1x300_S300).view fs (pay 60) Finset.univ) ∗ scRow c (Rect.unit (s := S128x300) ![61, 0] S1x300.size inb_S128x300_S1x300_61_0) (View.write (Elt F) (((scM).slice (Rect.unit (s := S128x300) ![61, 0] S1x300.size inb_S128x300_S1x300_61_0) (fun _ => rfl)).squeeze S300 squeezes_S1x300_S300).view fs (pay 61) Finset.univ) ∗ scRow c (Rect.unit (s := S128x300) ![62, 0] S1x300.size inb_S128x300_S1x300_62_0) (View.write (Elt F) (((scM).slice (Rect.unit (s := S128x300) ![62, 0] S1x300.size inb_S128x300_S1x300_62_0) (fun _ => rfl)).squeeze S300 squeezes_S1x300_S300).view fs (pay 62) Finset.univ) ∗ scRow c (Rect.unit (s := S128x300) ![63, 0] S1x300.size inb_S128x300_S1x300_63_0) (View.write (Elt F) (((scM).slice (Rect.unit (s := S128x300) ![63, 0] S1x300.size inb_S128x300_S1x300_63_0) (fun _ => rfl)).squeeze S300 squeezes_S1x300_S300).view fs (pay 63) Finset.univ) ∗ scRow c (Rect.unit (s := S128x300) ![64, 0] S1x300.size inb_S128x300_S1x300_64_0) (View.write (Elt F) (((scM).slice (Rect.unit (s := S128x300) ![64, 0] S1x300.size inb_S128x300_S1x300_64_0) (fun _ => rfl)).squeeze S300 squeezes_S1x300_S300).view fs (pay 64) Finset.univ) ∗ scRow c (Rect.unit (s := S128x300) ![65, 0] S1x300.size inb_S128x300_S1x300_65_0) (View.write (Elt F) (((scM).slice (Rect.unit (s := S128x300) ![65, 0] S1x300.size inb_S128x300_S1x300_65_0) (fun _ => rfl)).squeeze S300 squeezes_S1x300_S300).view fs (pay 65) Finset.univ) ∗ scRow c (Rect.unit (s := S128x300) ![66, 0] S1x300.size inb_S128x300_S1x300_66_0) (View.write (Elt F) (((scM).slice (Rect.unit (s := S128x300) ![66, 0] S1x300.size inb_S128x300_S1x300_66_0) (fun _ => rfl)).squeeze S300 squeezes_S1x300_S300).view fs (pay 66) Finset.univ) ∗ scRow c (Rect.unit (s := S128x300) ![67, 0] S1x300.size inb_S128x300_S1x300_67_0) (View.write (Elt F) (((scM).slice (Rect.unit (s := S128x300) ![67, 0] S1x300.size inb_S128x300_S1x300_67_0) (fun _ => rfl)).squeeze S300 squeezes_S1x300_S300).view fs (pay 67) Finset.univ) ∗ scRow c (Rect.unit (s := S128x300) ![68, 0] S1x300.size inb_S128x300_S1x300_68_0) (View.write (Elt F) (((scM).slice (Rect.unit (s := S128x300) ![68, 0] S1x300.size inb_S128x300_S1x300_68_0) (fun _ => rfl)).squeeze S300 squeezes_S1x300_S300).view fs (pay 68) Finset.univ) ∗ scRow c (Rect.unit (s := S128x300) ![69, 0] S1x300.size inb_S128x300_S1x300_69_0) (View.write (Elt F) (((scM).slice (Rect.unit (s := S128x300) ![69, 0] S1x300.size inb_S128x300_S1x300_69_0) (fun _ => rfl)).squeeze S300 squeezes_S1x300_S300).view fs (pay 69) Finset.univ) ∗ scRow c (Rect.unit (s := S128x300) ![70, 0] S1x300.size inb_S128x300_S1x300_70_0) (View.write (Elt F) (((scM).slice (Rect.unit (s := S128x300) ![70, 0] S1x300.size inb_S128x300_S1x300_70_0) (fun _ => rfl)).squeeze S300 squeezes_S1x300_S300).view fs (pay 70) Finset.univ) ∗ scRow c (Rect.unit (s := S128x300) ![71, 0] S1x300.size inb_S128x300_S1x300_71_0) (View.write (Elt F) (((scM).slice (Rect.unit (s := S128x300) ![71, 0] S1x300.size inb_S128x300_S1x300_71_0) (fun _ => rfl)).squeeze S300 squeezes_S1x300_S300).view fs (pay 71) Finset.univ) ∗ scRow c (Rect.unit (s := S128x300) ![72, 0] S1x300.size inb_S128x300_S1x300_72_0) (View.write (Elt F) (((scM).slice (Rect.unit (s := S128x300) ![72, 0] S1x300.size inb_S128x300_S1x300_72_0) (fun _ => rfl)).squeeze S300 squeezes_S1x300_S300).view fs (pay 72) Finset.univ) ∗ scRow c (Rect.unit (s := S128x300) ![73, 0] S1x300.size inb_S128x300_S1x300_73_0) (View.write (Elt F) (((scM).slice (Rect.unit (s := S128x300) ![73, 0] S1x300.size inb_S128x300_S1x300_73_0) (fun _ => rfl)).squeeze S300 squeezes_S1x300_S300).view fs (pay 73) Finset.univ) ∗ scRow c (Rect.unit (s := S128x300) ![74, 0] S1x300.size inb_S128x300_S1x300_74_0) (View.write (Elt F) (((scM).slice (Rect.unit (s := S128x300) ![74, 0] S1x300.size inb_S128x300_S1x300_74_0) (fun _ => rfl)).squeeze S300 squeezes_S1x300_S300).view fs (pay 74) Finset.univ) ∗ scRow c (Rect.unit (s := S128x300) ![75, 0] S1x300.size inb_S128x300_S1x300_75_0) (View.write (Elt F) (((scM).slice (Rect.unit (s := S128x300) ![75, 0] S1x300.size inb_S128x300_S1x300_75_0) (fun _ => rfl)).squeeze S300 squeezes_S1x300_S300).view fs (pay 75) Finset.univ) ∗ scRow c (Rect.unit (s := S128x300) ![76, 0] S1x300.size inb_S128x300_S1x300_76_0) (View.write (Elt F) (((scM).slice (Rect.unit (s := S128x300) ![76, 0] S1x300.size inb_S128x300_S1x300_76_0) (fun _ => rfl)).squeeze S300 squeezes_S1x300_S300).view fs (pay 76) Finset.univ) ∗ scRow c (Rect.unit (s := S128x300) ![77, 0] S1x300.size inb_S128x300_S1x300_77_0) (View.write (Elt F) (((scM).slice (Rect.unit (s := S128x300) ![77, 0] S1x300.size inb_S128x300_S1x300_77_0) (fun _ => rfl)).squeeze S300 squeezes_S1x300_S300).view fs (pay 77) Finset.univ) ∗ scRow c (Rect.unit (s := S128x300) ![78, 0] S1x300.size inb_S128x300_S1x300_78_0) (View.write (Elt F) (((scM).slice (Rect.unit (s := S128x300) ![78, 0] S1x300.size inb_S128x300_S1x300_78_0) (fun _ => rfl)).squeeze S300 squeezes_S1x300_S300).view fs (pay 78) Finset.univ) ∗ scRow c (Rect.unit (s := S128x300) ![79, 0] S1x300.size inb_S128x300_S1x300_79_0) (View.write (Elt F) (((scM).slice (Rect.unit (s := S128x300) ![79, 0] S1x300.size inb_S128x300_S1x300_79_0) (fun _ => rfl)).squeeze S300 squeezes_S1x300_S300).view fs (pay 79) Finset.univ) ∗ scRow c (Rect.unit (s := S128x300) ![80, 0] S1x300.size inb_S128x300_S1x300_80_0) (View.write (Elt F) (((scM).slice (Rect.unit (s := S128x300) ![80, 0] S1x300.size inb_S128x300_S1x300_80_0) (fun _ => rfl)).squeeze S300 squeezes_S1x300_S300).view fs (pay 80) Finset.univ) ∗ scRow c (Rect.unit (s := S128x300) ![81, 0] S1x300.size inb_S128x300_S1x300_81_0) (View.write (Elt F) (((scM).slice (Rect.unit (s := S128x300) ![81, 0] S1x300.size inb_S128x300_S1x300_81_0) (fun _ => rfl)).squeeze S300 squeezes_S1x300_S300).view fs (pay 81) Finset.univ) ∗ scRow c (Rect.unit (s := S128x300) ![82, 0] S1x300.size inb_S128x300_S1x300_82_0) (View.write (Elt F) (((scM).slice (Rect.unit (s := S128x300) ![82, 0] S1x300.size inb_S128x300_S1x300_82_0) (fun _ => rfl)).squeeze S300 squeezes_S1x300_S300).view fs (pay 82) Finset.univ) ∗ scRow c (Rect.unit (s := S128x300) ![83, 0] S1x300.size inb_S128x300_S1x300_83_0) (View.write (Elt F) (((scM).slice (Rect.unit (s := S128x300) ![83, 0] S1x300.size inb_S128x300_S1x300_83_0) (fun _ => rfl)).squeeze S300 squeezes_S1x300_S300).view fs (pay 83) Finset.univ) ∗ scRow c (Rect.unit (s := S128x300) ![84, 0] S1x300.size inb_S128x300_S1x300_84_0) (View.write (Elt F) (((scM).slice (Rect.unit (s := S128x300) ![84, 0] S1x300.size inb_S128x300_S1x300_84_0) (fun _ => rfl)).squeeze S300 squeezes_S1x300_S300).view fs (pay 84) Finset.univ) ∗ scRow c (Rect.unit (s := S128x300) ![85, 0] S1x300.size inb_S128x300_S1x300_85_0) (View.write (Elt F) (((scM).slice (Rect.unit (s := S128x300) ![85, 0] S1x300.size inb_S128x300_S1x300_85_0) (fun _ => rfl)).squeeze S300 squeezes_S1x300_S300).view fs (pay 85) Finset.univ) ∗ scRow c (Rect.unit (s := S128x300) ![86, 0] S1x300.size inb_S128x300_S1x300_86_0) (View.write (Elt F) (((scM).slice (Rect.unit (s := S128x300) ![86, 0] S1x300.size inb_S128x300_S1x300_86_0) (fun _ => rfl)).squeeze S300 squeezes_S1x300_S300).view fs (pay 86) Finset.univ) ∗ scRow c (Rect.unit (s := S128x300) ![87, 0] S1x300.size inb_S128x300_S1x300_87_0) (View.write (Elt F) (((scM).slice (Rect.unit (s := S128x300) ![87, 0] S1x300.size inb_S128x300_S1x300_87_0) (fun _ => rfl)).squeeze S300 squeezes_S1x300_S300).view fs (pay 87) Finset.univ) ∗ scRow c (Rect.unit (s := S128x300) ![88, 0] S1x300.size inb_S128x300_S1x300_88_0) (View.write (Elt F) (((scM).slice (Rect.unit (s := S128x300) ![88, 0] S1x300.size inb_S128x300_S1x300_88_0) (fun _ => rfl)).squeeze S300 squeezes_S1x300_S300).view fs (pay 88) Finset.univ) ∗ scRow c (Rect.unit (s := S128x300) ![89, 0] S1x300.size inb_S128x300_S1x300_89_0) (View.write (Elt F) (((scM).slice (Rect.unit (s := S128x300) ![89, 0] S1x300.size inb_S128x300_S1x300_89_0) (fun _ => rfl)).squeeze S300 squeezes_S1x300_S300).view fs (pay 89) Finset.univ) ∗ scRow c (Rect.unit (s := S128x300) ![90, 0] S1x300.size inb_S128x300_S1x300_90_0) (View.write (Elt F) (((scM).slice (Rect.unit (s := S128x300) ![90, 0] S1x300.size inb_S128x300_S1x300_90_0) (fun _ => rfl)).squeeze S300 squeezes_S1x300_S300).view fs (pay 90) Finset.univ) ∗ scRow c (Rect.unit (s := S128x300) ![91, 0] S1x300.size inb_S128x300_S1x300_91_0) (View.write (Elt F) (((scM).slice (Rect.unit (s := S128x300) ![91, 0] S1x300.size inb_S128x300_S1x300_91_0) (fun _ => rfl)).squeeze S300 squeezes_S1x300_S300).view fs (pay 91) Finset.univ) ∗ scRow c (Rect.unit (s := S128x300) ![92, 0] S1x300.size inb_S128x300_S1x300_92_0) (View.write (Elt F) (((scM).slice (Rect.unit (s := S128x300) ![92, 0] S1x300.size inb_S128x300_S1x300_92_0) (fun _ => rfl)).squeeze S300 squeezes_S1x300_S300).view fs (pay 92) Finset.univ) ∗ scRow c (Rect.unit (s := S128x300) ![93, 0] S1x300.size inb_S128x300_S1x300_93_0) (View.write (Elt F) (((scM).slice (Rect.unit (s := S128x300) ![93, 0] S1x300.size inb_S128x300_S1x300_93_0) (fun _ => rfl)).squeeze S300 squeezes_S1x300_S300).view fs (pay 93) Finset.univ) ∗ scRow c (Rect.unit (s := S128x300) ![94, 0] S1x300.size inb_S128x300_S1x300_94_0) (View.write (Elt F) (((scM).slice (Rect.unit (s := S128x300) ![94, 0] S1x300.size inb_S128x300_S1x300_94_0) (fun _ => rfl)).squeeze S300 squeezes_S1x300_S300).view fs (pay 94) Finset.univ) ∗ scRow c (Rect.unit (s := S128x300) ![95, 0] S1x300.size inb_S128x300_S1x300_95_0) (View.write (Elt F) (((scM).slice (Rect.unit (s := S128x300) ![95, 0] S1x300.size inb_S128x300_S1x300_95_0) (fun _ => rfl)).squeeze S300 squeezes_S1x300_S300).view fs (pay 95) Finset.univ) ∗ scRow c (Rect.unit (s := S128x300) ![96, 0] S1x300.size inb_S128x300_S1x300_96_0) (View.write (Elt F) (((scM).slice (Rect.unit (s := S128x300) ![96, 0] S1x300.size inb_S128x300_S1x300_96_0) (fun _ => rfl)).squeeze S300 squeezes_S1x300_S300).view fs (pay 96) Finset.univ) ∗ scRow c (Rect.unit (s := S128x300) ![97, 0] S1x300.size inb_S128x300_S1x300_97_0) (View.write (Elt F) (((scM).slice (Rect.unit (s := S128x300) ![97, 0] S1x300.size inb_S128x300_S1x300_97_0) (fun _ => rfl)).squeeze S300 squeezes_S1x300_S300).view fs (pay 97) Finset.univ) ∗ scRow c (Rect.unit (s := S128x300) ![98, 0] S1x300.size inb_S128x300_S1x300_98_0) (View.write (Elt F) (((scM).slice (Rect.unit (s := S128x300) ![98, 0] S1x300.size inb_S128x300_S1x300_98_0) (fun _ => rfl)).squeeze S300 squeezes_S1x300_S300).view fs (pay 98) Finset.univ) ∗ scRow c (Rect.unit (s := S128x300) ![99, 0] S1x300.size inb_S128x300_S1x300_99_0) (View.write (Elt F) (((scM).slice (Rect.unit (s := S128x300) ![99, 0] S1x300.size inb_S128x300_S1x300_99_0) (fun _ => rfl)).squeeze S300 squeezes_S1x300_S300).view fs (pay 99) Finset.univ) ∗ scRow c (Rect.unit (s := S128x300) ![100, 0] S1x300.size inb_S128x300_S1x300_100_0) (View.write (Elt F) (((scM).slice (Rect.unit (s := S128x300) ![100, 0] S1x300.size inb_S128x300_S1x300_100_0) (fun _ => rfl)).squeeze S300 squeezes_S1x300_S300).view fs (pay 100) Finset.univ) ∗ scRow c (Rect.unit (s := S128x300) ![101, 0] S1x300.size inb_S128x300_S1x300_101_0) (View.write (Elt F) (((scM).slice (Rect.unit (s := S128x300) ![101, 0] S1x300.size inb_S128x300_S1x300_101_0) (fun _ => rfl)).squeeze S300 squeezes_S1x300_S300).view fs (pay 101) Finset.univ) ∗ scRow c (Rect.unit (s := S128x300) ![102, 0] S1x300.size inb_S128x300_S1x300_102_0) (View.write (Elt F) (((scM).slice (Rect.unit (s := S128x300) ![102, 0] S1x300.size inb_S128x300_S1x300_102_0) (fun _ => rfl)).squeeze S300 squeezes_S1x300_S300).view fs (pay 102) Finset.univ) ∗ scRow c (Rect.unit (s := S128x300) ![103, 0] S1x300.size inb_S128x300_S1x300_103_0) (View.write (Elt F) (((scM).slice (Rect.unit (s := S128x300) ![103, 0] S1x300.size inb_S128x300_S1x300_103_0) (fun _ => rfl)).squeeze S300 squeezes_S1x300_S300).view fs (pay 103) Finset.univ) ∗ scRow c (Rect.unit (s := S128x300) ![104, 0] S1x300.size inb_S128x300_S1x300_104_0) (View.write (Elt F) (((scM).slice (Rect.unit (s := S128x300) ![104, 0] S1x300.size inb_S128x300_S1x300_104_0) (fun _ => rfl)).squeeze S300 squeezes_S1x300_S300).view fs (pay 104) Finset.univ) ∗ scRow c (Rect.unit (s := S128x300) ![105, 0] S1x300.size inb_S128x300_S1x300_105_0) (View.write (Elt F) (((scM).slice (Rect.unit (s := S128x300) ![105, 0] S1x300.size inb_S128x300_S1x300_105_0) (fun _ => rfl)).squeeze S300 squeezes_S1x300_S300).view fs (pay 105) Finset.univ) ∗ scRow c (Rect.unit (s := S128x300) ![106, 0] S1x300.size inb_S128x300_S1x300_106_0) (View.write (Elt F) (((scM).slice (Rect.unit (s := S128x300) ![106, 0] S1x300.size inb_S128x300_S1x300_106_0) (fun _ => rfl)).squeeze S300 squeezes_S1x300_S300).view fs (pay 106) Finset.univ) ∗ scRow c (Rect.unit (s := S128x300) ![107, 0] S1x300.size inb_S128x300_S1x300_107_0) (View.write (Elt F) (((scM).slice (Rect.unit (s := S128x300) ![107, 0] S1x300.size inb_S128x300_S1x300_107_0) (fun _ => rfl)).squeeze S300 squeezes_S1x300_S300).view fs (pay 107) Finset.univ) ∗ scRow c (Rect.unit (s := S128x300) ![108, 0] S1x300.size inb_S128x300_S1x300_108_0) (View.write (Elt F) (((scM).slice (Rect.unit (s := S128x300) ![108, 0] S1x300.size inb_S128x300_S1x300_108_0) (fun _ => rfl)).squeeze S300 squeezes_S1x300_S300).view fs (pay 108) Finset.univ) ∗ scRow c (Rect.unit (s := S128x300) ![109, 0] S1x300.size inb_S128x300_S1x300_109_0) (View.write (Elt F) (((scM).slice (Rect.unit (s := S128x300) ![109, 0] S1x300.size inb_S128x300_S1x300_109_0) (fun _ => rfl)).squeeze S300 squeezes_S1x300_S300).view fs (pay 109) Finset.univ) ∗ scRow c (Rect.unit (s := S128x300) ![110, 0] S1x300.size inb_S128x300_S1x300_110_0) (View.write (Elt F) (((scM).slice (Rect.unit (s := S128x300) ![110, 0] S1x300.size inb_S128x300_S1x300_110_0) (fun _ => rfl)).squeeze S300 squeezes_S1x300_S300).view fs (pay 110) Finset.univ) ∗ scRow c (Rect.unit (s := S128x300) ![111, 0] S1x300.size inb_S128x300_S1x300_111_0) (View.write (Elt F) (((scM).slice (Rect.unit (s := S128x300) ![111, 0] S1x300.size inb_S128x300_S1x300_111_0) (fun _ => rfl)).squeeze S300 squeezes_S1x300_S300).view fs (pay 111) Finset.univ) ∗ scRow c (Rect.unit (s := S128x300) ![112, 0] S1x300.size inb_S128x300_S1x300_112_0) (View.write (Elt F) (((scM).slice (Rect.unit (s := S128x300) ![112, 0] S1x300.size inb_S128x300_S1x300_112_0) (fun _ => rfl)).squeeze S300 squeezes_S1x300_S300).view fs (pay 112) Finset.univ) ∗ scRow c (Rect.unit (s := S128x300) ![113, 0] S1x300.size inb_S128x300_S1x300_113_0) (View.write (Elt F) (((scM).slice (Rect.unit (s := S128x300) ![113, 0] S1x300.size inb_S128x300_S1x300_113_0) (fun _ => rfl)).squeeze S300 squeezes_S1x300_S300).view fs (pay 113) Finset.univ) ∗ scRow c (Rect.unit (s := S128x300) ![114, 0] S1x300.size inb_S128x300_S1x300_114_0) (View.write (Elt F) (((scM).slice (Rect.unit (s := S128x300) ![114, 0] S1x300.size inb_S128x300_S1x300_114_0) (fun _ => rfl)).squeeze S300 squeezes_S1x300_S300).view fs (pay 114) Finset.univ) ∗ scRow c (Rect.unit (s := S128x300) ![115, 0] S1x300.size inb_S128x300_S1x300_115_0) (View.write (Elt F) (((scM).slice (Rect.unit (s := S128x300) ![115, 0] S1x300.size inb_S128x300_S1x300_115_0) (fun _ => rfl)).squeeze S300 squeezes_S1x300_S300).view fs (pay 115) Finset.univ) ∗ scRow c (Rect.unit (s := S128x300) ![116, 0] S1x300.size inb_S128x300_S1x300_116_0) (View.write (Elt F) (((scM).slice (Rect.unit (s := S128x300) ![116, 0] S1x300.size inb_S128x300_S1x300_116_0) (fun _ => rfl)).squeeze S300 squeezes_S1x300_S300).view fs (pay 116) Finset.univ) ∗ scRow c (Rect.unit (s := S128x300) ![117, 0] S1x300.size inb_S128x300_S1x300_117_0) (View.write (Elt F) (((scM).slice (Rect.unit (s := S128x300) ![117, 0] S1x300.size inb_S128x300_S1x300_117_0) (fun _ => rfl)).squeeze S300 squeezes_S1x300_S300).view fs (pay 117) Finset.univ) ∗ scRow c (Rect.unit (s := S128x300) ![118, 0] S1x300.size inb_S128x300_S1x300_118_0) (View.write (Elt F) (((scM).slice (Rect.unit (s := S128x300) ![118, 0] S1x300.size inb_S128x300_S1x300_118_0) (fun _ => rfl)).squeeze S300 squeezes_S1x300_S300).view fs (pay 118) Finset.univ) ∗ scRow c (Rect.unit (s := S128x300) ![119, 0] S1x300.size inb_S128x300_S1x300_119_0) (View.write (Elt F) (((scM).slice (Rect.unit (s := S128x300) ![119, 0] S1x300.size inb_S128x300_S1x300_119_0) (fun _ => rfl)).squeeze S300 squeezes_S1x300_S300).view fs (pay 119) Finset.univ) ∗ scRow c (Rect.unit (s := S128x300) ![120, 0] S1x300.size inb_S128x300_S1x300_120_0) (View.write (Elt F) (((scM).slice (Rect.unit (s := S128x300) ![120, 0] S1x300.size inb_S128x300_S1x300_120_0) (fun _ => rfl)).squeeze S300 squeezes_S1x300_S300).view fs (pay 120) Finset.univ) ∗ scRow c (Rect.unit (s := S128x300) ![121, 0] S1x300.size inb_S128x300_S1x300_121_0) (View.write (Elt F) (((scM).slice (Rect.unit (s := S128x300) ![121, 0] S1x300.size inb_S128x300_S1x300_121_0) (fun _ => rfl)).squeeze S300 squeezes_S1x300_S300).view fs (pay 121) Finset.univ) ∗ scRow c (Rect.unit (s := S128x300) ![122, 0] S1x300.size inb_S128x300_S1x300_122_0) (View.write (Elt F) (((scM).slice (Rect.unit (s := S128x300) ![122, 0] S1x300.size inb_S128x300_S1x300_122_0) (fun _ => rfl)).squeeze S300 squeezes_S1x300_S300).view fs (pay 122) Finset.univ) ∗ scRow c (Rect.unit (s := S128x300) ![123, 0] S1x300.size inb_S128x300_S1x300_123_0) (View.write (Elt F) (((scM).slice (Rect.unit (s := S128x300) ![123, 0] S1x300.size inb_S128x300_S1x300_123_0) (fun _ => rfl)).squeeze S300 squeezes_S1x300_S300).view fs (pay 123) Finset.univ) ∗ scRow c (Rect.unit (s := S128x300) ![124, 0] S1x300.size inb_S128x300_S1x300_124_0) (View.write (Elt F) (((scM).slice (Rect.unit (s := S128x300) ![124, 0] S1x300.size inb_S128x300_S1x300_124_0) (fun _ => rfl)).squeeze S300 squeezes_S1x300_S300).view fs (pay 124) Finset.univ) ∗ scRow c (Rect.unit (s := S128x300) ![125, 0] S1x300.size inb_S128x300_S1x300_125_0) (View.write (Elt F) (((scM).slice (Rect.unit (s := S128x300) ![125, 0] S1x300.size inb_S128x300_S1x300_125_0) (fun _ => rfl)).squeeze S300 squeezes_S1x300_S300).view fs (pay 125) Finset.univ) ∗ scRow c (Rect.unit (s := S128x300) ![126, 0] S1x300.size inb_S128x300_S1x300_126_0) (View.write (Elt F) (((scM).slice (Rect.unit (s := S128x300) ![126, 0] S1x300.size inb_S128x300_S1x300_126_0) (fun _ => rfl)).squeeze S300 squeezes_S1x300_S300).view fs (pay 126) Finset.univ) ∗ scRow c (Rect.unit (s := S128x300) ![127, 0] S1x300.size inb_S128x300_S1x300_127_0) (View.write (Elt F) (((scM).slice (Rect.unit (s := S128x300) ![127, 0] S1x300.size inb_S128x300_S1x300_127_0) (fun _ => rfl)).squeeze S300 squeezes_S1x300_S300).view fs (pay 127) Finset.univ)) :=
  bigSep_univ_eq_bigSepL [(0 : Fin 128), (1 : Fin 128), (2 : Fin 128), (3 : Fin 128), (4 : Fin 128), (5 : Fin 128), (6 : Fin 128), (7 : Fin 128), (8 : Fin 128), (9 : Fin 128), (10 : Fin 128), (11 : Fin 128), (12 : Fin 128), (13 : Fin 128), (14 : Fin 128), (15 : Fin 128), (16 : Fin 128), (17 : Fin 128), (18 : Fin 128), (19 : Fin 128), (20 : Fin 128), (21 : Fin 128), (22 : Fin 128), (23 : Fin 128), (24 : Fin 128), (25 : Fin 128), (26 : Fin 128), (27 : Fin 128), (28 : Fin 128), (29 : Fin 128), (30 : Fin 128), (31 : Fin 128), (32 : Fin 128), (33 : Fin 128), (34 : Fin 128), (35 : Fin 128), (36 : Fin 128), (37 : Fin 128), (38 : Fin 128), (39 : Fin 128), (40 : Fin 128), (41 : Fin 128), (42 : Fin 128), (43 : Fin 128), (44 : Fin 128), (45 : Fin 128), (46 : Fin 128), (47 : Fin 128), (48 : Fin 128), (49 : Fin 128), (50 : Fin 128), (51 : Fin 128), (52 : Fin 128), (53 : Fin 128), (54 : Fin 128), (55 : Fin 128), (56 : Fin 128), (57 : Fin 128), (58 : Fin 128), (59 : Fin 128), (60 : Fin 128), (61 : Fin 128), (62 : Fin 128), (63 : Fin 128), (64 : Fin 128), (65 : Fin 128), (66 : Fin 128), (67 : Fin 128), (68 : Fin 128), (69 : Fin 128), (70 : Fin 128), (71 : Fin 128), (72 : Fin 128), (73 : Fin 128), (74 : Fin 128), (75 : Fin 128), (76 : Fin 128), (77 : Fin 128), (78 : Fin 128), (79 : Fin 128), (80 : Fin 128), (81 : Fin 128), (82 : Fin 128), (83 : Fin 128), (84 : Fin 128), (85 : Fin 128), (86 : Fin 128), (87 : Fin 128), (88 : Fin 128), (89 : Fin 128), (90 : Fin 128), (91 : Fin 128), (92 : Fin 128), (93 : Fin 128), (94 : Fin 128), (95 : Fin 128), (96 : Fin 128), (97 : Fin 128), (98 : Fin 128), (99 : Fin 128), (100 : Fin 128), (101 : Fin 128), (102 : Fin 128), (103 : Fin 128), (104 : Fin 128), (105 : Fin 128), (106 : Fin 128), (107 : Fin 128), (108 : Fin 128), (109 : Fin 128), (110 : Fin 128), (111 : Fin 128), (112 : Fin 128), (113 : Fin 128), (114 : Fin 128), (115 : Fin 128), (116 : Fin 128), (117 : Fin 128), (118 : Fin 128), (119 : Fin 128), (120 : Fin 128), (121 : Fin 128), (122 : Fin 128), (123 : Fin 128), (124 : Fin 128), (125 : Fin 128), (126 : Fin 128), (127 : Fin 128)] (by decide +kernel) (by decide +kernel) _

set_option maxHeartbeats 4000000 in
/-- What the body's one store leaves in the output's staging memref, as pieces, WITH the proof that the body runs: from the
    two staged inputs at their contents, the output's staging memref and the scratch at anything, the token table at half
    share with every word naming a row, the table of embeddings as its read shares, the 128 cells at zero and the core's
    record of waits, to the same with the output's pieces written, the scratch at some contents and 128 more waits
    recorded. The pieces are found by the run. -/
noncomputable def kernelRun (c : Dev nD) (i : grid0.Coords)
    (arg3 : Memref sig .tc .vmem S300x512 .bf16) (harg3 : arg3.IsWhole)
    (arg4 : Memref sig .tc .vmem S1x512 .f32) (harg4 : arg4.IsWhole)
    (arg5 : Memref sig .tc .vmem S128x512 .f32) (harg5 : arg5.IsWhole)
    (x0 : Vec F S300x512 .bf16) (x1 : Vec F S1x512 .f32)
    (T : TbBuf (F := F) c) (fh : HbBuf (F := F) c) (hT : TokOk c T) :
    { L : List (View.Piece (Elt F) S128x512 .f32) //
      ∀ (W : Waits sig Unit) (K : PUnit → sProp 𝕄),
        iprop(owns (c : Thread nD τ) arg3 fullShare x0 ∗ owns (c : Thread nD τ) arg4 fullShare x1
            ∗ (∃ d, owns (c : Thread nD τ) arg5 fullShare d) ∗ (∃ d, owns (c : Thread nD τ) scM fullShare d)
            ∗ tbPt c T ∗ readToks c fh ∗ ownCells c ∗ owes (c : Thread nD τ) 0 W
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L)
                ∗ (∃ d, owns (c : Thread nD τ) scM fullShare d)
                ∗ tbPt c T ∗ readToks c fh ∗ ownCells c ∗ (∃ W', owes (c : Thread nD τ) 0 W')) -∗ K ⟨⟩))
          ⊢ wp frame (wpE (defs₀ (F := F)) Variants.none c none) Set.univ
              (cc0__embed_kernel i tbM htbM hbM hhbM arg3 harg3 arg4 harg4 arg5 harg5 scM hscM cc0_scratch1) K } := by
  refine ⟨?_, fun W K => ?run⟩
  case run =>
    simp only [cc0__embed_kernel_eq_skeleton]; unfold cc0__embed_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton]
    unfold owns readToks ownCells
    iintro ⟨⟨%f0, %hf0, H0⟩, ⟨%f1, %hf1, H1⟩, ⟨%d2, %f2, -, H2⟩, ⟨%ds, %fs, -, HS⟩, HT, ⟨HB0, HB1, HB2, HB3, HB4, HB5, HB6, HB7, HB8, HB9, HB10, HB11, HB12, HB13, HB14, HB15, HB16, HB17, HB18, HB19, HB20, HB21, HB22, HB23, HB24, HB25, HB26, HB27, HB28, HB29, HB30, HB31, HB32, HB33, HB34, HB35, HB36, HB37, HB38, HB39, HB40, HB41, HB42, HB43, HB44, HB45, HB46, HB47, HB48, HB49, HB50, HB51, HB52, HB53, HB54, HB55, HB56, HB57, HB58, HB59, HB60, HB61, HB62, HB63, HB64, HB65, HB66, HB67, HB68, HB69, HB70, HB71, HB72, HB73, HB74, HB75, HB76, HB77, HB78, HB79, HB80, HB81, HB82, HB83, HB84, HB85, HB86, HB87, HB88, HB89, HB90, HB91, HB92, HB93, HB94, HB95, HB96, HB97, HB98, HB99, HB100, HB101, HB102, HB103, HB104, HB105, HB106, HB107, HB108, HB109, HB110, HB111, HB112, HB113, HB114, HB115, HB116, HB117, HB118, HB119, HB120, HB121, HB122, HB123, HB124, HB125, HB126, HB127, HB128, HB129, HB130, HB131⟩, ⟨HQ4, HQ5, HQ6, HQ7, HQ8, HQ9, HQ10, HQ11, HQ12, HQ13, HQ14, HQ15, HQ16, HQ17, HQ18, HQ19, HQ20, HQ21, HQ22, HQ23, HQ24, HQ25, HQ26, HQ27, HQ28, HQ29, HQ30, HQ31, HQ32, HQ33, HQ34, HQ35, HQ36, HQ37, HQ38, HQ39, HQ40, HQ41, HQ42, HQ43, HQ44, HQ45, HQ46, HQ47, HQ48, HQ49, HQ50, HQ51, HQ52, HQ53, HQ54, HQ55, HQ56, HQ57, HQ58, HQ59, HQ60, HQ61, HQ62, HQ63, HQ64, HQ65, HQ66, HQ67, HQ68, HQ69, HQ70, HQ71, HQ72, HQ73, HQ74, HQ75, HQ76, HQ77, HQ78, HQ79, HQ80, HQ81, HQ82, HQ83, HQ84, HQ85, HQ86, HQ87, HQ88, HQ89, HQ90, HQ91, HQ92, HQ93, HQ94, HQ95, HQ96, HQ97, HQ98, HQ99, HQ100, HQ101, HQ102, HQ103, HQ104, HQ105, HQ106, HQ107, HQ108, HQ109, HQ110, HQ111, HQ112, HQ113, HQ114, HQ115, HQ116, HQ117, HQ118, HQ119, HQ120, HQ121, HQ122, HQ123, HQ124, HQ125, HQ126, HQ127, HQ128, HQ129, HQ130, HQ131⟩, HW, Hk⟩
    obtain rfl := harg3.eq_unread hf0
    obtain rfl := harg4.eq_unread hf1
    -- the scratch row by row: row k is copy k's destination
    ihave HRs := ((rows_split c fs).trans (Entails.of_eq (rows_chain c fs))) $$ HS
    icases HRs with ⟨HR0, HR1, HR2, HR3, HR4, HR5, HR6, HR7, HR8, HR9, HR10, HR11, HR12, HR13, HR14, HR15, HR16, HR17, HR18, HR19, HR20, HR21, HR22, HR23, HR24, HR25, HR26, HR27, HR28, HR29, HR30, HR31, HR32, HR33, HR34, HR35, HR36, HR37, HR38, HR39, HR40, HR41, HR42, HR43, HR44, HR45, HR46, HR47, HR48, HR49, HR50, HR51, HR52, HR53, HR54, HR55, HR56, HR57, HR58, HR59, HR60, HR61, HR62, HR63, HR64, HR65, HR66, HR67, HR68, HR69, HR70, HR71, HR72, HR73, HR74, HR75, HR76, HR77, HR78, HR79, HR80, HR81, HR82, HR83, HR84, HR85, HR86, HR87, HR88, HR89, HR90, HR91, HR92, HR93, HR94, HR95, HR96, HR97, HR98, HR99, HR100, HR101, HR102, HR103, HR104, HR105, HR106, HR107, HR108, HR109, HR110, HR111, HR112, HR113, HR114, HR115, HR116, HR117, HR118, HR119, HR120, HR121, HR122, HR123, HR124, HR125, HR126, HR127⟩
    -- the 128 words, the 128 copies and their 128 waits
    sl_exec (disch := first | exact ⟨chk_row _ (hT _ _ _), chk_row _ (hT _ _ _)⟩ | exact chk_row _ (hT _ _ _))
    -- all copies have landed: the rows are the scratch whole, at the gathered rows
    ihave HSj := ((Entails.of_eq (landed_chain c fs (payOf c i T fh hT)).symm).trans (rows_join c (fun _ => fs) (payOf c i T fh hT))) $$ [HR0 HR1 HR2 HR3 HR4 HR5 HR6 HR7 HR8 HR9 HR10 HR11 HR12 HR13 HR14 HR15 HR16 HR17 HR18 HR19 HR20 HR21 HR22 HR23 HR24 HR25 HR26 HR27 HR28 HR29 HR30 HR31 HR32 HR33 HR34 HR35 HR36 HR37 HR38 HR39 HR40 HR41 HR42 HR43 HR44 HR45 HR46 HR47 HR48 HR49 HR50 HR51 HR52 HR53 HR54 HR55 HR56 HR57 HR58 HR59 HR60 HR61 HR62 HR63 HR64 HR65 HR66 HR67 HR68 HR69 HR70 HR71 HR72 HR73 HR74 HR75 HR76 HR77 HR78 HR79 HR80 HR81 HR82 HR83 HR84 HR85 HR86 HR87 HR88 HR89 HR90 HR91 HR92 HR93 HR94 HR95 HR96 HR97 HR98 HR99 HR100 HR101 HR102 HR103 HR104 HR105 HR106 HR107 HR108 HR109 HR110 HR111 HR112 HR113 HR114 HR115 HR116 HR117 HR118 HR119 HR120 HR121 HR122 HR123 HR124 HR125 HR126 HR127]
    · isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HR12]; · iexact HR12
      isplitl [HR13]; · iexact HR13
      isplitl [HR14]; · iexact HR14
      isplitl [HR15]; · iexact HR15
      isplitl [HR16]; · iexact HR16
      isplitl [HR17]; · iexact HR17
      isplitl [HR18]; · iexact HR18
      isplitl [HR19]; · iexact HR19
      isplitl [HR20]; · iexact HR20
      isplitl [HR21]; · iexact HR21
      isplitl [HR22]; · iexact HR22
      isplitl [HR23]; · iexact HR23
      isplitl [HR24]; · iexact HR24
      isplitl [HR25]; · iexact HR25
      isplitl [HR26]; · iexact HR26
      isplitl [HR27]; · iexact HR27
      isplitl [HR28]; · iexact HR28
      isplitl [HR29]; · iexact HR29
      isplitl [HR30]; · iexact HR30
      isplitl [HR31]; · iexact HR31
      isplitl [HR32]; · iexact HR32
      isplitl [HR33]; · iexact HR33
      isplitl [HR34]; · iexact HR34
      isplitl [HR35]; · iexact HR35
      isplitl [HR36]; · iexact HR36
      isplitl [HR37]; · iexact HR37
      isplitl [HR38]; · iexact HR38
      isplitl [HR39]; · iexact HR39
      isplitl [HR40]; · iexact HR40
      isplitl [HR41]; · iexact HR41
      isplitl [HR42]; · iexact HR42
      isplitl [HR43]; · iexact HR43
      isplitl [HR44]; · iexact HR44
      isplitl [HR45]; · iexact HR45
      isplitl [HR46]; · iexact HR46
      isplitl [HR47]; · iexact HR47
      isplitl [HR48]; · iexact HR48
      isplitl [HR49]; · iexact HR49
      isplitl [HR50]; · iexact HR50
      isplitl [HR51]; · iexact HR51
      isplitl [HR52]; · iexact HR52
      isplitl [HR53]; · iexact HR53
      isplitl [HR54]; · iexact HR54
      isplitl [HR55]; · iexact HR55
      isplitl [HR56]; · iexact HR56
      isplitl [HR57]; · iexact HR57
      isplitl [HR58]; · iexact HR58
      isplitl [HR59]; · iexact HR59
      isplitl [HR60]; · iexact HR60
      isplitl [HR61]; · iexact HR61
      isplitl [HR62]; · iexact HR62
      isplitl [HR63]; · iexact HR63
      isplitl [HR64]; · iexact HR64
      isplitl [HR65]; · iexact HR65
      isplitl [HR66]; · iexact HR66
      isplitl [HR67]; · iexact HR67
      isplitl [HR68]; · iexact HR68
      isplitl [HR69]; · iexact HR69
      isplitl [HR70]; · iexact HR70
      isplitl [HR71]; · iexact HR71
      isplitl [HR72]; · iexact HR72
      isplitl [HR73]; · iexact HR73
      isplitl [HR74]; · iexact HR74
      isplitl [HR75]; · iexact HR75
      isplitl [HR76]; · iexact HR76
      isplitl [HR77]; · iexact HR77
      isplitl [HR78]; · iexact HR78
      isplitl [HR79]; · iexact HR79
      isplitl [HR80]; · iexact HR80
      isplitl [HR81]; · iexact HR81
      isplitl [HR82]; · iexact HR82
      isplitl [HR83]; · iexact HR83
      isplitl [HR84]; · iexact HR84
      isplitl [HR85]; · iexact HR85
      isplitl [HR86]; · iexact HR86
      isplitl [HR87]; · iexact HR87
      isplitl [HR88]; · iexact HR88
      isplitl [HR89]; · iexact HR89
      isplitl [HR90]; · iexact HR90
      isplitl [HR91]; · iexact HR91
      isplitl [HR92]; · iexact HR92
      isplitl [HR93]; · iexact HR93
      isplitl [HR94]; · iexact HR94
      isplitl [HR95]; · iexact HR95
      isplitl [HR96]; · iexact HR96
      isplitl [HR97]; · iexact HR97
      isplitl [HR98]; · iexact HR98
      isplitl [HR99]; · iexact HR99
      isplitl [HR100]; · iexact HR100
      isplitl [HR101]; · iexact HR101
      isplitl [HR102]; · iexact HR102
      isplitl [HR103]; · iexact HR103
      isplitl [HR104]; · iexact HR104
      isplitl [HR105]; · iexact HR105
      isplitl [HR106]; · iexact HR106
      isplitl [HR107]; · iexact HR107
      isplitl [HR108]; · iexact HR108
      isplitl [HR109]; · iexact HR109
      isplitl [HR110]; · iexact HR110
      isplitl [HR111]; · iexact HR111
      isplitl [HR112]; · iexact HR112
      isplitl [HR113]; · iexact HR113
      isplitl [HR114]; · iexact HR114
      isplitl [HR115]; · iexact HR115
      isplitl [HR116]; · iexact HR116
      isplitl [HR117]; · iexact HR117
      isplitl [HR118]; · iexact HR118
      isplitl [HR119]; · iexact HR119
      isplitl [HR120]; · iexact HR120
      isplitl [HR121]; · iexact HR121
      isplitl [HR122]; · iexact HR122
      isplitl [HR123]; · iexact HR123
      isplitl [HR124]; · iexact HR124
      isplitl [HR125]; · iexact HR125
      isplitl [HR126]; · iexact HR126
      iexact HR127
    -- the scratch's load, the two inputs' loads, the product, the store
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [HSj]
    · iexists _, _; isplitr; swap; · iexact HSj
      ipureintro; rfl
    isplitl [HT]; · iexact HT
    isplitl [HB0 HB1 HB2 HB3 HB4 HB5 HB6 HB7 HB8 HB9 HB10 HB11 HB12 HB13 HB14 HB15 HB16 HB17 HB18 HB19 HB20 HB21 HB22 HB23 HB24 HB25 HB26 HB27 HB28 HB29 HB30 HB31 HB32 HB33 HB34 HB35 HB36 HB37 HB38 HB39 HB40 HB41 HB42 HB43 HB44 HB45 HB46 HB47 HB48 HB49 HB50 HB51 HB52 HB53 HB54 HB55 HB56 HB57 HB58 HB59 HB60 HB61 HB62 HB63 HB64 HB65 HB66 HB67 HB68 HB69 HB70 HB71 HB72 HB73 HB74 HB75 HB76 HB77 HB78 HB79 HB80 HB81 HB82 HB83 HB84 HB85 HB86 HB87 HB88 HB89 HB90 HB91 HB92 HB93 HB94 HB95 HB96 HB97 HB98 HB99 HB100 HB101 HB102 HB103 HB104 HB105 HB106 HB107 HB108 HB109 HB110 HB111 HB112 HB113 HB114 HB115 HB116 HB117 HB118 HB119 HB120 HB121 HB122 HB123 HB124 HB125 HB126 HB127 HB128 HB129 HB130 HB131]
    · isplitl [HB0]; · iexact HB0
      isplitl [HB1]; · iexact HB1
      isplitl [HB2]; · iexact HB2
      isplitl [HB3]; · iexact HB3
      isplitl [HB4]; · iexact HB4
      isplitl [HB5]; · iexact HB5
      isplitl [HB6]; · iexact HB6
      isplitl [HB7]; · iexact HB7
      isplitl [HB8]; · iexact HB8
      isplitl [HB9]; · iexact HB9
      isplitl [HB10]; · iexact HB10
      isplitl [HB11]; · iexact HB11
      isplitl [HB12]; · iexact HB12
      isplitl [HB13]; · iexact HB13
      isplitl [HB14]; · iexact HB14
      isplitl [HB15]; · iexact HB15
      isplitl [HB16]; · iexact HB16
      isplitl [HB17]; · iexact HB17
      isplitl [HB18]; · iexact HB18
      isplitl [HB19]; · iexact HB19
      isplitl [HB20]; · iexact HB20
      isplitl [HB21]; · iexact HB21
      isplitl [HB22]; · iexact HB22
      isplitl [HB23]; · iexact HB23
      isplitl [HB24]; · iexact HB24
      isplitl [HB25]; · iexact HB25
      isplitl [HB26]; · iexact HB26
      isplitl [HB27]; · iexact HB27
      isplitl [HB28]; · iexact HB28
      isplitl [HB29]; · iexact HB29
      isplitl [HB30]; · iexact HB30
      isplitl [HB31]; · iexact HB31
      isplitl [HB32]; · iexact HB32
      isplitl [HB33]; · iexact HB33
      isplitl [HB34]; · iexact HB34
      isplitl [HB35]; · iexact HB35
      isplitl [HB36]; · iexact HB36
      isplitl [HB37]; · iexact HB37
      isplitl [HB38]; · iexact HB38
      isplitl [HB39]; · iexact HB39
      isplitl [HB40]; · iexact HB40
      isplitl [HB41]; · iexact HB41
      isplitl [HB42]; · iexact HB42
      isplitl [HB43]; · iexact HB43
      isplitl [HB44]; · iexact HB44
      isplitl [HB45]; · iexact HB45
      isplitl [HB46]; · iexact HB46
      isplitl [HB47]; · iexact HB47
      isplitl [HB48]; · iexact HB48
      isplitl [HB49]; · iexact HB49
      isplitl [HB50]; · iexact HB50
      isplitl [HB51]; · iexact HB51
      isplitl [HB52]; · iexact HB52
      isplitl [HB53]; · iexact HB53
      isplitl [HB54]; · iexact HB54
      isplitl [HB55]; · iexact HB55
      isplitl [HB56]; · iexact HB56
      isplitl [HB57]; · iexact HB57
      isplitl [HB58]; · iexact HB58
      isplitl [HB59]; · iexact HB59
      isplitl [HB60]; · iexact HB60
      isplitl [HB61]; · iexact HB61
      isplitl [HB62]; · iexact HB62
      isplitl [HB63]; · iexact HB63
      isplitl [HB64]; · iexact HB64
      isplitl [HB65]; · iexact HB65
      isplitl [HB66]; · iexact HB66
      isplitl [HB67]; · iexact HB67
      isplitl [HB68]; · iexact HB68
      isplitl [HB69]; · iexact HB69
      isplitl [HB70]; · iexact HB70
      isplitl [HB71]; · iexact HB71
      isplitl [HB72]; · iexact HB72
      isplitl [HB73]; · iexact HB73
      isplitl [HB74]; · iexact HB74
      isplitl [HB75]; · iexact HB75
      isplitl [HB76]; · iexact HB76
      isplitl [HB77]; · iexact HB77
      isplitl [HB78]; · iexact HB78
      isplitl [HB79]; · iexact HB79
      isplitl [HB80]; · iexact HB80
      isplitl [HB81]; · iexact HB81
      isplitl [HB82]; · iexact HB82
      isplitl [HB83]; · iexact HB83
      isplitl [HB84]; · iexact HB84
      isplitl [HB85]; · iexact HB85
      isplitl [HB86]; · iexact HB86
      isplitl [HB87]; · iexact HB87
      isplitl [HB88]; · iexact HB88
      isplitl [HB89]; · iexact HB89
      isplitl [HB90]; · iexact HB90
      isplitl [HB91]; · iexact HB91
      isplitl [HB92]; · iexact HB92
      isplitl [HB93]; · iexact HB93
      isplitl [HB94]; · iexact HB94
      isplitl [HB95]; · iexact HB95
      isplitl [HB96]; · iexact HB96
      isplitl [HB97]; · iexact HB97
      isplitl [HB98]; · iexact HB98
      isplitl [HB99]; · iexact HB99
      isplitl [HB100]; · iexact HB100
      isplitl [HB101]; · iexact HB101
      isplitl [HB102]; · iexact HB102
      isplitl [HB103]; · iexact HB103
      isplitl [HB104]; · iexact HB104
      isplitl [HB105]; · iexact HB105
      isplitl [HB106]; · iexact HB106
      isplitl [HB107]; · iexact HB107
      isplitl [HB108]; · iexact HB108
      isplitl [HB109]; · iexact HB109
      isplitl [HB110]; · iexact HB110
      isplitl [HB111]; · iexact HB111
      isplitl [HB112]; · iexact HB112
      isplitl [HB113]; · iexact HB113
      isplitl [HB114]; · iexact HB114
      isplitl [HB115]; · iexact HB115
      isplitl [HB116]; · iexact HB116
      isplitl [HB117]; · iexact HB117
      isplitl [HB118]; · iexact HB118
      isplitl [HB119]; · iexact HB119
      isplitl [HB120]; · iexact HB120
      isplitl [HB121]; · iexact HB121
      isplitl [HB122]; · iexact HB122
      isplitl [HB123]; · iexact HB123
      isplitl [HB124]; · iexact HB124
      isplitl [HB125]; · iexact HB125
      isplitl [HB126]; · iexact HB126
      isplitl [HB127]; · iexact HB127
      isplitl [HB128]; · iexact HB128
      isplitl [HB129]; · iexact HB129
      isplitl [HB130]; · iexact HB130
      iexact HB131
    isplitl [HQ4 HQ5 HQ6 HQ7 HQ8 HQ9 HQ10 HQ11 HQ12 HQ13 HQ14 HQ15 HQ16 HQ17 HQ18 HQ19 HQ20 HQ21 HQ22 HQ23 HQ24 HQ25 HQ26 HQ27 HQ28 HQ29 HQ30 HQ31 HQ32 HQ33 HQ34 HQ35 HQ36 HQ37 HQ38 HQ39 HQ40 HQ41 HQ42 HQ43 HQ44 HQ45 HQ46 HQ47 HQ48 HQ49 HQ50 HQ51 HQ52 HQ53 HQ54 HQ55 HQ56 HQ57 HQ58 HQ59 HQ60 HQ61 HQ62 HQ63 HQ64 HQ65 HQ66 HQ67 HQ68 HQ69 HQ70 HQ71 HQ72 HQ73 HQ74 HQ75 HQ76 HQ77 HQ78 HQ79 HQ80 HQ81 HQ82 HQ83 HQ84 HQ85 HQ86 HQ87 HQ88 HQ89 HQ90 HQ91 HQ92 HQ93 HQ94 HQ95 HQ96 HQ97 HQ98 HQ99 HQ100 HQ101 HQ102 HQ103 HQ104 HQ105 HQ106 HQ107 HQ108 HQ109 HQ110 HQ111 HQ112 HQ113 HQ114 HQ115 HQ116 HQ117 HQ118 HQ119 HQ120 HQ121 HQ122 HQ123 HQ124 HQ125 HQ126 HQ127 HQ128 HQ129 HQ130 HQ131]
    · isplitl [HQ4]; · iexact HQ4
      isplitl [HQ5]; · iexact HQ5
      isplitl [HQ6]; · iexact HQ6
      isplitl [HQ7]; · iexact HQ7
      isplitl [HQ8]; · iexact HQ8
      isplitl [HQ9]; · iexact HQ9
      isplitl [HQ10]; · iexact HQ10
      isplitl [HQ11]; · iexact HQ11
      isplitl [HQ12]; · iexact HQ12
      isplitl [HQ13]; · iexact HQ13
      isplitl [HQ14]; · iexact HQ14
      isplitl [HQ15]; · iexact HQ15
      isplitl [HQ16]; · iexact HQ16
      isplitl [HQ17]; · iexact HQ17
      isplitl [HQ18]; · iexact HQ18
      isplitl [HQ19]; · iexact HQ19
      isplitl [HQ20]; · iexact HQ20
      isplitl [HQ21]; · iexact HQ21
      isplitl [HQ22]; · iexact HQ22
      isplitl [HQ23]; · iexact HQ23
      isplitl [HQ24]; · iexact HQ24
      isplitl [HQ25]; · iexact HQ25
      isplitl [HQ26]; · iexact HQ26
      isplitl [HQ27]; · iexact HQ27
      isplitl [HQ28]; · iexact HQ28
      isplitl [HQ29]; · iexact HQ29
      isplitl [HQ30]; · iexact HQ30
      isplitl [HQ31]; · iexact HQ31
      isplitl [HQ32]; · iexact HQ32
      isplitl [HQ33]; · iexact HQ33
      isplitl [HQ34]; · iexact HQ34
      isplitl [HQ35]; · iexact HQ35
      isplitl [HQ36]; · iexact HQ36
      isplitl [HQ37]; · iexact HQ37
      isplitl [HQ38]; · iexact HQ38
      isplitl [HQ39]; · iexact HQ39
      isplitl [HQ40]; · iexact HQ40
      isplitl [HQ41]; · iexact HQ41
      isplitl [HQ42]; · iexact HQ42
      isplitl [HQ43]; · iexact HQ43
      isplitl [HQ44]; · iexact HQ44
      isplitl [HQ45]; · iexact HQ45
      isplitl [HQ46]; · iexact HQ46
      isplitl [HQ47]; · iexact HQ47
      isplitl [HQ48]; · iexact HQ48
      isplitl [HQ49]; · iexact HQ49
      isplitl [HQ50]; · iexact HQ50
      isplitl [HQ51]; · iexact HQ51
      isplitl [HQ52]; · iexact HQ52
      isplitl [HQ53]; · iexact HQ53
      isplitl [HQ54]; · iexact HQ54
      isplitl [HQ55]; · iexact HQ55
      isplitl [HQ56]; · iexact HQ56
      isplitl [HQ57]; · iexact HQ57
      isplitl [HQ58]; · iexact HQ58
      isplitl [HQ59]; · iexact HQ59
      isplitl [HQ60]; · iexact HQ60
      isplitl [HQ61]; · iexact HQ61
      isplitl [HQ62]; · iexact HQ62
      isplitl [HQ63]; · iexact HQ63
      isplitl [HQ64]; · iexact HQ64
      isplitl [HQ65]; · iexact HQ65
      isplitl [HQ66]; · iexact HQ66
      isplitl [HQ67]; · iexact HQ67
      isplitl [HQ68]; · iexact HQ68
      isplitl [HQ69]; · iexact HQ69
      isplitl [HQ70]; · iexact HQ70
      isplitl [HQ71]; · iexact HQ71
      isplitl [HQ72]; · iexact HQ72
      isplitl [HQ73]; · iexact HQ73
      isplitl [HQ74]; · iexact HQ74
      isplitl [HQ75]; · iexact HQ75
      isplitl [HQ76]; · iexact HQ76
      isplitl [HQ77]; · iexact HQ77
      isplitl [HQ78]; · iexact HQ78
      isplitl [HQ79]; · iexact HQ79
      isplitl [HQ80]; · iexact HQ80
      isplitl [HQ81]; · iexact HQ81
      isplitl [HQ82]; · iexact HQ82
      isplitl [HQ83]; · iexact HQ83
      isplitl [HQ84]; · iexact HQ84
      isplitl [HQ85]; · iexact HQ85
      isplitl [HQ86]; · iexact HQ86
      isplitl [HQ87]; · iexact HQ87
      isplitl [HQ88]; · iexact HQ88
      isplitl [HQ89]; · iexact HQ89
      isplitl [HQ90]; · iexact HQ90
      isplitl [HQ91]; · iexact HQ91
      isplitl [HQ92]; · iexact HQ92
      isplitl [HQ93]; · iexact HQ93
      isplitl [HQ94]; · iexact HQ94
      isplitl [HQ95]; · iexact HQ95
      isplitl [HQ96]; · iexact HQ96
      isplitl [HQ97]; · iexact HQ97
      isplitl [HQ98]; · iexact HQ98
      isplitl [HQ99]; · iexact HQ99
      isplitl [HQ100]; · iexact HQ100
      isplitl [HQ101]; · iexact HQ101
      isplitl [HQ102]; · iexact HQ102
      isplitl [HQ103]; · iexact HQ103
      isplitl [HQ104]; · iexact HQ104
      isplitl [HQ105]; · iexact HQ105
      isplitl [HQ106]; · iexact HQ106
      isplitl [HQ107]; · iexact HQ107
      isplitl [HQ108]; · iexact HQ108
      isplitl [HQ109]; · iexact HQ109
      isplitl [HQ110]; · iexact HQ110
      isplitl [HQ111]; · iexact HQ111
      isplitl [HQ112]; · iexact HQ112
      isplitl [HQ113]; · iexact HQ113
      isplitl [HQ114]; · iexact HQ114
      isplitl [HQ115]; · iexact HQ115
      isplitl [HQ116]; · iexact HQ116
      isplitl [HQ117]; · iexact HQ117
      isplitl [HQ118]; · iexact HQ118
      isplitl [HQ119]; · iexact HQ119
      isplitl [HQ120]; · iexact HQ120
      isplitl [HQ121]; · iexact HQ121
      isplitl [HQ122]; · iexact HQ122
      isplitl [HQ123]; · iexact HQ123
      isplitl [HQ124]; · iexact HQ124
      isplitl [HQ125]; · iexact HQ125
      isplitl [HQ126]; · iexact HQ126
      isplitl [HQ127]; · iexact HQ127
      isplitl [HQ128]; · iexact HQ128
      isplitl [HQ129]; · iexact HQ129
      isplitl [HQ130]; · iexact HQ130
      iexact HQ131
    iexists _; iexact HW

/-- The run's pieces for the output tile its 128 × 512 block (one store of the whole block), so they cover it. -/
theorem cover0 (c : Dev nD) (i : grid0.Coords)
    (arg3 : Memref sig .tc .vmem S300x512 .bf16) (harg3 : arg3.IsWhole) (arg4 : Memref sig .tc .vmem S1x512 .f32) (harg4 : arg4.IsWhole)
    (arg5 : Memref sig .tc .vmem S128x512 .f32) (harg5 : arg5.IsWhole)
    (x0 : Vec F S300x512 .bf16) (x1 : Vec F S1x512 .f32) (T : TbBuf (F := F) c) (fh : HbBuf (F := F) c) (hT : TokOk c T) (y : S128x512.Idx) :
    ∃ pc ∈ (kernelRun c i arg3 harg3 arg4 harg4 arg5 harg5 x0 x1 T fh hT).1, y ∈ pc.1.set :=
  View.cover_of_tiledL (kernelRun c i arg3 harg3 arg4 harg4 arg5 harg5 x0 x1 T fh hT).1 S128x512.size (by sl_kernel_rfl) y

/-- One staging buffer of the output window, through which its contents are stated (the choice does not matter). -/
abbrev VO : View sig .tc .vmem S128x512 .f32 := (Memref.whole cc0_stg2_0 : Memref sig .tc .vmem S128x512 .f32).view

/-- What the run leaves in the output's staging buffer: its pieces read back over junk. -/
def out0 (c : Dev nD) (i : grid0.Coords)
    (arg3 : Memref sig .tc .vmem S300x512 .bf16) (harg3 : arg3.IsWhole) (arg4 : Memref sig .tc .vmem S1x512 .f32) (harg4 : arg4.IsWhole)
    (arg5 : Memref sig .tc .vmem S128x512 .f32) (harg5 : arg5.IsWhole)
    (x0 : Vec F S300x512 .bf16) (x1 : Vec F S1x512 .f32) (T : TbBuf (F := F) c) (fh : HbBuf (F := F) c) (hT : TokOk c T) : Vec F S128x512 .f32 :=
  VO.read (Elt F) (VO.writes (Elt F) VO.junk (kernelRun c i arg3 harg3 arg4 harg4 arg5 harg5 x0 x1 T fh hT).1)

end Cert.KernelIdeal.Hand

end
-- ==== Proof.KernelIdeal.Frame.lean ====
/-
  The frame of the program: it runs to the end, faults nowhere, and leaves its arguments unchanged.

  The pipeline stages the weights and the bias row once and the 128 × 512 output block at each of the 8 grid points; at each
  point the body is the run of the previous module. Its invariant is the same at every point, since every copy it starts
  it also waits for: the scratch at some contents, the 128 cells at zero, the table of embeddings whole at its launch
  contents (handed to the body as read shares and joined again after its last wait), and half of the token table. The
  library's run for a kernel with a prefetched table, transfers of its own within each point and host lines after the
  region then gives the run, and the four arguments are read off its post.
-/
import proofs.«410898_j66494683677006_3_alg».proof.Proof.Gen.KernelIdeal.Launch
import proofs.«410898_j66494683677006_3_alg».proof.Proof.Gen.KernelIdeal.Skeleton
import proofs.«410898_j66494683677006_3_alg».proof.Proof.KernelIdeal.Around
import proofs.«410898_j66494683677006_3_alg».proof.Proof.KernelIdeal.EntryValues
import proofs.«410898_j66494683677006_3_alg».proof.Proof.KernelIdeal.BodyRun
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The windows' staging memrefs and blocks -/

/-- Each window's current staging memref at point `t`, as the pipeline passes it to the body, and its wholeness. -/
abbrev ms0_0 (t : Fin (cfgM m).N) : Memref sig .tc .vmem S300x512 .bf16 := spec0_0.stage ((cfgM m).slots t 0)
abbrev hs0_0 (t : Fin (cfgM m).N) : (ms0_0 m t).IsWhole := hstage0_0 (((cfgM m).slots t 0).cast nbuf0_0)
abbrev ms0_1 (t : Fin (cfgM m).N) : Memref sig .tc .vmem S1x512 .f32 := spec0_1.stage ((cfgM m).slots t 1)
abbrev hs0_1 (t : Fin (cfgM m).N) : (ms0_1 m t).IsWhole := hstage0_1 (((cfgM m).slots t 1).cast nbuf0_1)
abbrev ms0_2 (t : Fin (cfgM m).N) : Memref sig .tc .vmem S128x512 .f32 := spec0_2.stage ((cfgM m).slots t 2)
abbrev hs0_2 (t : Fin (cfgM m).N) : (ms0_2 m t).IsWhole := hstage0_2 (((cfgM m).slots t 2).cast nbuf0_2)

/-- The kernel body at point `t`, on what the pipeline calls it with. -/
abbrev bodyAt0 (t : Fin (cfgM m).N) : Prog (TpuEff nD τ sig (Elt F) Λ₀ .tc) PUnit :=
  cc0__embed_kernel (grid0.coords t) tbM htbM hbM hhbM (ms0_0 m t) (hs0_0 m t) (ms0_1 m t) (hs0_1 m t) (ms0_2 m t) (hs0_2 m t) scM hscM cc0_scratch1

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- An input window's current staging buffer holds its block at every point, fetched there or not: the two inputs'
    block index never moves, and the body leaves them in place. -/
theorem before0_0_of {c : Dev nD} (dat : Dat τ (Elt F) Unit ℕ (Pipeline.UD sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (Pipeline.UD sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the output's staging buffer holds after each point -/

/-- What the output's staging buffer holds after the body at point `t`. -/
def outsAt0 (hT : TblOk m) (c : Dev nD) (t : Fin (cfgM m).N) : Vec F S128x512 .f32 :=
  out0 c (grid0.coords t) (ms0_0 m t) (hs0_0 m t) (ms0_1 m t) (hs0_1 m t) (ms0_2 m t) (hs0_2 m t) (iblk m c 0 t) (iblk m c 1 t) (tbl m 0) (V m c main_arg1) (hT c)

/-! ## The pipeline's proof data -/

/-- The proof data of the one pipeline on core `c`: the arrays as the region finds them; after the body at point `t` each
    input's buffer at its block and the output's at `outsAt0`; the invariant: the scratch at some contents, the generator
    register at some state, the 128 cells at zero, the table of embeddings at its launch contents, and the token table's
    half; nothing owed; full shares. -/
def dats (hT : TblOk m) (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => iblk m c 1 t
    | ⟨2, _⟩ => outsAt0 m hT c t
  Φ _ := iprop(Pipeline.ΦD osem0 spec0 H0 (V m) c ∗ Pipeline.ΦT pre0 (tbl m) c)
  q _ := fullShare
  owed _ := 0

theorem A_eq (hT : TblOk m) (c : Dev nD) (w : Fin (cfgM m).W) : (dats m hT 0 c).A w = V m c (Pipeline.arrRef spec0 w) := by
  dsimp only [dats]

theorem after0_0 (hT : TblOk m) (c : Dev nD) (t : Fin (cfgM m).N) : (dats m hT 0 c).after 0 t = iblk m c 0 t := by dsimp only [dats]; try rfl
theorem after0_1 (hT : TblOk m) (c : Dev nD) (t : Fin (cfgM m).N) : (dats m hT 0 c).after 1 t = iblk m c 1 t := by dsimp only [dats]; try rfl
theorem after0_2 (hT : TblOk m) (c : Dev nD) (t : Fin (cfgM m).N) : (dats m hT 0 c).after 2 t = outsAt0 m hT c t := by dsimp only [dats]; try rfl

theorem before0_0 (hT : TblOk m) (c : Dev nD) (t : Fin (cfgM m).N) (d) : (dats m hT 0 c).before 0 t d = iblk m c 0 t :=
  before0_0_of m (dats m hT 0 c) (A_eq m hT c 0) (after0_0 m hT c) t d
theorem before0_1 (hT : TblOk m) (c : Dev nD) (t : Fin (cfgM m).N) (d) : (dats m hT 0 c).before 1 t d = iblk m c 1 t :=
  before0_1_of m (dats m hT 0 c) (A_eq m hT c 1) (after0_1 m hT c) t d

/-! ## The invariant, conjunct by conjunct -/

set_option maxRecDepth 1000000 in
set_option maxHeartbeats 4000000 in
/-- The 128 cells at zero, as a list over the cells' numbers 0 to 127. -/
theorem ownSems00_list (c : Dev nD) :
    (Pipeline.ownSems0 (Ix := Unit) (Name := ℕ) (U := Pipeline.UD sig nD τ) (Lvl := ℕ) (Val := Elt F) (τ := τ) osem0 c : sProp 𝕄)
      = BI.bigSepL [(0 : Fin 128), (1 : Fin 128), (2 : Fin 128), (3 : Fin 128), (4 : Fin 128), (5 : Fin 128), (6 : Fin 128), (7 : Fin 128), (8 : Fin 128), (9 : Fin 128), (10 : Fin 128), (11 : Fin 128), (12 : Fin 128), (13 : Fin 128), (14 : Fin 128), (15 : Fin 128), (16 : Fin 128), (17 : Fin 128), (18 : Fin 128), (19 : Fin 128), (20 : Fin 128), (21 : Fin 128), (22 : Fin 128), (23 : Fin 128), (24 : Fin 128), (25 : Fin 128), (26 : Fin 128), (27 : Fin 128), (28 : Fin 128), (29 : Fin 128), (30 : Fin 128), (31 : Fin 128), (32 : Fin 128), (33 : Fin 128), (34 : Fin 128), (35 : Fin 128), (36 : Fin 128), (37 : Fin 128), (38 : Fin 128), (39 : Fin 128), (40 : Fin 128), (41 : Fin 128), (42 : Fin 128), (43 : Fin 128), (44 : Fin 128), (45 : Fin 128), (46 : Fin 128), (47 : Fin 128), (48 : Fin 128), (49 : Fin 128), (50 : Fin 128), (51 : Fin 128), (52 : Fin 128), (53 : Fin 128), (54 : Fin 128), (55 : Fin 128), (56 : Fin 128), (57 : Fin 128), (58 : Fin 128), (59 : Fin 128), (60 : Fin 128), (61 : Fin 128), (62 : Fin 128), (63 : Fin 128), (64 : Fin 128), (65 : Fin 128), (66 : Fin 128), (67 : Fin 128), (68 : Fin 128), (69 : Fin 128), (70 : Fin 128), (71 : Fin 128), (72 : Fin 128), (73 : Fin 128), (74 : Fin 128), (75 : Fin 128), (76 : Fin 128), (77 : Fin 128), (78 : Fin 128), (79 : Fin 128), (80 : Fin 128), (81 : Fin 128), (82 : Fin 128), (83 : Fin 128), (84 : Fin 128), (85 : Fin 128), (86 : Fin 128), (87 : Fin 128), (88 : Fin 128), (89 : Fin 128), (90 : Fin 128), (91 : Fin 128), (92 : Fin 128), (93 : Fin 128), (94 : Fin 128), (95 : Fin 128), (96 : Fin 128), (97 : Fin 128), (98 : Fin 128), (99 : Fin 128), (100 : Fin 128), (101 : Fin 128), (102 : Fin 128), (103 : Fin 128), (104 : Fin 128), (105 : Fin 128), (106 : Fin 128), (107 : Fin 128), (108 : Fin 128), (109 : Fin 128), (110 : Fin 128), (111 : Fin 128), (112 : Fin 128), (113 : Fin 128), (114 : Fin 128), (115 : Fin 128), (116 : Fin 128), (117 : Fin 128), (118 : Fin 128), (119 : Fin 128), (120 : Fin 128), (121 : Fin 128), (122 : Fin 128), (123 : Fin 128), (124 : Fin 128), (125 : Fin 128), (126 : Fin 128), (127 : Fin 128)] (fun k => semVal ((c : Thread nD τ), osem0 k) 0) :=
  Pipeline.ownSems0_eq_of_list c osem0 [(0 : Fin 128), (1 : Fin 128), (2 : Fin 128), (3 : Fin 128), (4 : Fin 128), (5 : Fin 128), (6 : Fin 128), (7 : Fin 128), (8 : Fin 128), (9 : Fin 128), (10 : Fin 128), (11 : Fin 128), (12 : Fin 128), (13 : Fin 128), (14 : Fin 128), (15 : Fin 128), (16 : Fin 128), (17 : Fin 128), (18 : Fin 128), (19 : Fin 128), (20 : Fin 128), (21 : Fin 128), (22 : Fin 128), (23 : Fin 128), (24 : Fin 128), (25 : Fin 128), (26 : Fin 128), (27 : Fin 128), (28 : Fin 128), (29 : Fin 128), (30 : Fin 128), (31 : Fin 128), (32 : Fin 128), (33 : Fin 128), (34 : Fin 128), (35 : Fin 128), (36 : Fin 128), (37 : Fin 128), (38 : Fin 128), (39 : Fin 128), (40 : Fin 128), (41 : Fin 128), (42 : Fin 128), (43 : Fin 128), (44 : Fin 128), (45 : Fin 128), (46 : Fin 128), (47 : Fin 128), (48 : Fin 128), (49 : Fin 128), (50 : Fin 128), (51 : Fin 128), (52 : Fin 128), (53 : Fin 128), (54 : Fin 128), (55 : Fin 128), (56 : Fin 128), (57 : Fin 128), (58 : Fin 128), (59 : Fin 128), (60 : Fin 128), (61 : Fin 128), (62 : Fin 128), (63 : Fin 128), (64 : Fin 128), (65 : Fin 128), (66 : Fin 128), (67 : Fin 128), (68 : Fin 128), (69 : Fin 128), (70 : Fin 128), (71 : Fin 128), (72 : Fin 128), (73 : Fin 128), (74 : Fin 128), (75 : Fin 128), (76 : Fin 128), (77 : Fin 128), (78 : Fin 128), (79 : Fin 128), (80 : Fin 128), (81 : Fin 128), (82 : Fin 128), (83 : Fin 128), (84 : Fin 128), (85 : Fin 128), (86 : Fin 128), (87 : Fin 128), (88 : Fin 128), (89 : Fin 128), (90 : Fin 128), (91 : Fin 128), (92 : Fin 128), (93 : Fin 128), (94 : Fin 128), (95 : Fin 128), (96 : Fin 128), (97 : Fin 128), (98 : Fin 128), (99 : Fin 128), (100 : Fin 128), (101 : Fin 128), (102 : Fin 128), (103 : Fin 128), (104 : Fin 128), (105 : Fin 128), (106 : Fin 128), (107 : Fin 128), (108 : Fin 128), (109 : Fin 128), (110 : Fin 128), (111 : Fin 128), (112 : Fin 128), (113 : Fin 128), (114 : Fin 128), (115 : Fin 128), (116 : Fin 128), (117 : Fin 128), (118 : Fin 128), (119 : Fin 128), (120 : Fin 128), (121 : Fin 128), (122 : Fin 128), (123 : Fin 128), (124 : Fin 128), (125 : Fin 128), (126 : Fin 128), (127 : Fin 128)] (by decide +kernel) (by decide +kernel)

set_option maxRecDepth 1000000 in
set_option maxHeartbeats 4000000 in
/-- That list, cell by cell: cell k of the body is cell 4 + k of the pool. -/
theorem ownCells_list (c : Dev nD) :
    (BI.bigSepL [(0 : Fin 128), (1 : Fin 128), (2 : Fin 128), (3 : Fin 128), (4 : Fin 128), (5 : Fin 128), (6 : Fin 128), (7 : Fin 128), (8 : Fin 128), (9 : Fin 128), (10 : Fin 128), (11 : Fin 128), (12 : Fin 128), (13 : Fin 128), (14 : Fin 128), (15 : Fin 128), (16 : Fin 128), (17 : Fin 128), (18 : Fin 128), (19 : Fin 128), (20 : Fin 128), (21 : Fin 128), (22 : Fin 128), (23 : Fin 128), (24 : Fin 128), (25 : Fin 128), (26 : Fin 128), (27 : Fin 128), (28 : Fin 128), (29 : Fin 128), (30 : Fin 128), (31 : Fin 128), (32 : Fin 128), (33 : Fin 128), (34 : Fin 128), (35 : Fin 128), (36 : Fin 128), (37 : Fin 128), (38 : Fin 128), (39 : Fin 128), (40 : Fin 128), (41 : Fin 128), (42 : Fin 128), (43 : Fin 128), (44 : Fin 128), (45 : Fin 128), (46 : Fin 128), (47 : Fin 128), (48 : Fin 128), (49 : Fin 128), (50 : Fin 128), (51 : Fin 128), (52 : Fin 128), (53 : Fin 128), (54 : Fin 128), (55 : Fin 128), (56 : Fin 128), (57 : Fin 128), (58 : Fin 128), (59 : Fin 128), (60 : Fin 128), (61 : Fin 128), (62 : Fin 128), (63 : Fin 128), (64 : Fin 128), (65 : Fin 128), (66 : Fin 128), (67 : Fin 128), (68 : Fin 128), (69 : Fin 128), (70 : Fin 128), (71 : Fin 128), (72 : Fin 128), (73 : Fin 128), (74 : Fin 128), (75 : Fin 128), (76 : Fin 128), (77 : Fin 128), (78 : Fin 128), (79 : Fin 128), (80 : Fin 128), (81 : Fin 128), (82 : Fin 128), (83 : Fin 128), (84 : Fin 128), (85 : Fin 128), (86 : Fin 128), (87 : Fin 128), (88 : Fin 128), (89 : Fin 128), (90 : Fin 128), (91 : Fin 128), (92 : Fin 128), (93 : Fin 128), (94 : Fin 128), (95 : Fin 128), (96 : Fin 128), (97 : Fin 128), (98 : Fin 128), (99 : Fin 128), (100 : Fin 128), (101 : Fin 128), (102 : Fin 128), (103 : Fin 128), (104 : Fin 128), (105 : Fin 128), (106 : Fin 128), (107 : Fin 128), (108 : Fin 128), (109 : Fin 128), (110 : Fin 128), (111 : Fin 128), (112 : Fin 128), (113 : Fin 128), (114 : Fin 128), (115 : Fin 128), (116 : Fin 128), (117 : Fin 128), (118 : Fin 128), (119 : Fin 128), (120 : Fin 128), (121 : Fin 128), (122 : Fin 128), (123 : Fin 128), (124 : Fin 128), (125 : Fin 128), (126 : Fin 128), (127 : Fin 128)] (fun k => semVal ((c : Thread nD τ), osem0 k) 0) : sProp 𝕄) = ownCells c := by
  simp only [BI.bigSepL_cons_cons, BI.bigSepL_singleton]
  rfl

/-- The 128 cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄) = ownCells c :=
  (ownSems00_list c).trans (ownCells_list c)

/-- The table of embeddings at its launch contents. -/
theorem hbmPts0_eq (c : Dev nD) :
    (bigSep H0 (fun b => ((c : Thread nD τ).loc b) ↦{fullShare} V m c b) : sProp 𝕄) = hbPt c (V m c main_arg1) := by
  rw [BI.bigSep_eq_bigSepL_of_eq [main_arg1] (by decide) (by decide)]; rfl

theorem PhiD0_eq (c : Dev nD) :
    (Pipeline.ΦD osem0 spec0 H0 (V m) c : sProp 𝕄)
      = iprop(iprop((∃ d, owns (c : Thread nD τ) scM fullShare d)) ∗ (∃ r, prngReg c r) ∗ ownCells c ∗ hbPt c (V m c main_arg1)) := by
  rw [Pipeline.ΦD_eq, scopedRest0_eq, ownSems00_eq, hbmPts0_eq]; simp only [scM, owns_whole]; try rfl

theorem PhiT0_eq (c : Dev nD) : (Pipeline.ΦT pre0 (tbl m) c : sProp 𝕄) = tbPt c (tbl m 0) := by
  unfold Pipeline.ΦT Pipeline.prefHeld
  rw [show (Finset.univ : Finset (Fin 1)) = {(0 : Fin 1)} from by decide, bigSep_singleton]
  rfl

/-- The table of embeddings held whole is a remainder and one read share per cell of the pool. -/
theorem toks_split (c : Dev nD) (fh : HbBuf (F := F) c) :
    (hbPt c fh : sProp 𝕄) ⊣⊢ iprop(((hbM).view.loc (c : Thread nD τ) ↦{Transfers.shareDrop fullShare 132} fh) ∗ readToks c fh) := by
  have h := Transfers.pointsTo_toks_range (ℓ := (hbM).view.loc (c : Thread nD τ)) (S := Finset.univ) (f := fh) (Ix := Unit) (Name := ℕ) (U := Pipeline.UD sig nD τ) (Lvl := ℕ) fullShare 132
  rw [BI.bigSep_eq_bigSepL_of_eq (List.range 132) (by decide) (by decide)] at h
  exact h

/-! ## The body obligation -/

def bodyPre (hT : TblOk m) (c : Dev nD) (t : Fin (cfgM m).N) : sProp 𝕄 :=
  iprop((dats m hT 0 c).Φ t.castSucc ∗ (dats m hT 0 c).owesAt () t.castSucc
    ∗ (∃ d, owns (c : Thread nD τ) (ms0_0 m t) fullShare ((dats m hT 0 c).before 0 t d))
    ∗ (∃ d, owns (c : Thread nD τ) (ms0_1 m t) fullShare ((dats m hT 0 c).before 1 t d))
    ∗ (∃ d, owns (c : Thread nD τ) (ms0_2 m t) fullShare ((dats m hT 0 c).before 2 t d)))

def bodyPost (hT : TblOk m) (c : Dev nD) (t : Fin (cfgM m).N) : sProp 𝕄 :=
  iprop((dats m hT 0 c).Φ t.succ ∗ (dats m hT 0 c).owesAt () t.succ
    ∗ owns (c : Thread nD τ) (ms0_0 m t) fullShare ((dats m hT 0 c).after 0 t)
    ∗ owns (c : Thread nD τ) (ms0_1 m t) fullShare ((dats m hT 0 c).after 1 t)
    ∗ owns (c : Thread nD τ) (ms0_2 m t) fullShare ((dats m hT 0 c).after 2 t))

/-- The body at any point: the inputs' memrefs hold their blocks, so the run applies; the invariant hands the body its
    scratch, its cells at zero, the table of embeddings (split into read shares for the copies, joined again after the last
    wait) and the token table's half, and takes them back as they were; the waits recorded stay within the next point's
    bound (everything). -/
theorem sound_body (hT : TblOk m) (c : Dev nD) (t : Fin (cfgM m).N) :
    bodyPre m hT c t ⊢ wp frame (wpE (defs₀ (F := F)) Variants.none c none) Set.univ (bodyAt0 m t) (fun _ => bodyPost m hT c t) := by
  unfold bodyPre bodyPost bodyAt0
  simp only [before0_0, before0_1]
  rw [show (dats m hT 0 c).Φ t.succ = (dats m hT 0 c).Φ t.castSucc from rfl, after0_0, after0_1, after0_2]
  rw [show (dats m hT 0 c).Φ t.castSucc = iprop(Pipeline.ΦD osem0 spec0 H0 (V m) c ∗ Pipeline.ΦT pre0 (tbl m) c) from rfl, PhiD0_eq, PhiT0_eq]
  unfold Dat.owesAt Pipeline.owesWithin
  rw [show (dats m hT 0 c).owed t.castSucc = 0 from rfl, show (dats m hT 0 c).owed t.succ = 0 from rfl]
  unfold outsAt0
  unfold out0
  iintro ⟨⟨⟨HS0, Hg, Hq0, Hh0⟩, HT⟩, ⟨%W, -, HW⟩, ⟨%d0, H0⟩, ⟨%d1, H1⟩, ⟨%d2, H2⟩⟩
  ihave Hh := (toks_split c (V m c main_arg1)).1 $$ Hh0
  icases Hh with ⟨Hdrop, Htoks⟩
  iapply ((kernelRun c (grid0.coords t) _ _ _ _ _ _ (iblk m c 0 t) (iblk m c 1 t) (tbl m 0) (V m c main_arg1) (hT c)).2 W _)
  isplitl [H0]; · iexact H0
  isplitl [H1]; · iexact H1
  isplitl [H2]; · iexists _; iexact H2
  isplitl [HS0]; · iexact HS0
  isplitl [HT]; · iexact HT
  isplitl [Htoks]; · iexact Htoks
  isplitl [Hq0]; · iexact Hq0
  isplitl [HW]; · iexact HW
  iintro ⟨H0, H1, ⟨%e2, H2⟩, HS0, HT, Htoks, Hq0, ⟨%W', HW'⟩⟩
  ihave Hh0 := (toks_split c (V m c main_arg1)).2 $$ [Hdrop Htoks]
  · isplitl [Hdrop]; · iexact Hdrop
    iexact Htoks
  isplitl [HS0 Hg Hq0 Hh0 HT]
  · isplitl [HS0 Hg Hq0 Hh0]
    · isplitl [HS0]; · iexact HS0
      isplitl [Hg]; · iexact Hg
      isplitl [Hq0]; · iexact Hq0
      iexact Hh0
    iexact HT
  isplitl [HW']
  · iexists W'; isplitr; · ipureintro; exact fun _ _ => Or.inl trivial
    iexact HW'
  isplitl [H0]; · iexact H0
  isplitl [H1]; · iexact H1
  unfold owns; iexists _; isplitr
  swap; · iexact H2
  ipureintro; exact View.read_writes_of_cover _ _ _ _ _ (cover0 c _ _ _ _ _ _ _ _ _ _ _ _)

set_option maxRecDepth 1000000 in
/-- The library's body obligation, at every point. -/
theorem body_obligation (hT : TblOk m) (c : Dev nD) : BodyObligation (dats (F := F) m hT 0 c) (defs₀ (F := F)) Variants.none () Set.univ := fun t => by
  rw [bigSep_W0, bigSep_W0]
  show bodyPre m hT c t ⊢ wp frame (wpE (defs₀ (F := F)) Variants.none c none) Set.univ (bodyAt0 m t) (fun _ => bodyPost m hT c t)
  exact sound_body m hT c t

/-! ## The run and the frame -/

set_option backward.isDefEq.respectTransparency.types false in
/-- From any memory with zero counters whose token table names rows only: every weakly fair execution of @main terminates, and
    every final state has the pipeline's arrays at what the proof data say and every other unscoped buffer at what the last
    host line leaves. -/
theorem run_main (hT : TblOk m) : θ_run defs (onTc (τ := τ) (main (F := F))) (s₀ m ρ)
    (Pipeline.FramePost (Pipeline.pin (pcfgs (F := F)) (fun _ => adm m)) (dats m hT) 0
      (Pipeline.afterTail (pcfgs (F := F)) (fun _ => adm m) (dats m hT) 0 (V0 m) [hostOps1])) :=
  Pipeline.θ_run_frameP_dma_around pcfgs (fun _ => adm m) (dats m hT) (0 : Fin 1) launch0 osem0 defs₀ Variants.none ownSemFacts0 H0 H0_sub m ρ main
    (hbody := fun c => (body_obligation m hT c).loose) (hshare := fun c => (dats m hT 0 c).share_full fun _ => rfl)
    (howed := fun _ _ => rfl) (V₀ := V0 m) (opss := [hostOps1]) (hsub := sfx_sub) (hfresh := sfx_fresh) (hkeep := sfx_keeps)
    (hmain := hmain m Variants.none) (hA := A_eq m hT) (hpf := V_pre m)
    (hin := fun _ => .rfl)
    (hout := fun c => (show iprop(Pipeline.ΦD osem0 spec0 H0 (V m) c ∗ Pipeline.ΦT pre0 (tbl m) c) ⊢ Pipeline.ΦD osem0 spec0 H0 (V m) c from by
      iintro ⟨HD, -⟩; iexact HD))

/-- THE FRAME: the program runs to the end, faults nowhere, and its four arguments end unchanged, from any memory whose
    token table names rows of the table of embeddings only. -/
theorem frame (hT : TblOk m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m hT) (run_main m ρ hT)

end Cert.KernelIdeal.Hand

end
-- ==== Proof.KernelIdeal.BlockValue.lean ====
/-
  The output block of one grid point, entry by entry, over the extended reals.

  Token word k of point i is word 128·i + k of the token table. Copy k delivers the row of the table of embeddings that
  word names: entry d of what it delivers is entry (word, d) of the table. The body stores, at (k, m), the product of
  row k of the gathered rows with column m of the staged weights, summed over the 300 entries, plus entry (0, m) of
  the staged bias row: the rounding of the gathered rows to a narrower float format is the identity over the extended
  reals, the matrix product into a zero accumulator is the plain sum of products, and the bias row is broadcast down the
  128 rows.
-/
import proofs.«410898_j66494683677006_3_alg».proof.Proof.Gen.KernelIdeal.Launch
import proofs.«410898_j66494683677006_3_alg».proof.Proof.Gen.KernelIdeal.Skeleton
import proofs.«410898_j66494683677006_3_alg».proof.Proof.KernelIdeal.BodyRun
import Idealize.ShloMosaic.Lib.ValueIdx
import Idealize.ShloMosaic.Lib.Pipeline.Value
import Idealize.ShloMosaic.Lib.ValueLayout
import Idealize.ShloMosaic.PureOps.Ideal.Laws
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx
open scoped BigOperators

/-- A grid point's one coordinate is below 8. -/
theorem coord_lt (i : grid0.Coords) : (i 0).val < 8 := (i 0).isLt

/-- A token word names a row of the table of embeddings. -/
theorem tokWord_lt (c : Dev nD) (i : grid0.Coords) (T : TbBuf (F := F) c) (hT : TokOk c T) (k : Fin 128) :
    (tokWord c i T k).toNat < 32000 := by
  unfold tokWord; exact hT _ _ _

/-- The offset word of token k of point i is 128·i + k: with i below 8 and k below 128 neither the product nor the sum
    wraps at 2^32. -/
theorem off_word (i : grid0.Coords) (k : Fin 128) :
    k0_off1 i (BitVec.ofNat 32 k.val) 0 = 128 * (i 0).val + k.val := by
  have hi := coord_lt i
  have hk := k.isLt
  show (Scalar.indexCast (Scalar.addi (Scalar.muli (BitVec.ofNat 32 (i 0).val) 128#32) (BitVec.ofNat 32 k.val))).toNat = _
  unfold Scalar.indexCast Scalar.addi Scalar.muli IntOp.addi IntOp.muli
  rw [BitVec.toNat_add, BitVec.toNat_mul, BitVec.toNat_ofNat, BitVec.toNat_ofNat, BitVec.toNat_ofNat]
  omega

/-- Token word k of point i is word 128·i + k of the table: a read of the whole table through a one-word rectangle is
    the table at the rectangle's index, offset + 1 × 0. -/
theorem tokWord_eq (c : Dev nD) (i : grid0.Coords) (T : TbBuf (F := F) c) (k : Fin 128) :
    tokWord c i T k = T (ix1 (⟨128 * (i 0).val + k.val, by have := coord_lt i; have := k.isLt; omega⟩ : Fin 1024)) := by
  unfold tokWord
  refine congrArg T (funext fun a => Fin.ext ?_)
  match a with
  | ⟨0, _⟩ =>
    show k0_off1 i (BitVec.ofNat 32 k.val) 0 + 1 * 0 = 128 * (i 0).val + k.val
    rw [off_word]; omega

/-- Entry d of the one-row memref at row v of the table of embeddings sits at coordinates (v, d) of the table: the row
    index is matched with (0, d) of the 1 × 300 block, and a block's coordinate is offset + 1 × the coordinate inside. -/
theorem row_coords (v : BitVec 32) (hv : v.toNat < 32000) (d : Fin 300)
    (hn : S300.numel = (Rect.unit (s := S32000x300) ![v.toNat, 0] S1x300.size (chk_row v hv)).shape.numel) :
    (Rect.unit (s := S32000x300) ![v.toNat, 0] S1x300.size (chk_row v hv)).emb (Shape.reshapeEquiv hn (ix1 d))
      = ix2 (⟨v.toNat, hv⟩ : Fin 32000) d := by
  have e := Shape.reshapeEquiv_cons_one (n := 1) (d := ![300]) hn (ix1 d)
  funext a
  apply Fin.ext
  match a with
  | ⟨0, _⟩ =>
    rw [Rect.emb_apply]
    have h0 : ((Shape.reshapeEquiv hn (ix1 d)) 0).val < 1 := ((Shape.reshapeEquiv hn (ix1 d)) 0).isLt
    show v.toNat + 1 * ((Shape.reshapeEquiv hn (ix1 d)) 0).val = v.toNat
    omega
  | ⟨1, _⟩ =>
    rw [Rect.emb_apply, e]
    show 0 + 1 * d.val = d.val
    omega

/-- Entry d of what copy k delivers is entry (token word k, d) of the table of embeddings. -/
theorem payOf_apply (c : Dev nD) (i : grid0.Coords) (T : TbBuf (F := F) c) (fh : HbBuf (F := F) c) (hT : TokOk c T) (k : Fin 128) (d : Fin 300) :
    payOf c i T fh hT k (ix1 d) = fh (ix2 (⟨(tokWord c i T k).toNat, tokWord_lt c i T hT k⟩ : Fin 32000) d) := by
  unfold payOf
  have hn : S300.numel = (Rect.unit (s := S32000x300) ![(tokWord c i T k).toNat, 0] S1x300.size (chk_row _ (tokWord_lt c i T hT k))).shape.numel :=
    squeezes_S1x300_S300.numel_eq
  exact congrArg fh (row_coords (tokWord c i T k) (tokWord_lt c i T hT k) d hn)

/-- The zero offsets of a whole-block access, as the constant function. -/
theorem hz : (![0, 0] : Fin 2 → Nat) = fun _ => 0 := funext fun a => by fin_cases a <;> rfl

set_option maxHeartbeats 4000000 in
/-- What the run leaves in the output's staging buffer is the body's arithmetic on the gathered rows, the staged weights
    and the staged bias row: the run found one piece, the store of the whole block, whose payload is the arithmetic on the
    three whole-buffer loads, and each load reads what its buffer holds. -/
theorem out0_eq (c : Dev nD) (i : grid0.Coords)
    (arg3 : Memref sig .tc .vmem S300x512 .bf16) (harg3 : arg3.IsWhole) (arg4 : Memref sig .tc .vmem S1x512 .f32) (harg4 : arg4.IsWhole)
    (arg5 : Memref sig .tc .vmem S128x512 .f32) (harg5 : arg5.IsWhole)
    (x0 : Vec F S300x512 .bf16) (x1 : Vec F S1x512 .f32) (T : TbBuf (F := F) c) (fh : HbBuf (F := F) c) (hT : TokOk c T) :
    out0 c i arg3 harg3 arg4 harg4 arg5 harg5 x0 x1 T fh hT = k0_pay1 (gathered (payOf c i T fh hT)) x0 x1 := by
  unfold out0
  rw [View.read_writes_eq_canon _ _ _ (cover0 c i arg3 harg3 arg4 harg4 arg5 harg5 x0 x1 T fh hT)]
  unfold kernelRun
  dsimp only
  sl_unfold_words
  rw [View.canon_unit_zero hz]
  simp only [View.readAt_eq_ld, hscM.read_unread, harg3.read_unread, harg4.read_unread,
    View.ld_unit_zero (S := S128x300) hz, View.ld_unit_zero (S := S300x512) hz, View.ld_unit_zero (S := S1x512) hz]

/-! The matrix product's dimension numbers contract the left operand's second axis with the right operand's first: at
    output index j and contraction index q the left operand is read at (j 0, q) and the right at (q, j 1). -/

theorem lhs_mm_0 (j : S128x512.Idx) (q : dot_S128x300_S300x512_S128x512_1_0_0_1_n_n.contr.Idx) :
    (dot_S128x300_S300x512_S128x512_1_0_0_1_n_n.lhsIdx j q 0).val = (j 0).val := by
  unfold DotDims.lhsIdx
  rw [dif_neg (show ¬(0 : Fin S128x300.rank) ∈ dot_S128x300_S300x512_S128x512_1_0_0_1_n_n.lhsBatch by decide), dif_pos (show (0 : Fin S128x300.rank) ∈ dot_S128x300_S300x512_S128x512_1_0_0_1_n_n.lhsNonContracting by decide)]
  rfl
theorem lhs_mm_1 (j : S128x512.Idx) (q : dot_S128x300_S300x512_S128x512_1_0_0_1_n_n.contr.Idx) :
    (dot_S128x300_S300x512_S128x512_1_0_0_1_n_n.lhsIdx j q 1).val = (q ⟨0, by decide⟩).val :=
  dot_S128x300_S300x512_S128x512_1_0_0_1_n_n.lhsIdx_val_of_single rfl j q
theorem rhs_mm_0 (j : S128x512.Idx) (q : dot_S128x300_S300x512_S128x512_1_0_0_1_n_n.contr.Idx) :
    (dot_S128x300_S300x512_S128x512_1_0_0_1_n_n.rhsIdx j q 0).val = (q ⟨0, by decide⟩).val :=
  dot_S128x300_S300x512_S128x512_1_0_0_1_n_n.rhsIdx_val_of_single rfl j q
theorem rhs_mm_1 (j : S128x512.Idx) (q : dot_S128x300_S300x512_S128x512_1_0_0_1_n_n.contr.Idx) :
    (dot_S128x300_S300x512_S128x512_1_0_0_1_n_n.rhsIdx j q 1).val = (j 1).val := by
  unfold DotDims.rhsIdx
  rw [dif_neg (show ¬(1 : Fin S300x512.rank) ∈ dot_S128x300_S300x512_S128x512_1_0_0_1_n_n.rhsBatch by decide), dif_pos (show (1 : Fin S300x512.rank) ∈ dot_S128x300_S300x512_S128x512_1_0_0_1_n_n.rhsNonContracting by decide)]
  rfl

/-- Entry (k, mm) of the product of a 128 × 300 and a 300 × 512 matrix into a zero accumulator, over the extended reals:
    the sum over the 300 contracted entries of left (k, d) times right (d, mm). -/
theorem matmul_at (l : FVec Ideal S128x300 .bf16) (r : FVec Ideal S300x512 .bf16) (k : Fin 128) (mm : Fin 512) :
    FloatOps.matmul dot_S128x300_S300x512_S128x512_1_0_0_1_n_n none l r (constant (F := Ideal) S128x512 .f32 0x00000000#32) (ix2 k mm)
      = ∑ d : Fin 300, l (ix2 k d) * r (ix2 d mm) := by
  rw [Ideal.matmul_constant_zero_apply, ← Equiv.sum_comp (contrEquiv1 dot_S128x300_S300x512_S128x512_1_0_0_1_n_n 300 rfl rfl).symm]
  refine Finset.sum_congr rfl fun d _ => ?_
  have hd := contrEquiv1_symm_val dot_S128x300_S300x512_S128x512_1_0_0_1_n_n 300 rfl rfl d
  have el : dot_S128x300_S300x512_S128x512_1_0_0_1_n_n.lhsIdx (ix2 k mm) ((contrEquiv1 dot_S128x300_S300x512_S128x512_1_0_0_1_n_n 300 rfl rfl).symm d) = ix2 k d := funext fun a => Fin.ext (by
    match a with
    | ⟨0, _⟩ => exact lhs_mm_0 _ _
    | ⟨1, _⟩ => exact (lhs_mm_1 _ _).trans hd)
  have er : dot_S128x300_S300x512_S128x512_1_0_0_1_n_n.rhsIdx (ix2 k mm) ((contrEquiv1 dot_S128x300_S300x512_S128x512_1_0_0_1_n_n 300 rfl rfl).symm d) = ix2 d mm := funext fun a => Fin.ext (by
    match a with
    | ⟨0, _⟩ => exact (rhs_mm_0 _ _).trans hd
    | ⟨1, _⟩ => exact rhs_mm_1 _ _)
  rw [el, er]

/-- The body's arithmetic at (k, mm), over the extended reals: row k of the first operand contracted with column mm of
    the second, plus entry (0, mm) of the third. The rounding to the narrower format is the identity there, the two
    shape casts are to the operands' own shapes, and the row is broadcast down the 128 rows. -/
theorem pay_at (G : Vec Ideal S128x300 .f32) (x0 : Vec Ideal S300x512 .bf16) (x1 : Vec Ideal S1x512 .f32) (k : Fin 128) (mm : Fin 512) :
    (k0_pay1 (F := Ideal) G x0 x1 (ix2 k mm) : EReal)
      = (∑ d : Fin 300, (G (ix2 k d) : EReal) * (x0 (ix2 d mm) : EReal)) + (x1 (ix2 (0 : Fin 1) mm) : EReal) := by
  unfold k0_pay1
  refine (addf_apply _ _ (ix2 k mm)).trans ?_
  refine congrArg₂ (· + ·) ?_ ?_
  · refine (matmul_at _ _ k mm).trans ?_
    refine Finset.sum_congr rfl fun d _ => ?_
    refine congrArg₂ (· * ·) (truncf_apply _ _ _) ?_
    exact congrFun (shapeCast_self x0 _) (ix2 d mm)
  · refine (broadcastTo_apply _ broadcasts_S1x512_S128x512 (ix2 k mm) (ix2 (0 : Fin 1) mm) (fun a => match a with
      | ⟨0, _⟩ => by show 0 = if (1 : Nat) = 1 then 0 else _; rw [if_pos rfl]
      | ⟨1, _⟩ => by show mm.val = if (512 : Nat) = 1 then 0 else _; rw [if_neg (by decide)]; rfl)).trans ?_
    exact congrFun (shapeCast_self x1 _) _

/-- The table of embeddings, the staged weights and the staged bias row as arrays of extended reals. -/
abbrev hbArr (c : Dev nD) (fh : HbBuf (F := Ideal) c) : S32000x300.Idx → EReal := fh
abbrev wArr (x0 : Vec Ideal S300x512 .bf16) : S300x512.Idx → EReal := x0
abbrev bArr (x1 : Vec Ideal S1x512 .f32) : S1x512.Idx → EReal := x1

/-- The output block at (k, mm), over the extended reals: the embedding of token word k contracted with column mm of the
    staged weights, plus entry (0, mm) of the staged bias row. -/
theorem out0_apply (c : Dev nD) (i : grid0.Coords)
    (arg3 : Memref sig .tc .vmem S300x512 .bf16) (harg3 : arg3.IsWhole) (arg4 : Memref sig .tc .vmem S1x512 .f32) (harg4 : arg4.IsWhole)
    (arg5 : Memref sig .tc .vmem S128x512 .f32) (harg5 : arg5.IsWhole)
    (x0 : Vec Ideal S300x512 .bf16) (x1 : Vec Ideal S1x512 .f32) (T : TbBuf (F := Ideal) c) (fh : HbBuf (F := Ideal) c) (hT : TokOk c T)
    (k : Fin 128) (mm : Fin 512) :
    (out0 (F := Ideal) c i arg3 harg3 arg4 harg4 arg5 harg5 x0 x1 T fh hT (ix2 k mm) : EReal)
      = (∑ d : Fin 300, hbArr c fh (ix2 (⟨(tokWord c i T k).toNat, tokWord_lt c i T hT k⟩ : Fin 32000) d) * wArr x0 (ix2 d mm))
          + bArr x1 (ix2 (0 : Fin 1) mm) := by
  refine (congrFun (out0_eq (F := Ideal) c i arg3 harg3 arg4 harg4 arg5 harg5 x0 x1 T fh hT) (ix2 k mm)).trans ?_
  refine (pay_at (gathered (payOf c i T fh hT)) x0 x1 k mm).trans ?_
  refine congrArg (· + bArr x1 (ix2 (0 : Fin 1) mm)) (Finset.sum_congr rfl fun d _ => ?_)
  refine congrArg (· * wArr x0 (ix2 d mm)) ?_
  exact (RowJoin.gathered_apply (payOf c i T fh hT) (ix2 k d) k (ix1 d) rfl rfl).trans (payOf_apply c i T fh hT k d)

end Cert.KernelIdeal.Hand

end
-- ==== Proof.KernelIdeal.ArrayValue.lean ====
/-
  The array the region leaves, over the extended reals.

  Grid point t writes back rows 128·t, …, 128·t + 127 of the 1024 × 512 result: its block is what the body stored, and
  entry (k, m) of that block is the embedding of token word k of the point contracted with weight row m, plus bias m.
  Token word k of point t is word 128·t + k of the token table, which is token ((128·t + k) / 128, (128·t + k) mod 128);
  the staged weights at (d, m) are weight (m, d); the staged bias row at (0, m) is bias m. The eight blocks tile the array,
  so the array ends as the one function: row n is the specification's result for token (n / 128, n mod 128).
-/
import proofs.«410898_j66494683677006_3_alg».proof.Proof.Gen.KernelIdeal.Launch
import proofs.«410898_j66494683677006_3_alg».proof.Proof.Gen.KernelIdeal.Skeleton
import proofs.«410898_j66494683677006_3_alg».proof.Proof.KernelIdeal.Frame
import proofs.«410898_j66494683677006_3_alg».proof.Proof.KernelIdeal.BlockValue
import proofs.«410898_j66494683677006_3_alg».proof.Proof.KernelIdeal.EntryValues
import proofs.«410898_j66494683677006_3_alg».proof.Proof.Spec
import Idealize.ShloMosaic.Lib.ValueIdx
import Idealize.ShloMosaic.Lib.Pipeline.Value
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx
open scoped BigOperators

variable (m : (ℓ : Loc nD τ sig) → Buf (Elt Ideal) ℓ)

/-- The coordinates of an index of the 1024 × 512 array are below its extents. -/
theorem flat_lt0 (j : S1024x512.Idx) : (j 0).val < 1024 := (j 0).isLt
theorem flat_lt1 (j : S1024x512.Idx) : (j 1).val < 512 := (j 1).isLt

/-- The 1024 × 512 array: row n is the specification's result for token (n / 128, n mod 128). -/
def flat : S1024x512.Idx → EReal := fun j =>
  Cert.Spec.outAt (m (((0 : Dev nD) : Thread nD τ).loc main_arg0)) (m (((0 : Dev nD) : Thread nD τ).loc main_arg1))
    (m (((0 : Dev nD) : Thread nD τ).loc main_arg2)) (m (((0 : Dev nD) : Thread nD τ).loc main_arg3))
    (⟨(j 0).val / 128, by have := flat_lt0 j; omega⟩ : Fin 8) (⟨(j 0).val % 128, Nat.mod_lt _ (by decide)⟩ : Fin 128)
    (⟨(j 1).val, flat_lt1 j⟩ : Fin 512)

/-- The grid's one coordinate is the point's number; the weights' and the bias row's block index stays (0, 0); the
    output's block index at point t is (t, 0), and it is written back at every point. -/
theorem maps_facts : ∀ t : Fin grid0.N,
    ((grid0.coords t) 0).val = t.val
    ∧ cc0_transform_1 (grid0.coords t) (0 : Fin 2) = 0 ∧ cc0_transform_1 (grid0.coords t) (1 : Fin 2) = 0
    ∧ cc0_transform_2 (grid0.coords t) (0 : Fin 2) = 0 ∧ cc0_transform_2 (grid0.coords t) (1 : Fin 2) = 0
    ∧ cc0_transform_3 (grid0.coords t) (0 : Fin 2) = t.val ∧ cc0_transform_3 (grid0.coords t) (1 : Fin 2) = 0
    ∧ Pipeline.Window.flushOf grid0 true cc0_transform_3 t = true := by decide +kernel

/-- The same facts read off the pipeline's windows at a point. -/
theorem idx_facts (t : Fin (cfgM m).N) :
    ((grid0.coords t) 0).val = t.val
    ∧ ((cfgM m).win 0).index t (0 : Fin 2) = 0 ∧ ((cfgM m).win 0).index t (1 : Fin 2) = 0
    ∧ ((cfgM m).win 1).index t (0 : Fin 2) = 0 ∧ ((cfgM m).win 1).index t (1 : Fin 2) = 0
    ∧ ((cfgM m).win 2).index t (0 : Fin 2) = t.val ∧ ((cfgM m).win 2).index t (1 : Fin 2) = 0
    ∧ ((cfgM m).win 2).flush t = true := maps_facts t

/-- `flat` at an index whose row is 128·b + s and whose column is mm. -/
theorem flat_at (j : S1024x512.Idx) (b : Fin 8) (s : Fin 128) (mm : Fin 512)
    (hb : b.val = (j 0).val / 128) (hs : s.val = (j 0).val % 128) (hm : mm.val = (j 1).val) :
    flat m j = Cert.Spec.outAt (m (((0 : Dev nD) : Thread nD τ).loc main_arg0)) (m (((0 : Dev nD) : Thread nD τ).loc main_arg1))
      (m (((0 : Dev nD) : Thread nD τ).loc main_arg2)) (m (((0 : Dev nD) : Thread nD τ).loc main_arg3)) b s mm := by
  obtain ⟨b, hb'⟩ := b
  obtain ⟨s, hs'⟩ := s
  obtain ⟨mm, hm'⟩ := mm
  dsimp only at hb hs hm
  subst hb hs hm
  rfl

/-- One entry of a point's output block is the specification's result, once the point's token word k is token (b, s)
    below 32000, the table the copies read is the table of embeddings, the staged weights at (d, mm) are weight (mm, d) and
    the staged bias row at (0, mm) is bias mm. -/
theorem block_entry (c : Dev nD) (i : grid0.Coords)
    (arg3 : Memref sig .tc .vmem S300x512 .bf16) (harg3 : arg3.IsWhole) (arg4 : Memref sig .tc .vmem S1x512 .f32) (harg4 : arg4.IsWhole)
    (arg5 : Memref sig .tc .vmem S128x512 .f32) (harg5 : arg5.IsWhole)
    (x0 : Vec Ideal S300x512 .bf16) (x1 : Vec Ideal S1x512 .f32) (T : TbBuf (F := Ideal) c) (fh : HbBuf (F := Ideal) c) (hT : TokOk c T)
    (k : Fin 128) (mm : Fin 512)
    (tok : IVec (⟨2, ![8, 128]⟩ : Shape) 32) (tb : FVec Ideal (⟨2, ![32000, 300]⟩ : Shape) .f32)
    (w : FVec Ideal (⟨2, ![512, 300]⟩ : Shape) .f32) (bias : FVec Ideal (⟨1, ![512]⟩ : Shape) .f32) (b : Fin 8) (s : Fin 128)
    (hword : tokWord c i T k = tok (ix2 b s)) (hlt : (tok (ix2 b s)).toNat < 32000)
    (hfh : ∀ (r : Fin 32000) (d : Fin 300), hbArr c fh (ix2 r d) = tb (ix2 r d))
    (hx0 : ∀ d : Fin 300, wArr x0 (ix2 d mm) = w (ix2 mm d))
    (hx1 : bArr x1 (ix2 (0 : Fin 1) mm) = bias (ix1 mm)) :
    (out0 (F := Ideal) c i arg3 harg3 arg4 harg4 arg5 harg5 x0 x1 T fh hT (ix2 k mm) : EReal)
      = Cert.Spec.outAt tok tb w bias b s mm := by
  refine (out0_apply c i arg3 harg3 arg4 harg4 arg5 harg5 x0 x1 T fh hT k mm).trans ?_
  unfold Cert.Spec.outAt Cert.Spec.emb
  rw [hx1]
  refine congrArg (· + bias (ix1 mm)) (Finset.sum_congr rfl fun d _ => ?_)
  rw [hx0 d, hfh]
  refine congrArg (fun r => tb (ix2 r d) * w (ix2 mm d)) (Fin.ext ?_)
  show (tokWord c i T k).toNat = (Cert.Spec.rowOf (tok (ix2 b s))).val
  rw [Cert.Spec.rowOf_val _ hlt, hword]

/-- The weights' window holds the whole staged array at every point: its block at (d, mm) is weight (mm, d). -/
theorem weights_block_at (c : Dev nD) (t : Fin (cfgM m).N) (d : Fin 300) (mm : Fin 512) :
    wArr (iblk m c 0 t) (ix2 d mm) = m ((c : Thread nD τ).loc main_arg2) (ix2 mm d) := by
  obtain ⟨-, a00, a01, -⟩ := idx_facts m t
  refine Eq.trans ?_ (V_main_v2_apply m c d mm)
  show V m c main_v2 ((((cfgM m).win 0).blk t).view.emb (ix2 d mm)) = V m c main_v2 (ix2 d mm)
  congr 1
  funext a
  apply Fin.ext
  match a with
  | ⟨0, _⟩ => show ((cfgM m).win 0).index t (0 : Fin 2) * 300 + 1 * d.val = d.val; rw [a00]; omega
  | ⟨1, _⟩ => show ((cfgM m).win 0).index t (1 : Fin 2) * 512 + 1 * mm.val = mm.val; rw [a01]; omega

/-- The bias row's window holds the whole staged row at every point: its block at (0, mm) is bias mm. -/
theorem bias_block_at (c : Dev nD) (t : Fin (cfgM m).N) (mm : Fin 512) :
    bArr (iblk m c 1 t) (ix2 (0 : Fin 1) mm) = m ((c : Thread nD τ).loc main_arg3) (ix1 mm) := by
  obtain ⟨-, -, -, a10, a11, -⟩ := idx_facts m t
  refine Eq.trans ?_ (V_main_v3_apply m c mm)
  show V m c main_v3 ((((cfgM m).win 1).blk t).view.emb (ix2 (0 : Fin 1) mm)) = V m c main_v3 (ix2 (0 : Fin 1) mm)
  congr 1
  funext a
  apply Fin.ext
  match a with
  | ⟨0, _⟩ => show ((cfgM m).win 1).index t (0 : Fin 2) * 1 + 1 * 0 = 0; rw [a10]
  | ⟨1, _⟩ => show ((cfgM m).win 1).index t (1 : Fin 2) * 512 + 1 * mm.val = mm.val; rw [a11]; omega

/-- What point t writes back is block t of `flat`: entry (k, mm) of the block the body stored is the specification's
    result for token word 128·t + k, which is token ((128·t + k) / 128, (128·t + k) mod 128), and the block's element
    (k, mm) sits at row 128·t + k, column mm of the array. -/
theorem flushed_eq (hT : TblOk m) (htok : ∀ j : S8x128.Idx, (m (((0 : Dev nD) : Thread nD τ).loc main_arg0) j).toNat < 32000)
    (c : Dev nD) (t : Fin (cfgM m).N) :
    (dats m hT 0 c).flushed 2 t = (((cfgM m).win 2).blk t).view.read (Elt Ideal) (flat m) := by
  obtain rfl : c = 0 := Subsingleton.elim _ _
  show ((cfgM m).win 2).cut (grid0.coords t) ((dats m hT 0 0).after 2 t) = _
  rw [after0_2]
  obtain ⟨e, -, -, -, -, a20, a21, -⟩ := idx_facts m t
  refine funext fun (y : S128x512.Idx) => ?_
  obtain ⟨k, mm, rfl⟩ : ∃ (k : Fin 128) (mm : Fin 512), y = ix2 k mm := ⟨y 0, y 1, eq_ix2 y⟩
  show (outsAt0 m hT 0 t (ix2 k mm) : EReal) = flat m ((((cfgM m).win 2).blk t).view.emb (ix2 k mm))
  have hk := k.isLt
  have hi : ((grid0.coords t) 0).val < 8 := coord_lt (grid0.coords t)
  unfold outsAt0
  refine (block_entry (0 : Dev nD) (grid0.coords t) (ms0_0 m t) (hs0_0 m t) (ms0_1 m t) (hs0_1 m t) (ms0_2 m t) (hs0_2 m t)
    (iblk m 0 0 t) (iblk m 0 1 t) (tbl m 0) (V m 0 main_arg1) (hT 0) k mm
    (m (((0 : Dev nD) : Thread nD τ).loc main_arg0)) (m (((0 : Dev nD) : Thread nD τ).loc main_arg1))
    (m (((0 : Dev nD) : Thread nD τ).loc main_arg2)) (m (((0 : Dev nD) : Thread nD τ).loc main_arg3))
    (⟨(128 * ((grid0.coords t) 0).val + k.val) / 128, by omega⟩ : Fin 8) (⟨(128 * ((grid0.coords t) 0).val + k.val) % 128, by omega⟩ : Fin 128)
    ?_ (htok _) ?_ ?_ ?_).trans ?_
  · exact (tokWord_eq (0 : Dev nD) (grid0.coords t) (tbl m 0) k).trans
      (tbl_word m (⟨128 * ((grid0.coords t) 0).val + k.val, by omega⟩ : Fin 1024))
  · intro r d
    exact congrFun (V_main_arg1 m 0) (ix2 r d)
  · intro d
    exact weights_block_at m 0 t d mm
  · exact bias_block_at m 0 t mm
  · refine (flat_at m _ _ _ _ ?_ ?_ ?_).symm
    · show (128 * ((grid0.coords t) 0).val + k.val) / 128 = (((cfgM m).win 2).index t (0 : Fin 2) * 128 + 1 * k.val) / 128
      rw [a20, e]; omega
    · show (128 * ((grid0.coords t) 0).val + k.val) % 128 = (((cfgM m).win 2).index t (0 : Fin 2) * 128 + 1 * k.val) % 128
      rw [a20, e]; omega
    · show mm.val = ((cfgM m).win 2).index t (1 : Fin 2) * 512 + 1 * mm.val
      rw [a21]; omega

/-- An index of the array is in point t's block iff each coordinate is in the block's range on its axis. -/
theorem mem_blk (t : Fin (cfgM m).N) (i : S1024x512.Idx) :
    i ∈ (((cfgM m).win 2).blk t).view.set ↔ ∀ a : Fin 2, ((cfgM m).win 2).index t a * S128x512.size a ≤ (i a).val
      ∧ (i a).val < ((cfgM m).win 2).index t a * S128x512.size a + S128x512.size a := by
  exact (Eq.to_iff (congrArg (fun S => i ∈ S) (View.set_slice_whole main_v4 (((cfgM m).win 2).rect t)))).trans Rect.mem_set_unit

/-- The eight blocks tile the array: row r lies in the block of point r / 128, which is written back. -/
theorem covered (i : S1024x512.Idx) :
    ∃ t : Fin (cfgM m).N, ((cfgM m).win 2).flush t = true ∧ i ∈ (((cfgM m).win 2).blk t).view.set := by
  have h0 := flat_lt0 i
  have h1 := flat_lt1 i
  have ht : (i 0).val / 128 < grid0.N := by rw [N_0]; omega
  obtain ⟨-, -, -, -, -, a20, a21, hf⟩ := idx_facts m (⟨(i 0).val / 128, ht⟩ : Fin (cfgM m).N)
  refine ⟨⟨(i 0).val / 128, ht⟩, hf, ?_⟩
  rw [mem_blk]
  intro a
  match a with
  | ⟨0, _⟩ =>
    show ((cfgM m).win 2).index ⟨(i 0).val / 128, ht⟩ (0 : Fin 2) * 128 ≤ (i 0).val
      ∧ (i 0).val < ((cfgM m).win 2).index ⟨(i 0).val / 128, ht⟩ (0 : Fin 2) * 128 + 128
    rw [a20]; show (i 0).val / 128 * 128 ≤ (i 0).val ∧ (i 0).val < (i 0).val / 128 * 128 + 128; omega
  | ⟨1, _⟩ =>
    show ((cfgM m).win 2).index ⟨(i 0).val / 128, ht⟩ (1 : Fin 2) * 512 ≤ (i 1).val
      ∧ (i 1).val < ((cfgM m).win 2).index ⟨(i 0).val / 128, ht⟩ (1 : Fin 2) * 512 + 512
    rw [a21]; omega

/-- After the eight points the result array is `flat`, when every token is below 32000. -/
theorem final (hT : TblOk m) (htok : ∀ j : S8x128.Idx, (m (((0 : Dev nD) : Thread nD τ).loc main_arg0) j).toNat < 32000) (c : Dev nD) :
    (dats m hT 0 c).arrAt 2 (cfgM m).N = flat m :=
  (dats m hT 0 c).arrAt_eq_of_cover 2 (flat m) (fun t _ => flushed_eq m hT htok c t) (covered m)

end Cert.KernelIdeal.Hand

end
-- ==== Proof.KernelIdeal.Value.lean ====
/-
  The idealized kernel's result.

  The region leaves the 1024 × 512 array whose row n is the specification's result for token (n / 128, n mod 128); the
  host line after it reshapes that array, in row-major order, to 8 × 128 × 512: entry (b, s, m) is entry (128·b + s, m).
  So the program ends with its result at the specification's function of its four arguments, which it leaves unchanged.
-/
import proofs.«410898_j66494683677006_3_alg».proof.Proof.Gen.KernelIdeal.Launch
import proofs.«410898_j66494683677006_3_alg».proof.Proof.Gen.KernelIdeal.Skeleton
import proofs.«410898_j66494683677006_3_alg».proof.Proof.KernelIdeal.ArrayValue
import Idealize.ShloMosaic.Lib.StableHlo.Run
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx

variable (m : (ℓ : Loc nD τ sig) → Buf (Elt Ideal) ℓ) (ρ : Dev nD → PrngReg)

/-- The 1024 × 512 array read in row-major order as 8 × 128 × 512: entry (b, s, mm) is entry (128·b + s, mm) of the
    array, and (128·b + s) / 128 = b, (128·b + s) mod 128 = s, so it is the specification's result for token (b, s). -/
theorem reshape_flat (x : S1024x512.Idx → EReal) (hx : x = flat m) :
    shapeCast S8x128x512 x shapeCasts_S1024x512_S8x128x512
      = Cert.Spec.out (m (((0 : Dev nD) : Thread nD τ).loc main_arg0)) (m (((0 : Dev nD) : Thread nD τ).loc main_arg1))
          (m (((0 : Dev nD) : Thread nD τ).loc main_arg2)) (m (((0 : Dev nD) : Thread nD τ).loc main_arg3)) := by
  subst hx
  funext i
  obtain ⟨b, s, mm, rfl⟩ : ∃ (b : Fin 8) (s : Fin 128) (mm : Fin 512), i = ix3 b s mm := ⟨i 0, i 1, i 2, eq_ix3 i⟩
  have hb := b.isLt
  have hs := s.isLt
  have hmm := mm.isLt
  rw [Cert.Spec.out_apply]
  refine (shapeCast_apply (flat m) shapeCasts_S1024x512_S8x128x512 (ix3 b s mm)
    (ix2 (⟨128 * b.val + s.val, by omega⟩ : Fin 1024) mm) ?_).trans ?_
  · rw [Shape.rowMajor_val_two, Shape.rowMajor_val_three]
    show (128 * b.val + s.val) * 512 + mm.val = (b.val * 128 + s.val) * 512 + mm.val
    omega
  · unfold flat
    have e1 : (128 * b.val + s.val) / 128 = b.val := by omega
    have e2 : (128 * b.val + s.val) % 128 = s.val := by omega
    congr 1
    · exact Fin.ext e1
    · exact Fin.ext e2

/-- What the last host line leaves in the result buffer: the region's 1024 × 512 array, which is `flat`, reshaped; that is
    the specification's function of the four arguments. -/
theorem tail_value (htok : ∀ j : S8x128.Idx, (m (((0 : Dev nD) : Thread nD τ).loc main_arg0) j).toNat < 32000) (c : Dev nD) :
    Pipeline.afterTail (pcfgs (F := Ideal)) (fun _ => adm m) (dats m (tblOk_of_tokens m htok)) 0 (V0 m) [hostOps1] c main_v5
      = Cert.Spec.out (m ((c.tc : Thread nD τ).loc main_arg0)) (m ((c.tc : Thread nD τ).loc main_arg1))
          (m ((c.tc : Thread nD τ).loc main_arg2)) (m ((c.tc : Thread nD τ).loc main_arg3)) := by
  obtain rfl : c = 0 := Subsingleton.elim _ _
  unfold Pipeline.afterTail
  show StableHlo.after hostOps1 _ (Proc.devRef .tc main_v5) = _
  after_results
  exact reshape_flat m _ ((Pipeline.withArrays_arr spec0 (launch0 (F := Ideal)).win.arr_inj 0 _ _ 2).trans
    (final m (tblOk_of_tokens m htok) htok 0))

/-- From any memory whose tokens are all below 32000: every weakly fair execution of the idealized kernel's @main terminates
    with the result at the specification's function of the arguments and the arguments unchanged. -/
theorem value (htok : ∀ j : S8x128.Idx, (m (((0 : Dev nD) : Thread nD τ).loc main_arg0) j).toNat < 32000) :
    θ_run defs (onTc (τ := τ) (main (F := Ideal))) ⟨m, fun _ => 0, ρ⟩ (fun r => ∀ c : Dev nD,
      r.2.mem ((c.tc : Thread nD τ).loc main_v5)
          = Cert.Spec.out (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v5 (by decide : main_v5 ∈ Pipeline.restRefs sig spec0)).trans (tail_value m htok c),
      ((h c).2 main_arg0 (by decide : main_arg0 ∈ Pipeline.restRefs sig spec0)).trans
        ((afterTail_keep m (dats m (tblOk_of_tokens m htok)) c main_arg0 (by decide) (by decide)).trans (V_main_arg0 m c)),
      ((h c).2 main_arg1 (by decide : main_arg1 ∈ Pipeline.restRefs sig spec0)).trans
        ((afterTail_keep m (dats m (tblOk_of_tokens m htok)) c main_arg1 (by decide) (by decide)).trans (V_main_arg1 m c)),
      ((h c).2 main_arg2 (by decide : main_arg2 ∈ Pipeline.restRefs sig spec0)).trans
        ((afterTail_keep m (dats m (tblOk_of_tokens m htok)) c main_arg2 (by decide) (by decide)).trans (V_main_arg2 m c)),
      ((h c).2 main_arg3 (by decide : main_arg3 ∈ Pipeline.restRefs sig spec0)).trans
        ((afterTail_keep m (dats m (tblOk_of_tokens m htok)) c main_arg3 (by decide) (by decide)).trans (V_main_arg3 m c))⟩)
    (run_main m ρ (tblOk_of_tokens m htok))

end Cert.KernelIdeal.Hand

end
-- ==== Proof.lean ====
/-
  The claim: an embedding lookup followed by a linear layer, computed by a kernel that gathers the table's rows by its own
  copies, against the reference that builds a one-hot array and contracts it with the table.

  For tokens[b, s] in [0, 32000) both compute, over the extended reals,

      out[b, s, m] = (∑ d < 300, table[tokens[b, s], d] · w[m, d]) + bias[m].

  The kernel reads 128 token words per grid point, copies the rows they name into a scratch (each row inside the table
  because the precondition bounds every token), and multiplies the gathered rows with the transposed weights; its two
  roundings to a narrower float format are the identity over the extended reals. The reference's contraction of the one-hot
  array with the table keeps the one term at the token's row, a product with 0 being 0 on the extended reals. The three
  frames: the two kernel programs run to the end through the pipeline's frame with the body's own copies (the same text at
  both instances), the reference by its run. The idealization rewrote nothing, so what it preserves is trivial.
-/
import proofs.«410898_j66494683677006_3_alg».proof.Defs
import proofs.«410898_j66494683677006_3_alg».proof.Proof.Gen.Kernel
import proofs.«410898_j66494683677006_3_alg».proof.Proof.Gen.Kernel.Skeleton
import proofs.«410898_j66494683677006_3_alg».proof.Proof.Gen.Kernel.Launch
import proofs.«410898_j66494683677006_3_alg».proof.Proof.Gen.Kernel.Flash
import proofs.«410898_j66494683677006_3_alg».proof.Proof.Gen.KernelIdeal
import proofs.«410898_j66494683677006_3_alg».proof.Proof.Gen.KernelIdeal.Skeleton
import proofs.«410898_j66494683677006_3_alg».proof.Proof.Gen.KernelIdeal.Launch
import proofs.«410898_j66494683677006_3_alg».proof.Proof.Gen.KernelIdeal.Flash
import proofs.«410898_j66494683677006_3_alg».proof.Proof.Gen.ReferenceIdeal
import proofs.«410898_j66494683677006_3_alg».proof.Proof.Gen.Pre_finite_inputs
import proofs.«410898_j66494683677006_3_alg».proof.Proof.Gen.ReferenceIdeal.Run
import proofs.«410898_j66494683677006_3_alg».proof.Proof.Gen.ReferenceIdeal.Read
import proofs.«410898_j66494683677006_3_alg».proof.Proof.Spec
import proofs.«410898_j66494683677006_3_alg».proof.Proof.TokensInRange
import proofs.«410898_j66494683677006_3_alg».proof.Proof.RefValue
import proofs.«410898_j66494683677006_3_alg».proof.Proof.Kernel.Frame
import proofs.«410898_j66494683677006_3_alg».proof.Proof.KernelIdeal.Frame
import proofs.«410898_j66494683677006_3_alg».proof.Proof.KernelIdeal.Value
import Idealize.ShloMosaic.Adequacy
import Idealize.ShloMosaic.Init

noncomputable section

namespace Cert.Proof

open Idealize.ShloMosaic Idealize.ShloMosaic.TcCoe Idealize.SL.Sem

/-- The word-level kernel runs and leaves its arguments unchanged: under the precondition every token names a row of the
    table, which is what its frame takes. -/
theorem frame_k : Cert.frame_Kernel := fun m ρ h =>
  Cert.Kernel.Hand.frame m ρ (Cert.Kernel.Hand.tblOk_of_tokens m (Cert.TokensInRange.tokens_lt _ _ _ _ (h 0)))

/-- The idealized kernel likewise. -/
theorem frame_ki : Cert.frame_KernelIdeal := fun m ρ h =>
  Cert.KernelIdeal.Hand.frame m ρ (Cert.KernelIdeal.Hand.tblOk_of_tokens m (Cert.TokensInRange.tokens_lt _ _ _ _ (h 0)))

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals both programs end at the specification's function of the arguments: the kernel by its value
    theorem, the reference by its run read as that function; the arguments agree, and every token is below 32000. -/
theorem algebraic : Cert.algebraic_KernelIdeal_ReferenceIdeal := by
  intro m ρ m' ρ' hpre hagree
  have htok := Cert.TokensInRange.tokens_lt _ _ _ _ (hpre 0)
  refine ⟨_, Cert.KernelIdeal.Hand.value m ρ htok, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, (hagree c).1, (hagree c).2.1, (hagree c).2.2.1, (hagree c).2.2.2]
  obtain rfl : c = 0 := Subsingleton.elim _ _
  exact Cert.RefValue.result_eq _ _ _ _ htok

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
